-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.truncf_extf.Statement Cert.KernelIdeal.S4000x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v57)) (v1 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_v57) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S100000 : Shape := ⟨1, ![100000]⟩
abbrev S1600000 : Shape := ⟨1, ![1600000]⟩
abbrev S256 : Shape := ⟨1, ![256]⟩
abbrev S256x128 : Shape := ⟨2, ![256, 128]⟩
abbrev S128 : Shape := ⟨1, ![128]⟩
abbrev S_ : Shape := ⟨0, ![]⟩
abbrev S1x1600000 : Shape := ⟨2, ![1, 1600000]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  slices_S2x1600000_S1x1600000_1_0 : S2x1600000.Slices ![1, 0] S1x1600000
  shapeCasts_S1x1600000_S1600000 : S1x1600000.ShapeCasts S1600000

variable [Facts]

def fn_part2 {F : FTy → Type} [FloatOps F] (main_v28 : IVec S_ 1) (main_v33 : IVec S_ 1) : IVec S_ 1 :=
  let main_v34 : IVec S_ 1 := andi main_v28 main_v33
  main_v34

def fn_part1 {F : FTy → Type} [FloatOps F] (main_arg1 : IVec S2x1600000 32) (main_arg6 : FVec F S256x128 .f32) (main_arg7 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg6
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : IVec S1x1600000 32 := (extractStridedSlice S1x1600000 ![1, 0] · slices_S2x1600000_S1x1600000_1_0) main_arg1
  let main_v30 : IVec S1600000 32 := shapeCast S1600000 main_v29 shapeCasts_S1x1600000_S1600000
  let main_c_10 : IVec S_ 32 := constantI S_ 32 0#32
  let main_v31 : IVec S1600000 32 := broadcastInDim S1600000 ![] bcast_S_S1600000 main_c_10
  let main_v32 : IVec S1600000 1 := cmpi .sge main_v30 main_v31
  let main_c_11 : IVec S_ 1 := constantI S_ 1 1#1
  let main_v33 : IVec S_ 1 := (fun x v => Host.reduce IntOp.andi x v reducesTo_S1600000_S_d0 h_S_) main_v32 main_c_11
  fn_part2 (F := F) main_v28 main_v33

def fn {F : FTy → Type} [FloatOps F] (main_arg0 : FVec F S100000x256 .f32) (main_arg1 : IVec S2x1600000 32) (main_arg2 : IVec S100000 32) (main_arg3 : FVec F S1600000 .f32) (main_arg4 : FVec F S256 .f32) (main_arg5 : FVec F S256 .f32) (main_arg6 : FVec F S256x128 .f32) (main_arg7 : FVec F S128 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_arg6 main_arg7 main_v13 main_v16
-- ==== Kernel.lean ====
abbrev S100000x256 : Shape := ⟨2, ![100000, 256]⟩
abbrev S2x1600000 : Shape := ⟨2, ![2, 1600000]⟩
abbrev S100000 : Shape := ⟨1, ![100000]⟩
abbrev S1600000 : Shape := ⟨1, ![1600000]⟩
abbrev S256 : Shape := ⟨1, ![256]⟩
abbrev S256x128 : Shape := ⟨2, ![256, 128]⟩
abbrev S128 : Shape := ⟨1, ![128]⟩
abbrev S1x256 : Shape := ⟨2, ![1, 256]⟩
abbrev S4000x256 : Shape := ⟨2, ![4000, 256]⟩
abbrev S_ : Shape := ⟨0, ![]⟩
abbrev S1x1600000 : Shape := ⟨2, ![1, 1600000]⟩
abbrev S1600000x1 : Shape := ⟨2, ![1600000, 1]⟩
abbrev S100000x1 : Shape := ⟨2, ![100000, 1]⟩
abbrev S100000x128 : Shape := ⟨2, ![100000, 128]⟩
abbrev S4000x1 : Shape := ⟨2, ![4000, 1]⟩
abbrev S4000x128 : Shape := ⟨2, ![4000, 128]⟩
abbrev S1600000x128 : Shape := ⟨2, ![1600000, 128]⟩
abbrev S64 : Shape := ⟨1, ![64]⟩
abbrev S64x1 : Shape := ⟨2, ![64, 1]⟩
abbrev S1x128 : Shape := ⟨2, ![1, 128]⟩
abbrev S25x1x4000 : Shape := ⟨3, ![25, 1, 4000]⟩
abbrev S64x128 : Shape := ⟨2, ![64, 128]⟩
abbrev S1x1x4000 : Shape := ⟨3, ![1, 1, 4000]⟩
abbrev S1x4000 : Shape := ⟨2, ![1, 4000]⟩
abbrev S64x4000 : Shape := ⟨2, ![64, 4000]⟩

abbrev nBuf : Space → Nat
  | .hbm => 83
  | .vmem => 25
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S100000, .i32⟩
  | .hbm, ⟨3, _⟩ => ⟨S1600000, .f32⟩
  | .hbm, ⟨4, _⟩ => ⟨S256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S1x256, .f32⟩
  | .hbm, ⟨9, _⟩ => ⟨S1x256, .f32⟩
  | .hbm, ⟨10, _⟩ => ⟨S_, .f32⟩
  | .hbm, ⟨11, _⟩ => ⟨S1x256, .f32⟩
  | .hbm, ⟨12, _⟩ => ⟨S1x256, .f32⟩
  | .hbm, ⟨13, _⟩ => ⟨S_, .f32⟩
  | .hbm, ⟨14, _⟩ => ⟨S1x256, .f32⟩
  | .hbm, ⟨15, _⟩ => ⟨S1x256, .f32⟩
  | .hbm, ⟨16, _⟩ => ⟨S1x256, .f32⟩
  | .hbm, ⟨17, _⟩ => ⟨S1x256, .f32⟩
  | .hbm, ⟨18, _⟩ => ⟨S_, .f32⟩
  | .hbm, ⟨19, _⟩ => ⟨S1x256, .f32⟩
  | .hbm, ⟨20, _⟩ => ⟨S1x256, .f32⟩
  | .hbm, ⟨21, _⟩ => ⟨S1x256, .f32⟩
  | .hbm, ⟨22, _⟩ => ⟨S1x256, .f32⟩
  | .hbm, ⟨23, _⟩ => ⟨S1x256, .f32⟩
  | .hbm, ⟨24, _⟩ => ⟨S1x256, .f32⟩
  | .hbm, ⟨25, _⟩ => ⟨S1x256, .f32⟩
  | .hbm, ⟨26, _⟩ => ⟨S1x256, .f32⟩
  | .hbm, ⟨27, _⟩ => ⟨S1x1600000, .i32⟩
  | .hbm, ⟨28, _⟩ => ⟨S1600000, .i32⟩
  | .hbm, ⟨29, _⟩ => ⟨S1x1600000, .i32⟩
  | .hbm, ⟨30, _⟩ => ⟨S1600000, .i32⟩
  | .hbm, ⟨31, _⟩ => ⟨S_, .f32⟩
  | .hbm, ⟨32, _⟩ => ⟨S1600000, .f32⟩
  | .hbm, ⟨33, _⟩ => ⟨S_, .f32⟩
  | .hbm, ⟨34, _⟩ => ⟨S100000, .f32⟩
  | .hbm, ⟨35, _⟩ => ⟨S1600000x1, .i32⟩
  | .hbm, ⟨36, _⟩ => ⟨S100000, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S_, .f32⟩
  | .hbm, ⟨41, _⟩ => ⟨S100000, .f32⟩
  | .hbm, ⟨42, _⟩ => ⟨S100000, .f32⟩
  | .hbm, ⟨43, _⟩ => ⟨S100000, .f32⟩
  | .hbm, ⟨44, _⟩ => ⟨S100000x1, .f32⟩
  | .hbm, ⟨45, _⟩ => ⟨S256x128, .bf16⟩
  | .hbm, ⟨46, _⟩ => ⟨S100000x128, .f32⟩
  | .hbm, ⟨47, _⟩ => ⟨S100000x128, .bf16⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .bf16⟩
  | .hbm, ⟨57, _⟩ => ⟨S1600000x128, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S100000x128, .f32⟩
  | .hbm, ⟨67, _⟩ => ⟨S_, .f32⟩
  | .hbm, ⟨68, _⟩ => ⟨S100000, .f32⟩
  | .hbm, ⟨69, _⟩ => ⟨S_, .f32⟩
  | .hbm, ⟨70, _⟩ => ⟨S64, .f32⟩
  | .hbm, ⟨71, _⟩ => ⟨S100000x1, .i32⟩
  | .hbm, ⟨72, _⟩ => ⟨S64, .f32⟩
  | .hbm, ⟨73, _⟩ => ⟨S_, .f32⟩
  | .hbm, ⟨74, _⟩ => ⟨S64, .f32⟩
  | .hbm, ⟨75, _⟩ => ⟨S64, .f32⟩
  | .hbm, ⟨76, _⟩ => ⟨S_, .f32⟩
  | .hbm, ⟨77, _⟩ => ⟨S64, .f32⟩
  | .hbm, ⟨78, _⟩ => ⟨S64, .f32⟩
  | .hbm, ⟨79, _⟩ => ⟨S64x1, .f32⟩
  | .hbm, ⟨80, _⟩ => ⟨S1x128, .f32⟩
  | .hbm, ⟨81, _⟩ => ⟨S25x1x4000, .i32⟩
  | .hbm, ⟨82, _⟩ => ⟨S64x128, .f32⟩
  | .local _ .vmem, ⟨0, _⟩ => ⟨S4000x256, .f32⟩
  | .local _ .vmem, ⟨1, _⟩ => ⟨S4000x256, .f32⟩
  | .local _ .vmem, ⟨2, _⟩ => ⟨S1x256, .f32⟩
  | .local _ .vmem, ⟨3, _⟩ => ⟨S1x256, .f32⟩
  | .local _ .vmem, ⟨4, _⟩ => ⟨S4000x256, .f32⟩
  | .local _ .vmem, ⟨5, _⟩ => ⟨S4000x256, .f32⟩
  | .local _ .vmem, ⟨6, _⟩ => ⟨S1x256, .f32⟩
  | .local _ .vmem, ⟨7, _⟩ => ⟨S1x256, .f32⟩
  | .local _ .vmem, ⟨8, _⟩ => ⟨S256x128, .bf16⟩
  | .local _ .vmem, ⟨9, _⟩ => ⟨S4000x1, .f32⟩
  | .local _ .vmem, ⟨10, _⟩ => ⟨S4000x1, .f32⟩
  | .local _ .vmem, ⟨11, _⟩ => ⟨S4000x128, .f32⟩
  | .local _ .vmem, ⟨12, _⟩ => ⟨S4000x128, .f32⟩
  | .local _ .vmem, ⟨13, _⟩ => ⟨S4000x128, .bf16⟩
  | .local _ .vmem, ⟨14, _⟩ => ⟨S4000x128, .bf16⟩
  | .local _ .vmem, ⟨15, _⟩ => ⟨S4000x128, .f32⟩
  | .local _ .vmem, ⟨16, _⟩ => ⟨S4000x128, .f32⟩
  | .local _ .vmem, ⟨17, _⟩ => ⟨S4000x1, .f32⟩
  | .local _ .vmem, ⟨18, _⟩ => ⟨S4000x1, .f32⟩
  | .local _ .vmem, ⟨19, _⟩ => ⟨S1x128, .f32⟩
  | .local _ .vmem, ⟨20, _⟩ => ⟨S1x1x4000, .i32⟩
  | .local _ .vmem, ⟨21, _⟩ => ⟨S1x1x4000, .i32⟩
  | .local _ .vmem, ⟨22, _⟩ => ⟨S64x1, .f32⟩
  | .local _ .vmem, ⟨23, _⟩ => ⟨S64x128, .f32⟩
  | .local _ .vmem, ⟨24, _⟩ => ⟨S64x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30_0 : Ref sig .tc := ⟨.hbm, 46, rfl⟩
abbrev main_v30_1 : Ref sig .tc := ⟨.hbm, 47, rfl⟩
abbrev main_c : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_7 : Ref sig .tc := ⟨.hbm, 58, rfl⟩
abbrev main_v39 : Ref sig .tc := ⟨.hbm, 59, rfl⟩
abbrev main_v40 : Ref sig .tc := ⟨.hbm, 60, rfl⟩
abbrev main_c_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_cst_10 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_11 : Ref sig .tc := ⟨.hbm, 73, rfl⟩
abbrev main_v50 : Ref sig .tc := ⟨.hbm, 74, rfl⟩
abbrev main_v51 : Ref sig .tc := ⟨.hbm, 75, rfl⟩
abbrev main_cst_12 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg4_1 : Ref sig .tc := ⟨.vmem, 10, rfl⟩
abbrev cc1_stg5_0 : Ref sig .tc := ⟨.vmem, 11, rfl⟩
abbrev cc1_stg5_1 : Ref sig .tc := ⟨.vmem, 12, rfl⟩
abbrev cc1_stg6_0 : Ref sig .tc := ⟨.vmem, 13, rfl⟩
abbrev cc1_stg6_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg5_0 : Ref sig .tc := ⟨.vmem, 23, rfl⟩
abbrev cc2_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem4_1 : DmaSem sig := 10
abbrev cc1_sem5_0 : DmaSem sig := 11
abbrev cc1_sem5_1 : DmaSem sig := 12
abbrev cc1_sem6_0 : DmaSem sig := 13
abbrev cc1_sem6_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem5_0 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4000x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def k2_cond2 (i : grid2.Coords) : BitVec 1 :=
  let arg0 : BitVec 32 := BitVec.ofNat 32 (i 0).val
  let c24_i32 : BitVec 32 := 24#32
  let v36 : BitVec 1 := Scalar.cmpi .eq arg0 c24_i32
  let v37 : BitVec 32 := Scalar.extui v36
  let c0_i32_15 : BitVec 32 := 0#32
  let v38 : BitVec 1 := Scalar.cmpi .ne v37 c0_i32_15
  v38

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1x1x4000 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S64x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

class Facts₀ : Prop where
  inb_S1x256_S1x256_0_0 : ∀ a, (![0, 0] : Fin 2 → Nat) a + S1x256.size a ≤ S1x256.size a
  h_S1x256 : 0 < S1x256.numel
  inb_S4000x256_S4000x256_0_0 : ∀ a, (![0, 0] : Fin 2 → Nat) a + S4000x256.size a ≤ S4000x256.size a
  h_S4000x256 : 0 < S4000x256.numel
  shapeCasts_S1x256_S1x256 : S1x256.ShapeCasts S1x256
  reduces_S4000x256_S256 : S4000x256.Reduces [0] S256
  shapeCasts_S256_S1x256 : S256.ShapeCasts S1x256
  bcast_S_S1x256 : S_.BroadcastsInDim S1x256 (![] : Fin 0 → Fin S1x256.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bitsLt_bf16_f32 : FTy.bits .bf16 < FTy.bits .f32
  broadcasts_S1x256_S4000x256 : S1x256.Broadcasts S4000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S4000x128_S4000x128_0_0 : ∀ a, (![0, 0] : Fin 2 → Nat) a + S4000x128.size a ≤ S4000x128.size a
  h_S4000x128 : 0 < S4000x128.numel
  packedbf16_S4000x128_S4000x128_0_0 : (Rect.unit (s := S4000x128) ![0, 0] S4000x128.size inb_S4000x128_S4000x128_0_0).PackedRows (EltTy.packing .bf16)
  bcast_S_S64 : S_.BroadcastsInDim S64 (![] : Fin 0 → Fin S64.rank)
  bcast_S100000_S100000x1_0 : S100000.BroadcastsInDim S100000x1 (![0] : Fin 1 → Fin S100000x1.rank)
  shapeCasts_S64_S64x1 : S64.ShapeCasts S64x1
  shapeCasts_S128_S1x128 : S128.ShapeCasts S1x128
  shapeCasts_S100000_S25x1x4000 : S100000.ShapeCasts S25x1x4000
  inb_S64x128_S64x128_0_0 : ∀ a, (![0, 0] : Fin 2 → Nat) a + S64x128.size a ≤ S64x128.size a
  h_S64x128 : 0 < S64x128.numel
  shapeCasts_S64x128_S64x128 : S64x128.ShapeCasts S64x128
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S1x1x4000_S1x1x4000_0_0_0 : ∀ a, (![0, 0, 0] : Fin 3 → Nat) a + S1x1x4000.size a ≤ S1x1x4000.size a
  h_S1x1x4000 : 0 < S1x1x4000.numel
  shapeCasts_S1x1x4000_S1x4000 : S1x1x4000.ShapeCasts S1x4000
  iota_S64x4000_d0_w32 : S64x4000.Iotas .tc 32 [0]
  shapeCasts_S1x4000_S1x4000 : S1x4000.ShapeCasts S1x4000
  broadcasts_S1x4000_S64x4000 : S1x4000.Broadcasts S64x4000
  natLt_1_32 : 1 < 32
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x128 : S64x1.Broadcasts S64x128
  scatter_S100000_S1600000x1_S1600000_n_0_0_1_wf : ScatterDims.WF S100000 S1600000x1 S1600000 [] [0] [0] 1
  dot_S4000x256_S256x128_S4000x128_1_0_0_1_n_n_wf : DotDims.WF S4000x256 S256x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S64_S100000x1_S100000_n_0_0_1_wf : ScatterDims.WF S64 S100000x1 S100000 [] [0] [0] 1
  dot_S64x4000_S4000x128_S64x128_1_0_0_1_n_n_wf : DotDims.WF S64x4000 S4000x128 S64x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x256.size a
  hwx0_1 : ∀ i : grid0.Coords, EltTy.bits .f32 = 32 ∨ (Rect.block (s := S1x256) S1x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x256.size a ≤ S100000x256.size a
  hwx1_0 : ∀ i : grid1.Coords, EltTy.bits .f32 = 32 ∨ (Rect.block (s := S100000x256) S4000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .bf16 = 32 ∨ (Rect.block (s := S256x128) S256x128.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x1.size a ≤ S100000x1.size a
  hwx1_4 : ∀ i : grid1.Coords, EltTy.bits .f32 = 32 ∨ (Rect.block (s := S100000x1) S4000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S100000x128.size a
  hwx1_5 : ∀ i : grid1.Coords, EltTy.bits .f32 = 32 ∨ (Rect.block (s := S100000x128) S4000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S100000x128.size a
  hwx1_6 : ∀ i : grid1.Coords, EltTy.bits .bf16 = 32 ∨ (Rect.block (s := S100000x128) S4000x128.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1x4000.size a ≤ S25x1x4000.size a
  hwx2_3 : ∀ i : grid2.Coords, EltTy.bits .i32 = 32 ∨ (Rect.block (s := S25x1x4000) S1x1x4000.size (cc2_transform_3 i) (hinb2_3 i)).WholeWords (EltTy.packing .i32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x1.size a ≤ S64x1.size a
  hwx2_4 : ∀ i : grid2.Coords, EltTy.bits .f32 = 32 ∨ (Rect.block (s := S64x1) S64x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x128.size a ≤ S64x128.size a
  hwx2_5 : ∀ i : grid2.Coords, EltTy.bits .f32 = 32 ∨ (Rect.block (s := S64x128) S64x128.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x4000_S4000x128_S64x128_1_0_0_1_n_n : DotDims S64x4000 S4000x128 S64x128 where
  lhsContracting := [1]
  rhsContracting := [0]
  lhsNonContracting := [0]
  rhsNonContracting := [1]
  lhsBatch := []
  rhsBatch := []
  wf := dot_S64x4000_S4000x128_S64x128_1_0_0_1_n_n_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x256.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x256.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S4000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S4000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v30_0) S4000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v30_1) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v45) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v55) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v56) S1x1x4000.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v54) S64x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S64x128.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

class Facts : Prop extends Facts₀ where

variable [Facts]
-- ==== ReferenceIdeal.lean ====
abbrev S100000x256 : Shape := ⟨2, ![100000, 256]⟩
abbrev S2x1600000 : Shape := ⟨2, ![2, 1600000]⟩
abbrev S100000 : Shape := ⟨1, ![100000]⟩
abbrev S1600000 : Shape := ⟨1, ![1600000]⟩
abbrev S256 : Shape := ⟨1, ![256]⟩
abbrev S256x128 : Shape := ⟨2, ![256, 128]⟩
abbrev S128 : Shape := ⟨1, ![128]⟩
abbrev S_ : Shape := ⟨0, ![]⟩
abbrev S1x256 : Shape := ⟨2, ![1, 256]⟩
abbrev S100000x128 : Shape := ⟨2, ![100000, 128]⟩
abbrev S1x1600000 : Shape := ⟨2, ![1, 1600000]⟩
abbrev S1700000 : Shape := ⟨1, ![1700000]⟩
abbrev S1700000x1 : Shape := ⟨2, ![1700000, 1]⟩
abbrev S1700000x128 : Shape := ⟨2, ![1700000, 128]⟩
abbrev S1x128 : Shape := ⟨2, ![1, 128]⟩
abbrev S64x128 : Shape := ⟨2, ![64, 128]⟩
abbrev S100000x1 : Shape := ⟨2, ![100000, 1]⟩
abbrev S64 : Shape := ⟨1, ![64]⟩
abbrev S64x1 : Shape := ⟨2, ![64, 1]⟩

abbrev nBuf : Space → Nat
  | .hbm => 127
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S100000, .i32⟩
  | .hbm, ⟨3, _⟩ => ⟨S1600000, .f32⟩
  | .hbm, ⟨4, _⟩ => ⟨S256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S_, .f32⟩
  | .hbm, ⟨9, _⟩ => ⟨S256, .f32⟩
  | .hbm, ⟨10, _⟩ => ⟨S_, .f32⟩
  | .hbm, ⟨11, _⟩ => ⟨S256, .f32⟩
  | .hbm, ⟨12, _⟩ => ⟨S256, .f32⟩
  | .hbm, ⟨13, _⟩ => ⟨S_, .i32⟩
  | .hbm, ⟨14, _⟩ => ⟨S_, .f32⟩
  | .hbm, ⟨15, _⟩ => ⟨S256, .f32⟩
  | .hbm, ⟨16, _⟩ => ⟨S1x256, .f32⟩
  | .hbm, ⟨17, _⟩ => ⟨S_, .f32⟩
  | .hbm, ⟨18, _⟩ => ⟨S1x256, .f32⟩
  | .hbm, ⟨19, _⟩ => ⟨S1x256, .f32⟩
  | .hbm, ⟨20, _⟩ => ⟨S100000x256, .f32⟩
  | .hbm, ⟨21, _⟩ => ⟨S100000x256, .f32⟩
  | .hbm, ⟨22, _⟩ => ⟨S100000x256, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S256, .f32⟩
  | .hbm, ⟨28, _⟩ => ⟨S256, .f32⟩
  | .hbm, ⟨29, _⟩ => ⟨S256, .f32⟩
  | .hbm, ⟨30, _⟩ => ⟨S_, .f32⟩
  | .hbm, ⟨31, _⟩ => ⟨S_, .i1⟩
  | .hbm, ⟨32, _⟩ => ⟨S_, .f32⟩
  | .hbm, ⟨33, _⟩ => ⟨S_, .f32⟩
  | .hbm, ⟨34, _⟩ => ⟨S256, .f32⟩
  | .hbm, ⟨35, _⟩ => ⟨S256, .f32⟩
  | .hbm, ⟨36, _⟩ => ⟨S1x256, .f32⟩
  | .hbm, ⟨37, _⟩ => ⟨S100000x256, .f32⟩
  | .hbm, ⟨38, _⟩ => ⟨S100000x256, .f32⟩
  | .hbm, ⟨39, _⟩ => ⟨S_, .f32⟩
  | .hbm, ⟨40, _⟩ => ⟨S256, .f32⟩
  | .hbm, ⟨41, _⟩ => ⟨S256, .f32⟩
  | .hbm, ⟨42, _⟩ => ⟨S256, .f32⟩
  | .hbm, ⟨43, _⟩ => ⟨S1x256, .f32⟩
  | .hbm, ⟨44, _⟩ => ⟨S100000x256, .f32⟩
  | .hbm, ⟨45, _⟩ => ⟨S100000x256, .f32⟩
  | .hbm, ⟨46, _⟩ => ⟨S1x256, .f32⟩
  | .hbm, ⟨47, _⟩ => ⟨S100000x256, .f32⟩
  | .hbm, ⟨48, _⟩ => ⟨S100000x256, .f32⟩
  | .hbm, ⟨49, _⟩ => ⟨S1x256, .f32⟩
  | .hbm, ⟨50, _⟩ => ⟨S100000x256, .f32⟩
  | .hbm, ⟨51, _⟩ => ⟨S100000x256, .f32⟩
  | .hbm, ⟨52, _⟩ => ⟨S100000x128, .f32⟩
  | .hbm, ⟨53, _⟩ => ⟨S1x1600000, .i32⟩
  | .hbm, ⟨54, _⟩ => ⟨S1600000, .i32⟩
  | .hbm, ⟨55, _⟩ => ⟨S1x1600000, .i32⟩
  | .hbm, ⟨56, _⟩ => ⟨S1600000, .i32⟩
  | .hbm, ⟨57, _⟩ => ⟨S100000, .i32⟩
  | .hbm, ⟨58, _⟩ => ⟨S1700000, .i32⟩
  | .hbm, ⟨59, _⟩ => ⟨S1700000, .i32⟩
  | .hbm, ⟨60, _⟩ => ⟨S_, .f32⟩
  | .hbm, ⟨61, _⟩ => ⟨S1700000, .f32⟩
  | .hbm, ⟨62, _⟩ => ⟨S_, .f32⟩
  | .hbm, ⟨63, _⟩ => ⟨S100000, .f32⟩
  | .hbm, ⟨64, _⟩ => ⟨S1700000x1, .i32⟩
  | .hbm, ⟨65, _⟩ => ⟨S100000, .f32⟩
  | .hbm, ⟨66, _⟩ => ⟨S_, .f32⟩
  | .hbm, ⟨67, _⟩ => ⟨S100000, .f32⟩
  | .hbm, ⟨68, _⟩ => ⟨S100000, .f32⟩
  | .hbm, ⟨69, _⟩ => ⟨S100000, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000, .f32⟩
  | .hbm, ⟨79, _⟩ => ⟨S_, .i32⟩
  | .hbm, ⟨80, _⟩ => ⟨S1700000, .i32⟩
  | .hbm, ⟨81, _⟩ => ⟨S1700000, .i1⟩
  | .hbm, ⟨82, _⟩ => ⟨S_, .i32⟩
  | .hbm, ⟨83, _⟩ => ⟨S1700000, .i32⟩
  | .hbm, ⟨84, _⟩ => ⟨S1700000, .i32⟩
  | .hbm, ⟨85, _⟩ => ⟨S1700000, .i32⟩
  | .hbm, ⟨86, _⟩ => ⟨S1700000x1, .i32⟩
  | .hbm, ⟨87, _⟩ => ⟨S1700000, .f32⟩
  | .hbm, ⟨88, _⟩ => ⟨S1700000, .f32⟩
  | .hbm, ⟨89, _⟩ => ⟨S_, .i32⟩
  | .hbm, ⟨90, _⟩ => ⟨S1700000, .i32⟩
  | .hbm, ⟨91, _⟩ => ⟨S1700000, .i1⟩
  | .hbm, ⟨92, _⟩ => ⟨S_, .i32⟩
  | .hbm, ⟨93, _⟩ => ⟨S1700000, .i32⟩
  | .hbm, ⟨94, _⟩ => ⟨S1700000, .i32⟩
  | .hbm, ⟨95, _⟩ => ⟨S1700000, .i32⟩
  | .hbm, ⟨96, _⟩ => ⟨S1700000x1, .i32⟩
  | .hbm, ⟨97, _⟩ => ⟨S1700000x128, .f32⟩
  | .hbm, ⟨98, _⟩ => ⟨S1700000x1, .f32⟩
  | .hbm, ⟨99, _⟩ => ⟨S1700000x128, .f32⟩
  | .hbm, ⟨100, _⟩ => ⟨S1700000x128, .f32⟩
  | .hbm, ⟨101, _⟩ => ⟨S_, .f32⟩
  | .hbm, ⟨102, _⟩ => ⟨S100000x128, .f32⟩
  | .hbm, ⟨103, _⟩ => ⟨S1700000x1, .i32⟩
  | .hbm, ⟨104, _⟩ => ⟨S100000x128, .f32⟩
  | .hbm, ⟨105, _⟩ => ⟨S1x128, .f32⟩
  | .hbm, ⟨106, _⟩ => ⟨S100000x128, .f32⟩
  | .hbm, ⟨107, _⟩ => ⟨S100000x128, .f32⟩
  | .hbm, ⟨108, _⟩ => ⟨S_, .f32⟩
  | .hbm, ⟨109, _⟩ => ⟨S100000x128, .f32⟩
  | .hbm, ⟨110, _⟩ => ⟨S100000x128, .f32⟩
  | .hbm, ⟨111, _⟩ => ⟨S_, .f32⟩
  | .hbm, ⟨112, _⟩ => ⟨S64x128, .f32⟩
  | .hbm, ⟨113, _⟩ => ⟨S100000x1, .i32⟩
  | .hbm, ⟨114, _⟩ => ⟨S64x128, .f32⟩
  | .hbm, ⟨115, _⟩ => ⟨S_, .f32⟩
  | .hbm, ⟨116, _⟩ => ⟨S100000, .f32⟩
  | .hbm, ⟨117, _⟩ => ⟨S_, .f32⟩
  | .hbm, ⟨118, _⟩ => ⟨S64, .f32⟩
  | .hbm, ⟨119, _⟩ => ⟨S100000x1, .i32⟩
  | .hbm, ⟨120, _⟩ => ⟨S64, .f32⟩
  | .hbm, ⟨121, _⟩ => ⟨S_, .f32⟩
  | .hbm, ⟨122, _⟩ => ⟨S64, .f32⟩
  | .hbm, ⟨123, _⟩ => ⟨S64, .f32⟩
  | .hbm, ⟨124, _⟩ => ⟨S64x1, .f32⟩
  | .hbm, ⟨125, _⟩ => ⟨S64x128, .f32⟩
  | .hbm, ⟨126, _⟩ => ⟨S64x128, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_cst_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_cst_1 : Ref sig .tc := ⟨.hbm, 24, rfl⟩
abbrev main_call0_v8 : Ref sig .tc := ⟨.hbm, 25, rfl⟩
abbrev main_call0_cst_2 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_cst_3 : Ref sig .tc := ⟨.hbm, 30, rfl⟩
abbrev main_call0_v12 : Ref sig .tc := ⟨.hbm, 31, rfl⟩
abbrev main_call0_cst_4 : Ref sig .tc := ⟨.hbm, 32, rfl⟩
abbrev main_call0_call0_v0 : Ref sig .tc := ⟨.hbm, 33, rfl⟩
abbrev main_call0_call0_v1 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_cst_1 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_cst_2 : Ref sig .tc := ⟨.hbm, 60, rfl⟩
abbrev main_v27 : Ref sig .tc := ⟨.hbm, 61, rfl⟩
abbrev main_cst_3 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_cst_4 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_c_5 : Ref sig .tc := ⟨.hbm, 70, rfl⟩
abbrev main_v34 : Ref sig .tc := ⟨.hbm, 71, rfl⟩
abbrev main_v35 : Ref sig .tc := ⟨.hbm, 72, rfl⟩
abbrev main_c_6 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_c_7 : Ref sig .tc := ⟨.hbm, 79, rfl⟩
abbrev main_v41 : Ref sig .tc := ⟨.hbm, 80, rfl⟩
abbrev main_v42 : Ref sig .tc := ⟨.hbm, 81, rfl⟩
abbrev main_c_8 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_c_9 : Ref sig .tc := ⟨.hbm, 89, rfl⟩
abbrev main_v49 : Ref sig .tc := ⟨.hbm, 90, rfl⟩
abbrev main_v50 : Ref sig .tc := ⟨.hbm, 91, rfl⟩
abbrev main_c_10 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_cst_11 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_call1_cst : Ref sig .tc := ⟨.hbm, 108, rfl⟩
abbrev main_call1_v0 : Ref sig .tc := ⟨.hbm, 109, rfl⟩
abbrev main_v65 : Ref sig .tc := ⟨.hbm, 110, rfl⟩
abbrev main_cst_12 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_cst_13 : Ref sig .tc := ⟨.hbm, 115, rfl⟩
abbrev main_v69 : Ref sig .tc := ⟨.hbm, 116, rfl⟩
abbrev main_cst_14 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_cst_15 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩

abbrev nD : Nat := 1
abbrev τ : Topo := Topo.v7x

variable {F : FTy → Type} [FloatOps F]

class Facts₀ : Prop where
  reducesTo_S100000x256_S256_d0 : S100000x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S_S1x256 : S_.BroadcastsInDim S1x256 (![] : Fin 0 → Fin S1x256.rank)
  bcast_S1x256_S100000x256_0_1 : S1x256.BroadcastsInDim S100000x256 (![0, 1] : Fin 2 → Fin S100000x256.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64x128 : S_.BroadcastsInDim S64x128 (![] : Fin 0 → Fin S64x128.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  dot_S100000x256_S256x128_S100000x128_1_0_0_1_n_n_wf : DotDims.WF S100000x256 S256x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

class Facts : Prop extends Facts₀ where

variable [Facts]
-- ==== Proof.KI.Reg0.lean ====
import proofs.«407895_j63728724738088_3_alg».proof.Proof.Gen.KernelIdeal.Launch
import proofs.«407895_j63728724738088_3_alg».proof.Proof.Gen.KernelIdeal.Skeleton
import proofs.«407895_j63728724738088_3_alg».proof.Proof.Gen.KernelIdeal.Points
import Idealize.ShloMosaic.Lib.Pipeline.FrameBody
import Idealize.ShloMosaic.Lib.Pipeline.Value
import Idealize.ShloMosaic.Lib.Pipeline.Frame
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The statistics region (pipeline 0): the kernel's half of its frame, at the entry contents `V`

The body visits the 25 row blocks of the features in order. At the first block it zeroes both 1 × 256 result buffers;
at every block it then adds the block's column sums to the first and the column sums of squares to the second. The
result buffers keep block index (0, 0) at every point and are written back after the last point only, so what a later
point finds in them is what the point before left. -/

/-- Window `w`'s block at point `t`, read off its array as the region finds it (`V`: the TensorCore's buffer
    contents when the region is entered). -/
def iblk0 (V : (c : Dev nD) → (b : Ref sig .tc) → Buf (Elt F) ((c : Thread nD τ).loc b)) (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The branch on the grid coordinate -/

/-- The condition of the body's one conditional, over the grid coordinates: "the coordinate is zero", spelt as the
    scalar chain the body computes. -/
abbrev cond0 (i : grid0.Coords) : Prop :=
  (Scalar.cmpi .ne (Scalar.extui (Scalar.cmpi .eq (BitVec.ofNat 32 (i 0).val) 0#32)) 0#32) = 1#1

/-- It holds at the first point and at no other: decided over the 25 points. -/
theorem hcond0 : ∀ t : Fin cfg0.N, cond0 (grid0.coords t) ↔ t.val = 0 :=
  (by decide +kernel : ∀ t : Fin grid0.N, cond0 (grid0.coords t) ↔ t.val = 0)

/-! ## Whole-buffer accesses

Every load and store of the body goes through the rectangle of its buffer's own sizes at offsets `![0, 0]`: a load
reads the contents, a store leaves its payload whatever was stored before. -/

/-- The offsets `![0, 0]` are the zero offsets. -/
theorem off_zero0 : (![0, 0] : Fin 2 → Nat) = fun _ => 0 :=
  funext fun a => match a with
    | ⟨0, _⟩ => rfl
    | ⟨1, _⟩ => rfl

/-! ## The body's triple, case by case -/

set_option maxHeartbeats 1000000 in
/-- AT THE FIRST POINT (the coordinate is zero), on whole staging memrefs — the row block's at contents `x0`, the two
    result buffers at anything — the body runs to the continuation holding the row block's as it was and the result
    buffers at the update payloads over the zero payloads: each is zeroed, read back, and overwritten whole. -/
theorem sound_first0 (c : Dev nD) (E : Set ℕ) (i : grid0.Coords) (arg1 : Memref sig .tc .vmem S4000x256 .f32) (harg1 : arg1.IsWhole)
    (arg2 : Memref sig .tc .vmem S1x256 .f32) (harg2 : arg2.IsWhole) (arg3 : Memref sig .tc .vmem S1x256 .f32) (harg3 : arg3.IsWhole)
    (hc : cond0 i) (x0 : Vec F S4000x256 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0
            ∗ owns (c : Thread nD τ) arg2 fullShare (k0_pay3 x0 (k0_pay1 (F := F)))
            ∗ owns (c : Thread nD τ) arg3 fullShare (k0_pay4 x0 (k0_pay2 (F := F)))) -∗ K ⟨⟩))
      ⊢ wp frame (wpE (defs₀ (F := F)) Variants.none c none) E (cc0__bn_stats_kernel i arg1 harg1 arg2 harg2 arg3 harg3) K := by
  simp only [cc0__bn_stats_kernel_eq_skeleton]; unfold cc0__bn_stats_kernel_skel
  unfold owns
  iintro ⟨⟨%f0, %hf0, H0⟩, ⟨%d1, %f1, -, H1⟩, ⟨%d2, %f2, -, H2⟩, Hk⟩
  subst hf0
  sl_exec (disch := exact hc)
  sl_step
  iapply Hk
  isplitl [H0]
  · iexists f0; isplitr; · ipureintro; rfl
    iexact H0
  isplitl [H1]
  · iexists _; isplitr
    swap; · iexact H1
    ipureintro
    rw [View.read_writes_eq_canon _ _ _ (fun y => ⟨_, List.Mem.head _, View.mem_set_unit_zero off_zero0 inb_S1x256_S1x256_0_0 y⟩)]
    sl_unfold_words
    rw [View.canon_cons_unit_zero (S := S1x256) off_zero0, View.readCov_unit_zero (S := S1x256) _ off_zero0]
    simp only [View.readAt_eq_ld, View.ld_unit_zero (S := S4000x256) off_zero0]
  iexists _; isplitr
  swap; · iexact H2
  ipureintro
  rw [View.read_writes_eq_canon _ _ _ (fun y => ⟨_, List.Mem.head _, View.mem_set_unit_zero off_zero0 inb_S1x256_S1x256_0_0 y⟩)]
  sl_unfold_words
  rw [View.canon_cons_unit_zero (S := S1x256) off_zero0, View.readCov_unit_zero (S := S1x256) _ off_zero0]
  simp only [View.readAt_eq_ld, View.ld_unit_zero (S := S4000x256) off_zero0]

set_option maxHeartbeats 1000000 in
/-- AT A LATER POINT (the coordinate is not zero), the result buffers at their running contents `xo1`, `xo2`, the
    body leaves each at its update payload over those contents: nothing is zeroed, each is read and overwritten whole. -/
theorem sound_later0 (c : Dev nD) (E : Set ℕ) (i : grid0.Coords) (arg1 : Memref sig .tc .vmem S4000x256 .f32) (harg1 : arg1.IsWhole)
    (arg2 : Memref sig .tc .vmem S1x256 .f32) (harg2 : arg2.IsWhole) (arg3 : Memref sig .tc .vmem S1x256 .f32) (harg3 : arg3.IsWhole)
    (hc : ¬cond0 i) (x0 : Vec F S4000x256 .f32) (xo1 xo2 : Vec F S1x256 .f32) (K : PUnit → sProp 𝕄) :
    iprop(owns (c : Thread nD τ) arg1 fullShare x0 ∗ owns (c : Thread nD τ) arg2 fullShare xo1 ∗ owns (c : Thread nD τ) arg3 fullShare xo2
        ∗ (iprop(owns (c : Thread nD τ) arg1 fullShare x0
            ∗ owns (c : Thread nD τ) arg2 fullShare (k0_pay3 x0 xo1)
            ∗ owns (c : Thread nD τ) arg3 fullShare (k0_pay4 x0 xo2)) -∗ K ⟨⟩))
      ⊢ wp frame (wpE (defs₀ (F := F)) Variants.none c none) E (cc0__bn_stats_kernel i arg1 harg1 arg2 harg2 arg3 harg3) K := by
  simp only [cc0__bn_stats_kernel_eq_skeleton]; unfold cc0__bn_stats_kernel_skel
  unfold owns
  iintro ⟨⟨%f0, %hf0, H0⟩, ⟨%f1, %hf1, H1⟩, ⟨%f2, %hf2, H2⟩, Hk⟩
  subst hf0; subst hf1; subst hf2
  sl_exec (disch := exact hc)
  sl_step
  iapply Hk
  isplitl [H0]
  · iexists f0; isplitr; · ipureintro; rfl
    iexact H0
  isplitl [H1]
  · iexists _; isplitr
    swap; · iexact H1
    ipureintro
    rw [View.read_writes_eq_canon _ _ _ (fun y => ⟨_, List.Mem.head _, View.mem_set_unit_zero off_zero0 inb_S1x256_S1x256_0_0 y⟩)]
    sl_unfold_words
    rw [View.canon_unit_zero (S := S1x256) off_zero0]
    simp only [View.readAt_eq_ld, View.ld_unit_zero (S := S4000x256) off_zero0, View.ld_unit_zero (S := S1x256) off_zero0]
  iexists _; isplitr
  swap; · iexact H2
  ipureintro
  rw [View.read_writes_eq_canon _ _ _ (fun y => ⟨_, List.Mem.head _, View.mem_set_unit_zero off_zero0 inb_S1x256_S1x256_0_0 y⟩)]
  sl_unfold_words
  rw [View.canon_unit_zero (S := S1x256) off_zero0]
  simp only [View.readAt_eq_ld, View.ld_unit_zero (S := S4000x256) off_zero0, View.ld_unit_zero (S := S1x256) off_zero0]

/-! ## What the result buffers hold after each point -/

/-- The first result buffer after the body at point `n`: the update payload of point `n`'s row block over the zero
    payload at the first point, over what point `n - 1` left at a later one. -/
def sum0At (V : (c : Dev nD) → (b : Ref sig .tc) → Buf (Elt F) ((c : Thread nD τ).loc b)) (c : Dev nD) : (n : ℕ) → n < cfg0.N → Vec F S1x256 .f32
  | 0, hn => k0_pay3 (iblk0 V c 0 ⟨0, hn⟩) (k0_pay1 (F := F))
  | n + 1, hn => k0_pay3 (iblk0 V c 0 ⟨n + 1, hn⟩) (sum0At V c n (Nat.lt_of_succ_lt hn))

/-- The second result buffer after the body at point `n`, likewise. -/
def sq0At (V : (c : Dev nD) → (b : Ref sig .tc) → Buf (Elt F) ((c : Thread nD τ).loc b)) (c : Dev nD) : (n : ℕ) → n < cfg0.N → Vec F S1x256 .f32
  | 0, hn => k0_pay4 (iblk0 V c 0 ⟨0, hn⟩) (k0_pay2 (F := F))
  | n + 1, hn => k0_pay4 (iblk0 V c 0 ⟨n + 1, hn⟩) (sq0At V c n (Nat.lt_of_succ_lt hn))

/-- The recursion read at a point of the grid: the first point, -/
theorem sum0At_first (V : (c : Dev nD) → (b : Ref sig .tc) → Buf (Elt F) ((c : Thread nD τ).loc b)) (c : Dev nD) (t : Fin cfg0.N) (h0 : t.val = 0) :
    sum0At V c t.val t.isLt = k0_pay3 (iblk0 V c 0 t) (k0_pay1 (F := F)) := by
  obtain ⟨n, hn⟩ := t
  cases n with
  | zero => rfl
  | succ n => exact absurd h0 (Nat.succ_ne_zero n)

/-- and a later one. -/
theorem sum0At_later (V : (c : Dev nD) → (b : Ref sig .tc) → Buf (Elt F) ((c : Thread nD τ).loc b)) (c : Dev nD) (t : Fin cfg0.N) (h0 : ¬t.val = 0) :
    sum0At V c t.val t.isLt = k0_pay3 (iblk0 V c 0 t) (sum0At V c (t.val - 1) (Nat.lt_of_le_of_lt (Nat.sub_le _ _) t.isLt)) := by
  obtain ⟨n, hn⟩ := t
  cases n with
  | zero => exact absurd rfl h0
  | succ n => rfl

theorem sq0At_first (V : (c : Dev nD) → (b : Ref sig .tc) → Buf (Elt F) ((c : Thread nD τ).loc b)) (c : Dev nD) (t : Fin cfg0.N) (h0 : t.val = 0) :
    sq0At V c t.val t.isLt = k0_pay4 (iblk0 V c 0 t) (k0_pay2 (F := F)) := by
  obtain ⟨n, hn⟩ := t
  cases n with
  | zero => rfl
  | succ n => exact absurd h0 (Nat.succ_ne_zero n)

theorem sq0At_later (V : (c : Dev nD) → (b : Ref sig .tc) → Buf (Elt F) ((c : Thread nD τ).loc b)) (c : Dev nD) (t : Fin cfg0.N) (h0 : ¬t.val = 0) :
    sq0At V c t.val t.isLt = k0_pay4 (iblk0 V c 0 t) (sq0At V c (t.val - 1) (Nat.lt_of_le_of_lt (Nat.sub_le _ _) t.isLt)) := by
  obtain ⟨n, hn⟩ := t
  cases n with
  | zero => exact absurd rfl h0
  | succ n => rfl

/-! ## The pipeline's proof data -/

/-- The proof data of pipeline 0 on core `c`: the arrays as the region finds them (`V`); after the body at point `t`
    the row block's buffer at its block and the result buffers at `sum0At`, `sq0At`; the invariant the scoped rest
    and the generator register, untouched; nothing owed; full shares. -/
def dat0 (V : (c : Dev nD) → (b : Ref sig .tc) → Buf (Elt F) ((c : Thread nD τ).loc b)) (c : Dev nD) : Dat τ (Elt F) Unit ℕ (UR sig nD τ) ℕ cfg0 c where
  A w := V c (Pipeline.arrRef spec0 w)
  after w t := match w with
    | ⟨0, _⟩ => iblk0 V c 0 t
    | ⟨1, _⟩ => sum0At V c t.val t.isLt
    | ⟨2, _⟩ => sq0At V c t.val t.isLt
  Φ _ := Pipeline.ΦA spec0 c
  q _ := fullShare
  owed _ := 0

theorem A_eq0 (V : (c : Dev nD) → (b : Ref sig .tc) → Buf (Elt F) ((c : Thread nD τ).loc b)) (c : Dev nD) (w : Fin cfg0.W) : (dat0 V c).A w = V c (Pipeline.arrRef spec0 w) := by
  dsimp only [dat0]

theorem q_eq0 (V : (c : Dev nD) → (b : Ref sig .tc) → Buf (Elt F) ((c : Thread nD τ).loc b)) (c : Dev nD) (w : Fin cfg0.W) : (dat0 V c).q w = fullShare := by
  dsimp only [dat0]

theorem owed_eq0 (V : (c : Dev nD) → (b : Ref sig .tc) → Buf (Elt F) ((c : Thread nD τ).loc b)) (c : Dev nD) (t : Fin (cfg0.N + 1)) : (dat0 V c).owed t = 0 := by
  dsimp only [dat0]

/-- The bound on the pairs the core's waits have recorded is left at everything, at every point. -/
theorem recorded_eq0 (V : (c : Dev nD) → (b : Ref sig .tc) → Buf (Elt F) ((c : Thread nD τ).loc b)) (c : Dev nD) (t : Fin (cfg0.N + 1)) : (dat0 V c).recorded t = Set.univ := by
  dsimp only [dat0]

/-- What the body leaves, window by window. -/
theorem after0_0 (V : (c : Dev nD) → (b : Ref sig .tc) → Buf (Elt F) ((c : Thread nD τ).loc b)) (c : Dev nD) (t : Fin cfg0.N) : (dat0 V c).after 0 t = iblk0 V c 0 t := by dsimp only [dat0]
theorem after0_1 (V : (c : Dev nD) → (b : Ref sig .tc) → Buf (Elt F) ((c : Thread nD τ).loc b)) (c : Dev nD) (t : Fin cfg0.N) : (dat0 V c).after 1 t = sum0At V c t.val t.isLt := by dsimp only [dat0]
theorem after0_2 (V : (c : Dev nD) → (b : Ref sig .tc) → Buf (Elt F) ((c : Thread nD τ).loc b)) (c : Dev nD) (t : Fin cfg0.N) : (dat0 V c).after 2 t = sq0At V c t.val t.isLt := by dsimp only [dat0]

/-! ## What the body finds in each buffer -/

/-- The row block's current staging buffer holds the block of its point, at every point: the window is an input the
    body only reads, never idle, never clipped, so what it holds is what a fetch there puts in it, and that is the
    block read off `V`'s array. -/
theorem before0_0 (V : (c : Dev nD) → (b : Ref sig .tc) → Buf (Elt F) ((c : Thread nD τ).loc b)) (c : Dev nD) (t : Fin cfg0.N) (d) :
    (dat0 V c).before 0 t d = iblk0 V c 0 t := by
  have hkeep : ∀ s, (cfg0.win 0).cut (cfg0.grid.coords s) ((dat0 V c).after 0 s) = (dat0 V c).blockOf 0 s := by
    intro s
    rw [after0_0]; unfold Dat.blockOf iblk0; rw [A_eq0]; try rfl
  rw [(dat0 V c).before_in_eq_fetched 0 rfl (fun _ => rfl) (fun _ _ _ => rfl) hkeep t d]
  unfold Dat.fetched Dat.blockOf iblk0; rw [A_eq0]; try rfl

/-- No point before the last writes a result buffer back. -/
theorem no_flush_before0 (t : Fin cfg0.N) (ht : t.val ≠ 0) (w : Fin cfg0.W) (hw : w = 1 ∨ w = 2) :
    (cfg0.win w).flush ⟨t.val - 1, Nat.lt_of_le_of_lt (Nat.sub_le _ _) t.isLt⟩ = false := by
  have hN : t.val < 25 := lt_of_lt_of_eq t.isLt (show cfg0.N = 25 from N_0)
  refine Bool.eq_false_iff.mpr fun h => ?_
  rcases hw with rfl | rfl
  · have := (flush0_1 _).mp h; dsimp only at this; omega
  · have := (flush0_2 _).mp h; dsimp only at this; omega

/-- At a later point the first result buffer holds what the body left at the point before: it is an output, not
    written back between, never idle, never clipped. -/
theorem before0_1_later (V : (c : Dev nD) → (b : Ref sig .tc) → Buf (Elt F) ((c : Thread nD τ).loc b)) (c : Dev nD) (t : Fin cfg0.N) (h0 : ¬t.val = 0) (d) :
    (dat0 V c).before 1 t d = sum0At V c (t.val - 1) (Nat.lt_of_le_of_lt (Nat.sub_le _ _) t.isLt) := by
  rw [Dat.before_out_kept _ 1 rfl t h0 (no_flush_before0 t h0 1 (.inl rfl)) (fun _ => rfl) (fun _ _ => rfl)]
  dsimp only [dat0]

/-- and the second likewise. -/
theorem before0_2_later (V : (c : Dev nD) → (b : Ref sig .tc) → Buf (Elt F) ((c : Thread nD τ).loc b)) (c : Dev nD) (t : Fin cfg0.N) (h0 : ¬t.val = 0) (d) :
    (dat0 V c).before 2 t d = sq0At V c (t.val - 1) (Nat.lt_of_le_of_lt (Nat.sub_le _ _) t.isLt) := by
  rw [Dat.before_out_kept _ 2 rfl t h0 (no_flush_before0 t h0 2 (.inr rfl)) (fun _ => rfl) (fun _ _ => rfl)]
  dsimp only [dat0]

/-! ## The body obligation, at a generic point -/

/-- What the body is called with at point `t`, the windows one by one, -/
def bodyPre0 (V : (c : Dev nD) → (b : Ref sig .tc) → Buf (Elt F) ((c : Thread nD τ).loc b)) (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (V : (c : Dev nD) → (b : Ref sig .tc) → Buf (Elt F) ((c : Thread nD τ).loc b)) (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 800000 in
/-- The body at any point: the row block's memref holds its block; at the first point the result buffers hold
    anything and the first case's triple applies, at a later one they hold what the point before left and the second
    case's does; the invariant and the core's `owes` pass through unread. -/
theorem sound_body0 (V : (c : Dev nD) → (b : Ref sig .tc) → Buf (Elt F) ((c : Thread nD τ).loc b)) (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  by_cases h0 : t.val = 0
  · rw [sum0At_first V c t h0, sq0At_first V c t h0]
    iintro ⟨HΦ, Ho, ⟨%d0, H0⟩, ⟨%d1, H1⟩, ⟨%d2, H2⟩⟩
    iapply (sound_first0 c Set.univ (grid0.coords t) _ _ _ _ _ _ ((hcond0 t).mpr h0) (iblk0 V c 0 t) _)
    isplitl [H0]; · iexact H0
    isplitl [H1]; · iexists _; iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [sum0At_later V c t h0, sq0At_later V c t h0]
    simp only [before0_1_later V c t h0, before0_2_later V c t h0]
    iintro ⟨HΦ, Ho, ⟨%d0, H0⟩, ⟨%d1, H1⟩, ⟨%d2, H2⟩⟩
    iapply (sound_later0 c Set.univ (grid0.coords t) _ _ _ _ _ _ (fun h => h0 ((hcond0 t).mp h)) (iblk0 V c 0 t) _ _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

theorem body_obligation0 (V : (c : Dev nD) → (b : Ref sig .tc) → Buf (Elt F) ((c : Thread nD τ).loc b)) (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (V : (c : Dev nD) → (b : Ref sig .tc) → Buf (Elt F) ((c : Thread nD τ).loc b)) (c : Dev nD) : (Pipeline.ΦA spec0 c : sProp 𝕄) ⊢ (dat0 V c).Φ 0 := by
  dsimp only [dat0]; exact .rfl

/-- After the last point the invariant gives the class's back. -/
theorem hout0 (V : (c : Dev nD) → (b : Ref sig .tc) → Buf (Elt F) ((c : Thread nD τ).loc b)) (c : Dev nD) : (dat0 V c).Φ (Fin.last cfg0.N) ⊢ (Pipeline.ΦA spec0 c : sProp 𝕄) := by
  dsimp only [dat0]; exact .rfl

end Cert.KernelIdeal.Hand

end
-- ==== Proof.KI.Reg1.lean ====
import proofs.«407895_j63728724738088_3_alg».proof.Proof.Gen.KernelIdeal.Launch
import proofs.«407895_j63728724738088_3_alg».proof.Proof.Gen.KernelIdeal.Skeleton
import proofs.«407895_j63728724738088_3_alg».proof.Proof.Gen.KernelIdeal.Points
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The normalise-and-multiply region at its entry contents

Pipeline 1 runs the kernel that scales and shifts a block of 4000 feature rows, multiplies it by the weight matrix and by
the per-node factor, and stores the product twice (wide and narrow). Its half of the frame, at the region-entry contents
`V`: every input's staging buffer holds its block at every point; each output's buffer after the body is the canon of its
one store over the input blocks; the class's invariant passes through unread. -/

/-- Window `w`'s block at point `t`, read off its array as the region finds it (`V`: the TensorCore's buffer
    contents when the region is entered). -/
def iblk1 (V : (c : Dev nD) → (b : Ref sig .tc) → Buf (Elt F) ((c : Thread nD τ).loc b)) (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

section Inputs

variable (V : (c : Dev nD) → (b : Ref sig .tc) → Buf (Elt F) ((c : Thread nD τ).loc b))

/-! ## Each input's buffer holds its block

An input window whose body leaves the block in place holds, at every point, what a fetch there would put in the buffer:
fetched there it is the block; not fetched, the block index has not moved since the point before. This covers both the
row blocks fetched at every point (windows 0 and 4) and the three operands fetched at the first point only (1, 2, 3). -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Inputs

/-! ## The body's accesses: every load and store takes its whole buffer -/

abbrev r1_x : Rect S4000x256 := Rect.unit (s := S4000x256) ![0, 0] S4000x256.size inb_S4000x256_S4000x256_0_0
abbrev r1_row : Rect S1x256 := Rect.unit (s := S1x256) ![0, 0] S1x256.size inb_S1x256_S1x256_0_0
abbrev r1_w : Rect S256x128 := Rect.unit (s := S256x128) ![0, 0] S256x128.size inb_S256x128_S256x128_0_0
abbrev r1_fac : Rect S4000x1 := Rect.unit (s := S4000x1) ![0, 0] S4000x1.size inb_S4000x1_S4000x1_0_0
abbrev r1_out : Rect S4000x128 := Rect.unit (s := S4000x128) ![0, 0] S4000x128.size inb_S4000x128_S4000x128_0_0

/-! ## What the body leaves in each output window's buffer -/

/-- The wide result's buffer after the body: its one store, of the product computed from the five input blocks. -/
def out1_5 (x0 : Vec F S4000x256 .f32) (x1 : Vec F S1x256 .f32) (x2 : Vec F S1x256 .f32) (x3 : Vec F S256x128 .bf16) (x4 : Vec F S4000x1 .f32) : Vec F S4000x128 .f32 :=
  View.canon [⟨r1_out, k1_pay1 (View.ld x0 r1_x) (View.ld x1 r1_row) (View.ld x2 r1_row) (View.ld x3 r1_w) (View.ld x4 r1_fac)⟩]

/-- The narrow result's buffer after the body: its one store, of the same product narrowed. -/
def out1_6 (x0 : Vec F S4000x256 .f32) (x1 : Vec F S1x256 .f32) (x2 : Vec F S1x256 .f32) (x3 : Vec F S256x128 .bf16) (x4 : Vec F S4000x1 .f32) : Vec F S4000x128 .bf16 :=
  View.canon [⟨r1_out, k1_pay2 (View.ld x0 r1_x) (View.ld x1 r1_row) (View.ld x2 r1_row) (View.ld x3 r1_w) (View.ld x4 r1_fac)⟩]

/-- A store of the whole buffer covers it. -/
theorem cover1_5 (p0 : Vec F S4000x128 .f32) (y : S4000x128.Idx) :
    ∃ pc ∈ ([⟨r1_out, p0⟩] : List (View.Piece (Elt F) S4000x128 .f32)), y ∈ pc.1.set :=
  View.cover_of_tiled [⟨r1_out, p0⟩] S4000x128.size (by rfl) y

theorem cover1_6 (p0 : Vec F S4000x128 .bf16) (y : S4000x128.Idx) :
    ∃ pc ∈ ([⟨r1_out, p0⟩] : List (View.Piece (Elt F) S4000x128 .bf16)), y ∈ pc.1.set :=
  View.cover_of_tiled [⟨r1_out, p0⟩] S4000x128.size (by rfl) y

/-! ## The body's triple -/

set_option maxHeartbeats 4000000 in
/-- The kernel body on whole staging memrefs, the inputs' at read contents `x0 … x4` and the outputs' at anything, runs to
    the continuation holding the inputs' as they were and each output's at the canon of its store: the five loads read
    the buffers whole, the two loads of the output buffers are unused, and each store overwrites its whole buffer. -/
theorem sound_kernel1 (c : Dev nD) (E : Set ℕ) (i : grid1.Coords)
    (arg1 : Memref sig .tc .vmem S4000x256 .f32) (harg1 : arg1.IsWhole) (arg2 : Memref sig .tc .vmem S1x256 .f32) (harg2 : arg2.IsWhole)
    (arg3 : Memref sig .tc .vmem S1x256 .f32) (harg3 : arg3.IsWhole) (arg4 : Memref sig .tc .vmem S256x128 .bf16) (harg4 : arg4.IsWhole)
    (arg5 : Memref sig .tc .vmem S4000x1 .f32) (harg5 : arg5.IsWhole) (arg6 : Memref sig .tc .vmem S4000x128 .f32) (harg6 : arg6.IsWhole)
    (arg7 : Memref sig .tc .vmem S4000x128 .bf16) (harg7 : arg7.IsWhole)
    (x0 : Vec F S4000x256 .f32) (x1 : Vec F S1x256 .f32) (x2 : Vec F S1x256 .f32) (x3 : Vec F S256x128 .bf16) (x4 : Vec F S4000x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4) ∗ owns (c : Thread nD τ) arg7 fullShare (out1_6 x0 x1 x2 x3 x4)) -∗ K ⟨⟩))
      ⊢ wp frame (wpE (defs₀ (F := F)) Variants.none c none) E (cc1__bn_matmul_kernel i arg1 harg1 arg2 harg2 arg3 harg3 arg4 harg4 arg5 harg5 arg6 harg6 arg7 harg7) K := by
  simp only [cc1__bn_matmul_kernel_eq_skeleton]; unfold cc1__bn_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_5 _)
  iexists _; isplitr
  swap; · iexact H6
  ipureintro
  exact View.read_writes_eq_canon _ _ _ (cover1_6 _)

/-! ## The pipeline's proof data -/

/-- The proof data of pipeline 1 on core `c`: the arrays as the region finds them (`V`); after the body at point `t` each
    input's buffer at its block and each output's at the canon of its store over the input blocks; the invariant the
    class's (the scoped rest and the generator register, untouched); nothing owed; full shares. -/
def dat1 (V : (c : Dev nD) → (b : Ref sig .tc) → Buf (Elt F) ((c : Thread nD τ).loc b)) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => out1_6 (iblk1 V c 0 t) (iblk1 V c 1 t) (iblk1 V c 2 t) (iblk1 V c 3 t) (iblk1 V c 4 t)
  Φ _ := Pipeline.ΦA spec1 c
  q _ := fullShare
  owed _ := 0

theorem A_eq1 (V : (c : Dev nD) → (b : Ref sig .tc) → Buf (Elt F) ((c : Thread nD τ).loc b)) (c : Dev nD) (w : Fin cfg1.W) : (dat1 V c).A w = V c (Pipeline.arrRef spec1 w) := by
  dsimp only [dat1]

theorem q_eq1 (V : (c : Dev nD) → (b : Ref sig .tc) → Buf (Elt F) ((c : Thread nD τ).loc b)) (c : Dev nD) (w : Fin cfg1.W) : (dat1 V c).q w = fullShare := by
  dsimp only [dat1]

theorem owed_eq1 (V : (c : Dev nD) → (b : Ref sig .tc) → Buf (Elt F) ((c : Thread nD τ).loc b)) (c : Dev nD) (t : Fin (cfg1.N + 1)) : (dat1 V c).owed t = 0 := by
  dsimp only [dat1]

/-- No bound is put on the pairs the core's waits may have recorded. -/
theorem recorded_eq1 (V : (c : Dev nD) → (b : Ref sig .tc) → Buf (Elt F) ((c : Thread nD τ).loc b)) (c : Dev nD) (t : Fin (cfg1.N + 1)) : (dat1 V c).recorded t = Set.univ := by
  dsimp only [dat1]

section Body

variable (V : (c : Dev nD) → (b : Ref sig .tc) → Buf (Elt F) ((c : Thread nD τ).loc b))

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so the body's triple applies; the invariant and the
    core's owed signals pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

end Body

theorem body_obligation1 (V : (c : Dev nD) → (b : Ref sig .tc) → Buf (Elt F) ((c : Thread nD τ).loc b)) (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (V : (c : Dev nD) → (b : Ref sig .tc) → Buf (Elt F) ((c : Thread nD τ).loc b)) (c : Dev nD) : (Pipeline.ΦA spec1 c : sProp 𝕄) ⊢ (dat1 V c).Φ 0 := by
  exact .rfl

/-- After the last point the invariant gives the class's back. -/
theorem hout1 (V : (c : Dev nD) → (b : Ref sig .tc) → Buf (Elt F) ((c : Thread nD τ).loc b)) (c : Dev nD) : (dat1 V c).Φ (Fin.last cfg1.N) ⊢ (Pipeline.ΦA spec1 c : sProp 𝕄) := by
  exact .rfl

end Cert.KernelIdeal.Hand

end
-- ==== Proof.KI.Reg2.lean ====
import proofs.«407895_j63728724738088_3_alg».proof.Proof.Gen.KernelIdeal.Launch
import proofs.«407895_j63728724738088_3_alg».proof.Proof.Gen.KernelIdeal.Skeleton
import proofs.«407895_j63728724738088_3_alg».proof.Proof.Gen.KernelIdeal.Points
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Window `w`'s block at point `t`, read off its array as the region finds it (`V`: the TensorCore's buffer
    contents when the region is entered). -/
def iblk2 (V : (c : Dev nD) → (b : Ref sig .tc) → Buf (Elt F) ((c : Thread nD τ).loc b)) (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's two conditions, decided over the grid -/

/-- The first conditional of the body (the accumulator's reset), from the grid coordinate. -/
abbrev cond2_0 (i : grid2.Coords) : Prop :=
  (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val = 0 :=
  (by decide +kernel : ∀ t : Fin grid2.N, cond2_0 (grid2.coords t) ↔ t.val = 0)

/-- The second conditional (the read-out into the result block). -/
abbrev cond2_1 (i : grid2.Coords) : Prop := k2_cond2 i = 1#1
/-- It holds at the last point only. -/
theorem hcond2_1 : ∀ t : Fin cfg2.N, cond2_1 (grid2.coords t) ↔ t.val = 24 :=
  (by decide +kernel : ∀ t : Fin grid2.N, cond2_1 (grid2.coords t) ↔ t.val = 24)

/-- The result window is idle wherever the read-out is not taken, -/
theorem idleAt2_5 : ∀ t : Fin cfg2.N, ¬cond2_1 (grid2.coords t) → cfg2.idle 5 (grid2.coords t) = true := by decide +kernel
/-- is not written back there, -/
theorem noFlush2_5 : ∀ t : Fin cfg2.N, ¬cond2_1 (grid2.coords t) → (cfg2.win 5).flush t = false := by decide +kernel
/-- and is live where it is taken. -/
theorem liveAt2_5 : ∀ t : Fin cfg2.N, cond2_1 (grid2.coords t) → cfg2.idle 5 (grid2.coords t) = false := by decide +kernel

/-! ## The accesses: every load and store of the body is through the whole buffer -/

theorem hz2 : (![0, 0] : Fin 2 → Nat) = fun _ => 0 := by funext a; fin_cases a <;> rfl
theorem hz3 : (![0, 0, 0] : Fin 3 → Nat) = fun _ => 0 := by funext a; fin_cases a <;> rfl

/-- The scratch operand, a whole scoped buffer of the kernel's own. -/
abbrev scM2 : Memref sig .tc .vmem S64x128 .f32 := Memref.whole cc2_scratch0

/-! ## What the body leaves -/

/-- The accumulator after the first point: the block's contribution added to the zeros just stored. -/
def scrFirst (x0 : Vec F S4000x128 .f32) (x1 : Vec F S4000x1 .f32) (x2 : Vec F S1x128 .f32) (x3 : Vec F S1x1x4000 .i32) : Vec F S64x128 .f32 :=
  k2_pay3 x1 x0 x2 x3 (k2_pay2 (F := F))

/-- The accumulator after a later point: the block's contribution added to what the point before left (`s`). -/
def scrNext (x0 : Vec F S4000x128 .f32) (x1 : Vec F S4000x1 .f32) (x2 : Vec F S1x128 .f32) (x3 : Vec F S1x1x4000 .i32) (s : Vec F S64x128 .f32) : Vec F S64x128 .f32 :=
  k2_pay3 x1 x0 x2 x3 s

/-- The result block the last point stores: the accumulator (`s`, after that point's update) scaled by the reciprocal counts. -/
def res2 (s : Vec F S64x128 .f32) (x4 : Vec F S64x1 .f32) : Vec F S64x128 .f32 :=
  k2_pay1 s x4

/-! ## The body's run, case by case

The kernel on whole staging memrefs: the inputs' at read contents `x·`, the scratch at anything (first point) or at
what the point before left (`xs`), the result buffer handed back untouched (first and middle points) or left at the
scaled accumulator (last point). Every access is through the whole buffer, so a load reads the contents and the last
store leaves its payload. -/

set_option maxHeartbeats 4000000 in
theorem run2_A (c : Dev nD) (i : grid2.Coords) (arg1 : Memref sig .tc .vmem S4000x128 .f32) (harg1 : arg1.IsWhole) (arg2 : Memref sig .tc .vmem S4000x1 .f32) (harg2 : arg2.IsWhole) (arg3 : Memref sig .tc .vmem S1x128 .f32) (harg3 : arg3.IsWhole) (arg4 : Memref sig .tc .vmem S1x1x4000 .i32) (harg4 : arg4.IsWhole) (arg5 : Memref sig .tc .vmem S64x1 .f32) (harg5 : arg5.IsWhole) (arg6 : Memref sig .tc .vmem S64x128 .f32) (harg6 : arg6.IsWhole) (arg7 : Memref sig .tc .vmem S64x128 .f32) (harg7 : arg7.IsWhole)
    (hc0 : cond2_0 i) (hc1 : ¬cond2_1 i)
    (x0 : Vec F S4000x128 .f32) (x1 : Vec F S4000x1 .f32) (x2 : Vec F S1x128 .f32) (x3 : Vec F S1x1x4000 .i32) (x4 : Vec F S64x1 .f32) (xi : Vec F S64x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare xi ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare xi ∗ owns (c : Thread nD τ) arg7 fullShare (scrFirst x0 x1 x2 x3)) -∗ K ⟨⟩))
      ⊢ wp frame (wpE (defs₀ (F := F)) Variants.none c none) E (cc2__pool_kernel i arg1 harg1 arg2 harg2 arg3 harg3 arg4 harg4 arg5 harg5 arg6 harg6 arg7 harg7) K := by
  simp only [cc2__pool_kernel_eq_skeleton]; unfold cc2__pool_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
  subst hf0; subst hf1; subst hf2; subst hf3; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact HS
  ipureintro
  sl_unfold_words
  rw [View.read_writes_eq_canon _ _ _ (fun y => ⟨_, List.mem_cons_self, View.mem_set_unit_zero (S := S64x128) hz2 inb_S64x128_S64x128_0_0 y⟩), View.canon_cons_unit_zero hz2]
  unfold scrFirst
  simp only [View.readAt_eq_ld, View.ld_unit_zero (S := S4000x128) hz2, View.ld_unit_zero (S := S4000x1) hz2, View.ld_unit_zero (S := S1x128) hz2, View.ld_unit_zero (S := S1x1x4000) hz3, View.ld_unit_zero (S := S64x128) hz2, View.ld_unit_zero (S := S64x1) hz2, View.readCov_unit_zero (S := S64x128) _ hz2]

set_option maxHeartbeats 4000000 in
theorem run2_B (c : Dev nD) (i : grid2.Coords) (arg1 : Memref sig .tc .vmem S4000x128 .f32) (harg1 : arg1.IsWhole) (arg2 : Memref sig .tc .vmem S4000x1 .f32) (harg2 : arg2.IsWhole) (arg3 : Memref sig .tc .vmem S1x128 .f32) (harg3 : arg3.IsWhole) (arg4 : Memref sig .tc .vmem S1x1x4000 .i32) (harg4 : arg4.IsWhole) (arg5 : Memref sig .tc .vmem S64x1 .f32) (harg5 : arg5.IsWhole) (arg6 : Memref sig .tc .vmem S64x128 .f32) (harg6 : arg6.IsWhole) (arg7 : Memref sig .tc .vmem S64x128 .f32) (harg7 : arg7.IsWhole)
    (hc0 : ¬cond2_0 i) (hc1 : ¬cond2_1 i)
    (x0 : Vec F S4000x128 .f32) (x1 : Vec F S4000x1 .f32) (x2 : Vec F S1x128 .f32) (x3 : Vec F S1x1x4000 .i32) (x4 : Vec F S64x1 .f32) (xi : Vec F S64x128 .f32) (xs : Vec F S64x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare xi ∗ owns (c : Thread nD τ) arg7 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare xi ∗ owns (c : Thread nD τ) arg7 fullShare (scrNext x0 x1 x2 x3 xs)) -∗ K ⟨⟩))
      ⊢ wp frame (wpE (defs₀ (F := F)) Variants.none c none) E (cc2__pool_kernel i arg1 harg1 arg2 harg2 arg3 harg3 arg4 harg4 arg5 harg5 arg6 harg6 arg7 harg7) K := by
  simp only [cc2__pool_kernel_eq_skeleton]; unfold cc2__pool_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  subst hf0; subst hf1; subst hf2; subst hf3; subst hf4; subst hf5; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact HS
  ipureintro
  sl_unfold_words
  rw [View.read_writes_eq_canon _ _ _ (fun y => ⟨_, List.mem_cons_self, View.mem_set_unit_zero (S := S64x128) hz2 inb_S64x128_S64x128_0_0 y⟩), View.canon_cons_unit_zero hz2]
  unfold scrNext
  simp only [View.readAt_eq_ld, View.ld_unit_zero (S := S4000x128) hz2, View.ld_unit_zero (S := S4000x1) hz2, View.ld_unit_zero (S := S1x128) hz2, View.ld_unit_zero (S := S1x1x4000) hz3, View.ld_unit_zero (S := S64x128) hz2, View.ld_unit_zero (S := S64x1) hz2, View.readCov_unit_zero (S := S64x128) _ hz2]

set_option maxHeartbeats 4000000 in
theorem run2_C (c : Dev nD) (i : grid2.Coords) (arg1 : Memref sig .tc .vmem S4000x128 .f32) (harg1 : arg1.IsWhole) (arg2 : Memref sig .tc .vmem S4000x1 .f32) (harg2 : arg2.IsWhole) (arg3 : Memref sig .tc .vmem S1x128 .f32) (harg3 : arg3.IsWhole) (arg4 : Memref sig .tc .vmem S1x1x4000 .i32) (harg4 : arg4.IsWhole) (arg5 : Memref sig .tc .vmem S64x1 .f32) (harg5 : arg5.IsWhole) (arg6 : Memref sig .tc .vmem S64x128 .f32) (harg6 : arg6.IsWhole) (arg7 : Memref sig .tc .vmem S64x128 .f32) (harg7 : arg7.IsWhole)
    (hc0 : ¬cond2_0 i) (hc1 : cond2_1 i)
    (x0 : Vec F S4000x128 .f32) (x1 : Vec F S4000x1 .f32) (x2 : Vec F S1x128 .f32) (x3 : Vec F S1x1x4000 .i32) (x4 : Vec F S64x1 .f32) (xs : Vec F S64x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ owns (c : Thread nD τ) arg7 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (res2 (scrNext x0 x1 x2 x3 xs) x4) ∗ owns (c : Thread nD τ) arg7 fullShare (scrNext x0 x1 x2 x3 xs)) -∗ K ⟨⟩))
      ⊢ wp frame (wpE (defs₀ (F := F)) Variants.none c none) E (cc2__pool_kernel i arg1 harg1 arg2 harg2 arg3 harg3 arg4 harg4 arg5 harg5 arg6 harg6 arg7 harg7) K := by
  simp only [cc2__pool_kernel_eq_skeleton]; unfold cc2__pool_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  subst hf0; subst hf1; subst hf2; subst hf3; subst hf4; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_words
    rw [View.read_writes_eq_canon _ _ _ (fun y => ⟨_, List.mem_cons_self, View.mem_set_unit_zero (S := S64x128) hz2 inb_S64x128_S64x128_0_0 y⟩), View.canon_cons_unit_zero hz2]
    unfold res2 scrNext
    simp only [View.readAt_eq_ld, View.ld_unit_zero (S := S4000x128) hz2, View.ld_unit_zero (S := S4000x1) hz2, View.ld_unit_zero (S := S1x128) hz2, View.ld_unit_zero (S := S1x1x4000) hz3, View.ld_unit_zero (S := S64x128) hz2, View.ld_unit_zero (S := S64x1) hz2, View.readCov_unit_zero (S := S64x128) _ hz2]
  iexists _; isplitr
  swap; · iexact HS
  ipureintro
  sl_unfold_words
  rw [View.read_writes_eq_canon _ _ _ (fun y => ⟨_, List.mem_cons_self, View.mem_set_unit_zero (S := S64x128) hz2 inb_S64x128_S64x128_0_0 y⟩), View.canon_cons_unit_zero hz2]
  unfold scrNext
  simp only [View.readAt_eq_ld, View.ld_unit_zero (S := S4000x128) hz2, View.ld_unit_zero (S := S4000x1) hz2, View.ld_unit_zero (S := S1x128) hz2, View.ld_unit_zero (S := S1x1x4000) hz3, View.ld_unit_zero (S := S64x128) hz2, View.ld_unit_zero (S := S64x1) hz2, View.readCov_unit_zero (S := S64x128) _ hz2]

/-! ## The input windows hold their blocks at every point -/

/-- An input window's current staging buffer holds its block at every point, fetched there or not, for any proof
    data whose array is the entry contents and whose body leaves the block in place: an unfetched window's index
    has not moved. One statement per input window (the block's shape is the window's). -/
theorem before2_0_of (V : (c : Dev nD) → (b : Ref sig .tc) → Buf (Elt F) ((c : Thread nD τ).loc b)) {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of (V : (c : Dev nD) → (b : Ref sig .tc) → Buf (Elt F) ((c : Thread nD τ).loc b)) {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of (V : (c : Dev nD) → (b : Ref sig .tc) → Buf (Elt F) ((c : Thread nD τ).loc b)) {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of (V : (c : Dev nD) → (b : Ref sig .tc) → Buf (Elt F) ((c : Thread nD τ).loc b)) {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of (V : (c : Dev nD) → (b : Ref sig .tc) → Buf (Elt F) ((c : Thread nD τ).loc b)) {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The accumulator, point by point -/

/-- What the scratch accumulator holds after the body at position `n`: at the first point the first block's
    contribution over the zeros just stored, afterwards the block's contribution over what the point before left. -/
def scrAt (V : (c : Dev nD) → (b : Ref sig .tc) → Buf (Elt F) ((c : Thread nD τ).loc b)) (c : Dev nD) : (n : ℕ) → n < cfg2.N → Vec F S64x128 .f32
  | 0, hn => scrFirst (iblk2 V c 0 ⟨0, hn⟩) (iblk2 V c 1 ⟨0, hn⟩) (iblk2 V c 2 ⟨0, hn⟩) (iblk2 V c 3 ⟨0, hn⟩)
  | n + 1, hn => scrNext (iblk2 V c 0 ⟨n + 1, hn⟩) (iblk2 V c 1 ⟨n + 1, hn⟩) (iblk2 V c 2 ⟨n + 1, hn⟩) (iblk2 V c 3 ⟨n + 1, hn⟩) (scrAt V c n (Nat.lt_of_succ_lt hn))

theorem scrAt_zero (V : (c : Dev nD) → (b : Ref sig .tc) → Buf (Elt F) ((c : Thread nD τ).loc b)) (c : Dev nD) (t : Fin cfg2.N) (h : t.val = 0) :
    scrAt V c t.val t.isLt = scrFirst (iblk2 V c 0 t) (iblk2 V c 1 t) (iblk2 V c 2 t) (iblk2 V c 3 t) := by
  obtain ⟨n, hn⟩ := t
  cases n with
  | zero => rfl
  | succ n => exact absurd h (Nat.succ_ne_zero n)

theorem scrAt_pos (V : (c : Dev nD) → (b : Ref sig .tc) → Buf (Elt F) ((c : Thread nD τ).loc b)) (c : Dev nD) (t : Fin cfg2.N) (h : t.val ≠ 0) :
    scrAt V c t.val t.isLt = scrNext (iblk2 V c 0 t) (iblk2 V c 1 t) (iblk2 V c 2 t) (iblk2 V c 3 t) (scrAt V c (t.val - 1) (Nat.lt_of_le_of_lt (Nat.sub_le _ _) t.isLt)) := by
  obtain ⟨n, hn⟩ := t
  cases n with
  | zero => exact absurd rfl h
  | succ n => rfl

/-! ## The region invariant -/

/-- The class's invariant gives the scratch operand at some contents, and takes it back at any. -/
theorem PhiA2_split (c : Dev nD) :
    (Pipeline.ΦA spec2 c : sProp 𝕄) ⊢ iprop((∃ d, owns (c : Thread nD τ) scM2 fullShare d) ∗ ((∃ d, owns (c : Thread nD τ) scM2 fullShare d) -∗ Pipeline.ΦA spec2 c)) := by
  have e : (iprop(∃ d, owns (c : Thread nD τ) scM2 fullShare d) : sProp 𝕄)
      = iprop(∃ f : Buf (Elt F) ((c : Thread nD τ).loc cc2_scratch0), ((c : Thread nD τ).loc cc2_scratch0) ↦{fullShare} f) := by
    simp only [scM2, owns_whole]; rfl
  rw [e]; unfold Pipeline.ΦA; rw [scopedRest2_eq]
  iintro ⟨⟨H1, H2, H3, H4, H5, H6, H7, H8, H9, H10, H11, H12, H13, H14, H15, HS⟩, Hg⟩
  isplitl [HS]; · iexact HS
  iintro HS
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact HS
  iexact Hg

/-- The invariant before position `n`: before the first point the class's (every scoped buffer of the kernel's own at
    anything, the generator register at some state); afterwards the scratch accumulator at what the point before left,
    beside what gives the class's invariant back once the scratch is returned at any contents. -/
def PhiS2 (V : (c : Dev nD) → (b : Ref sig .tc) → Buf (Elt F) ((c : Thread nD τ).loc b)) (c : Dev nD) : (n : ℕ) → n ≤ cfg2.N → sProp 𝕄
  | 0, _ => Pipeline.ΦA spec2 c
  | n + 1, hn => iprop(owns (c : Thread nD τ) scM2 fullShare (scrAt V c n hn) ∗ ((∃ d, owns (c : Thread nD τ) scM2 fullShare d) -∗ Pipeline.ΦA spec2 c))

theorem PhiS2_zero (V : (c : Dev nD) → (b : Ref sig .tc) → Buf (Elt F) ((c : Thread nD τ).loc b)) (c : Dev nD) (n : ℕ) (h : n ≤ cfg2.N) (hz : n = 0) : PhiS2 V c n h = Pipeline.ΦA spec2 c := by
  subst hz; rfl

theorem PhiS2_succ (V : (c : Dev nD) → (b : Ref sig .tc) → Buf (Elt F) ((c : Thread nD τ).loc b)) (c : Dev nD) (n : ℕ) (hn : n < cfg2.N) :
    PhiS2 V c (n + 1) hn = iprop(owns (c : Thread nD τ) scM2 fullShare (scrAt V c n hn) ∗ ((∃ d, owns (c : Thread nD τ) scM2 fullShare d) -∗ Pipeline.ΦA spec2 c)) := rfl

theorem PhiS2_pos (V : (c : Dev nD) → (b : Ref sig .tc) → Buf (Elt F) ((c : Thread nD τ).loc b)) (c : Dev nD) (n : ℕ) (h : n ≤ cfg2.N) (hz : n ≠ 0) :
    PhiS2 V c n h = iprop(owns (c : Thread nD τ) scM2 fullShare (scrAt V c (n - 1) (by omega)) ∗ ((∃ d, owns (c : Thread nD τ) scM2 fullShare d) -∗ Pipeline.ΦA spec2 c)) := by
  cases n with
  | zero => exact absurd rfl hz
  | succ n => rfl

/-! ## The pipeline's proof data -/

def dat2 (V : (c : Dev nD) → (b : Ref sig .tc) → Buf (Elt F) ((c : Thread nD τ).loc b)) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => res2 (scrAt V c t.val t.isLt) (iblk2 V c 4 t)
  Φ t := PhiS2 V c t.val (Nat.le_of_lt_succ t.isLt)
  q _ := fullShare
  owed _ := 0

theorem A_eq2 (V : (c : Dev nD) → (b : Ref sig .tc) → Buf (Elt F) ((c : Thread nD τ).loc b)) (c : Dev nD) (w : Fin cfg2.W) : (dat2 V c).A w = V c (Pipeline.arrRef spec2 w) := by
  dsimp only [dat2]

theorem q_eq2 (V : (c : Dev nD) → (b : Ref sig .tc) → Buf (Elt F) ((c : Thread nD τ).loc b)) (c : Dev nD) (w : Fin cfg2.W) : (dat2 V c).q w = fullShare := rfl

theorem owed_eq2 (V : (c : Dev nD) → (b : Ref sig .tc) → Buf (Elt F) ((c : Thread nD τ).loc b)) (c : Dev nD) (t : Fin (cfg2.N + 1)) : (dat2 V c).owed t = 0 := rfl

theorem recorded_eq2 (V : (c : Dev nD) → (b : Ref sig .tc) → Buf (Elt F) ((c : Thread nD τ).loc b)) (c : Dev nD) (t : Fin (cfg2.N + 1)) : (dat2 V c).recorded t = Set.univ := by
  dsimp only [dat2]

/-- The invariant at a point's start, restated at the point's position. -/
theorem PhiS2_castSucc (V : (c : Dev nD) → (b : Ref sig .tc) → Buf (Elt F) ((c : Thread nD τ).loc b)) (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (V : (c : Dev nD) → (b : Ref sig .tc) → Buf (Elt F) ((c : Thread nD τ).loc b)) (c : Dev nD) (t : Fin cfg2.N) : (dat2 V c).after 0 t = iblk2 V c 0 t := by dsimp only [dat2]
theorem after2_1 (V : (c : Dev nD) → (b : Ref sig .tc) → Buf (Elt F) ((c : Thread nD τ).loc b)) (c : Dev nD) (t : Fin cfg2.N) : (dat2 V c).after 1 t = iblk2 V c 1 t := by dsimp only [dat2]
theorem after2_2 (V : (c : Dev nD) → (b : Ref sig .tc) → Buf (Elt F) ((c : Thread nD τ).loc b)) (c : Dev nD) (t : Fin cfg2.N) : (dat2 V c).after 2 t = iblk2 V c 2 t := by dsimp only [dat2]
theorem after2_3 (V : (c : Dev nD) → (b : Ref sig .tc) → Buf (Elt F) ((c : Thread nD τ).loc b)) (c : Dev nD) (t : Fin cfg2.N) : (dat2 V c).after 3 t = iblk2 V c 3 t := by dsimp only [dat2]
theorem after2_4 (V : (c : Dev nD) → (b : Ref sig .tc) → Buf (Elt F) ((c : Thread nD τ).loc b)) (c : Dev nD) (t : Fin cfg2.N) : (dat2 V c).after 4 t = iblk2 V c 4 t := by dsimp only [dat2]
theorem after2_5 (V : (c : Dev nD) → (b : Ref sig .tc) → Buf (Elt F) ((c : Thread nD τ).loc b)) (c : Dev nD) (t : Fin cfg2.N) : (dat2 V c).after 5 t = res2 (scrAt V c t.val t.isLt) (iblk2 V c 4 t) := by dsimp only [dat2]

/-- Each input's current staging buffer holds its block at every point. -/
theorem before2_0 (V : (c : Dev nD) → (b : Ref sig .tc) → Buf (Elt F) ((c : Thread nD τ).loc b)) (c : Dev nD) (t : Fin cfg2.N) (d) : (dat2 V c).before 0 t d = iblk2 V c 0 t :=
  before2_0_of V (dat2 V c) (A_eq2 V c 0) (after2_0 V c) t d
theorem before2_1 (V : (c : Dev nD) → (b : Ref sig .tc) → Buf (Elt F) ((c : Thread nD τ).loc b)) (c : Dev nD) (t : Fin cfg2.N) (d) : (dat2 V c).before 1 t d = iblk2 V c 1 t :=
  before2_1_of V (dat2 V c) (A_eq2 V c 1) (after2_1 V c) t d
theorem before2_2 (V : (c : Dev nD) → (b : Ref sig .tc) → Buf (Elt F) ((c : Thread nD τ).loc b)) (c : Dev nD) (t : Fin cfg2.N) (d) : (dat2 V c).before 2 t d = iblk2 V c 2 t :=
  before2_2_of V (dat2 V c) (A_eq2 V c 2) (after2_2 V c) t d
theorem before2_3 (V : (c : Dev nD) → (b : Ref sig .tc) → Buf (Elt F) ((c : Thread nD τ).loc b)) (c : Dev nD) (t : Fin cfg2.N) (d) : (dat2 V c).before 3 t d = iblk2 V c 3 t :=
  before2_3_of V (dat2 V c) (A_eq2 V c 3) (after2_3 V c) t d
theorem before2_4 (V : (c : Dev nD) → (b : Ref sig .tc) → Buf (Elt F) ((c : Thread nD τ).loc b)) (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (V : (c : Dev nD) → (b : Ref sig .tc) → Buf (Elt F) ((c : Thread nD τ).loc b)) (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (V : (c : Dev nD) → (b : Ref sig .tc) → Buf (Elt F) ((c : Thread nD τ).loc b)) (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4000000 in
/-- The body at any point. The inputs' buffers hold their blocks; the position says which of the three runs applies; the
    invariant hands the body the scratch (at anything at the first point, afterwards at what the point before left) and
    takes it back at this point's contents; the result window is handed back as found except at the last point,
    where it is left at the scaled accumulator; the core owes nothing throughout. -/
theorem sound_body2 (V : (c : Dev nD) → (b : Ref sig .tc) → Buf (Elt F) ((c : Thread nD τ).loc b)) (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (st2_0 t) fullShare ((dat2 V c).after 0 t) from rfl, after2_0]
  rw [show (dat2 V c).leavesExact 1 t = owns (c : Thread nD τ) (st2_1 t) fullShare ((dat2 V c).after 1 t) from rfl, after2_1]
  rw [show (dat2 V c).leavesExact 2 t = owns (c : Thread nD τ) (st2_2 t) fullShare ((dat2 V c).after 2 t) from rfl, after2_2]
  rw [show (dat2 V c).leavesExact 3 t = owns (c : Thread nD τ) (st2_3 t) fullShare ((dat2 V c).after 3 t) from rfl, after2_3]
  rw [show (dat2 V c).leavesExact 4 t = owns (c : Thread nD τ) (st2_4 t) fullShare ((dat2 V c).after 4 t) from rfl, after2_4]
  have hN : t.val < 25 := lt_of_lt_of_eq t.isLt (show cfg2.N = 25 from N_2)
  by_cases h0 : t.val = 0
  · have hc0 : cond2_0 (grid2.coords t) := (hcond2_0 t).mpr h0
    have hc1 : ¬cond2_1 (grid2.coords t) := fun h => by have := (hcond2_1 t).mp h; omega
    rw [Dat.leavesExact_idle (dat2 V c) 5 t (idleAt2_5 t hc1) (noFlush2_5 t hc1)]
    rw [scrAt_zero V c t h0, PhiS2_castSucc V c t, PhiS2_zero V c _ _ h0]
    iintro ⟨HΦ, Ho, ⟨%d0, H0⟩, ⟨%d1, H1⟩, ⟨%d2, H2⟩, ⟨%d3, H3⟩, ⟨%d4, H4⟩, ⟨%d5, H5⟩⟩
    ihave HΦ' := (PhiA2_split (F := F) c) $$ HΦ
    icases HΦ' with ⟨HS, Hw⟩
    iapply (run2_A c (grid2.coords t) _ _ _ _ _ _ _ _ _ _ _ _ _ _ hc0 hc1 (iblk2 V c 0 t) (iblk2 V c 1 t) (iblk2 V c 2 t) (iblk2 V c 3 t) (iblk2 V c 4 t) ((dat2 V c).before 5 t d5) Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HS Hw]
    · isplitl [HS]; · iexact HS
      iexact Hw
    isplitl [Ho]; · iexact Ho
    isplitl [H0]; · iexact H0
    isplitl [H1]; · iexact H1
    isplitl [H2]; · iexact H2
    isplitl [H3]; · iexact H3
    isplitl [H4]; · iexact H4
    iexists _; iexact H5
  · have hc0 : ¬cond2_0 (grid2.coords t) := fun h => h0 ((hcond2_0 t).mp h)
    rw [scrAt_pos V c t h0, PhiS2_castSucc V c t, PhiS2_pos V c _ _ h0]
    by_cases h1 : t.val = 24
    · have hc1 : cond2_1 (grid2.coords t) := (hcond2_1 t).mpr h1
      rw [show (dat2 V c).leavesExact 5 t = owns (c : Thread nD τ) (st2_5 t) fullShare ((dat2 V c).after 5 t) from by
        unfold Dat.leavesExact; rw [liveAt2_5 t hc1], after2_5, scrAt_pos V c t h0]
      iintro ⟨⟨HS, Hw⟩, Ho, ⟨%d0, H0⟩, ⟨%d1, H1⟩, ⟨%d2, H2⟩, ⟨%d3, H3⟩, ⟨%d4, H4⟩, ⟨%d5, H5⟩⟩
      iapply (run2_C c (grid2.coords t) _ _ _ _ _ _ _ _ _ _ _ _ _ _ hc0 hc1 (iblk2 V c 0 t) (iblk2 V c 1 t) (iblk2 V c 2 t) (iblk2 V c 3 t) (iblk2 V c 4 t) (scrAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hw]
      · isplitl [HS]; · iexact HS
        iexact Hw
      isplitl [Ho]; · iexact Ho
      isplitl [H0]; · iexact H0
      isplitl [H1]; · iexact H1
      isplitl [H2]; · iexact H2
      isplitl [H3]; · iexact H3
      isplitl [H4]; · iexact H4
      iexact H5
    · have hc1 : ¬cond2_1 (grid2.coords t) := fun h => h1 ((hcond2_1 t).mp h)
      rw [Dat.leavesExact_idle (dat2 V c) 5 t (idleAt2_5 t hc1) (noFlush2_5 t hc1)]
      iintro ⟨⟨HS, Hw⟩, Ho, ⟨%d0, H0⟩, ⟨%d1, H1⟩, ⟨%d2, H2⟩, ⟨%d3, H3⟩, ⟨%d4, H4⟩, ⟨%d5, H5⟩⟩
      iapply (run2_B c (grid2.coords t) _ _ _ _ _ _ _ _ _ _ _ _ _ _ hc0 hc1 (iblk2 V c 0 t) (iblk2 V c 1 t) (iblk2 V c 2 t) (iblk2 V c 3 t) (iblk2 V c 4 t) ((dat2 V c).before 5 t d5) (scrAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hw]
      · isplitl [HS]; · iexact HS
        iexact Hw
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation2 (V : (c : Dev nD) → (b : Ref sig .tc) → Buf (Elt F) ((c : Thread nD τ).loc b)) (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (V : (c : Dev nD) → (b : Ref sig .tc) → Buf (Elt F) ((c : Thread nD τ).loc b)) (c : Dev nD) : (Pipeline.ΦA spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back. -/
theorem hout2 (V : (c : Dev nD) → (b : Ref sig .tc) → Buf (Elt F) ((c : Thread nD τ).loc b)) (c : Dev nD) : (dat2 V c).Φ (Fin.last cfg2.N) ⊢ (Pipeline.ΦA spec2 c : sProp 𝕄) := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 25 := N_2; omega)]
  iintro ⟨HS, Hw⟩
  iapply Hw
  iexists _; iexact HS

end Cert.KernelIdeal.Hand

end
-- ==== Proof.KI.Fold.lean ====
import proofs.«407895_j63728724738088_3_alg».proof.Proof.Gen.KernelIdeal.Launch
import proofs.«407895_j63728724738088_3_alg».proof.Proof.Gen.KernelIdeal.Skeleton
import proofs.«407895_j63728724738088_3_alg».proof.Proof.Gen.KernelIdeal.Points
import proofs.«407895_j63728724738088_3_alg».proof.Proof.KI.Reg0
import proofs.«407895_j63728724738088_3_alg».proof.Proof.KI.Reg1
import proofs.«407895_j63728724738088_3_alg».proof.Proof.KI.Reg2
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The buffer contents at each boundary of @main

@main is: the statistics region, a stretch of host operations (mean, variance, scale and shift, degrees), the
normalise-and-multiply region, a second stretch (the gather along the edges, the accumulation onto the pre-scaled rows,
the counts), and the pooling region. Between two of these the TensorCore's unscoped buffers hold: the launch memory;
after a region, its arrays at what its write-backs leave and every other buffer as it was; after a stretch, the
stretch's operations applied in order. -/

variable (m : (ℓ : Loc nD τ sig) → Buf (Elt F) ℓ)

/-- At launch (the statistics region's entry: no host operation comes before it). -/
abbrev W0 (c : Dev nD) : Valuation τ sig (Elt F) := fun b => m ((c : Dev nD), b)
abbrev V0 : (c : Dev nD) → (b : Ref sig .tc) → Buf (Elt F) ((c : Thread nD τ).loc b) := fun c b => W0 m c b
/-- After the statistics region: the column sums and the column sums of squares in its two result arrays. -/
def W1 (c : Dev nD) : Valuation τ sig (Elt F) :=
  Pipeline.withArrays spec0 c (W0 m c) fun w => (dat0 (V0 m) c).arrAt w cfg0.N
abbrev V1 : (c : Dev nD) → (b : Ref sig .tc) → Buf (Elt F) ((c : Thread nD τ).loc b) := fun c b => W1 m c b
/-- After the first stretch of host operations (the second region's entry). -/
abbrev W2 (c : Dev nD) : Valuation τ sig (Elt F) := StableHlo.after hostOps1 (W1 m c)
abbrev V2 : (c : Dev nD) → (b : Ref sig .tc) → Buf (Elt F) ((c : Thread nD τ).loc b) := fun c b => W2 m c b
/-- After the normalise-and-multiply region: the pre-scaled rows in its two result arrays. -/
def W3 (c : Dev nD) : Valuation τ sig (Elt F) :=
  Pipeline.withArrays spec1 c (W2 m c) fun w => (dat1 (V2 m) c).arrAt w cfg1.N
abbrev V3 : (c : Dev nD) → (b : Ref sig .tc) → Buf (Elt F) ((c : Thread nD τ).loc b) := fun c b => W3 m c b
/-- After the second stretch of host operations (the pooling region's entry). -/
abbrev W4 (c : Dev nD) : Valuation τ sig (Elt F) := StableHlo.after hostOps2 (W3 m c)
abbrev V4 : (c : Dev nD) → (b : Ref sig .tc) → Buf (Elt F) ((c : Thread nD τ).loc b) := fun c b => W4 m c b
/-- After the pooling region: the pooled means in its result array. This is what @main returns. -/
def W5 (c : Dev nD) : Valuation τ sig (Elt F) :=
  Pipeline.withArrays spec2 c (W4 m c) fun w => (dat2 (V4 m) c).arrAt w cfg2.N
abbrev V5 : (c : Dev nD) → (b : Ref sig .tc) → Buf (Elt F) ((c : Thread nD τ).loc b) := fun c b => W5 m c b

end Cert.KernelIdeal.Hand

end
-- ==== Proof.KI.Run.lean ====
import proofs.«407895_j63728724738088_3_alg».proof.Proof.Gen.KernelIdeal.Launch
import proofs.«407895_j63728724738088_3_alg».proof.Proof.Gen.KernelIdeal.Skeleton
import proofs.«407895_j63728724738088_3_alg».proof.Proof.Gen.KernelIdeal.Points
import proofs.«407895_j63728724738088_3_alg».proof.Proof.KI.Fold
import proofs.«407895_j63728724738088_3_alg».proof.Proof.Gen.KernelIdeal.Regions
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of @main: three regions and two stretches of host operations

Every weakly fair execution of @main from a memory with zero counters terminates, nothing faulting, and the final
memory holds every unscoped buffer at the last boundary's contents `W5`: the arguments as launched (no stretch writes
one, no region may change one) and the result array at what the pooling region's write-back leaves. -/

variable (m : (ℓ : Loc nD τ sig) → Buf (Elt F) ℓ) (ρ : Dev nD → PrngReg)

/-! ## Reading the fold

After a region a buffer holds, if it is the array of one of the region's windows, what that window's write-backs leave
there, and otherwise what it held when the region was entered. An input window is never written back, so the only buffers
a region changes are the arrays of its output windows; a stretch of host operations changes only the buffers its
operations write. -/

theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_off (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_off (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
theorem W5_arr (c : Dev nD) (w : Fin cfg2.W) :
    W5 m c (Proc.devRef .tc (Pipeline.arrRef spec2 w)) = (dat2 (V4 m) c).arrAt w cfg2.N := by
  unfold W5; exact Pipeline.withArrays_arr spec2 launch2.win.arr_inj c _ _ w
theorem W5_off (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb

/-- The statistics region keeps every buffer that is the array of no output window of its own. -/
theorem W1_keep (c : Dev nD) (b : Ref sig .tc) (hb : ∀ w, Pipeline.arrRef spec0 w = b → (cfg0.win w).isOut = false) :
    W1 m c (Proc.devRef .tc b) = W0 m c (Proc.devRef .tc b) := by
  by_cases h : ∃ w, Pipeline.arrRef spec0 w = b
  · obtain ⟨w, rfl⟩ := h
    exact (W1_arr m c w).trans (((dat0 (V0 m) c).arrAt_in w (hb w rfl) _).trans (A_eq0 (V0 m) c w))
  · exact W1_off m c b fun w e => h ⟨w, e⟩
/-- So does the normalise-and-multiply region, -/
theorem W3_keep (c : Dev nD) (b : Ref sig .tc) (hb : ∀ w, Pipeline.arrRef spec1 w = b → (cfg1.win w).isOut = false) :
    W3 m c (Proc.devRef .tc b) = W2 m c (Proc.devRef .tc b) := by
  by_cases h : ∃ w, Pipeline.arrRef spec1 w = b
  · obtain ⟨w, rfl⟩ := h
    exact (W3_arr m c w).trans (((dat1 (V2 m) c).arrAt_in w (hb w rfl) _).trans (A_eq1 (V2 m) c w))
  · exact W3_off m c b fun w e => h ⟨w, e⟩
/-- and the pooling region. -/
theorem W5_keep (c : Dev nD) (b : Ref sig .tc) (hb : ∀ w, Pipeline.arrRef spec2 w = b → (cfg2.win w).isOut = false) :
    W5 m c (Proc.devRef .tc b) = W4 m c (Proc.devRef .tc b) := by
  by_cases h : ∃ w, Pipeline.arrRef spec2 w = b
  · obtain ⟨w, rfl⟩ := h
    exact (W5_arr m c w).trans (((dat2 (V4 m) c).arrAt_in w (hb w rfl) _).trans (A_eq2 (V4 m) c w))
  · exact W5_off m c b fun w e => h ⟨w, e⟩
/-- A stretch keeps every buffer none of its operations writes. -/
theorem W2_keep (c : Dev nD) (b : Ref sig .tc) (hb : b ∉ hostOps1_W) :
    W2 m c (Proc.devRef .tc b) = W1 m c (Proc.devRef .tc b) :=
  StableHlo.after_of_writes_sub hostOps1 _ hostOps1_writes hb
theorem W4_keep (c : Dev nD) (b : Ref sig .tc) (hb : b ∉ hostOps2_W) :
    W4 m c (Proc.devRef .tc b) = W3 m c (Proc.devRef .tc b) :=
  StableHlo.after_of_writes_sub hostOps2 _ hostOps2_writes hb

/-- A buffer that no stretch writes and that is the array of no output window reaches the end as launched. -/
theorem W5_launch (c : Dev nD) (b : Ref sig .tc)
    (h0 : ∀ w, Pipeline.arrRef spec0 w = b → (cfg0.win w).isOut = false) (h1 : b ∉ hostOps1_W)
    (h2 : ∀ w, Pipeline.arrRef spec1 w = b → (cfg1.win w).isOut = false) (h3 : b ∉ hostOps2_W)
    (h4 : ∀ w, Pipeline.arrRef spec2 w = b → (cfg2.win w).isOut = false) :
    W5 m c (Proc.devRef .tc b) = m ((c : Thread nD τ).loc b) :=
  (W5_keep m c b h4).trans <| (W4_keep m c b h3).trans <| (W3_keep m c b h2).trans <| (W2_keep m c b h1).trans <|
    (W1_keep m c b h0).trans rfl

theorem W5_main_arg0 (c : Dev nD) : W5 m c (Proc.devRef .tc main_arg0) = m ((c : Thread nD τ).loc main_arg0) :=
  W5_launch m c main_arg0 (by decide) (by decide) (by decide) (by decide) (by decide)
theorem W5_main_arg1 (c : Dev nD) : W5 m c (Proc.devRef .tc main_arg1) = m ((c : Thread nD τ).loc main_arg1) :=
  W5_launch m c main_arg1 (by decide) (by decide) (by decide) (by decide) (by decide)
theorem W5_main_arg2 (c : Dev nD) : W5 m c (Proc.devRef .tc main_arg2) = m ((c : Thread nD τ).loc main_arg2) :=
  W5_launch m c main_arg2 (by decide) (by decide) (by decide) (by decide) (by decide)
theorem W5_main_arg3 (c : Dev nD) : W5 m c (Proc.devRef .tc main_arg3) = m ((c : Thread nD τ).loc main_arg3) :=
  W5_launch m c main_arg3 (by decide) (by decide) (by decide) (by decide) (by decide)
theorem W5_main_arg4 (c : Dev nD) : W5 m c (Proc.devRef .tc main_arg4) = m ((c : Thread nD τ).loc main_arg4) :=
  W5_launch m c main_arg4 (by decide) (by decide) (by decide) (by decide) (by decide)
theorem W5_main_arg5 (c : Dev nD) : W5 m c (Proc.devRef .tc main_arg5) = m ((c : Thread nD τ).loc main_arg5) :=
  W5_launch m c main_arg5 (by decide) (by decide) (by decide) (by decide) (by decide)
theorem W5_main_arg6 (c : Dev nD) : W5 m c (Proc.devRef .tc main_arg6) = m ((c : Thread nD τ).loc main_arg6) :=
  W5_launch m c main_arg6 (by decide) (by decide) (by decide) (by decide) (by decide)
theorem W5_main_arg7 (c : Dev nD) : W5 m c (Proc.devRef .tc main_arg7) = m ((c : Thread nD τ).loc main_arg7) :=
  W5_launch m c main_arg7 (by decide) (by decide) (by decide) (by decide) (by decide)

theorem W5_main_v57 (c : Dev nD) :
    W5 m c (Proc.devRef .tc main_v57) = (dat2 (V4 m) c).arrAt 5 cfg2.N := W5_arr m c 5

/-! ## The three pipelines side by side

Each region's proof data are taken at the contents the region is entered from. Indexed by the pipeline, the three sets
of data, their entry and exit contents and the facts their modules state read as one family, and one region record
serves all three. -/

/-- Every pipeline's proof data, at its region's entry contents. -/
def pdats : (p : Fin 3) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
  | ⟨2, _⟩ => fun c => dat2 (V4 m) c

/-- The contents region p is entered from, -/
def Win : Fin 3 → Dev nD → Valuation τ sig (Elt F)
  | ⟨0, _⟩ => W0 m
  | ⟨1, _⟩ => W2 m
  | ⟨2, _⟩ => W4 m
/-- and those it leaves. -/
def Wout : Fin 3 → Dev nD → Valuation τ sig (Elt F)
  | ⟨0, _⟩ => W1 m
  | ⟨1, _⟩ => W3 m
  | ⟨2, _⟩ => W5 m
/-- The entry and exit contents read at the TensorCore's references. -/
abbrev Vin (p : Fin 3) (c : Dev nD) : (b : Ref sig .tc) → Buf (Elt F) ((c : Thread nD τ).loc b) := fun b => Win m p c (Proc.devRef .tc b)
abbrev Vout (p : Fin 3) (c : Dev nD) : (b : Ref sig .tc) → Buf (Elt F) ((c : Thread nD τ).loc b) := fun b => Wout m p c (Proc.devRef .tc b)

theorem launchAt : ∀ p : Fin 3, Pipeline.LaunchFacts (nD := nD) (τ := τ) cfgs p
  | ⟨0, _⟩ => launch0
  | ⟨1, _⟩ => launch1
  | ⟨2, _⟩ => launch2

/-- Each window's array enters at what the entry contents hold there. -/
theorem pdats_A : ∀ (p : Fin 3) (c : Dev nD) (w : Fin (cfgs p).W),
    (pdats m p c).A w = Vin m p c (Pipeline.arrRef (cfgs p).spec w)
  | ⟨0, _⟩, c, w => A_eq0 (V0 m) c w
  | ⟨1, _⟩, c, w => A_eq1 (V2 m) c w
  | ⟨2, _⟩, c, w => A_eq2 (V4 m) c w
/-- Every input array is held whole. -/
theorem pdats_q : ∀ (p : Fin 3) (c : Dev nD) (w : Fin (cfgs p).W), (pdats m p c).q w = fullShare
  | ⟨0, _⟩, c, w => q_eq0 (V0 m) c w
  | ⟨1, _⟩, c, w => q_eq1 (V2 m) c w
  | ⟨2, _⟩, c, w => q_eq2 (V4 m) c w
/-- No body owes another core anything, -/
theorem pdats_owed : ∀ (p : Fin 3) (c : Dev nD) (t : Fin ((cfgs p).N + 1)), (pdats m p c).owed t = 0
  | ⟨0, _⟩, c, t => owed_eq0 (V0 m) c t
  | ⟨1, _⟩, c, t => owed_eq1 (V2 m) c t
  | ⟨2, _⟩, c, t => owed_eq2 (V4 m) c t
/-- and none bounds the pairs its waits record. -/
theorem pdats_recorded : ∀ (p : Fin 3) (c : Dev nD) (t : Fin ((cfgs p).N + 1)), (pdats m p c).recorded t = Set.univ
  | ⟨0, _⟩, c, t => recorded_eq0 (V0 m) c t
  | ⟨1, _⟩, c, t => recorded_eq1 (V2 m) c t
  | ⟨2, _⟩, c, t => recorded_eq2 (V4 m) c t
theorem pdats_body : ∀ (p : Fin 3) (c : Dev nD),
    Pipeline.BodyObligationLoose (pdats (F := F) m p c) (defs₀ (F := F)) Variants.none () Set.univ
  | ⟨0, _⟩, c => (body_obligation0 (V0 m) c).loose
  | ⟨1, _⟩, c => (body_obligation1 (V2 m) c).loose
  | ⟨2, _⟩, c => (body_obligation2 (V4 m) c).loose
/-- The scoped buffers no window stages and the generator register make the invariant before the first point, -/
theorem pdats_in : ∀ (p : Fin 3) (c : Dev nD), (Pipeline.ΦA (cfgs p).spec c : sProp 𝕄) ⊢ (pdats m p c).Φ 0
  | ⟨0, _⟩, c => hin0 (V0 m) c
  | ⟨1, _⟩, c => hin1 (V2 m) c
  | ⟨2, _⟩, c => hin2 (V4 m) c
/-- and the invariant after the last point gives them back. -/
theorem pdats_out : ∀ (p : Fin 3) (c : Dev nD), (pdats m p c).Φ (Fin.last (cfgs p).N) ⊢ (Pipeline.ΦA (cfgs p).spec c : sProp 𝕄)
  | ⟨0, _⟩, c => hout0 (V0 m) c
  | ⟨1, _⟩, c => hout1 (V2 m) c
  | ⟨2, _⟩, c => hout2 (V4 m) c
/-- The exit contents hold each array at what its write-backs leave, -/
theorem pdats_F : ∀ (p : Fin 3) (c : Dev nD) (w : Fin (cfgs p).W),
    (pdats m p c).arrAt w (cfgs p).N = Vout m p c (Pipeline.arrRef (cfgs p).spec w)
  | ⟨0, _⟩, c, w => (W1_arr m c w).symm
  | ⟨1, _⟩, c, w => (W3_arr m c w).symm
  | ⟨2, _⟩, c, w => (W5_arr m c w).symm
/-- and every other buffer at what the entry contents hold. -/
theorem pdats_rest : ∀ (p : Fin 3) (c : Dev nD) (b : Ref sig .tc),
    (∀ w, Pipeline.arrRef (cfgs p).spec w ≠ b) → Vout m p c b = Vin m p c b
  | ⟨0, _⟩, c, b, hb => W1_off m c b hb
  | ⟨1, _⟩, c, b, hb => W3_off m c b hb
  | ⟨2, _⟩, c, b, hb => W5_off m c b hb

/-! ## What a core holds between two segments -/

abbrev 𝒱₀ : Variants := Variants.none
/-- No level is assigned: no core ever owes another anything. -/
abbrev L : GSem nD τ sig → Finset Unit := fun _ => ∅
abbrev lv : GSem nD τ sig → Unit → ℕ := fun _ _ => 0
/-- Beside the unscoped buffers a core carries its generator register, at some state, and its owing nothing. -/
abbrev R (c : Dev nD) : sProp 𝕄 :=
  iprop((∃ r, prngReg c r) ∗ ∃ W, owes (c : Thread nD τ) (0 : CellTallies nD τ sig Unit) W)
/-- Every unscoped buffer at the contents W, and that. -/
abbrev Hold (W : Dev nD → Valuation τ sig (Elt F)) (c : Dev nD) : sProp 𝕄 :=
  iprop(StableHlo.held (c : Thread nD τ) (Pipeline.ucRefs τ sig) (W c) ∗ R c)

theorem uc_mem (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- Owing nothing, with whatever pairs recorded, is what a pipeline's first point asks, -/
theorem owes_in (p : Fin 3) (c : Dev nD) :
    (iprop(∃ W, owes (c : Thread nD τ) (0 : CellTallies nD τ sig Unit) W) : sProp 𝕄) ⊢ (pdats m p c).owesAt () 0 := by
  unfold Pipeline.Dat.owesAt Pipeline.owesWithin Pipeline.Dat.bound
  rw [pdats_owed m p c 0, pdats_recorded m p c 0]
  iintro ⟨%W, H⟩
  iexists W
  isplitr
  · ipureintro; exact fun _ _ => Or.inl trivial
  · iexact H
/-- and what its last point leaves. -/
theorem owes_out (p : Fin 3) (c : Dev nD) :
    (pdats m p c).owesAt () (Fin.last (cfgs p).N) ⊢ (iprop(∃ W, owes (c : Thread nD τ) (0 : CellTallies nD τ sig Unit) W) : sProp 𝕄) := by
  unfold Pipeline.Dat.owesAt Pipeline.owesWithin
  rw [pdats_owed m p c (Fin.last _)]
  iintro ⟨%W, -, H⟩
  iexists W
  iexact H

/-- A stretch of host operations over the unscoped buffers from the contents W. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option backward.isDefEq.respectTransparency.types false in
/-- Region p as a segment: entered holding every unscoped buffer at its entry contents, left holding them at its exit
    contents. On the way in the windows' arrays are parted from the other unscoped buffers, which go round the region;
    the generator register goes into the invariant with the scoped buffers no window stages and comes out of it again;
    on the way out the arrays, now at what the write-backs left, join the other buffers at the exit contents. -/
def region (p : Fin 3) : Pipeline.RegionSeg (pcfgs (F := F)) adm (pdats m) () defs₀ 𝒱₀ L lv p where
  win := (launchAt p).win.to₀
  block_pos := (launchAt p).block_pos
  stage_whole := (launchAt p).stage_whole
  K := PEmpty
  osem k := k.elim
  ho := Pipeline.OwnSemFacts.none _
  hbody c := pdats_body m p c
  hwaits := Pipeline.hwaits_of_owed_zero _ _ _ _ L lv p (pdats_owed m p)
  pre := Hold (Win m p)
  post := Hold (Wout m p)
  X c := iprop(∃ r, prngReg c r)
  Y c := iprop(∃ r, prngReg c r)
  Z c := Pipeline.unscopedRest (Ix := Unit) (Name := ℕ) (U := UR sig nD τ) (Lvl := ℕ) (cfgs p).spec c (Vin m p c)
  hentry c := by
    have hpart := Pipeline.arrays_of_unscopedBufs (p := p) (pcfgs (F := F)) adm (pdats m) (launchAt p).win (launchAt p).arr_whole c
      ((pdats m p c).share_full (pdats_q m p c)) (Vin m p c) (pdats_A m p c)
    rw [Pipeline.unscopedBufs_held c (Win m p c)] at hpart
    have hown := owes_in m p c
    iintro ⟨⟨Hbufs, Hreg, Howes⟩, -, -⟩
    imodintro
    ihave Hsplit := hpart $$ Hbufs
    icases Hsplit with ⟨Harr, Hrest⟩
    isplitl [Harr]
    · iexact Harr
    isplitr
    · unfold Pipeline.prefHeld
      rw [show (Finset.univ : Finset (Fin 0)) = ∅ from rfl, BI.bigSep_empty]
      iempintro
    isplitl [Howes]
    · iapply hown; iexact Howes
    isplitl [Hreg]
    · iexact Hreg
    · iexact Hrest
  hin c := by
    refine BIBase.Entails.trans ?_ (pdats_in m p c)
    unfold Pipeline.ΦA
    iintro ⟨Hreg, -, Hscoped⟩
    isplitl [Hscoped]
    · iexact Hscoped
    · iexact Hreg
  hout c := by
    refine BIBase.Entails.trans (pdats_out m p c) ?_
    rw [Pipeline.ownSems0_none]
    unfold Pipeline.ΦA
    iintro ⟨Hscoped, Hreg⟩
    isplitl [Hreg]
    · iexact Hreg
    isplitr
    · iempintro
    · iexact Hscoped
  hexit c := by
    have hjoin := Pipeline.unscopedBufs_of_arrays (p := p) (pcfgs (F := F)) adm (Ix := Unit) (Name := ℕ) (U := UR sig nD τ) (Lvl := ℕ)
      (launchAt p).win (launchAt p).arr_whole c (pdats m) ((pdats m p c).share_full (pdats_q m p c))
      (Vin m p c) (Vout m p c) ((pdats m p c).arrAt · (cfgs p).N) (pdats_F m p c)
      (fun b hb => pdats_rest m p c b fun w e => hb (Finset.mem_image.mpr ⟨w, Finset.mem_univ _, e⟩))
    rw [Pipeline.unscopedBufs_held c (Wout m p c)] at hjoin
    have hown := owes_out m p c
    iintro ⟨Harr, Howes, Hreg, Hrest⟩
    imodintro
    isplitl [Harr Hrest]
    · iapply hjoin
      isplitl [Harr]
      · iexact Harr
      · iexact Hrest
    isplitl [Hreg]
    · iexact Hreg
    · iapply hown; iexact Howes

/-! ## @main as its five segments, and the launch -/

abbrev segs : List (Pipeline.Seg (pcfgs (F := F)) adm (pdats m) () defs₀ 𝒱₀ L lv) :=
  [ .region (region m 0),
    .host (stretch hostOps1 hostOps1_sub hostOps1_fresh (W1 m)),
    .region (region m 1),
    .host (stretch hostOps2 hostOps2_sub hostOps2_fresh (W3 m)),
    .region (region m 2) ]

set_option backward.isDefEq.respectTransparency.types false in
/-- Every weakly fair execution of @main from the memory m with zero counters terminates, and its final memory holds
    every unscoped buffer of every core at the last boundary's contents; so any claim that follows from those readings
    holds of every final state. -/
theorem main_runs {Q : PUnit × MemSt nD τ sig (Elt F) → Prop}
    (hQ : ∀ s : MemSt nD τ sig (Elt F),
      (∀ c : Dev nD, ∀ b ∈ Pipeline.ucRefs τ sig, s.mem (((c : Thread nD τ)).1, b) = W5 m c b) → Q (⟨⟩, s)) :
    θ_run defs (onTc (τ := τ) (main (F := F))) ⟨m, fun _ => 0, ρ⟩ Q :=
  Pipeline.θ_run_regions_kit (pcfgs (F := F)) adm (pdats m) () cellOf_inj emb₁ defs₀ 𝒱₀ L lv m ρ main (segs m)
    (fun c Q' => by
      rewrite [main_chain c, Pipeline.Seg.run_eq_chain,
        show (segs m).map Pipeline.Seg.prog = [
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      have hemp : (BI.emp : sProp 𝕄) ⊢ bigSep Finset.univ (fun _ : Dev nD => (BI.emp : sProp 𝕄)) := by
        rw [BI.bigSep_emp_const]
      have hown : (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) := .rfl
      iintro Hu
      imodintro
      isplitl [Hu]
      · iapply hown; iexact Hu
      · iapply hemp; iempintro)
    (T₀ := Hold (W0 m))
    (Tₙ := fun c => StableHlo.held (c : Thread nD τ) (Pipeline.ucRefs τ sig) (W5 m c))
    (hch := ⟨fun _ => .rfl, fun _ => .rfl, fun _ => .rfl, fun _ => .rfl, fun _ => .rfl, fun c => show (Hold (W5 m) c : sProp 𝕄) ⊢ _ from by
      iintro ⟨Hbufs, -, Howes⟩
      isplitl [Hbufs]
      · iexact Hbufs
      · iexact Howes⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hbufs, -, Howes, -, Hreg, -⟩, -⟩
      imodintro
      isplitl [Hbufs]
      · iexact Hbufs
      isplitl [Hreg]
      · iexists _; iexact Hreg
      · iexists ∅; iexact Howes)
    (QY := fun c s => ∀ b ∈ Pipeline.ucRefs τ sig, s.mem (((c : Thread nD τ)).1, b) = W5 m c b)
    (hfin := fun c s' => by
      unfold StableHlo.held
      iintro ⟨Hbufs, HSI⟩
      imodintro
      iapply (pointsTo_read_all (Pipeline.ucRefs τ sig) (fun b => (((c : Thread nD τ)).1, b)) (W5 m c) s')
      isplitl [Hbufs]
      · iexact Hbufs
      · iexact HSI)
    (hQ := hQ)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  main_runs m ρ fun s h c =>
    ⟨(h c _ (uc_mem main_arg0 (by decide))).trans (W5_main_arg0 m c),
      (h c _ (uc_mem main_arg1 (by decide))).trans (W5_main_arg1 m c),
      (h c _ (uc_mem main_arg2 (by decide))).trans (W5_main_arg2 m c),
      (h c _ (uc_mem main_arg3 (by decide))).trans (W5_main_arg3 m c),
      (h c _ (uc_mem main_arg4 (by decide))).trans (W5_main_arg4 m c),
      (h c _ (uc_mem main_arg5 (by decide))).trans (W5_main_arg5 m c),
      (h c _ (uc_mem main_arg6 (by decide))).trans (W5_main_arg6 m c),
      (h c _ (uc_mem main_arg7 (by decide))).trans (W5_main_arg7 m c)⟩

/-- The run with the result named: the result array ends at the last boundary's contents, the arguments as launched. -/
theorem run_result : θ_run defs (onTc (τ := τ) (main (F := F))) ⟨m, fun _ => 0, ρ⟩ (fun r => ∀ c : Dev nD,
      r.2.mem ((c.tc : Thread nD τ).loc main_v57) = W5 m c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  main_runs m ρ fun s h c =>
    ⟨h c _ (uc_mem main_v57 (by decide)),
      (h c _ (uc_mem main_arg0 (by decide))).trans (W5_main_arg0 m c),
      (h c _ (uc_mem main_arg1 (by decide))).trans (W5_main_arg1 m c),
      (h c _ (uc_mem main_arg2 (by decide))).trans (W5_main_arg2 m c),
      (h c _ (uc_mem main_arg3 (by decide))).trans (W5_main_arg3 m c),
      (h c _ (uc_mem main_arg4 (by decide))).trans (W5_main_arg4 m c),
      (h c _ (uc_mem main_arg5 (by decide))).trans (W5_main_arg5 m c),
      (h c _ (uc_mem main_arg6 (by decide))).trans (W5_main_arg6 m c),
      (h c _ (uc_mem main_arg7 (by decide))).trans (W5_main_arg7 m c)⟩

end Cert.KernelIdeal.Hand

end
-- ==== Proof.KI.Val0.lean ====
import proofs.«407895_j63728724738088_3_alg».proof.Proof.Gen.KernelIdeal.Launch
import proofs.«407895_j63728724738088_3_alg».proof.Proof.Gen.KernelIdeal.Skeleton
import proofs.«407895_j63728724738088_3_alg».proof.Proof.Gen.KernelIdeal.Points
import proofs.«407895_j63728724738088_3_alg».proof.Proof.KI.Reg0
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

/-! # What the statistics region leaves, at the ideal values

The region visits the 25 row blocks of the node features in order; each of its two result arrays is one 1 × 256 block,
zeroed at the first block and written back once, after the last. Entry `f` of the first ends at the sum of column `f`
over all 100000 rows, of the second at the sum of the squares. -/

/-! ## The update payloads at an entry -/

/-- The zero payloads are zero at every entry. -/
theorem pay1_apply0 (f : Fin 256) : (k0_pay1 (F := Ideal)) (ix2 (0 : Fin 1) f) = 0 := by
  unfold k0_pay1
  exact Ideal.ofBits_zero_f32

theorem pay2_apply0 (f : Fin 256) : (k0_pay2 (F := Ideal)) (ix2 (0 : Fin 1) f) = 0 := by
  unfold k0_pay2
  exact Ideal.ofBits_zero_f32

/-- Row `r`, column `f` of a block is what the column reduction reads at `f` with `r` put back on the reduced axis. -/
theorem lift_eq0 (f : Fin 256) (r : Fin (S4000x256.size 0)) :
    reduces_S4000x256_S256.lift (ix1 f) r = (ix2 (⟨r.val, r.isLt⟩ : Fin 4000) f : S4000x256.Idx) := by
  funext a
  match a with
  | ⟨0, _⟩ => rfl
  | ⟨1, _⟩ => rfl

/-- The first update at entry `f`: what the buffer held there plus the block's column sum. -/
theorem pay3_apply0 (x : Vec Ideal S4000x256 .f32) (acc : Vec Ideal S1x256 .f32) (f : Fin 256) :
    k0_pay3 (F := Ideal) x acc (ix2 (0 : Fin 1) f) = acc (ix2 (0 : Fin 1) f) + ∑ r : Fin 4000, x (ix2 r f) := by
  unfold k0_pay3
  dsimp only
  refine (addf_apply _ _ _).trans ?_
  congr 1
  · exact congrFun (shapeCast_self acc shapeCasts_S1x256_S1x256) _
  · refine (shapeCast_a_1a_apply _ shapeCasts_S256_S1x256 (0 : Fin 1) f).trans ?_
    refine (Ideal.multiReduction_add_single x _ reduces_S4000x256_S256 (.inl rfl) rfl (ix1 f)).trans ?_
    exact Finset.sum_congr rfl fun r _ => congrArg x (lift_eq0 f r)

/-- The second update at entry `f`: what the buffer held there plus the block's column sum of squares. -/
theorem pay4_apply0 (x : Vec Ideal S4000x256 .f32) (acc : Vec Ideal S1x256 .f32) (f : Fin 256) :
    k0_pay4 (F := Ideal) x acc (ix2 (0 : Fin 1) f) = acc (ix2 (0 : Fin 1) f) + ∑ r : Fin 4000, x (ix2 r f) * x (ix2 r f) := by
  unfold k0_pay4
  dsimp only
  refine (addf_apply _ _ _).trans ?_
  congr 1
  · exact congrFun (shapeCast_self acc shapeCasts_S1x256_S1x256) _
  · refine (shapeCast_a_1a_apply _ shapeCasts_S256_S1x256 (0 : Fin 1) f).trans ?_
    refine (Ideal.multiReduction_add_single (mulf x x) _ reduces_S4000x256_S256 (.inl rfl) rfl (ix1 f)).trans ?_
    exact Finset.sum_congr rfl fun r _ => (mulf_apply x x _).trans (congrArg (fun y => x y * x y) (lift_eq0 f r))

/-! ## Blocks of rows -/

/-- A sum over the first `4000 (n + 1)` naturals is the sum over the first `4000 n` plus the next 4000. -/
theorem sum_range_block0 (g : ℕ → EReal) (n : ℕ) :
    ∑ i ∈ Finset.range (4000 * (n + 1)), g i
      = ∑ i ∈ Finset.range (4000 * n), g i + ∑ r ∈ Finset.range 4000, g (4000 * n + r) := by
  rw [Nat.mul_succ, Finset.sum_range_add]

/-- The features as the region finds them, and the row block of point `t`, at their literal types. -/
abbrev xarr0 (V : (c : Dev nD) → (b : Ref sig .tc) → Buf (Elt Ideal) ((c : Thread nD τ).loc b)) (c : Dev nD) : Vec Ideal S100000x256 .f32 := V c main_arg0
abbrev xblk0 (V : (c : Dev nD) → (b : Ref sig .tc) → Buf (Elt Ideal) ((c : Thread nD τ).loc b)) (c : Dev nD) (t : Fin cfg0.N) : Vec Ideal S4000x256 .f32 := iblk0 V c 0 t

/-- The row window's block index at point `t` is `(t, 0)`: decided over the 25 points. -/
theorem index0_0 : ∀ t : Fin cfg0.N, win0_0.index t 0 = t.val ∧ win0_0.index t 1 = 0 :=
  (by decide +kernel : ∀ t : Fin grid0.N, win0_0.index t 0 = t.val ∧ win0_0.index t 1 = 0)

/-- Row `r` of the block of point `t` is row `4000 t + r` of the features: a block's coordinate in its array is the
    block index times the block's size plus the coordinate inside the block. -/
theorem xblk0_apply (V : (c : Dev nD) → (b : Ref sig .tc) → Buf (Elt Ideal) ((c : Thread nD τ).loc b)) (c : Dev nD) (t : Fin cfg0.N) (r : Fin 4000) (f : Fin 256) (h : 4000 * t.val + r.val < 100000) :
    xblk0 V c t (ix2 r f) = xarr0 V c (ix2 ⟨4000 * t.val + r.val, h⟩ f) := by
  show iblk0 V c 0 t (ix2 r f) = V c main_arg0 (ix2 ⟨4000 * t.val + r.val, h⟩ f)
  unfold iblk0
  rw [View.read_apply]
  show V c main_arg0 _ = V c main_arg0 _
  congr 1
  funext a
  apply Fin.ext
  match a with
  | ⟨0, _⟩ => show win0_0.index t 0 * 4000 + 1 * r.val = 4000 * t.val + r.val; rw [(index0_0 t).1]; omega
  | ⟨1, _⟩ => show win0_0.index t 1 * 256 + 1 * f.val = f.val; rw [(index0_0 t).2]; omega

/-- Column `f` of the features as a sequence of rows (zero past the last row). -/
def col0 (V : (c : Dev nD) → (b : Ref sig .tc) → Buf (Elt Ideal) ((c : Thread nD τ).loc b)) (c : Dev nD) (f : Fin 256) (i : ℕ) : EReal :=
  if h : i < 100000 then xarr0 V c (ix2 ⟨i, h⟩ f) else 0

/-- The column sum of the block of point `t` is the sum of rows `4000 t … 4000 t + 3999` of the column. -/
theorem blk_sum0 (V : (c : Dev nD) → (b : Ref sig .tc) → Buf (Elt Ideal) ((c : Thread nD τ).loc b)) (c : Dev nD) (f : Fin 256) (t : Fin cfg0.N) :
    ∑ r : Fin 4000, xblk0 V c t (ix2 r f) = ∑ r ∈ Finset.range 4000, col0 V c f (4000 * t.val + r) := by
  have hN : t.val < 25 := lt_of_lt_of_eq t.isLt (show cfg0.N = 25 from N_0)
  rw [Finset.sum_range]
  refine Finset.sum_congr rfl fun r _ => ?_
  have h : 4000 * t.val + r.val < 100000 := by have := r.isLt; omega
  rw [xblk0_apply V c t r f h]
  unfold col0
  rw [dif_pos h]

/-- and of the squares likewise. -/
theorem blk_sq0 (V : (c : Dev nD) → (b : Ref sig .tc) → Buf (Elt Ideal) ((c : Thread nD τ).loc b)) (c : Dev nD) (f : Fin 256) (t : Fin cfg0.N) :
    ∑ r : Fin 4000, xblk0 V c t (ix2 r f) * xblk0 V c t (ix2 r f)
      = ∑ r ∈ Finset.range 4000, col0 V c f (4000 * t.val + r) * col0 V c f (4000 * t.val + r) := by
  have hN : t.val < 25 := lt_of_lt_of_eq t.isLt (show cfg0.N = 25 from N_0)
  rw [Finset.sum_range (fun i => col0 V c f (4000 * t.val + i) * col0 V c f (4000 * t.val + i))]
  refine Finset.sum_congr rfl fun r _ => ?_
  have h : 4000 * t.val + r.val < 100000 := by have := r.isLt; omega
  rw [xblk0_apply V c t r f h]
  unfold col0
  rw [dif_pos h]

/-! ## The running sums -/

/-- After point `n` the first result buffer holds, at entry `f`, the sum of column `f` over the rows below
    `4000 (n + 1)`: by induction on the point. -/
theorem sum0At_apply (V : (c : Dev nD) → (b : Ref sig .tc) → Buf (Elt Ideal) ((c : Thread nD τ).loc b)) (c : Dev nD) (f : Fin 256) : ∀ (n : ℕ) (hn : n < cfg0.N),
    sum0At V c n hn (ix2 (0 : Fin 1) f) = ∑ i ∈ Finset.range (4000 * (n + 1)), col0 V c f i
  | 0, hn => by
    show k0_pay3 (F := Ideal) (xblk0 V c ⟨0, hn⟩) (k0_pay1 (F := Ideal)) (ix2 (0 : Fin 1) f) = _
    refine (pay3_apply0 (xblk0 V c ⟨0, hn⟩) (k0_pay1 (F := Ideal)) f).trans ?_
    rw [pay1_apply0, zero_add, blk_sum0 V c f ⟨0, hn⟩, sum_range_block0]
    simp
  | n + 1, hn => by
    show k0_pay3 (F := Ideal) (xblk0 V c ⟨n + 1, hn⟩) (sum0At V c n (Nat.lt_of_succ_lt hn)) (ix2 (0 : Fin 1) f) = _
    refine (pay3_apply0 (xblk0 V c ⟨n + 1, hn⟩) (sum0At V c n (Nat.lt_of_succ_lt hn)) f).trans ?_
    rw [sum0At_apply V c f n (Nat.lt_of_succ_lt hn), blk_sum0 V c f ⟨n + 1, hn⟩, sum_range_block0 (col0 V c f) (n + 1)]

/-- and the second the sum of the squares. -/
theorem sq0At_apply (V : (c : Dev nD) → (b : Ref sig .tc) → Buf (Elt Ideal) ((c : Thread nD τ).loc b)) (c : Dev nD) (f : Fin 256) : ∀ (n : ℕ) (hn : n < cfg0.N),
    sq0At V c n hn (ix2 (0 : Fin 1) f) = ∑ i ∈ Finset.range (4000 * (n + 1)), col0 V c f i * col0 V c f i
  | 0, hn => by
    show k0_pay4 (F := Ideal) (xblk0 V c ⟨0, hn⟩) (k0_pay2 (F := Ideal)) (ix2 (0 : Fin 1) f) = _
    refine (pay4_apply0 (xblk0 V c ⟨0, hn⟩) (k0_pay2 (F := Ideal)) f).trans ?_
    rw [pay2_apply0, zero_add, blk_sq0 V c f ⟨0, hn⟩, sum_range_block0]
    simp
  | n + 1, hn => by
    show k0_pay4 (F := Ideal) (xblk0 V c ⟨n + 1, hn⟩) (sq0At V c n (Nat.lt_of_succ_lt hn)) (ix2 (0 : Fin 1) f) = _
    refine (pay4_apply0 (xblk0 V c ⟨n + 1, hn⟩) (sq0At V c n (Nat.lt_of_succ_lt hn)) f).trans ?_
    rw [sq0At_apply V c f n (Nat.lt_of_succ_lt hn), blk_sq0 V c f ⟨n + 1, hn⟩,
      sum_range_block0 (fun i => col0 V c f i * col0 V c f i) (n + 1)]

/-- The 25 blocks of 4000 rows are the 100000 rows. -/
theorem col0_sum (V : (c : Dev nD) → (b : Ref sig .tc) → Buf (Elt Ideal) ((c : Thread nD τ).loc b)) (c : Dev nD) (f : Fin 256) :
    ∑ i ∈ Finset.range 100000, col0 V c f i = ∑ n : Fin 100000, xarr0 V c (ix2 n f) := by
  rw [Finset.sum_range]
  refine Finset.sum_congr rfl fun i _ => ?_
  unfold col0
  rw [dif_pos i.isLt]

theorem col0_sq (V : (c : Dev nD) → (b : Ref sig .tc) → Buf (Elt Ideal) ((c : Thread nD τ).loc b)) (c : Dev nD) (f : Fin 256) :
    ∑ i ∈ Finset.range 100000, col0 V c f i * col0 V c f i
      = ∑ n : Fin 100000, xarr0 V c (ix2 n f) * xarr0 V c (ix2 n f) := by
  rw [Finset.sum_range (fun i => col0 V c f i * col0 V c f i)]
  refine Finset.sum_congr rfl fun i _ => ?_
  unfold col0
  rw [dif_pos i.isLt]

/-! ## The one write-back -/

/-- The last point of the grid. -/
abbrev tLast0 : Fin cfg0.N := ⟨24, by rw [show cfg0.N = 25 from N_0]; decide⟩

/-- Only the last point writes a result buffer back. -/
theorem flush_last0 (t : Fin cfg0.N) (h : t.val % 25 = 24) : t = tLast0 := by
  have hN : t.val < 25 := lt_of_lt_of_eq t.isLt (show cfg0.N = 25 from N_0)
  exact Fin.ext (by show t.val = 24; omega)

/-- The first result array after the region is what the last point left in its buffer: the last point's write-back is
    the only one, and its block, at index (0, 0) and of the array's own sizes, is the whole array. -/
theorem arr0_1 (V : (c : Dev nD) → (b : Ref sig .tc) → Buf (Elt Ideal) ((c : Thread nD τ).loc b)) (c : Dev nD) :
    (dat0 (F := Ideal) V c).arrAt 1 cfg0.N = sum0At V c tLast0.val tLast0.isLt := by
  have hfl : (cfg0.win 1).flush tLast0 = true := (flush0_1 tLast0).mpr rfl
  have hblk := (dat0 (F := Ideal) V c).read_blk_arrAt_eq_flushed 1
    (fun t t' hf hf' hne => absurd ((flush_last0 t ((flush0_1 t).mp hf)).trans (flush_last0 t' ((flush0_1 t').mp hf')).symm) hne)
    cfg0.N tLast0 tLast0.isLt hfl
  have hz' : (fun a => win0_1.index tLast0 a * main_v0_0.ty.shape.size a) = fun _ => 0 :=
    have h0 : win0_1.index tLast0 0 * main_v0_0.ty.shape.size 0 = 0 := by decide
    have h1 : win0_1.index tLast0 1 * main_v0_0.ty.shape.size 1 = 0 := by decide
    funext fun a => match a with
      | ⟨0, _⟩ => h0
      | ⟨1, _⟩ => h1
  have hread := Memref.read_access_unit_zero (Elt Ideal) main_v0_0 hz' (fun a => by rw [congrFun hz' a]; simp)
    ((dat0 (F := Ideal) V c).arrAt 1 cfg0.N)
  refine hread.symm.trans (hblk.trans ?_)
  show (cfg0.win 1).cut (grid0.coords tLast0) ((dat0 (F := Ideal) V c).after 1 tLast0) = _
  rw [after0_1]
  rfl

/-- and the second likewise. -/
theorem arr0_2 (V : (c : Dev nD) → (b : Ref sig .tc) → Buf (Elt Ideal) ((c : Thread nD τ).loc b)) (c : Dev nD) :
    (dat0 (F := Ideal) V c).arrAt 2 cfg0.N = sq0At V c tLast0.val tLast0.isLt := by
  have hfl : (cfg0.win 2).flush tLast0 = true := (flush0_2 tLast0).mpr rfl
  have hblk := (dat0 (F := Ideal) V c).read_blk_arrAt_eq_flushed 2
    (fun t t' hf hf' hne => absurd ((flush_last0 t ((flush0_2 t).mp hf)).trans (flush_last0 t' ((flush0_2 t').mp hf')).symm) hne)
    cfg0.N tLast0 tLast0.isLt hfl
  have hz' : (fun a => win0_2.index tLast0 a * main_v0_1.ty.shape.size a) = fun _ => 0 :=
    have h0 : win0_2.index tLast0 0 * main_v0_1.ty.shape.size 0 = 0 := by decide
    have h1 : win0_2.index tLast0 1 * main_v0_1.ty.shape.size 1 = 0 := by decide
    funext fun a => match a with
      | ⟨0, _⟩ => h0
      | ⟨1, _⟩ => h1
  have hread := Memref.read_access_unit_zero (Elt Ideal) main_v0_1 hz' (fun a => by rw [congrFun hz' a]; simp)
    ((dat0 (F := Ideal) V c).arrAt 2 cfg0.N)
  refine hread.symm.trans (hblk.trans ?_)
  show (cfg0.win 2).cut (grid0.coords tLast0) ((dat0 (F := Ideal) V c).after 2 tLast0) = _
  rw [after0_2]
  rfl

/-! ## The results -/

theorem final0_sum (V : (c : Dev nD) → (b : Ref sig .tc) → Buf (Elt Ideal) ((c : Thread nD τ).loc b)) (c : Dev nD) (f : Fin 256) :
    (dat0 (F := Ideal) V c).arrAt 1 cfg0.N (ix2 (0 : Fin 1) f) = ∑ n : Fin 100000, xarr0 V c (ix2 n f) := by
  rw [arr0_1 V c]
  have h := sum0At_apply V c f 24 tLast0.isLt
  rw [show 4000 * (24 + 1) = 100000 from by norm_num] at h
  exact h.trans (col0_sum V c f)

theorem final0_sq (V : (c : Dev nD) → (b : Ref sig .tc) → Buf (Elt Ideal) ((c : Thread nD τ).loc b)) (c : Dev nD) (f : Fin 256) :
    (dat0 (F := Ideal) V c).arrAt 2 cfg0.N (ix2 (0 : Fin 1) f)
      = ∑ n : Fin 100000, xarr0 V c (ix2 n f) * xarr0 V c (ix2 n f) := by
  rw [arr0_2 V c]
  have h := sq0At_apply V c f 24 tLast0.isLt
  rw [show 4000 * (24 + 1) = 100000 from by norm_num] at h
  exact h.trans (col0_sq V c f)

end Cert.KernelIdeal.Hand

end
-- ==== Proof.KI.Val1.lean ====
import proofs.«407895_j63728724738088_3_alg».proof.Proof.Gen.KernelIdeal.Launch
import proofs.«407895_j63728724738088_3_alg».proof.Proof.Gen.KernelIdeal.Skeleton
import proofs.«407895_j63728724738088_3_alg».proof.Proof.Gen.KernelIdeal.Points
import proofs.«407895_j63728724738088_3_alg».proof.Proof.KI.Reg1
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

/-! # What the normalise-and-multiply region leaves, at the ideal values

Row block `t` of each result array is written from row block `t` of the features, the scale and shift rows, the weight
matrix and row block `t` of the per-node factor; the blocks tile the arrays. Both results (the second is the first's
narrower copy, the same extended reals) hold at `(n, j)` the product of row `n`, scaled and shifted feature by feature,
with column `j` of the weights, times node `n`'s factor. -/

/-- The region's five operands as it finds them: features, scale row, shift row, weights, per-node factor. -/
abbrev feat1 (V : (c : Dev nD) → (b : Ref sig .tc) → Buf (Elt Ideal) ((c : Thread nD τ).loc b)) (c : Dev nD) : S100000x256.Idx → EReal := V c main_arg0
abbrev scale1 (V : (c : Dev nD) → (b : Ref sig .tc) → Buf (Elt Ideal) ((c : Thread nD τ).loc b)) (c : Dev nD) : S1x256.Idx → EReal := V c main_v11
abbrev shift1 (V : (c : Dev nD) → (b : Ref sig .tc) → Buf (Elt Ideal) ((c : Thread nD τ).loc b)) (c : Dev nD) : S1x256.Idx → EReal := V c main_v14
abbrev wts1 (V : (c : Dev nD) → (b : Ref sig .tc) → Buf (Elt Ideal) ((c : Thread nD τ).loc b)) (c : Dev nD) : S256x128.Idx → EReal := V c main_v29
abbrev fac1 (V : (c : Dev nD) → (b : Ref sig .tc) → Buf (Elt Ideal) ((c : Thread nD τ).loc b)) (c : Dev nD) : S100000x1.Idx → EReal := V c main_v28

/-! ## The matrix product's operand indices

The product contracts the left operand's axis 1 with the right operand's axis 0: at output index `j` and contraction
position `k` the left operand is read at `(j 0, k)` and the right at `(k, j 1)`. -/

theorem lhs_dot1_0 (j : S4000x128.Idx) (k : dot_S4000x256_S256x128_S4000x128_1_0_0_1_n_n.contr.Idx) :
    (dot_S4000x256_S256x128_S4000x128_1_0_0_1_n_n.lhsIdx j k 0).val = (j 0).val := by
  unfold DotDims.lhsIdx
  rw [dif_neg (show ¬(0 : Fin S4000x256.rank) ∈ dot_S4000x256_S256x128_S4000x128_1_0_0_1_n_n.lhsBatch by decide),
    dif_pos (show (0 : Fin S4000x256.rank) ∈ dot_S4000x256_S256x128_S4000x128_1_0_0_1_n_n.lhsNonContracting by decide)]
  rfl

theorem lhs_dot1_1 (j : S4000x128.Idx) (k : dot_S4000x256_S256x128_S4000x128_1_0_0_1_n_n.contr.Idx) :
    (dot_S4000x256_S256x128_S4000x128_1_0_0_1_n_n.lhsIdx j k 1).val = (k ⟨0, by decide⟩).val :=
  DotDims.lhsIdx_val_of_single _ (cl := (1 : Fin S4000x256.rank)) rfl j k

theorem rhs_dot1_0 (j : S4000x128.Idx) (k : dot_S4000x256_S256x128_S4000x128_1_0_0_1_n_n.contr.Idx) :
    (dot_S4000x256_S256x128_S4000x128_1_0_0_1_n_n.rhsIdx j k 0).val = (k ⟨0, by decide⟩).val :=
  DotDims.rhsIdx_val_of_single _ (cr := (0 : Fin S256x128.rank)) rfl j k

theorem rhs_dot1_1 (j : S4000x128.Idx) (k : dot_S4000x256_S256x128_S4000x128_1_0_0_1_n_n.contr.Idx) :
    (dot_S4000x256_S256x128_S4000x128_1_0_0_1_n_n.rhsIdx j k 1).val = (j 1).val := by
  unfold DotDims.rhsIdx
  rw [dif_neg (show ¬(1 : Fin S256x128.rank) ∈ dot_S4000x256_S256x128_S4000x128_1_0_0_1_n_n.rhsBatch by decide),
    dif_pos (show (1 : Fin S256x128.rank) ∈ dot_S4000x256_S256x128_S4000x128_1_0_0_1_n_n.rhsNonContracting by decide)]
  rfl

/-- The product into the zero accumulator, at `(p, q)`: the sum over the 256 features of row `p` times column `q`. -/
theorem matmul1_apply (A : FVec Ideal S4000x256 .bf16) (B : FVec Ideal S256x128 .bf16) (p : Fin 4000) (q : Fin 128) :
    matmul dot_S4000x256_S256x128_S4000x128_1_0_0_1_n_n none A B (constant (F := Ideal) S4000x128 .f32 0x00000000#32) (ix2 p q)
      = ∑ k : Fin 256, A (ix2 p k) * B (ix2 k q) := by
  simp only [matmul]
  rw [Ideal.matmul_constant_zero_apply,
    ← Equiv.sum_comp (contrEquiv1 dot_S4000x256_S256x128_S4000x128_1_0_0_1_n_n 256 rfl rfl).symm]
  refine Finset.sum_congr rfl fun k _ => ?_
  have hk := contrEquiv1_symm_val dot_S4000x256_S256x128_S4000x128_1_0_0_1_n_n 256 rfl rfl k
  have hl : dot_S4000x256_S256x128_S4000x128_1_0_0_1_n_n.lhsIdx (ix2 p q) ((contrEquiv1 dot_S4000x256_S256x128_S4000x128_1_0_0_1_n_n 256 rfl rfl).symm k) = ix2 p k := by
    funext a; apply Fin.ext
    match a with
    | ⟨0, _⟩ => exact lhs_dot1_0 _ _
    | ⟨1, _⟩ => exact (lhs_dot1_1 _ _).trans hk
  have hr : dot_S4000x256_S256x128_S4000x128_1_0_0_1_n_n.rhsIdx (ix2 p q) ((contrEquiv1 dot_S4000x256_S256x128_S4000x128_1_0_0_1_n_n 256 rfl rfl).symm k) = ix2 k q := by
    funext a; apply Fin.ext
    match a with
    | ⟨0, _⟩ => exact (rhs_dot1_0 _ _).trans hk
    | ⟨1, _⟩ => exact rhs_dot1_1 _ _
  rw [hl, hr]

/-! ## The row and column broadcasts -/

/-- A 1 × 256 row spread over 4000 rows reads the row's entry in that column. -/
theorem bcast_row_apply (x : FVec Ideal S1x256 .f32) (p : Fin 4000) (k : Fin 256) :
    broadcastTo S4000x256 x broadcasts_S1x256_S4000x256 (ix2 p k) = x (ix2 (0 : Fin 1) k) :=
  broadcastTo_apply x _ _ _ fun a => by
    match a with
    | ⟨0, _⟩ => rfl
    | ⟨1, _⟩ => rfl

/-- A 4000 × 1 column spread over 128 columns reads the column's entry in that row. -/
theorem bcast_col_apply (x : FVec Ideal S4000x1 .f32) (p : Fin 4000) (q : Fin 128) :
    broadcastTo S4000x128 x broadcasts_S4000x1_S4000x128 (ix2 p q) = x (ix2 p (0 : Fin 1)) :=
  broadcastTo_apply x _ _ _ fun a => by
    match a with
    | ⟨0, _⟩ => rfl
    | ⟨1, _⟩ => rfl

/-! ## The kernel's payload at an index -/

/-- The wide payload at `(p, q)`: row `p` of the block, scaled and shifted feature by feature, times column `q` of the
    weights, times the row's factor. -/
theorem pay1_apply (x0 : Vec Ideal S4000x256 .f32) (x1 x2 : Vec Ideal S1x256 .f32) (x3 : Vec Ideal S256x128 .bf16) (x4 : Vec Ideal S4000x1 .f32)
    (p : Fin 4000) (q : Fin 128) :
    k1_pay1 x0 x1 x2 x3 x4 (ix2 p q)
      = (∑ k : Fin 256, (x0 (ix2 p k) * x1 (ix2 (0 : Fin 1) k) + x2 (ix2 (0 : Fin 1) k)) * x3 (ix2 k q)) * x4 (ix2 p (0 : Fin 1)) := by
  unfold k1_pay1
  simp only [shapeCast_self]
  rw [mulf_apply, bcast_col_apply, matmul1_apply]
  congr 1
  refine Finset.sum_congr rfl fun k _ => ?_
  rw [truncf_apply, addf_apply, mulf_apply, bcast_row_apply, bcast_row_apply]

/-- The narrow payload is the wide one (narrowing is the identity on the extended reals). -/
theorem pay2_apply (x0 : Vec Ideal S4000x256 .f32) (x1 x2 : Vec Ideal S1x256 .f32) (x3 : Vec Ideal S256x128 .bf16) (x4 : Vec Ideal S4000x1 .f32)
    (p : Fin 4000) (q : Fin 128) :
    k1_pay2 x0 x1 x2 x3 x4 (ix2 p q)
      = (∑ k : Fin 256, (x0 (ix2 p k) * x1 (ix2 (0 : Fin 1) k) + x2 (ix2 (0 : Fin 1) k)) * x3 (ix2 k q)) * x4 (ix2 p (0 : Fin 1)) := by
  unfold k1_pay2
  rw [truncf_apply, pay1_apply]

/-! ## From blocks to the arrays -/

section Arrays

variable (V : (c : Dev nD) → (b : Ref sig .tc) → Buf (Elt Ideal) ((c : Thread nD τ).loc b))

/-- What the wide result array ends holding: entry `i = (n, j)` is row `n` of the features, scaled and shifted, times column
    `j` of the weights, times node `n`'s factor, over the region-entry contents. -/
def prodWide (c : Dev nD) : Buf (Elt Ideal) ((c : Thread nD τ).loc main_v30_0) := fun i =>
  (∑ k : Fin 256, (feat1 V c (ix2 (i 0) k) * scale1 V c (ix2 (0 : Fin 1) k) + shift1 V c (ix2 (0 : Fin 1) k)) * wts1 V c (ix2 k (i 1)))
    * fac1 V c (ix2 (i 0) (0 : Fin 1))

/-- The narrow result array ends holding the same extended reals. -/
def prodNarrow (c : Dev nD) : Buf (Elt Ideal) ((c : Thread nD τ).loc main_v30_1) := fun i =>
  (∑ k : Fin 256, (feat1 V c (ix2 (i 0) k) * scale1 V c (ix2 (0 : Fin 1) k) + shift1 V c (ix2 (0 : Fin 1) k)) * wts1 V c (ix2 k (i 1)))
    * fac1 V c (ix2 (i 0) (0 : Fin 1))

theorem hz1 : (![0, 0] : Fin 2 → Nat) = fun _ => 0 := funext fun a => by fin_cases a <;> rfl

/-- The printed index maps, decided over the grid: the three row-blocked windows (features, factor, results) are at
    block `t` of their first axis and block 0 of their second; the scale, the shift and the weights stay at block (0, 0). -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- The grid has 25 points, so a point's row block lies inside the 100000 rows. -/
theorem row_lt1 (t : Fin cfg1.N) (p : Fin 4000) : t.val * 4000 + p.val < 100000 := by
  have ht : t.val < 25 := lt_of_lt_of_eq t.isLt N_1
  have := p.isLt; omega

/-- Where each input block is read for the output entry `(p, q)` of block `t`: a block's coordinate is its index times
    its size plus the coordinate inside the block. -/
theorem emb1_0 (t : Fin cfg1.N) (p : Fin 4000) (k : Fin 256) :
    ((cfg1.win 0).blk t).view.emb (ix2 p k) = ix2 (⟨t.val * 4000 + p.val, row_lt1 t p⟩ : Fin 100000) k := by
  obtain ⟨e0, e1, -⟩ := idx_facts1 t
  funext a; apply Fin.ext
  match a with
  | ⟨0, _⟩ => show win1_0.index t (0 : Fin 2) * 4000 + 1 * p.val = t.val * 4000 + p.val; omega
  | ⟨1, _⟩ => show win1_0.index t (1 : Fin 2) * 256 + 1 * k.val = k.val; omega

theorem emb1_1 (t : Fin cfg1.N) (k : Fin 256) :
    ((cfg1.win 1).blk t).view.emb (ix2 (0 : Fin 1) k) = ix2 (0 : Fin 1) k := by
  obtain ⟨-, -, e0, e1, -⟩ := idx_facts1 t
  funext a; apply Fin.ext
  match a with
  | ⟨0, _⟩ => show win1_1.index t (0 : Fin 2) * 1 + 1 * 0 = 0; omega
  | ⟨1, _⟩ => show win1_1.index t (1 : Fin 2) * 256 + 1 * k.val = k.val; omega

theorem emb1_2 (t : Fin cfg1.N) (k : Fin 256) :
    ((cfg1.win 2).blk t).view.emb (ix2 (0 : Fin 1) k) = ix2 (0 : Fin 1) k := by
  obtain ⟨-, -, -, -, e0, e1, -⟩ := idx_facts1 t
  funext a; apply Fin.ext
  match a with
  | ⟨0, _⟩ => show win1_2.index t (0 : Fin 2) * 1 + 1 * 0 = 0; omega
  | ⟨1, _⟩ => show win1_2.index t (1 : Fin 2) * 256 + 1 * k.val = k.val; omega

theorem emb1_3 (t : Fin cfg1.N) (k : Fin 256) (q : Fin 128) :
    ((cfg1.win 3).blk t).view.emb (ix2 k q) = ix2 k q := by
  obtain ⟨-, -, -, -, -, -, e0, e1, -⟩ := idx_facts1 t
  funext a; apply Fin.ext
  match a with
  | ⟨0, _⟩ => show win1_3.index t (0 : Fin 2) * 256 + 1 * k.val = k.val; omega
  | ⟨1, _⟩ => show win1_3.index t (1 : Fin 2) * 128 + 1 * q.val = q.val; omega

theorem emb1_4 (t : Fin cfg1.N) (p : Fin 4000) :
    ((cfg1.win 4).blk t).view.emb (ix2 p (0 : Fin 1)) = ix2 (⟨t.val * 4000 + p.val, row_lt1 t p⟩ : Fin 100000) (0 : Fin 1) := by
  obtain ⟨-, -, -, -, -, -, -, -, e0, e1, -⟩ := idx_facts1 t
  funext a; apply Fin.ext
  match a with
  | ⟨0, _⟩ => show win1_4.index t (0 : Fin 2) * 4000 + 1 * p.val = t.val * 4000 + p.val; omega
  | ⟨1, _⟩ => show win1_4.index t (1 : Fin 2) * 1 + 1 * 0 = 0; omega

theorem emb1_5 (t : Fin cfg1.N) (p : Fin 4000) (q : Fin 128) :
    ((cfg1.win 5).blk t).view.emb (ix2 p q) = ix2 (⟨t.val * 4000 + p.val, row_lt1 t p⟩ : Fin 100000) q := by
  obtain ⟨-, -, -, -, -, -, -, -, -, -, e0, e1, -⟩ := idx_facts1 t
  funext a; apply Fin.ext
  match a with
  | ⟨0, _⟩ => show win1_5.index t (0 : Fin 2) * 4000 + 1 * p.val = t.val * 4000 + p.val; omega
  | ⟨1, _⟩ => show win1_5.index t (1 : Fin 2) * 128 + 1 * q.val = q.val; omega

theorem emb1_6 (t : Fin cfg1.N) (p : Fin 4000) (q : Fin 128) :
    ((cfg1.win 6).blk t).view.emb (ix2 p q) = ix2 (⟨t.val * 4000 + p.val, row_lt1 t p⟩ : Fin 100000) q := by
  obtain ⟨-, -, -, -, -, -, -, -, -, -, -, -, e0, e1⟩ := idx_facts1 t
  funext a; apply Fin.ext
  match a with
  | ⟨0, _⟩ => show win1_6.index t (0 : Fin 2) * 4000 + 1 * p.val = t.val * 4000 + p.val; omega
  | ⟨1, _⟩ => show win1_6.index t (1 : Fin 2) * 128 + 1 * q.val = q.val; omega

/-- What point `t` writes back to the wide result is block `t` of the product. -/
theorem flushed1_5_eq (c : Dev nD) (t : Fin cfg1.N) :
    (dat1 (F := Ideal) V c).flushed 5 t = ((cfg1.win 5).blk t).view.read (Elt Ideal) (prodWide V c) := by
  show (cfg1.win 5).cut (grid1.coords t) ((dat1 (F := Ideal) V c).after 5 t) = _
  rw [after1_5]
  unfold out1_5
  rw [View.canon_unit_zero hz1]
  simp only [View.ld_unit_zero (S := S4000x256) hz1, View.ld_unit_zero (S := S1x256) hz1, View.ld_unit_zero (S := S256x128) hz1,
    View.ld_unit_zero (S := S4000x1) hz1]
  funext y
  obtain ⟨p, q, rfl⟩ : ∃ (p : Fin 4000) (q : Fin 128), y = ix2 p q := ⟨y 0, y 1, eq_ix2 y⟩
  show k1_pay1 (iblk1 V c 0 t) (iblk1 V c 1 t) (iblk1 V c 2 t) (iblk1 V c 3 t) (iblk1 V c 4 t) (ix2 p q)
    = prodWide V c (((cfg1.win 5).blk t).view.emb (ix2 p q))
  rw [pay1_apply, emb1_5]
  show (∑ k : Fin 256, (feat1 V c (((cfg1.win 0).blk t).view.emb (ix2 p k)) * scale1 V c (((cfg1.win 1).blk t).view.emb (ix2 (0 : Fin 1) k))
        + shift1 V c (((cfg1.win 2).blk t).view.emb (ix2 (0 : Fin 1) k))) * wts1 V c (((cfg1.win 3).blk t).view.emb (ix2 k q)))
      * fac1 V c (((cfg1.win 4).blk t).view.emb (ix2 p (0 : Fin 1))) = _
  rw [emb1_4]
  unfold prodWide
  refine congrArg₂ (· * ·) (Finset.sum_congr rfl fun k _ => ?_) rfl
  rw [emb1_0, emb1_1, emb1_2, emb1_3]
  rfl

/-- What point `t` writes back to the narrow result is block `t` of the same product. -/
theorem flushed1_6_eq (c : Dev nD) (t : Fin cfg1.N) :
    (dat1 (F := Ideal) V c).flushed 6 t = ((cfg1.win 6).blk t).view.read (Elt Ideal) (prodNarrow V c) := by
  show (cfg1.win 6).cut (grid1.coords t) ((dat1 (F := Ideal) V c).after 6 t) = _
  rw [after1_6]
  unfold out1_6
  rw [View.canon_unit_zero hz1]
  simp only [View.ld_unit_zero (S := S4000x256) hz1, View.ld_unit_zero (S := S1x256) hz1, View.ld_unit_zero (S := S256x128) hz1,
    View.ld_unit_zero (S := S4000x1) hz1]
  funext y
  obtain ⟨p, q, rfl⟩ : ∃ (p : Fin 4000) (q : Fin 128), y = ix2 p q := ⟨y 0, y 1, eq_ix2 y⟩
  show k1_pay2 (iblk1 V c 0 t) (iblk1 V c 1 t) (iblk1 V c 2 t) (iblk1 V c 3 t) (iblk1 V c 4 t) (ix2 p q)
    = prodNarrow V c (((cfg1.win 6).blk t).view.emb (ix2 p q))
  rw [pay2_apply, emb1_6]
  show (∑ k : Fin 256, (feat1 V c (((cfg1.win 0).blk t).view.emb (ix2 p k)) * scale1 V c (((cfg1.win 1).blk t).view.emb (ix2 (0 : Fin 1) k))
        + shift1 V c (((cfg1.win 2).blk t).view.emb (ix2 (0 : Fin 1) k))) * wts1 V c (((cfg1.win 3).blk t).view.emb (ix2 k q)))
      * fac1 V c (((cfg1.win 4).blk t).view.emb (ix2 p (0 : Fin 1))) = _
  rw [emb1_4]
  unfold prodNarrow
  refine congrArg₂ (· * ·) (Finset.sum_congr rfl fun k _ => ?_) rfl
  rw [emb1_0, emb1_1, emb1_2, emb1_3]
  rfl

/-- An index of a result array is in point `t`'s block iff each coordinate is in the block's range on its axis. -/
theorem mem_blk1_5 (t : Fin cfg1.N) (i : S100000x128.Idx) :
    i ∈ ((cfg1.win 5).blk t).view.set ↔ ∀ a : Fin 2, win1_5.index t a * S4000x128.size a ≤ (i a).val ∧ (i a).val < win1_5.index t a * S4000x128.size a + S4000x128.size a := by
  show i ∈ ((View.whole main_v30_0).slice (win1_5.rect t)).set ↔ _
  rw [View.set_slice_whole, Rect.mem_set_unit]
  exact Iff.rfl

theorem mem_blk1_6 (t : Fin cfg1.N) (i : S100000x128.Idx) :
    i ∈ ((cfg1.win 6).blk t).view.set ↔ ∀ a : Fin 2, win1_6.index t a * S4000x128.size a ≤ (i a).val ∧ (i a).val < win1_6.index t a * S4000x128.size a + S4000x128.size a := by
  show i ∈ ((View.whole main_v30_1).slice (win1_6.rect t)).set ↔ _
  rw [View.set_slice_whole, Rect.mem_set_unit]
  exact Iff.rfl

/-- The point that covers row `r` is `r / 4000`. -/
def pointOf (i : S100000x128.Idx) : Fin cfg1.N :=
  ⟨(i 0).val / 4000, lt_of_lt_of_eq (b := 25) (by have : (i 0).val < 100000 := (i 0).isLt; omega) N_1.symm⟩

/-- Every index of the wide result is in some written-back block. -/
theorem covered1_5 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  refine ⟨pointOf i, flush1_5 _, ?_⟩
  obtain ⟨-, -, -, -, -, -, -, -, -, -, e0, e1, -⟩ := idx_facts1 (pointOf i)
  have ht : (pointOf i).val = (i 0).val / 4000 := rfl
  rw [mem_blk1_5]
  intro a
  match a with
  | ⟨0, _⟩ => show win1_5.index (pointOf i) (0 : Fin 2) * 4000 ≤ (i 0).val ∧ (i 0).val < win1_5.index (pointOf i) (0 : Fin 2) * 4000 + 4000; omega
  | ⟨1, _⟩ => show win1_5.index (pointOf i) (1 : Fin 2) * 128 ≤ (i 1).val ∧ (i 1).val < win1_5.index (pointOf i) (1 : Fin 2) * 128 + 128; omega

/-- Every index of the narrow result is in some written-back block. -/
theorem covered1_6 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  refine ⟨pointOf i, flush1_6 _, ?_⟩
  obtain ⟨-, -, -, -, -, -, -, -, -, -, -, -, e0, e1⟩ := idx_facts1 (pointOf i)
  have ht : (pointOf i).val = (i 0).val / 4000 := rfl
  rw [mem_blk1_6]
  intro a
  match a with
  | ⟨0, _⟩ => show win1_6.index (pointOf i) (0 : Fin 2) * 4000 ≤ (i 0).val ∧ (i 0).val < win1_6.index (pointOf i) (0 : Fin 2) * 4000 + 4000; omega
  | ⟨1, _⟩ => show win1_6.index (pointOf i) (1 : Fin 2) * 128 ≤ (i 1).val ∧ (i 1).val < win1_6.index (pointOf i) (1 : Fin 2) * 128 + 128; omega

end Arrays

theorem final1_wide (V : (c : Dev nD) → (b : Ref sig .tc) → Buf (Elt Ideal) ((c : Thread nD τ).loc b)) (c : Dev nD) (n : Fin 100000) (j : Fin 128) :
    ((dat1 (F := Ideal) V c).arrAt 5 cfg1.N : S100000x128.Idx → EReal) (ix2 n j)
      = (∑ k : Fin 256, (feat1 V c (ix2 n k) * scale1 V c (ix2 (0 : Fin 1) k) + shift1 V c (ix2 (0 : Fin 1) k)) * wts1 V c (ix2 k j))
          * fac1 V c (ix2 n (0 : Fin 1)) :=
  congrFun ((dat1 (F := Ideal) V c).arrAt_eq_of_cover 5 (prodWide V c) (fun t _ => flushed1_5_eq V c t) covered1_5) (ix2 n j)

theorem final1_narrow (V : (c : Dev nD) → (b : Ref sig .tc) → Buf (Elt Ideal) ((c : Thread nD τ).loc b)) (c : Dev nD) (n : Fin 100000) (j : Fin 128) :
    ((dat1 (F := Ideal) V c).arrAt 6 cfg1.N : S100000x128.Idx → EReal) (ix2 n j)
      = (∑ k : Fin 256, (feat1 V c (ix2 n k) * scale1 V c (ix2 (0 : Fin 1) k) + shift1 V c (ix2 (0 : Fin 1) k)) * wts1 V c (ix2 k j))
          * fac1 V c (ix2 n (0 : Fin 1)) :=
  congrFun ((dat1 (F := Ideal) V c).arrAt_eq_of_cover 6 (prodNarrow V c) (fun t _ => flushed1_6_eq V c t) covered1_6) (ix2 n j)

end Cert.KernelIdeal.Hand

end
-- ==== Proof.Spec.lean ====
/-
  The mathematics of the graph encoder, stated once, with no program in sight: batch normalisation of the node
  features over the nodes, a linear map, the symmetric-normalised graph convolution with self-loops, bias and ReLU,
  and the mean of the node rows of each graph.

  Two chains of formulas are written down, each as a function of the eight argument arrays read through `Inp`:

  * `gK`: the statistics as sum and sum of squares (variance `E[x²] − E[x]²`), the normalisation folded into a
    per-feature scale and shift, every node row pre-scaled by `d⁻¹ᐟ²` once, the real edges' rows added onto the
    pre-scaled row itself (the self-loop), the result scaled by `d⁻¹ᐟ²` again, and the pooling as a 0/1-weighted sum
    (a second such sum of the differences `xr − xr` beside it) times the reciprocal of the count;
  * `gR`: the two-pass variance, the normalisation as written, the degree with the self-loops counted as edges, one
    product `d⁻¹ᐟ²[src]·d⁻¹ᐟ²[dst]` per edge and per self-loop, and the pooling as a sum divided by the count.

  An index into the node axis is read as a signed integer: a gather wraps a negative index by the number of nodes and
  clamps the result into the axis (`gat`); a scatter drops an update whose index is not a node.
-/
import Idealize.ShloMosaic.PureOps.Ideal
import Idealize.ShloMosaic.Lib.ValueIdx

open scoped BigOperators

noncomputable section

namespace Cert.Spec

open Idealize.ShloMosaic Idealize.ShloMosaic.ValueIdx

/-- The eight arguments, read entry by entry; the three integer arrays as signed integers. -/
structure Inp where
  x : Fin 100000 → Fin 256 → EReal
  src : Fin 1600000 → ℤ
  dst : Fin 1600000 → ℤ
  bat : Fin 100000 → ℤ
  gam : Fin 256 → EReal
  bet : Fin 256 → EReal
  W : Fin 256 → Fin 128 → EReal
  b : Fin 128 → EReal

/-- The arguments as the programs hold them: `x`, `edge_index` (row 0 the sources, row 1 the targets), `batch`,
    `gamma`, `beta`, `W`, `b` (`edge_weight` is read by neither program). -/
def Inp.ofArrays (a0 : (⟨2, ![100000, 256]⟩ : Shape).Idx → EReal) (a1 : (⟨2, ![2, 1600000]⟩ : Shape).Idx → BitVec 32)
    (a2 : (⟨1, ![100000]⟩ : Shape).Idx → BitVec 32) (a4 a5 : (⟨1, ![256]⟩ : Shape).Idx → EReal)
    (a6 : (⟨2, ![256, 128]⟩ : Shape).Idx → EReal) (a7 : (⟨1, ![128]⟩ : Shape).Idx → EReal) : Inp where
  x n f := a0 (ix2 n f)
  src e := (a1 (ix2 (0 : Fin 2) e)).toInt
  dst e := (a1 (ix2 (1 : Fin 2) e)).toInt
  bat n := (a2 (ix1 n)).toInt
  gam f := a4 (ix1 f)
  bet f := a5 (ix1 f)
  W k j := a6 (ix2 k j)
  b j := a7 (ix1 j)

/-- Every float entry is a real number. -/
structure Inp.Real (I : Inp) : Prop where
  x : ∀ n f, ∃ r : ℝ, I.x n f = (r : EReal)
  gam : ∀ f, ∃ r : ℝ, I.gam f = (r : EReal)
  bet : ∀ f, ∃ r : ℝ, I.bet f = (r : EReal)
  W : ∀ k j, ∃ r : ℝ, I.W k j = (r : EReal)
  b : ∀ j, ∃ r : ℝ, I.b j = (r : EReal)

/-- The stabiliser under the square root, the f32 nearest `1e-5`, as the extended real its word denotes. -/
def eps : EReal := Ideal.ofBits .f32 0x3727C5AC#32

/-- A signed index as a gather reads it: a negative one wrapped by the number of nodes, the result clamped into the
    node axis. -/
def gat (v : ℤ) : Fin 100000 := ⟨min (if v < 0 then v + 100000 else v).toNat 99999, by omega⟩

variable (I : Inp)

/-! ## The chain with folded statistics and pre-scaled rows -/

def sumK (f : Fin 256) : EReal := ∑ n : Fin 100000, I.x n f
def sqK (f : Fin 256) : EReal := ∑ n : Fin 100000, I.x n f * I.x n f
def muK (f : Fin 256) : EReal := Ideal.div (sumK I f) 100000
def varK (f : Fin 256) : EReal := Ideal.div (sqK I f) 100000 - muK I f * muK I f
def scaleK (f : Fin 256) : EReal := I.gam f * Ideal.rsqrt (varK I f + eps)
def shiftK (f : Fin 256) : EReal := I.bet f - muK I f * scaleK I f
/-- In-degree over the real edges, plus the self-loop. -/
def degK (n : Fin 100000) : EReal := (∑ _e ∈ Finset.univ.filter (fun e : Fin 1600000 => I.dst e = (n.val : ℤ)), (1 : EReal)) + 1
def dinvK (n : Fin 100000) : EReal := Ideal.rsqrt (max (degK I n) 1)
/-- The linear map of the normalised row, pre-scaled by `d⁻¹ᐟ²`. -/
def hsK (n : Fin 100000) (j : Fin 128) : EReal := (∑ k : Fin 256, (I.x n k * scaleK I k + shiftK I k) * I.W k j) * dinvK I n
/-- The pre-scaled row itself plus the rows gathered along the real edges, an edge landing where its target, wrapped
    when negative, names a node. -/
def aggK (n : Fin 100000) (j : Fin 128) : EReal :=
  hsK I n j + ∑ e ∈ Finset.univ.filter (fun e : Fin 1600000 => (if I.dst e < 0 then I.dst e + 100000 else I.dst e) = (n.val : ℤ)), hsK I (gat (I.src e)) j
def xrK (n : Fin 100000) (j : Fin 128) : EReal := max (dinvK I n * aggK I n j + I.b j) 0
/-- The 0/1 weight of node `n` in graph `g`. -/
def oh (g : Fin 64) (n : Fin 100000) : EReal := if I.bat n = (g.val : ℤ) then 1 else 0
def cntK (g : Fin 64) : EReal := ∑ _n ∈ Finset.univ.filter (fun n : Fin 100000 => I.bat n = (g.val : ℤ)), (1 : EReal)
def gK (g : Fin 64) (j : Fin 128) : EReal :=
  ((∑ n : Fin 100000, oh I g n * xrK I n j) + ∑ n : Fin 100000, oh I g n * (xrK I n j - xrK I n j)) * Ideal.div 1 (max (cntK I g) 1)

/-! ## The chain as the formulas are usually written -/

def muR (f : Fin 256) : EReal := Ideal.div (∑ n : Fin 100000, I.x n f) 100000
def varR (f : Fin 256) : EReal := Ideal.div (∑ n : Fin 100000, (I.x n f - muR I f) * (I.x n f - muR I f)) 100000
def xnR (n : Fin 100000) (f : Fin 256) : EReal := (I.x n f - muR I f) * Ideal.rsqrt (varR I f + eps) * I.gam f + I.bet f
def hR (n : Fin 100000) (j : Fin 128) : EReal := ∑ k : Fin 256, xnR I n k * I.W k j
/-- In-degree with every node's self-loop counted as an edge. -/
def degR (n : Fin 100000) : EReal :=
  (∑ _e ∈ Finset.univ.filter (fun e : Fin 1600000 => I.dst e = (n.val : ℤ)), (1 : EReal))
    + ∑ _k ∈ Finset.univ.filter (fun k : Fin 100000 => k = n), (1 : EReal)
def dinvR (n : Fin 100000) : EReal := Ideal.rsqrt (max (degR I n) 1)
/-- The messages that land on node `n`: one per real edge whose target is `n`, and the node's own. -/
def aggR (n : Fin 100000) (j : Fin 128) : EReal :=
  ((∑ e ∈ Finset.univ.filter (fun e : Fin 1600000 => I.dst e = (n.val : ℤ)),
        hR I (gat (I.src e)) j * (dinvR I (gat (I.src e)) * dinvR I (gat (I.dst e))))
    + ∑ k ∈ Finset.univ.filter (fun k : Fin 100000 => k = n), hR I k j * (dinvR I k * dinvR I k)) + I.b j
def xrR (n : Fin 100000) (j : Fin 128) : EReal := max (aggR I n j) 0
def cntR (g : Fin 64) : EReal := ∑ _n ∈ Finset.univ.filter (fun n : Fin 100000 => I.bat n = (g.val : ℤ)), (1 : EReal)
def gR (g : Fin 64) (j : Fin 128) : EReal :=
  Ideal.div (∑ n ∈ Finset.univ.filter (fun n : Fin 100000 => I.bat n = (g.val : ℤ)), xrR I n j) (max (cntR I g) 1)

end Cert.Spec

end
-- ==== Proof.KI.Inp.lean ====
import proofs.«407895_j63728724738088_3_alg».proof.Proof.Gen.KernelIdeal
import proofs.«407895_j63728724738088_3_alg».proof.Proof.Spec

noncomputable section

namespace Cert.KernelIdeal.Hand

open Cert.KernelIdeal Idealize.ShloMosaic Idealize.ShloMosaic.TcCoe

/-- The arguments of @main on core `c`, as the specification reads them. -/
abbrev inp (m : (ℓ : Loc nD τ sig) → Buf (Elt Ideal) ℓ) (c : Dev nD) : Cert.Spec.Inp :=
  Cert.Spec.Inp.ofArrays (m ((c.tc : Thread nD τ).loc main_arg0)) (m ((c.tc : Thread nD τ).loc main_arg1)) (m ((c.tc : Thread nD τ).loc main_arg2))
    (m ((c.tc : Thread nD τ).loc main_arg4)) (m ((c.tc : Thread nD τ).loc main_arg5)) (m ((c.tc : Thread nD τ).loc main_arg6)) (m ((c.tc : Thread nD τ).loc main_arg7))

end Cert.KernelIdeal.Hand

end
-- ==== Proof.Consts.lean ====
import Idealize.ShloMosaic.PureOps.Ideal

open scoped BigOperators

noncomputable section

namespace Cert.Consts

open Idealize.ShloMosaic

/-- The all-zero word: exponent field 0 and fraction 0, so the subnormal branch gives 0 * 2^(-149) = 0. -/
theorem ofBits_zero : Ideal.ofBits .f32 0x00000000#32 = (0 : EReal) := by
  simp [Ideal.ofBits, Ideal.ieee]

/-- Exponent field 127 and fraction 0: 2^23 * 2^(127 - 127 - 23) = 1. -/
theorem ofBits_one : Ideal.ofBits .f32 0x3F800000#32 = (1 : EReal) := by
  have h : Ideal.ofBits .f32 0x3F800000#32 = ((1 : ℝ) : EReal) := by
    simp [Ideal.ofBits, Ideal.ieee, -EReal.coe_mul]
    norm_num
  rw [h]; rfl

/-- Exponent field 143 and fraction 0x435000: (2^23 + 4411392) * 2^(143 - 127 - 23) = 12800000 / 128 = 100000. -/
theorem ofBits_1e5 : Ideal.ofBits .f32 0x47C35000#32 = (100000 : EReal) := by
  have h : Ideal.ofBits .f32 0x47C35000#32 = ((100000 : ℝ) : EReal) := by
    simp [Ideal.ofBits, Ideal.ieee, -EReal.coe_mul]
    norm_num
  rw [h]; norm_cast

/-- Exponent field all ones and fraction 0 with the sign clear: the positive infinity. -/
theorem ofBits_inf : Ideal.ofBits .f32 0x7F800000#32 = (⊤ : EReal) := by
  simp [Ideal.ofBits, Ideal.ieee]

end Cert.Consts

end
-- ==== Proof.LibReshapeRows.lean ====
/-
  A one-axis array given a unit axis: the same elements, read at an index of the two-axis shape.
  An [a] array cast to the row [1, a] reads its operand at the index's column; cast to the column [a, 1], at the
  index's row. Stated for any element type, over any proof of the cast's side condition, at a general extent and at
  the literal extents 64, 32 and 100000.
-/
import Idealize.ShloMosaic.Lib.Pipeline.Value
import Idealize.ShloMosaic.Lib.ValueIdx
import Idealize.ShloMosaic.Lib.ValueLayout

namespace Cert.LibReshapeRows

open Idealize.ShloMosaic Idealize.ShloMosaic.ValueIdx

variable {α : Type}

/-- An `[a]` array cast to the one-row shape `[1, a]` is, index by index, the operand at the index's column:
    the row-major position of `(u, i)` in `[1, a]` is `i`. -/
theorem reshape_row {a : ℕ} (x : (⟨1, ![a]⟩ : Shape).Idx → α) (h : (⟨1, ![a]⟩ : Shape).ShapeCasts ⟨2, ![1, a]⟩) :
    shapeCast ⟨2, ![1, a]⟩ x h = fun j => x (ix1 (j 1)) := by
  funext j
  obtain ⟨u, i, rfl⟩ : ∃ (u : Fin 1) (i : Fin a), j = ix2 u i := ⟨j 0, j 1, eq_ix2 j⟩
  exact shapeCast_a_1a_apply x h u i

/-- An `[a]` array cast to the one-column shape `[a, 1]` is, index by index, the operand at the index's row:
    the row-major position of `(i, u)` in `[a, 1]` is `i · 1 + u` with `u = 0`. -/
theorem reshape_column {a : ℕ} (x : (⟨1, ![a]⟩ : Shape).Idx → α) (h : (⟨1, ![a]⟩ : Shape).ShapeCasts ⟨2, ![a, 1]⟩) :
    shapeCast ⟨2, ![a, 1]⟩ x h = fun j => x (ix1 (j 0)) := by
  funext j
  refine shapeCast_apply x h j (ix1 (j 0)) ?_
  rw [Shape.rowMajor_val_two, Shape.rowMajor_val_one]
  have h1 : (j 1).val < 1 := idx2_lt1 j
  show (j 0).val = (j 0).val * 1 + (j 1).val
  omega

/-- A 64-element array as the row `[1, 64]`: entry `(u, i)` is element `i`. -/
theorem reshape_row64 (x : (⟨1, ![64]⟩ : Shape).Idx → α) (h : (⟨1, ![64]⟩ : Shape).ShapeCasts ⟨2, ![1, 64]⟩) :
    shapeCast ⟨2, ![1, 64]⟩ x h = fun j => x (ix1 (j 1)) := reshape_row x h

/-- A 32-element array as the row `[1, 32]`: entry `(u, i)` is element `i`. -/
theorem reshape_row32 (x : (⟨1, ![32]⟩ : Shape).Idx → α) (h : (⟨1, ![32]⟩ : Shape).ShapeCasts ⟨2, ![1, 32]⟩) :
    shapeCast ⟨2, ![1, 32]⟩ x h = fun j => x (ix1 (j 1)) := reshape_row x h

/-- A 100000-element array as the column `[100000, 1]`: entry `(i, u)` is element `i`. -/
theorem reshape_col (x : (⟨1, ![100000]⟩ : Shape).Idx → α) (h : (⟨1, ![100000]⟩ : Shape).ShapeCasts ⟨2, ![100000, 1]⟩) :
    shapeCast ⟨2, ![100000, 1]⟩ x h = fun j => x (ix1 (j 0)) := reshape_column x h

end Cert.LibReshapeRows
-- ==== Proof.KI.ValueBN.lean ====
import proofs.«407895_j63728724738088_3_alg».proof.Proof.Gen.KernelIdeal.Launch
import proofs.«407895_j63728724738088_3_alg».proof.Proof.Gen.KernelIdeal.Skeleton
import proofs.«407895_j63728724738088_3_alg».proof.Proof.Gen.KernelIdeal.Points
import proofs.«407895_j63728724738088_3_alg».proof.Proof.KI.Reg1
import proofs.«407895_j63728724738088_3_alg».proof.Proof.KI.Val1
import Idealize.ShloMosaic.PureOps.Ideal.Laws
import Idealize.ShloMosaic.Lib.ValueIdx
import Idealize.ShloMosaic.Lib.ValueLayout
import Idealize.ShloMosaic.Lib.Pipeline.Value
import proofs.«407895_j63728724738088_3_alg».proof.Proof.KI.Fold
import proofs.«407895_j63728724738088_3_alg».proof.Proof.KI.Val0
import proofs.«407895_j63728724738088_3_alg».proof.Proof.KI.Inp
import proofs.«407895_j63728724738088_3_alg».proof.Proof.KI.Run
import proofs.«407895_j63728724738088_3_alg».proof.Proof.Consts
import proofs.«407895_j63728724738088_3_alg».proof.Proof.LibReshapeRows
import proofs.«407895_j63728724738088_3_alg».proof.Proof.Gen.KernelIdeal.Regions
import Idealize.ShloMosaic.Lib.StableHlo.Run
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

/-! # The second region's operands, at the ideal values: features, scale, shift, weights

After the statistics region the two result rows hold the column sums and the column sums of squares of the features. The
first stretch of host operations divides them by the number of nodes, forms the variance as the mean square minus the
squared mean, and from it the per-feature scale `γ · (var + ε)⁻¹ᐟ²` and shift `β − mean · scale`; the weights pass
through a narrowing that is the identity on extended reals; the features are the launch memory's. -/

/-! ## Pointwise operations read at an index -/

/-- The host's quotient of two arrays at an index is the quotient of the entries. -/
private theorem hostDivf_apply {s : Shape} (a b : FVec Ideal s .f32) (i : s.Idx) :
    Host.divf (F := Ideal) a b i = Ideal.div (a i) (b i) := rfl

/-- The host's reciprocal square root of an array at an index is that of the entry. -/
private theorem hostRsqrt_apply {s : Shape} (a : FVec Ideal s .f32) (i : s.Idx) :
    Host.rsqrt (F := Ideal) a i = Ideal.rsqrt (a i) := rfl

/-- A constant broadcast to any shape reads, everywhere, the value its word denotes. -/
private theorem bcast_const_apply {t : Shape} (h : S_.BroadcastsInDim t ![]) (b : BitVec 32) (i : t.Idx) :
    broadcastInDim t ![] h (constant (F := Ideal) S_ .f32 b) i = Ideal.ofBits .f32 b := rfl

/-! ## The stretch's results as functions of the arrays they read -/

/-- A one-row array divided by the number of nodes. -/
def bnMean (s : FVec Ideal S1x256 .f32) : FVec Ideal S1x256 .f32 :=
  Host.divf (F := Ideal) s (broadcastInDim S1x256 ![] bcast_S_S1x256 (constant (F := Ideal) S_ .f32 0x47C35000#32))

/-- The variance from the column sums and the column sums of squares: the mean square less the squared mean. -/
def bnVar (s0 s1 : FVec Ideal S1x256 .f32) : FVec Ideal S1x256 .f32 :=
  subf (F := Ideal) (bnMean s1) (mulf (F := Ideal) (bnMean s0) (bnMean s0))

/-- The per-feature scale: the scale argument as a row, times the reciprocal root of variance plus the stabiliser. -/
def bnScale (s0 s1 : FVec Ideal S1x256 .f32) (gam : FVec Ideal S256 .f32) : FVec Ideal S1x256 .f32 :=
  mulf (F := Ideal) (shapeCast S1x256 gam shapeCasts_S256_S1x256)
    (Host.rsqrt (F := Ideal)
      (addf (F := Ideal) (bnVar s0 s1) (broadcastInDim S1x256 ![] bcast_S_S1x256 (constant (F := Ideal) S_ .f32 0x3727C5AC#32))))

/-- The per-feature shift: the shift argument as a row, less the mean times the scale. -/
def bnShift (s0 s1 : FVec Ideal S1x256 .f32) (gam bet : FVec Ideal S256 .f32) : FVec Ideal S1x256 .f32 :=
  subf (F := Ideal) (shapeCast S1x256 bet shapeCasts_S256_S1x256) (mulf (F := Ideal) (bnMean s0) (bnScale s0 s1 gam))

theorem bnMean_apply (s : FVec Ideal S1x256 .f32) (i : S1x256.Idx) : bnMean s i = Ideal.div (s i) 100000 := by
  unfold bnMean
  rw [hostDivf_apply, bcast_const_apply, Cert.Consts.ofBits_1e5]

theorem bnVar_apply (s0 s1 : FVec Ideal S1x256 .f32) (i : S1x256.Idx) :
    bnVar s0 s1 i = Ideal.div (s1 i) 100000 - Ideal.div (s0 i) 100000 * Ideal.div (s0 i) 100000 := by
  unfold bnVar
  rw [subf_apply, mulf_apply, bnMean_apply, bnMean_apply]

theorem bnScale_apply (s0 s1 : FVec Ideal S1x256 .f32) (gam : FVec Ideal S256 .f32) (u : Fin 1) (k : Fin 256) :
    bnScale s0 s1 gam (ix2 u k)
      = gam (ix1 k) * Ideal.rsqrt (Ideal.div (s1 (ix2 u k)) 100000
          - Ideal.div (s0 (ix2 u k)) 100000 * Ideal.div (s0 (ix2 u k)) 100000 + Ideal.ofBits .f32 0x3727C5AC#32) := by
  unfold bnScale
  rw [mulf_apply, hostRsqrt_apply, addf_apply, bnVar_apply, bcast_const_apply, Cert.LibReshapeRows.reshape_row]

theorem bnShift_apply (s0 s1 : FVec Ideal S1x256 .f32) (gam bet : FVec Ideal S256 .f32) (u : Fin 1) (k : Fin 256) :
    bnShift s0 s1 gam bet (ix2 u k)
      = bet (ix1 k) - Ideal.div (s0 (ix2 u k)) 100000 * bnScale s0 s1 gam (ix2 u k) := by
  unfold bnShift
  rw [subf_apply, mulf_apply, bnMean_apply, Cert.LibReshapeRows.reshape_row]

/-- After the stretch the scale buffer holds that function of the two statistics rows and the scale argument. -/
theorem v11_eq (W : Valuation τ sig (Elt Ideal)) :
    (StableHlo.after (hostOps1 (F := Ideal)) W (Proc.devRef .tc main_v11) : S1x256.Idx → EReal)
      = bnScale (W (Proc.devRef .tc main_v0_0)) (W (Proc.devRef .tc main_v0_1)) (W (Proc.devRef .tc main_arg4)) := by
  after_results_simp
  rfl

/-- After the stretch the shift buffer holds that function of the two statistics rows and the two arguments. -/
theorem v14_eq (W : Valuation τ sig (Elt Ideal)) :
    (StableHlo.after (hostOps1 (F := Ideal)) W (Proc.devRef .tc main_v14) : S1x256.Idx → EReal)
      = bnShift (W (Proc.devRef .tc main_v0_0)) (W (Proc.devRef .tc main_v0_1)) (W (Proc.devRef .tc main_arg4))
          (W (Proc.devRef .tc main_arg5)) := by
  after_results_simp
  rfl

/-- After the stretch the narrowed weights are the weights: a change of format is the identity on extended reals. -/
theorem v29_eq (W : Valuation τ sig (Elt Ideal)) :
    (StableHlo.after (hostOps1 (F := Ideal)) W (Proc.devRef .tc main_v29) : S256x128.Idx → EReal)
      = (W (Proc.devRef .tc main_arg6) : S256x128.Idx → EReal) := by
  after_results_simp
  rfl

/-! ## The second region's operands -/

variable (m : (ℓ : Loc nD τ sig) → Buf (Elt Ideal) ℓ) (c : Dev nD)

/-- After the statistics region its first result row holds the column sums of the features … -/
theorem sum_entry (k : Fin 256) :
    (W1 (F := Ideal) m c (Proc.devRef .tc main_v0_0) : S1x256.Idx → EReal) (ix2 (0 : Fin 1) k) = Cert.Spec.sumK (inp m c) k := by
  have h : W1 (F := Ideal) m c (Proc.devRef .tc main_v0_0) = (dat0 (F := Ideal) (V0 m) c).arrAt 1 cfg0.N := W1_arr m c 1
  exact (congrFun h (ix2 (0 : Fin 1) k)).trans (final0_sum (V0 m) c k)

/-- … and its second the column sums of their squares. -/
theorem sq_entry (k : Fin 256) :
    (W1 (F := Ideal) m c (Proc.devRef .tc main_v0_1) : S1x256.Idx → EReal) (ix2 (0 : Fin 1) k) = Cert.Spec.sqK (inp m c) k := by
  have h : W1 (F := Ideal) m c (Proc.devRef .tc main_v0_1) = (dat0 (F := Ideal) (V0 m) c).arrAt 2 cfg0.N := W1_arr m c 2
  exact (congrFun h (ix2 (0 : Fin 1) k)).trans (final0_sq (V0 m) c k)

/-- The statistics region changes none of the arguments the stretch reads. -/
theorem W1_arg4 : W1 (F := Ideal) m c (Proc.devRef .tc main_arg4) = m ((c.tc : Thread nD τ).loc main_arg4) :=
  W1_keep m c main_arg4 (by decide)
theorem W1_arg5 : W1 (F := Ideal) m c (Proc.devRef .tc main_arg5) = m ((c.tc : Thread nD τ).loc main_arg5) :=
  W1_keep m c main_arg5 (by decide)
theorem W1_arg6 : W1 (F := Ideal) m c (Proc.devRef .tc main_arg6) = m ((c.tc : Thread nD τ).loc main_arg6) :=
  W1_keep m c main_arg6 (by decide)

theorem feat_entry (n : Fin 100000) (k : Fin 256) :
    feat1 (V2 (F := Ideal) m) c (ix2 n k) = (inp m c).x n k := by
  have e : W2 (F := Ideal) m c (Proc.devRef .tc main_arg0) = m ((c.tc : Thread nD τ).loc main_arg0) :=
    (W2_keep m c main_arg0 (by decide)).trans (W1_keep m c main_arg0 (by decide))
  exact congrFun e (ix2 n k)

theorem scale_entry (k : Fin 256) :
    scale1 (V2 (F := Ideal) m) c (ix2 (0 : Fin 1) k) = Cert.Spec.scaleK (inp m c) k := by
  show (StableHlo.after (hostOps1 (F := Ideal)) (W1 (F := Ideal) m c) (Proc.devRef .tc main_v11) : S1x256.Idx → EReal)
      (ix2 (0 : Fin 1) k) = _
  rw [v11_eq, bnScale_apply, sum_entry, sq_entry, W1_arg4]
  rfl

theorem shift_entry (k : Fin 256) :
    shift1 (V2 (F := Ideal) m) c (ix2 (0 : Fin 1) k) = Cert.Spec.shiftK (inp m c) k := by
  show (StableHlo.after (hostOps1 (F := Ideal)) (W1 (F := Ideal) m c) (Proc.devRef .tc main_v14) : S1x256.Idx → EReal)
      (ix2 (0 : Fin 1) k) = _
  rw [v14_eq, bnShift_apply, bnScale_apply, sum_entry, sq_entry, W1_arg4, W1_arg5]
  rfl

theorem wts_entry (k : Fin 256) (j : Fin 128) :
    wts1 (V2 (F := Ideal) m) c (ix2 k j) = (inp m c).W k j := by
  show (StableHlo.after (hostOps1 (F := Ideal)) (W1 (F := Ideal) m c) (Proc.devRef .tc main_v29) : S256x128.Idx → EReal)
      (ix2 k j) = _
  rw [v29_eq, W1_arg6]
  rfl

end Cert.KernelIdeal.Hand

end
-- ==== Proof.LibScatterAddVec.lean ====
import Idealize.ShloMosaic.PureOps.Ideal
import Idealize.ShloMosaic.PureOps.Contract
import Idealize.ShloMosaic.Lib.ValueIdx

/-! # A float scatter-add of scalars into a flat array, read at an index

The accumulating float scatter `Host.scatterAdd d x idx upd` at the ideal values is, at every operand element, that
element plus the sum of the update elements that land on it. Worked out here, at any extents, for SCALARS added into a
rank-1 operand: operand `[N]`, scatter indices `[K, 1]` (the index vector on axis 1), updates `[K]`; update `e` is added
to the operand element named by the scatter index `idx[e, 0]` read as a SIGNED integer, and is dropped when that integer
is not a position of the operand (jax's `jax.ops.segment_sum` of a vector, `.at[ids].add(v)`). So operand element `i`
receives exactly the updates `e` whose scatter index is `i` (`hostScatterAdd_vec_apply`). Stated at the literal
dimension-number record `vecAddDims` and for ANY record with these fields. -/

open scoped BigOperators

namespace Idealize.ShloMosaic.ScatterAddVec

open Idealize.ShloMosaic Idealize.ShloMosaic.ValueIdx

/-- The dimension numbers of a scalar scatter into a vector: operand `[N]`, scatter indices `[K, 1]`, updates `[K]`; the
    update has no window axis, the operand's one axis is the inserted (scattered) axis. -/
abbrev vecAddDims (N K : Nat)
    (wf : ScatterDims.WF ⟨1, ![N]⟩ ⟨2, ![K, 1]⟩ ⟨1, ![K]⟩ [] [0] [0] 1) :
    ScatterDims ⟨1, ![N]⟩ ⟨2, ![K, 1]⟩ ⟨1, ![K]⟩ where
  updateWindowDims := []
  insertedWindowDims := [0]
  scatterDimsToOperandDims := [0]
  indexVectorDim := 1
  wf := wf

section
variable {N K w : Nat} (wf : ScatterDims.WF ⟨1, ![N]⟩ ⟨2, ![K, 1]⟩ ⟨1, ![K]⟩ [] [0] [0] 1)
  (idx : IVec ⟨2, ![K, 1]⟩ w) (e : Fin K)

/-- The window of update `e` starts at the scatter index `idx[e, 0]`, read signed. -/
theorem start_eq : (vecAddDims N K wf).start (ix1 e) idx (0 : Fin 1) = (idx (ix2 e (0 : Fin 1))).toInt := by
  unfold ScatterDims.start
  rw [dif_pos (show (0 : Fin 1) ∈ (vecAddDims N K wf).scatterDimsToOperandDims from List.mem_singleton.mpr rfl)]
  have hsi : (vecAddDims N K wf).siIdx (ix1 e) ⟨List.idxOf (0 : Fin 1) (vecAddDims N K wf).scatterDimsToOperandDims,
      List.idxOf_lt_length_iff.2 (List.mem_singleton.mpr rfl)⟩ = ix2 e (0 : Fin 1) := by
    funext a; refine Fin.ext ?_
    match a with
    | ⟨0, _⟩ => rfl
    | ⟨1, _⟩ => rfl
  rw [hsi]

/-- The one operand axis is inserted: no window coordinate on it. -/
theorem window_eq : (vecAddDims N K wf).window (ix1 e) (0 : Fin 1) = 0 := by
  unfold ScatterDims.window
  have hk : (vecAddDims N K wf).sKept = [] := rfl
  rw [dif_neg (show ¬ (0 : Fin 1) ∈ (vecAddDims N K wf).sKept from hk ▸ List.not_mem_nil)]

/-- WHERE AN UPDATE LANDS: update `e` lands on operand element `i` exactly when its scatter index reads `i`. -/
theorem resultIdx?_eq_some_iff (i : Fin N) :
    (vecAddDims N K wf).resultIdx? (ix1 e) idx = some (ix1 i) ↔ (idx (ix2 e (0 : Fin 1))).toInt = (i.val : Int) := by
  have hi : i.val < N := i.isLt
  unfold ScatterDims.resultIdx?
  split
  · rename_i h
    have h0 := h 0
    rw [start_eq, window_eq] at h0
    rw [Option.some.injEq]
    constructor
    · intro heq
      have e0 := congrArg (fun f : (⟨1, ![N]⟩ : Shape).Idx => (f (0 : Fin 1)).val) heq
      simp only [start_eq, window_eq] at e0
      have : ((idx (ix2 e (0 : Fin 1))).toInt + ((0 : Nat) : Int)).toNat = i.val := e0
      omega
    · intro hrow
      funext a; refine Fin.ext ?_
      match a with
      | ⟨0, _⟩ =>
        show ((vecAddDims N K wf).start (ix1 e) idx (0 : Fin 1) + (vecAddDims N K wf).window (ix1 e) (0 : Fin 1)).toNat = i.val
        rw [start_eq, window_eq]; omega
  · rename_i h
    constructor
    · intro heq; exact absurd heq (by simp)
    · intro hrow
      exfalso; apply h; intro a
      match a with
      | ⟨0, _⟩ =>
        show 0 ≤ (vecAddDims N K wf).start (ix1 e) idx (0 : Fin 1) + (vecAddDims N K wf).window (ix1 e) (0 : Fin 1)
          ∧ (vecAddDims N K wf).start (ix1 e) idx (0 : Fin 1) + (vecAddDims N K wf).window (ix1 e) (0 : Fin 1) < (N : Int)
        rw [start_eq, window_eq]; omega

end

/-- A sum over the indices of a flat array is the sum over its positions. -/
theorem sum_idx1 {M : Type*} [AddCommMonoid M] {n : Nat} (f : (⟨1, ![n]⟩ : Shape).Idx → M) :
    ∑ i, f i = ∑ a : Fin n, f (ix1 a) := by
  refine Fintype.sum_equiv ⟨fun i => i 0, fun a => ix1 a, fun i => (eq_ix1 i).symm, fun a => rfl⟩ _ _ fun i => ?_
  exact congrArg f (eq_ix1 i)

/-- THE SCALAR SCATTER-ADD AT THE LITERAL RECORD, READ AT `i`: the operand's element plus the sum, over the updates `e`
    whose scatter index is `i`, of the update `e`. -/
theorem hostScatterAdd_vecAddDims_apply {N K w : Nat}
    (wf : ScatterDims.WF ⟨1, ![N]⟩ ⟨2, ![K, 1]⟩ ⟨1, ![K]⟩ [] [0] [0] 1)
    (x : (⟨1, ![N]⟩ : Shape).Idx → EReal) (idx : IVec ⟨2, ![K, 1]⟩ w) (upd : (⟨1, ![K]⟩ : Shape).Idx → EReal)
    (i : Fin N) :
    Ideal.hostScatterAdd (vecAddDims N K wf) x idx upd (ix1 i)
      = x (ix1 i) + ∑ e ∈ Finset.univ.filter (fun e : Fin K => (idx (ix2 e (0 : Fin 1))).toInt = (i.val : Int)), upd (ix1 e) := by
  unfold Ideal.hostScatterAdd
  congr 1
  rw [Finset.sum_filter, sum_idx1, Finset.sum_filter]
  refine Finset.sum_congr rfl fun e _ => ?_
  by_cases ht : (idx (ix2 e (0 : Fin 1))).toInt = (i.val : Int)
  · rw [if_pos ht, if_pos ((resultIdx?_eq_some_iff wf idx e i).mpr ht)]
  · rw [if_neg ht, if_neg (fun h => ht ((resultIdx?_eq_some_iff wf idx e i).mp h))]

/-- THE SCALAR SCATTER-ADD AT ANY RECORD WITH THESE FIELDS, READ AT `i`: a record is its fields, so it is the literal
    one. -/
theorem hostScatterAdd_vec_apply {N K w : Nat} (d : ScatterDims ⟨1, ![N]⟩ ⟨2, ![K, 1]⟩ ⟨1, ![K]⟩)
    (hu : d.updateWindowDims = []) (hi : d.insertedWindowDims = [0]) (hs : d.scatterDimsToOperandDims = [0])
    (hv : d.indexVectorDim = 1)
    (x : (⟨1, ![N]⟩ : Shape).Idx → EReal) (idx : IVec ⟨2, ![K, 1]⟩ w) (upd : (⟨1, ![K]⟩ : Shape).Idx → EReal)
    (i : Fin N) :
    Ideal.hostScatterAdd d x idx upd (ix1 i)
      = x (ix1 i) + ∑ e ∈ Finset.univ.filter (fun e : Fin K => (idx (ix2 e (0 : Fin 1))).toInt = (i.val : Int)), upd (ix1 e) := by
  obtain ⟨uw, iw, sd, iv, wf⟩ := d
  simp only at hu hi hs hv
  subst hu hi hs hv
  exact hostScatterAdd_vecAddDims_apply wf x idx upd i

end Idealize.ShloMosaic.ScatterAddVec
-- ==== Proof.KI.ValueADeg.lean ====
import proofs.«407895_j63728724738088_3_alg».proof.Proof.Gen.KernelIdeal
import Idealize.ShloMosaic.Lib.ValueIdx
import Idealize.ShloMosaic.Lib.ValueLayout
import Idealize.ShloMosaic.Lib.Pipeline.Value
import proofs.«407895_j63728724738088_3_alg».proof.Proof.Consts
import proofs.«407895_j63728724738088_3_alg».proof.Proof.LibScatterAddVec
import proofs.«407895_j63728724738088_3_alg».proof.Proof.LibReshapeRows

set_option maxRecDepth 16384

noncomputable section

namespace Cert.KernelIdeal.Hand

open Cert.KernelIdeal Cert.KernelIdeal.Gen
open Idealize.ShloMosaic Idealize.ShloMosaic.TcCoe
open Idealize.ShloMosaic.ValueIdx
open scoped BigOperators

/-! # The degree chain of the first stretch of host operations, over any edge array

The row of edge targets is cut out of the edge array, flattened and given a unit axis; ones are added at the targets
into an array of zeros; one is added, the result raised to at least one, its reciprocal square root taken and the array
turned into a column. Read at node `n`, the column holds the reciprocal square root of the number of edges whose target
word, read as a signed integer, is `n`, plus one, raised to at least one. -/

/-- A scalar constant broadcast to any shape reads, at every index, the extended real its word denotes. -/
theorem deg_bcast_const {t : Shape} (dims : Fin S_.rank → Fin t.rank) (h : S_.BroadcastsInDim t dims) (b : BitVec 32) (j : t.Idx) :
    broadcastInDim t dims h (constant (F := Ideal) S_ .f32 b) j = Ideal.ofBits .f32 b := rfl

/-- A 100000-element array as a one-column matrix: entry `(n, 0)` is element `n`. -/
theorem deg_col_at {α : Type} (x : S100000.Idx → α) (h : S100000.ShapeCasts S100000x1) (n : Fin 100000) :
    shapeCast S100000x1 x h (ix2 n (0 : Fin 1)) = x (ix1 n) :=
  congrFun (Cert.LibReshapeRows.reshape_col x h) (ix2 n (0 : Fin 1))

/-- The host's reciprocal square root, entry by entry, is the extended reals'. -/
theorem deg_hrsqrt_at {s : Shape} (v : FVec Ideal s .f32) (i : s.Idx) : Host.rsqrt v i = Ideal.rsqrt (v i) := rfl

/-- The targets' row of the edge array, cut out, flattened and given a unit axis. -/
def dstT (a1 : IVec S2x1600000 32) : IVec S1600000x1 32 :=
  broadcastInDim S1600000x1 ![0] bcast_S1600000_S1600000x1_0
    (shapeCast S1600000 (extractStridedSlice S1x1600000 ![1, 0] a1 slices_S2x1600000_S1x1600000_1_0) shapeCasts_S1x1600000_S1600000)

/-- Its entry `(e, 0)` is the word at `(1, e)`. -/
theorem dstT_at (a1 : IVec S2x1600000 32) (e : Fin 1600000) : dstT a1 (ix2 e (0 : Fin 1)) = a1 (ix2 (1 : Fin 2) e) := by
  unfold dstT
  refine (broadcastInDim_apply _ _ _ (ix2 e (0 : Fin 1)) (ix1 e) ?_).trans ?_
  · intro a
    match a with
    | ⟨0, _⟩ => rfl
  refine (shapeCast_apply _ _ (ix1 e) (ix2 (0 : Fin 1) e) ?_).trans ?_
  · rw [Shape.rowMajor_val_two, Shape.rowMajor_val_one]
    show (0 : ℕ) * 1600000 + e.val = e.val
    omega
  refine extractStridedSlice_apply _ _ _ (ix2 (0 : Fin 1) e) (ix2 (1 : Fin 2) e) ?_
  intro a
  match a with
  | ⟨0, _⟩ => rfl
  | ⟨1, _⟩ => show e.val = 0 + e.val; omega

/-- The accumulating scatter of scalars read at node `n`, for any operand, indices and updates: the operand's entry plus
    the updates of the edges whose index word, read signed, is `n`. -/
theorem deg_scatter_at (x : FVec Ideal S100000 .f32) (idx : IVec S1600000x1 32) (upd : FVec Ideal S1600000 .f32) (n : Fin 100000) :
    Host.scatterAdd (F := Ideal) scatter_S100000_S1600000x1_S1600000_n_0_0_1 x idx upd (ix1 n)
      = x (ix1 n) + ∑ e ∈ Finset.univ.filter (fun e : Fin 1600000 => (idx (ix2 e (0 : Fin 1))).toInt = (n.val : ℤ)), upd (ix1 e) :=
  Idealize.ShloMosaic.ScatterAddVec.hostScatterAdd_vec_apply scatter_S100000_S1600000x1_S1600000_n_0_0_1 rfl rfl rfl rfl x idx upd n

/-- The column of per-node factors: ones added at the targets into zeros, plus one, raised to at least one, the
    reciprocal square root, as a column. -/
def dinvT (a1 : IVec S2x1600000 32) : FVec Ideal S100000x1 .f32 :=
  shapeCast S100000x1
    (Host.rsqrt (maximumf
      (addf (Host.scatterAdd (F := Ideal) scatter_S100000_S1600000x1_S1600000_n_0_0_1
          (broadcastInDim S100000 ![] bcast_S_S100000 (constant (F := Ideal) S_ .f32 0x00000000#32))
          (dstT a1)
          (broadcastInDim S1600000 ![] bcast_S_S1600000 (constant (F := Ideal) S_ .f32 0x3F800000#32)))
        (broadcastInDim S100000 ![] bcast_S_S100000 (constant (F := Ideal) S_ .f32 0x3F800000#32)))
      (broadcastInDim S100000 ![] bcast_S_S100000 (constant (F := Ideal) S_ .f32 0x3F800000#32))))
    shapeCasts_S100000_S100000x1

/-- Entry `(n, 0)`: the reciprocal square root of the number of edges into `n`, plus one, raised to at least one. -/
theorem dinvT_at (a1 : IVec S2x1600000 32) (n : Fin 100000) :
    dinvT a1 (ix2 n (0 : Fin 1))
      = Ideal.rsqrt (max ((∑ _e ∈ Finset.univ.filter (fun e : Fin 1600000 => (a1 (ix2 (1 : Fin 2) e)).toInt = (n.val : ℤ)), (1 : EReal)) + 1) 1) := by
  have hs : ∑ e ∈ Finset.univ.filter (fun e : Fin 1600000 => (dstT a1 (ix2 e (0 : Fin 1))).toInt = (n.val : ℤ)),
        broadcastInDim S1600000 ![] bcast_S_S1600000 (constant (F := Ideal) S_ .f32 0x3F800000#32) (ix1 e)
      = ∑ _e ∈ Finset.univ.filter (fun e : Fin 1600000 => (a1 (ix2 (1 : Fin 2) e)).toInt = (n.val : ℤ)), (1 : EReal) :=
    Finset.sum_congr (Finset.filter_congr fun e _ => by rw [dstT_at]) fun e _ => by rw [deg_bcast_const, Cert.Consts.ofBits_one]
  unfold dinvT
  rw [deg_col_at, deg_hrsqrt_at, maximumf_apply, addf_apply, deg_scatter_at, hs, deg_bcast_const, deg_bcast_const, Cert.Consts.ofBits_zero,
    Cert.Consts.ofBits_one, zero_add]

end Cert.KernelIdeal.Hand

end
-- ==== Proof.KI.ValueA.lean ====
import proofs.«407895_j63728724738088_3_alg».proof.Proof.Gen.KernelIdeal.Launch
import proofs.«407895_j63728724738088_3_alg».proof.Proof.Gen.KernelIdeal.Skeleton
import proofs.«407895_j63728724738088_3_alg».proof.Proof.Gen.KernelIdeal.Points
import proofs.«407895_j63728724738088_3_alg».proof.Proof.KI.Reg0
import Idealize.ShloMosaic.PureOps.Ideal.Laws
import Idealize.ShloMosaic.Lib.ValueIdx
import Idealize.ShloMosaic.Lib.ValueLayout
import Idealize.ShloMosaic.Lib.Pipeline.Value
import proofs.«407895_j63728724738088_3_alg».proof.Proof.KI.Fold
import proofs.«407895_j63728724738088_3_alg».proof.Proof.KI.Val0
import proofs.«407895_j63728724738088_3_alg».proof.Proof.KI.Val1
import proofs.«407895_j63728724738088_3_alg».proof.Proof.KI.Inp
import proofs.«407895_j63728724738088_3_alg».proof.Proof.KI.ValueBN
import proofs.«407895_j63728724738088_3_alg».proof.Proof.KI.Run
import proofs.«407895_j63728724738088_3_alg».proof.Proof.KI.ValueADeg
import proofs.«407895_j63728724738088_3_alg».proof.Proof.Spec
import proofs.«407895_j63728724738088_3_alg».proof.Proof.Consts
import proofs.«407895_j63728724738088_3_alg».proof.Proof.LibScatterAddVec
import proofs.«407895_j63728724738088_3_alg».proof.Proof.LibReshapeRows
import Idealize.ShloMosaic.Lib.StableHlo.Run
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

/-! # The first two regions and the host operations between them, at the ideal values

After the statistics region the two result rows hold the column sums and the column sums of squares of the features; the
first stretch of host operations turns them into the per-feature scale and shift, counts the in-degrees over the real
edges and forms the per-node factor `d⁻¹ᐟ²`; the second region then leaves, in both of its result arrays, the
pre-scaled rows. Stated against the specification's chain `Cert.Spec.hsK`, `dinvK`. -/

variable (m : (ℓ : Loc nD τ sig) → Buf (Elt Ideal) ℓ) (c : Dev nD)

/-- The column the host operations leave in the per-node factor's buffer is the degree chain over the edge array as the
    first stretch finds it. -/
private theorem W2_v28_eq :
    (W2 (F := Ideal) m c (Proc.devRef .tc main_v28) : S100000x1.Idx → EReal) = dinvT (W1 (F := Ideal) m c (Proc.devRef .tc main_arg1)) := by
  show StableHlo.after hostOps1 _ (Proc.devRef .tc main_v28) = _
  after_results_simp
  rfl

/-- The per-node factor, as the second and the third region find it. -/
theorem dinv_entry (n : Fin 100000) :
    W2 (F := Ideal) m c (Proc.devRef .tc main_v28) (ix2 n (0 : Fin 1)) = Cert.Spec.dinvK (inp m c) n := by
  rw [W2_v28_eq, dinvT_at, W1_off m c main_arg1 (by decide)]
  rfl

/-- The second region's formula over its operands as it finds them is the specification's pre-scaled row. -/
private theorem hs_core (n : Fin 100000) (j : Fin 128) :
    (∑ k : Fin 256, (feat1 (V2 (F := Ideal) m) c (ix2 n k) * scale1 (V2 (F := Ideal) m) c (ix2 (0 : Fin 1) k)
        + shift1 (V2 (F := Ideal) m) c (ix2 (0 : Fin 1) k)) * wts1 (V2 (F := Ideal) m) c (ix2 k j))
      * fac1 (V2 (F := Ideal) m) c (ix2 n (0 : Fin 1)) = Cert.Spec.hsK (inp m c) n j := by
  unfold Cert.Spec.hsK
  refine congrArg₂ (fun s d => s * d) (Finset.sum_congr rfl fun k _ => ?_) (dinv_entry m c n)
  rw [feat_entry m c n k, scale_entry m c k, shift_entry m c k, wts_entry m c k j]

/-- The pre-scaled rows, in the wide result array of the second region … -/
theorem hs_wide (n : Fin 100000) (j : Fin 128) :
    W3 (F := Ideal) m c (Proc.devRef .tc main_v30_0) (ix2 n j) = Cert.Spec.hsK (inp m c) n j :=
  (congrFun (W3_arr m c (5 : Fin 7)) (ix2 n j)).trans ((final1_wide (V2 (F := Ideal) m) c n j).trans (hs_core m c n j))

/-- … and in its narrow copy. -/
theorem hs_narrow (n : Fin 100000) (j : Fin 128) :
    W3 (F := Ideal) m c (Proc.devRef .tc main_v30_1) (ix2 n j) = Cert.Spec.hsK (inp m c) n j :=
  (congrFun (W3_arr m c (6 : Fin 7)) (ix2 n j)).trans ((final1_narrow (V2 (F := Ideal) m) c n j).trans (hs_core m c n j))

/-- The per-node factor is still there after the second region (it is one of its inputs). -/
theorem dinv_entry3 (n : Fin 100000) :
    W3 (F := Ideal) m c (Proc.devRef .tc main_v28) (ix2 n (0 : Fin 1)) = Cert.Spec.dinvK (inp m c) n :=
  (congrFun (W3_keep m c main_v28 (by decide)) (ix2 n (0 : Fin 1))).trans (dinv_entry m c n)

/-- No region and no host operation up to the second region's exit writes an argument. -/
theorem W3_arg1 : W3 (F := Ideal) m c (Proc.devRef .tc main_arg1) = m ((c.tc : Thread nD τ).loc main_arg1) :=
  (W3_keep m c main_arg1 (by decide)).trans ((W2_keep m c main_arg1 (by decide)).trans (W1_keep m c main_arg1 (by decide)))
theorem W3_arg2 : W3 (F := Ideal) m c (Proc.devRef .tc main_arg2) = m ((c.tc : Thread nD τ).loc main_arg2) :=
  (W3_keep m c main_arg2 (by decide)).trans ((W2_keep m c main_arg2 (by decide)).trans (W1_keep m c main_arg2 (by decide)))
theorem W3_arg7 : W3 (F := Ideal) m c (Proc.devRef .tc main_arg7) = m ((c.tc : Thread nD τ).loc main_arg7) :=
  (W3_keep m c main_arg7 (by decide)).trans ((W2_keep m c main_arg7 (by decide)).trans (W1_keep m c main_arg7 (by decide)))

end Cert.KernelIdeal.Hand

end
-- ==== Proof.KI.Val2.lean ====
import proofs.«407895_j63728724738088_3_alg».proof.Proof.Gen.KernelIdeal.Launch
import proofs.«407895_j63728724738088_3_alg».proof.Proof.Gen.KernelIdeal.Skeleton
import proofs.«407895_j63728724738088_3_alg».proof.Proof.Gen.KernelIdeal.Points
import proofs.«407895_j63728724738088_3_alg».proof.Proof.KI.Reg2
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

/-! # What the pooling region leaves, at the ideal values

The region visits the 25 row blocks in order, keeping a 64 × 128 accumulator: zeroed at the first block; at every block
increased by two products of the block's 0/1 membership matrix (graph `g` against the block's node labels) — with the
block's rectified rows, and with their differences from themselves —; after the last block the result array, one 64 × 128
block, is the accumulator times the per-graph reciprocal count. -/

/-- The region's five operands as it finds them: accumulated rows, per-node factor, bias row, labels (25 × 1 × 4000),
    per-graph reciprocal counts. -/
abbrev agg2 (V : (c : Dev nD) → (b : Ref sig .tc) → Buf (Elt Ideal) ((c : Thread nD τ).loc b)) (c : Dev nD) : S100000x128.Idx → EReal := V c main_v45
abbrev fac2 (V : (c : Dev nD) → (b : Ref sig .tc) → Buf (Elt Ideal) ((c : Thread nD τ).loc b)) (c : Dev nD) : S100000x1.Idx → EReal := V c main_v28
abbrev bias2 (V : (c : Dev nD) → (b : Ref sig .tc) → Buf (Elt Ideal) ((c : Thread nD τ).loc b)) (c : Dev nD) : S1x128.Idx → EReal := V c main_v55
abbrev lab2 (V : (c : Dev nD) → (b : Ref sig .tc) → Buf (Elt Ideal) ((c : Thread nD τ).loc b)) (c : Dev nD) : S25x1x4000.Idx → BitVec 32 := V c main_v56
abbrev rcp2 (V : (c : Dev nD) → (b : Ref sig .tc) → Buf (Elt Ideal) ((c : Thread nD τ).loc b)) (c : Dev nD) : S64x1.Idx → EReal := V c main_v54

/-- The rectified row entry the region forms from its operands at node `n`, feature `j`. -/
def xr2 (V : (c : Dev nD) → (b : Ref sig .tc) → Buf (Elt Ideal) ((c : Thread nD τ).loc b)) (c : Dev nD) (n : Fin 100000) (j : Fin 128) : EReal :=
  max (fac2 V c (ix2 n (0 : Fin 1)) * agg2 V c (ix2 n j) + bias2 V c (ix2 (0 : Fin 1) j)) 0

/-- The 0/1 weight of node `n` in graph `g`: the node's label word (row block `n / 4000`, position `n % 4000`) against
    the word of `g`. -/
def oh2 (V : (c : Dev nD) → (b : Ref sig .tc) → Buf (Elt Ideal) ((c : Thread nD τ).loc b)) (c : Dev nD) (g : Fin 64) (n : Fin 100000) : EReal :=
  if lab2 V c (ix3 (⟨n.val / 4000, by omega⟩ : Fin 25) (0 : Fin 1) (⟨n.val % 4000, Nat.mod_lt _ (by norm_num)⟩ : Fin 4000)) = BitVec.ofNat 32 g.val then 1 else 0

/-! ## The pooling product's operand indices

Each of the two products contracts the membership matrix's axis 1 (the block's 4000 nodes) with the rows' axis 0: at
output index `j` and contraction position `k` the left operand is read at `(j 0, k)` and the right at `(k, j 1)`. -/

theorem lhs_dot2_0 (j : S64x128.Idx) (k : dot_S64x4000_S4000x128_S64x128_1_0_0_1_n_n.contr.Idx) :
    (dot_S64x4000_S4000x128_S64x128_1_0_0_1_n_n.lhsIdx j k 0).val = (j 0).val := by
  unfold DotDims.lhsIdx
  rw [dif_neg (show ¬(0 : Fin S64x4000.rank) ∈ dot_S64x4000_S4000x128_S64x128_1_0_0_1_n_n.lhsBatch by decide),
    dif_pos (show (0 : Fin S64x4000.rank) ∈ dot_S64x4000_S4000x128_S64x128_1_0_0_1_n_n.lhsNonContracting by decide)]
  rfl

theorem lhs_dot2_1 (j : S64x128.Idx) (k : dot_S64x4000_S4000x128_S64x128_1_0_0_1_n_n.contr.Idx) :
    (dot_S64x4000_S4000x128_S64x128_1_0_0_1_n_n.lhsIdx j k 1).val = (k ⟨0, by decide⟩).val :=
  DotDims.lhsIdx_val_of_single _ (cl := (1 : Fin S64x4000.rank)) rfl j k

theorem rhs_dot2_0 (j : S64x128.Idx) (k : dot_S64x4000_S4000x128_S64x128_1_0_0_1_n_n.contr.Idx) :
    (dot_S64x4000_S4000x128_S64x128_1_0_0_1_n_n.rhsIdx j k 0).val = (k ⟨0, by decide⟩).val :=
  DotDims.rhsIdx_val_of_single _ (cr := (0 : Fin S4000x128.rank)) rfl j k

theorem rhs_dot2_1 (j : S64x128.Idx) (k : dot_S64x4000_S4000x128_S64x128_1_0_0_1_n_n.contr.Idx) :
    (dot_S64x4000_S4000x128_S64x128_1_0_0_1_n_n.rhsIdx j k 1).val = (j 1).val := by
  unfold DotDims.rhsIdx
  rw [dif_neg (show ¬(1 : Fin S4000x128.rank) ∈ dot_S64x4000_S4000x128_S64x128_1_0_0_1_n_n.rhsBatch by decide),
    dif_pos (show (1 : Fin S4000x128.rank) ∈ dot_S64x4000_S4000x128_S64x128_1_0_0_1_n_n.rhsNonContracting by decide)]
  rfl

/-- A product into the zero accumulator, at `(g, j)`: the sum over the block's 4000 nodes of row `g` times column `j`. -/
theorem matmul2_apply (A : FVec Ideal S64x4000 .bf16) (B : FVec Ideal S4000x128 .bf16) (g : Fin 64) (j : Fin 128) :
    matmul dot_S64x4000_S4000x128_S64x128_1_0_0_1_n_n none A B (constant (F := Ideal) S64x128 .f32 0x00000000#32) (ix2 g j)
      = ∑ r : Fin 4000, A (ix2 g r) * B (ix2 r j) := by
  simp only [matmul]
  rw [Ideal.matmul_constant_zero_apply,
    ← Equiv.sum_comp (contrEquiv1 dot_S64x4000_S4000x128_S64x128_1_0_0_1_n_n 4000 rfl rfl).symm]
  refine Finset.sum_congr rfl fun k _ => ?_
  have hk := contrEquiv1_symm_val dot_S64x4000_S4000x128_S64x128_1_0_0_1_n_n 4000 rfl rfl k
  have hl : dot_S64x4000_S4000x128_S64x128_1_0_0_1_n_n.lhsIdx (ix2 g j) ((contrEquiv1 dot_S64x4000_S4000x128_S64x128_1_0_0_1_n_n 4000 rfl rfl).symm k) = ix2 g k := by
    funext a; apply Fin.ext
    match a with
    | ⟨0, _⟩ => exact lhs_dot2_0 _ _
    | ⟨1, _⟩ => exact (lhs_dot2_1 _ _).trans hk
  have hr : dot_S64x4000_S4000x128_S64x128_1_0_0_1_n_n.rhsIdx (ix2 g j) ((contrEquiv1 dot_S64x4000_S4000x128_S64x128_1_0_0_1_n_n 4000 rfl rfl).symm k) = ix2 k j := by
    funext a; apply Fin.ext
    match a with
    | ⟨0, _⟩ => exact (rhs_dot2_0 _ _).trans hk
    | ⟨1, _⟩ => exact rhs_dot2_1 _ _
  rw [hl, hr]

/-! ## The broadcasts and the label view -/

/-- The 4000 × 1 factor column spread over 128 columns reads the column's entry in that row. -/
theorem bcast2_fac_apply (x : FVec Ideal S4000x1 .f32) (r : Fin 4000) (j : Fin 128) :
    broadcastTo S4000x128 x broadcasts_S4000x1_S4000x128 (ix2 r j) = x (ix2 r (0 : Fin 1)) :=
  broadcastTo_apply x _ _ _ fun a => by
    match a with
    | ⟨0, _⟩ => rfl
    | ⟨1, _⟩ => rfl

/-- The 1 × 128 bias row spread over 4000 rows reads the row's entry in that column. -/
theorem bcast2_bias_apply (x : FVec Ideal S1x128 .f32) (r : Fin 4000) (j : Fin 128) :
    broadcastTo S4000x128 x broadcasts_S1x128_S4000x128 (ix2 r j) = x (ix2 (0 : Fin 1) j) :=
  broadcastTo_apply x _ _ _ fun a => by
    match a with
    | ⟨0, _⟩ => rfl
    | ⟨1, _⟩ => rfl

/-- The 64 × 1 reciprocal column spread over 128 columns reads the column's entry in that row. -/
theorem bcast2_rcp_apply (x : FVec Ideal S64x1 .f32) (g : Fin 64) (j : Fin 128) :
    broadcastTo S64x128 x broadcasts_S64x1_S64x128 (ix2 g j) = x (ix2 g (0 : Fin 1)) :=
  broadcastTo_apply x _ _ _ fun a => by
    match a with
    | ⟨0, _⟩ => rfl
    | ⟨1, _⟩ => rfl

/-- The 1 × 4000 label row spread over 64 rows reads the row's word in that column. -/
theorem bcast2_lab_apply (x : IVec S1x4000 32) (g : Fin 64) (r : Fin 4000) :
    broadcastTo S64x4000 x broadcasts_S1x4000_S64x4000 (ix2 g r) = x (ix2 (0 : Fin 1) r) :=
  broadcastTo_apply x _ _ _ fun a => by
    match a with
    | ⟨0, _⟩ => rfl
    | ⟨1, _⟩ => rfl

/-- The 1 × 1 × 4000 label block viewed as 1 × 4000 keeps each word at its position. -/
theorem lab_cast_apply (v : S1x1x4000.Idx → BitVec 32) (r : Fin 4000) :
    shapeCast S1x4000 v shapeCasts_S1x1x4000_S1x4000 (ix2 (0 : Fin 1) r) = v (ix3 (0 : Fin 1) (0 : Fin 1) r) :=
  shapeCast_apply v _ _ _ (by
    rw [Shape.rowMajor_val_three, Shape.rowMajor_val_two]
    show ((0 : ℕ) * 1 + 0) * 4000 + r.val = 0 * 4000 + r.val
    omega)

/-- A word compared for equality, widened and converted: 1 where the words agree, 0 elsewhere. -/
theorem onehot_word (a b : BitVec 32) :
    (FloatOps.sitofp .f32 ((IntOp.cmpi .eq a b).setWidth 32) : Ideal .f32) = if a = b then 1 else 0 := by
  show (((((IntOp.cmpi .eq a b).setWidth 32).toInt : ℤ) : ℝ) : EReal) = _
  have hc : IntOp.cmpi .eq a b = BitVec.ofBool (a == b) := rfl
  rw [hc]
  by_cases h : a = b
  · have hb : (a == b) = true := beq_iff_eq.mpr h
    have e : ((BitVec.ofBool true).setWidth 32).toInt = 1 := by decide
    rw [hb, e, if_pos h]; simp
  · have hb : (a == b) = false := beq_eq_false_iff_ne.mpr h
    have e : ((BitVec.ofBool false).setWidth 32).toInt = 0 := by decide
    rw [hb, e, if_neg h]; simp

/-! ## The payloads at an index, over a block's operands -/

/-- The rectified entry of a block's row `r`, feature `j`. -/
def xrB (fac : Vec Ideal S4000x1 .f32) (agg : Vec Ideal S4000x128 .f32) (bias : Vec Ideal S1x128 .f32) (r : Fin 4000) (j : Fin 128) : EReal :=
  max (fac (ix2 r (0 : Fin 1)) * agg (ix2 r j) + bias (ix2 (0 : Fin 1) j)) 0

/-- The 0/1 weight of a block's node `r` in graph `g`. -/
def ohB (lab : S1x1x4000.Idx → BitVec 32) (g : Fin 64) (r : Fin 4000) : EReal :=
  if lab (ix3 (0 : Fin 1) (0 : Fin 1) r) = BitVec.ofNat 32 g.val then 1 else 0

/-- The rectified rows the body forms, at an index. -/
theorem rect2_apply (fac : Vec Ideal S4000x1 .f32) (agg : Vec Ideal S4000x128 .f32) (bias : Vec Ideal S1x128 .f32) (r : Fin 4000) (j : Fin 128) :
    maximumf (addf (mulf (broadcastTo S4000x128 fac broadcasts_S4000x1_S4000x128) agg) (broadcastTo S4000x128 bias broadcasts_S1x128_S4000x128))
        (broadcast S4000x128 (Scalar.ofBits (F := Ideal) .f32 0x00000000#32)) (ix2 r j)
      = xrB fac agg bias r j := by
  rw [maximumf_apply, addf_apply, mulf_apply, bcast2_fac_apply, bcast2_bias_apply, broadcast_apply]
  show max _ (Ideal.ofBits .f32 0x00000000#32) = _
  rw [Ideal.ofBits_zero_f32]
  rfl

/-- The membership matrix the body forms, at an index. -/
theorem onehot2_apply (lab : S1x1x4000.Idx → BitVec 32) (g : Fin 64) (r : Fin 4000) :
    (sitofp .f32 (extui 32 (cmpi .eq (broadcastTo S64x4000 (shapeCast S1x4000 lab shapeCasts_S1x1x4000_S1x4000) broadcasts_S1x4000_S64x4000)
        (iota .tc S64x4000 32 [0] iota_S64x4000_d0_w32)) natLt_1_32) : FVec Ideal S64x4000 .f32) (ix2 g r)
      = ohB lab g r := by
  show FloatOps.sitofp .f32 ((IntOp.cmpi .eq (broadcastTo S64x4000 (shapeCast S1x4000 lab shapeCasts_S1x1x4000_S1x4000) broadcasts_S1x4000_S64x4000 (ix2 g r))
      (iota .tc S64x4000 32 [0] iota_S64x4000_d0_w32 (ix2 g r))).setWidth 32) = _
  rw [bcast2_lab_apply, lab_cast_apply, iota_single_apply]
  exact onehot_word _ _

/-- The accumulating payload at `(g, j)`: what the scratch held, plus the block's two products. -/
theorem pay3_apply (fac : Vec Ideal S4000x1 .f32) (agg : Vec Ideal S4000x128 .f32) (bias : Vec Ideal S1x128 .f32)
    (lab : S1x1x4000.Idx → BitVec 32) (s : Vec Ideal S64x128 .f32) (g : Fin 64) (j : Fin 128) :
    k2_pay3 fac agg bias lab s (ix2 g j)
      = s (ix2 g j) + ((∑ r : Fin 4000, ohB lab g r * xrB fac agg bias r j)
          + ∑ r : Fin 4000, ohB lab g r * (xrB fac agg bias r j - xrB fac agg bias r j)) := by
  unfold k2_pay3
  simp only [shapeCast_self]
  rw [addf_apply, addf_apply, matmul2_apply, matmul2_apply]
  refine congrArg₂ (· + ·) rfl (congrArg₂ (· + ·) (Finset.sum_congr rfl fun r _ => ?_) (Finset.sum_congr rfl fun r _ => ?_))
  · exact congrArg₂ (· * ·) (onehot2_apply lab g r) (rect2_apply fac agg bias r j)
  · exact congrArg₂ (· * ·) (onehot2_apply lab g r) (congrArg₂ (· - ·) (rect2_apply fac agg bias r j) (rect2_apply fac agg bias r j))

/-- The zeroing payload is zero everywhere. -/
theorem pay2z_apply (i : S64x128.Idx) : k2_pay2 (F := Ideal) i = 0 := by
  unfold k2_pay2
  simp only [shapeCast_self]
  exact Ideal.ofBits_zero_f32

/-- The final payload at `(g, j)`: the scratch times graph `g`'s reciprocal count. -/
theorem pay1f_apply (s : Vec Ideal S64x128 .f32) (rcp : Vec Ideal S64x1 .f32) (g : Fin 64) (j : Fin 128) :
    k2_pay1 s rcp (ix2 g j) = s (ix2 g j) * rcp (ix2 g (0 : Fin 1)) := by
  unfold k2_pay1
  simp only [shapeCast_self]
  rw [mulf_apply, bcast2_rcp_apply]

/-! ## Twenty-five blocks of 4000 nodes are the 100000 nodes -/

theorem sum_blocks (f : ℕ → EReal) (T : ℕ) :
    ∑ t ∈ Finset.range T, ∑ r : Fin 4000, f (t * 4000 + r.val) = ∑ n ∈ Finset.range (T * 4000), f n := by
  induction T with
  | zero => simp
  | succ T ih =>
    rw [Finset.sum_range_succ, ih, Nat.add_mul, Nat.one_mul, Finset.sum_range_add,
      Fin.sum_univ_eq_sum_range (fun r => f (T * 4000 + r)) 4000]

/-! ## From the blocks to the region's operands -/

section Arrays

variable (V : (c : Dev nD) → (b : Ref sig .tc) → Buf (Elt Ideal) ((c : Thread nD τ).loc b))

/-- The printed index maps, decided over the grid: the rows, the factor and the labels are at block `t` of their first
    axis; the bias, the reciprocal counts and the result stay at block 0. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 3) = t.val ∧ win2_3.index t (1 : Fin 3) = 0 ∧ win2_3.index t (2 : Fin 3) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- The grid has 25 points, so a point's row block lies inside the 100000 rows. -/
theorem row_lt2 (t : Fin cfg2.N) (r : Fin 4000) : t.val * 4000 + r.val < 100000 := by
  have ht : t.val < 25 := lt_of_lt_of_eq t.isLt N_2
  have := r.isLt; omega

/-- Where each block is read in its array: a block's coordinate is its index times its size plus the coordinate inside
    the block. -/
theorem emb2_0 (t : Fin cfg2.N) (r : Fin 4000) (j : Fin 128) :
    ((cfg2.win 0).blk t).view.emb (ix2 r j) = ix2 (⟨t.val * 4000 + r.val, row_lt2 t r⟩ : Fin 100000) j := by
  obtain ⟨e0, e1, -⟩ := idx_facts2 t
  funext a; apply Fin.ext
  match a with
  | ⟨0, _⟩ => show win2_0.index t (0 : Fin 2) * 4000 + 1 * r.val = t.val * 4000 + r.val; omega
  | ⟨1, _⟩ => show win2_0.index t (1 : Fin 2) * 128 + 1 * j.val = j.val; omega

theorem emb2_1 (t : Fin cfg2.N) (r : Fin 4000) :
    ((cfg2.win 1).blk t).view.emb (ix2 r (0 : Fin 1)) = ix2 (⟨t.val * 4000 + r.val, row_lt2 t r⟩ : Fin 100000) (0 : Fin 1) := by
  obtain ⟨-, -, e0, e1, -⟩ := idx_facts2 t
  funext a; apply Fin.ext
  match a with
  | ⟨0, _⟩ => show win2_1.index t (0 : Fin 2) * 4000 + 1 * r.val = t.val * 4000 + r.val; omega
  | ⟨1, _⟩ => show win2_1.index t (1 : Fin 2) * 1 + 1 * 0 = 0; omega

theorem emb2_2 (t : Fin cfg2.N) (j : Fin 128) :
    ((cfg2.win 2).blk t).view.emb (ix2 (0 : Fin 1) j) = ix2 (0 : Fin 1) j := by
  obtain ⟨-, -, -, -, e0, e1, -⟩ := idx_facts2 t
  funext a; apply Fin.ext
  match a with
  | ⟨0, _⟩ => show win2_2.index t (0 : Fin 2) * 1 + 1 * 0 = 0; omega
  | ⟨1, _⟩ => show win2_2.index t (1 : Fin 2) * 128 + 1 * j.val = j.val; omega

/-- Node `r` of block `t` is node `t · 4000 + r`, whose label sits in row block `(t · 4000 + r) / 4000` at position
    `(t · 4000 + r) % 4000`. -/
theorem emb2_3 (t : Fin cfg2.N) (r : Fin 4000) :
    ((cfg2.win 3).blk t).view.emb (ix3 (0 : Fin 1) (0 : Fin 1) r)
      = ix3 (⟨(t.val * 4000 + r.val) / 4000, by have := row_lt2 t r; omega⟩ : Fin 25) (0 : Fin 1)
          (⟨(t.val * 4000 + r.val) % 4000, Nat.mod_lt _ (by norm_num)⟩ : Fin 4000) := by
  obtain ⟨-, -, -, -, -, -, e0, e1, e2, -⟩ := idx_facts2 t
  have hr := r.isLt
  funext a; apply Fin.ext
  match a with
  | ⟨0, _⟩ => show win2_3.index t (0 : Fin 3) * 1 + 1 * 0 = (t.val * 4000 + r.val) / 4000; omega
  | ⟨1, _⟩ => show win2_3.index t (1 : Fin 3) * 1 + 1 * 0 = 0; omega
  | ⟨2, _⟩ => show win2_3.index t (2 : Fin 3) * 4000 + 1 * r.val = (t.val * 4000 + r.val) % 4000; omega

theorem emb2_4 (t : Fin cfg2.N) (g : Fin 64) :
    ((cfg2.win 4).blk t).view.emb (ix2 g (0 : Fin 1)) = ix2 g (0 : Fin 1) := by
  obtain ⟨-, -, -, -, -, -, -, -, -, e0, e1, -⟩ := idx_facts2 t
  funext a; apply Fin.ext
  match a with
  | ⟨0, _⟩ => show win2_4.index t (0 : Fin 2) * 64 + 1 * g.val = g.val; omega
  | ⟨1, _⟩ => show win2_4.index t (1 : Fin 2) * 1 + 1 * 0 = 0; omega

theorem emb2_5 (t : Fin cfg2.N) (g : Fin 64) (j : Fin 128) :
    ((cfg2.win 5).blk t).view.emb (ix2 g j) = ix2 g j := by
  obtain ⟨-, -, -, -, -, -, -, -, -, -, -, e0, e1⟩ := idx_facts2 t
  funext a; apply Fin.ext
  match a with
  | ⟨0, _⟩ => show win2_5.index t (0 : Fin 2) * 64 + 1 * g.val = g.val; omega
  | ⟨1, _⟩ => show win2_5.index t (1 : Fin 2) * 128 + 1 * j.val = j.val; omega

/-! ## A block's terms are the nodes' terms -/

/-- Node `m`'s term of graph `g`'s pooled feature `j` (zero past the last node), -/
def poolTerm (c : Dev nD) (g : Fin 64) (j : Fin 128) (m : ℕ) : EReal :=
  if h : m < 100000 then oh2 V c g ⟨m, h⟩ * xr2 V c ⟨m, h⟩ j else 0

/-- and its term of the second product, over the rectified entry's difference from itself. -/
def poolTermD (c : Dev nD) (g : Fin 64) (j : Fin 128) (m : ℕ) : EReal :=
  if h : m < 100000 then oh2 V c g ⟨m, h⟩ * (xr2 V c ⟨m, h⟩ j - xr2 V c ⟨m, h⟩ j) else 0

theorem oh_block (c : Dev nD) (t : Fin cfg2.N) (g : Fin 64) (r : Fin 4000) :
    ohB (iblk2 V c 3 t) g r = oh2 V c g ⟨t.val * 4000 + r.val, row_lt2 t r⟩ := by
  unfold ohB oh2
  show (if lab2 V c (((cfg2.win 3).blk t).view.emb (ix3 (0 : Fin 1) (0 : Fin 1) r)) = BitVec.ofNat 32 g.val then (1 : EReal) else 0) = _
  rw [emb2_3]

theorem xr_block (c : Dev nD) (t : Fin cfg2.N) (r : Fin 4000) (j : Fin 128) :
    xrB (iblk2 V c 1 t) (iblk2 V c 0 t) (iblk2 V c 2 t) r j = xr2 V c ⟨t.val * 4000 + r.val, row_lt2 t r⟩ j := by
  unfold xrB xr2
  show max (fac2 V c (((cfg2.win 1).blk t).view.emb (ix2 r (0 : Fin 1))) * agg2 V c (((cfg2.win 0).blk t).view.emb (ix2 r j))
      + bias2 V c (((cfg2.win 2).blk t).view.emb (ix2 (0 : Fin 1) j))) 0 = _
  rw [emb2_1, emb2_0, emb2_2]

theorem block_term (c : Dev nD) (t : Fin cfg2.N) (g : Fin 64) (j : Fin 128) (r : Fin 4000) :
    ohB (iblk2 V c 3 t) g r * xrB (iblk2 V c 1 t) (iblk2 V c 0 t) (iblk2 V c 2 t) r j = poolTerm V c g j (t.val * 4000 + r.val) := by
  unfold poolTerm
  rw [dif_pos (row_lt2 t r), oh_block, xr_block]

theorem block_termD (c : Dev nD) (t : Fin cfg2.N) (g : Fin 64) (j : Fin 128) (r : Fin 4000) :
    ohB (iblk2 V c 3 t) g r * (xrB (iblk2 V c 1 t) (iblk2 V c 0 t) (iblk2 V c 2 t) r j - xrB (iblk2 V c 1 t) (iblk2 V c 0 t) (iblk2 V c 2 t) r j)
      = poolTermD V c g j (t.val * 4000 + r.val) := by
  unfold poolTermD
  rw [dif_pos (row_lt2 t r), oh_block, xr_block]

/-! ## The accumulator, in closed form -/

/-- After point `n` the accumulator holds, at `(g, j)`, the sum over the blocks so far of the block's two products. -/
theorem scrAt_apply (c : Dev nD) (g : Fin 64) (j : Fin 128) : ∀ (n : ℕ) (hn : n < cfg2.N),
    scrAt (F := Ideal) V c n hn (ix2 g j)
      = ∑ t ∈ Finset.range (n + 1), ((∑ r : Fin 4000, poolTerm V c g j (t * 4000 + r.val)) + ∑ r : Fin 4000, poolTermD V c g j (t * 4000 + r.val))
  | 0, hn => by
    show scrFirst (iblk2 V c 0 ⟨0, hn⟩) (iblk2 V c 1 ⟨0, hn⟩) (iblk2 V c 2 ⟨0, hn⟩) (iblk2 V c 3 ⟨0, hn⟩) (ix2 g j) = _
    unfold scrFirst
    rw [pay3_apply, pay2z_apply, zero_add, Finset.sum_range_one]
    exact congrArg₂ (· + ·) (Finset.sum_congr rfl fun r _ => block_term V c ⟨0, hn⟩ g j r)
      (Finset.sum_congr rfl fun r _ => block_termD V c ⟨0, hn⟩ g j r)
  | n + 1, hn => by
    show scrNext (iblk2 V c 0 ⟨n + 1, hn⟩) (iblk2 V c 1 ⟨n + 1, hn⟩) (iblk2 V c 2 ⟨n + 1, hn⟩) (iblk2 V c 3 ⟨n + 1, hn⟩)
      (scrAt V c n (Nat.lt_of_succ_lt hn)) (ix2 g j) = _
    unfold scrNext
    rw [pay3_apply, scrAt_apply c g j n (Nat.lt_of_succ_lt hn), Finset.sum_range_succ _ (n + 1)]
    exact congrArg₂ (· + ·) rfl (congrArg₂ (· + ·) (Finset.sum_congr rfl fun r _ => block_term V c ⟨n + 1, hn⟩ g j r)
      (Finset.sum_congr rfl fun r _ => block_termD V c ⟨n + 1, hn⟩ g j r))

/-- Over all 25 blocks the block sums are the sums over the 100000 nodes. -/
theorem sum_poolTerm (c : Dev nD) (g : Fin 64) (j : Fin 128) :
    ∑ t ∈ Finset.range 25, ∑ r : Fin 4000, poolTerm V c g j (t * 4000 + r.val) = ∑ n : Fin 100000, oh2 V c g n * xr2 V c n j := by
  rw [sum_blocks, show 25 * 4000 = 100000 from rfl, ← Fin.sum_univ_eq_sum_range (poolTerm V c g j) 100000]
  refine Finset.sum_congr rfl fun n _ => ?_
  unfold poolTerm
  rw [dif_pos n.isLt]

theorem sum_poolTermD (c : Dev nD) (g : Fin 64) (j : Fin 128) :
    ∑ t ∈ Finset.range 25, ∑ r : Fin 4000, poolTermD V c g j (t * 4000 + r.val)
      = ∑ n : Fin 100000, oh2 V c g n * (xr2 V c n j - xr2 V c n j) := by
  rw [sum_blocks, show 25 * 4000 = 100000 from rfl, ← Fin.sum_univ_eq_sum_range (poolTermD V c g j) 100000]
  refine Finset.sum_congr rfl fun n _ => ?_
  unfold poolTermD
  rw [dif_pos n.isLt]

/-! ## The result array -/

/-- What the result array ends holding: the two sums over all nodes, times the graph's reciprocal count. -/
def pooled (c : Dev nD) : Buf (Elt Ideal) ((c : Thread nD τ).loc main_v57) := fun i =>
  ((∑ n : Fin 100000, oh2 V c (i 0) n * xr2 V c n (i 1)) + ∑ n : Fin 100000, oh2 V c (i 0) n * (xr2 V c n (i 1) - xr2 V c n (i 1)))
    * rcp2 V c (ix2 (i 0) (0 : Fin 1))

/-- The one point that writes the result back (the last) writes the whole of it. -/
theorem flushed2_5_eq (c : Dev nD) (t : Fin cfg2.N) (hf : (cfg2.win 5).flush t = true) :
    (dat2 (F := Ideal) V c).flushed 5 t = ((cfg2.win 5).blk t).view.read (Elt Ideal) (pooled V c) := by
  have h24 : t.val = 24 := by
    have h1 := (flush2_5 t).mp hf
    have h2 : t.val < 25 := lt_of_lt_of_eq t.isLt N_2
    omega
  show (cfg2.win 5).cut (grid2.coords t) ((dat2 (F := Ideal) V c).after 5 t) = _
  rw [after2_5]
  unfold res2
  funext y
  obtain ⟨g, j, rfl⟩ : ∃ (g : Fin 64) (j : Fin 128), y = ix2 g j := ⟨y 0, y 1, eq_ix2 y⟩
  show k2_pay1 (scrAt V c t.val t.isLt) (iblk2 V c 4 t) (ix2 g j) = pooled V c (((cfg2.win 5).blk t).view.emb (ix2 g j))
  rw [pay1f_apply, emb2_5, scrAt_apply, h24, Finset.sum_add_distrib, sum_poolTerm, sum_poolTermD]
  show _ * rcp2 V c (((cfg2.win 4).blk t).view.emb (ix2 g (0 : Fin 1))) = _
  rw [emb2_4]
  rfl

/-- An index of the result is in point `t`'s block iff each coordinate is in the block's range on its axis. -/
theorem mem_blk2_5 (t : Fin cfg2.N) (i : S64x128.Idx) :
    i ∈ ((cfg2.win 5).blk t).view.set ↔ ∀ a : Fin 2, win2_5.index t a * S64x128.size a ≤ (i a).val ∧ (i a).val < win2_5.index t a * S64x128.size a + S64x128.size a := by
  show i ∈ ((View.whole main_v57).slice (win2_5.rect t)).set ↔ _
  rw [View.set_slice_whole, Rect.mem_set_unit]
  exact Iff.rfl

/-- The last point of the grid. -/
def lastPoint2 : Fin cfg2.N := ⟨24, lt_of_lt_of_eq (b := 25) (by norm_num) N_2.symm⟩

/-- Every index of the result is in the block the last point writes back. -/
theorem covered2_5 (i : S64x128.Idx) :
    ∃ t : Fin cfg2.N, (cfg2.win 5).flush t = true ∧ i ∈ ((cfg2.win 5).blk t).view.set := by
  have hi0 : (i 0).val < 64 := (i 0).isLt
  have hi1 : (i 1).val < 128 := (i 1).isLt
  refine ⟨lastPoint2, (flush2_5 lastPoint2).mpr rfl, ?_⟩
  obtain ⟨-, -, -, -, -, -, -, -, -, -, -, e0, e1⟩ := idx_facts2 lastPoint2
  rw [mem_blk2_5]
  intro a
  match a with
  | ⟨0, _⟩ => show win2_5.index lastPoint2 (0 : Fin 2) * 64 ≤ (i 0).val ∧ (i 0).val < win2_5.index lastPoint2 (0 : Fin 2) * 64 + 64; omega
  | ⟨1, _⟩ => show win2_5.index lastPoint2 (1 : Fin 2) * 128 ≤ (i 1).val ∧ (i 1).val < win2_5.index lastPoint2 (1 : Fin 2) * 128 + 128; omega

end Arrays

theorem final2 (V : (c : Dev nD) → (b : Ref sig .tc) → Buf (Elt Ideal) ((c : Thread nD τ).loc b)) (c : Dev nD) (g : Fin 64) (j : Fin 128) :
    ((dat2 (F := Ideal) V c).arrAt 5 cfg2.N : S64x128.Idx → EReal) (ix2 g j)
      = ((∑ n : Fin 100000, oh2 V c g n * xr2 V c n j) + ∑ n : Fin 100000, oh2 V c g n * (xr2 V c n j - xr2 V c n j))
          * rcp2 V c (ix2 g (0 : Fin 1)) :=
  congrFun ((dat2 (F := Ideal) V c).arrAt_eq_of_cover 5 (pooled V c) (fun t hf => flushed2_5_eq V c t hf) covered2_5) (ix2 g j)

end Cert.KernelIdeal.Hand

end
-- ==== Proof.KI.ValuePool.lean ====
import proofs.«407895_j63728724738088_3_alg».proof.Proof.Gen.KernelIdeal.Launch
import proofs.«407895_j63728724738088_3_alg».proof.Proof.Gen.KernelIdeal.Skeleton
import proofs.«407895_j63728724738088_3_alg».proof.Proof.Gen.KernelIdeal.Points
import proofs.«407895_j63728724738088_3_alg».proof.Proof.KI.Reg2
import Idealize.ShloMosaic.PureOps.Ideal.Laws
import Idealize.ShloMosaic.Lib.ValueIdx
import Idealize.ShloMosaic.Lib.ValueLayout
import Idealize.ShloMosaic.Lib.Pipeline.Value
import proofs.«407895_j63728724738088_3_alg».proof.Proof.KI.ValueA
import proofs.«407895_j63728724738088_3_alg».proof.Proof.KI.Val2
import proofs.«407895_j63728724738088_3_alg».proof.Proof.LibScatterAddVec
import proofs.«407895_j63728724738088_3_alg».proof.Proof.LibReshapeRows
import proofs.«407895_j63728724738088_3_alg».proof.Proof.Gen.KernelIdeal.Regions
import Idealize.ShloMosaic.Lib.StableHlo.Run
import Idealize.ShloMosaic.Lib.StableHlo.Predicate
import proofs.«407895_j63728724738088_3_alg».proof.Proof.Consts
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

/-! # The pooling region's small operands, at the ideal values

Of the second stretch of host operations: the per-graph reciprocal count (the nodes of every graph counted by a float
scatter-add of ones at the labels, at least one, inverted, laid out as a column), the bias laid out as a row, the labels
laid out 25 × 1 × 4000 (row block `t`, position `r` is node `4000·t + r`), and the per-node factor, which the stretch
does not write. With them the region's 0/1 weight of a node in a graph is the specification's. -/

/-! ## Layout operations and words read at an index -/

/-- A vector stood up as the one column of a one-column matrix: entry (e, u) is element e. -/
private theorem col_apply {α : Type} {k : Nat} (h : (⟨1, ![k]⟩ : Shape).BroadcastsInDim ⟨2, ![k, 1]⟩ ![0])
    (x : (⟨1, ![k]⟩ : Shape).Idx → α) (e : Fin k) (u : Fin 1) :
    broadcastInDim ⟨2, ![k, 1]⟩ ![0] h x (ix2 e u) = x (ix1 e) := by
  refine broadcastInDim_apply ![0] h x (ix2 e u) (ix1 e) fun a => ?_
  match a with
  | ⟨0, _⟩ =>
    show e.val = if k = 1 then 0 else e.val
    split
    · have := e.isLt; omega
    · rfl

/-- A 100000-array laid out 25 × 1 × 4000: entry (t, 0, r) is element 4000·t + r, so node n sits at
    (n / 4000, 0, n % 4000). -/
private theorem blocks_apply {α : Type} (x : S100000.Idx → α) (h : S100000.ShapeCasts S25x1x4000) (n : Fin 100000) :
    shapeCast S25x1x4000 x h
        (ix3 (⟨n.val / 4000, by omega⟩ : Fin 25) (0 : Fin 1) (⟨n.val % 4000, Nat.mod_lt _ (by norm_num)⟩ : Fin 4000))
      = x (ix1 n) := by
  refine shapeCast_apply x h _ (ix1 n) ?_
  rw [Shape.rowMajor_val_one, Shape.rowMajor_val_three]
  show n.val = (n.val / 4000 * 1 + 0) * 4000 + n.val % 4000
  omega

/-- A 32-bit word is the word of a graph number exactly when its signed value is that number. -/
private theorem word_eq_iff (w : BitVec 32) (g : Nat) (hg : g < 64) : w = BitVec.ofNat 32 g ↔ w.toInt = (g : ℤ) := by
  have h := StableHlo.Predicate.toInt_ofNat_small g (by omega)
  constructor
  · rintro rfl; exact h
  · intro e; exact BitVec.eq_of_toInt_eq (e.trans h.symm)

/-- The host's quotient of two arrays at an index is the quotient of the entries. -/
private theorem hostDivf_apply {s : Shape} (a b : FVec Ideal s .f32) (i : s.Idx) :
    Host.divf (F := Ideal) a b i = Ideal.div (a i) (b i) := rfl

/-- A constant broadcast to any shape reads, everywhere, the value its word denotes. -/
private theorem bcast_const_apply {t : Shape} (h : S_.BroadcastsInDim t ![]) (b : BitVec 32) (i : t.Idx) :
    broadcastInDim t ![] h (constant (F := Ideal) S_ .f32 b) i = Ideal.ofBits .f32 b := rfl

/-! ## The stretch's results as functions of the arrays they read -/

/-- The number of nodes of every graph, as the stretch counts it: ones scatter-added at the labels into zeros. -/
def cntV (bat : IVec S100000 32) : FVec Ideal S64 .f32 :=
  Host.scatterAdd (F := Ideal) scatter_S64_S100000x1_S100000_n_0_0_1
    (broadcastInDim S64 ![] bcast_S_S64 (constant (F := Ideal) S_ .f32 0x00000000#32))
    (broadcastInDim S100000x1 ![0] bcast_S100000_S100000x1_0 bat)
    (broadcastInDim S100000 ![] bcast_S_S100000 (constant (F := Ideal) S_ .f32 0x3F800000#32))

theorem cntV_apply (bat : IVec S100000 32) (g : Fin 64) :
    cntV bat (ix1 g)
      = ∑ _n ∈ Finset.univ.filter (fun n : Fin 100000 => (bat (ix1 n)).toInt = (g.val : ℤ)), (1 : EReal) := by
  have h := ScatterAddVec.hostScatterAdd_vec_apply scatter_S64_S100000x1_S100000_n_0_0_1 rfl rfl rfl rfl
    (broadcastInDim S64 ![] bcast_S_S64 (constant (F := Ideal) S_ .f32 0x00000000#32))
    (broadcastInDim S100000x1 ![0] bcast_S100000_S100000x1_0 bat)
    (broadcastInDim S100000 ![] bcast_S_S100000 (constant (F := Ideal) S_ .f32 0x3F800000#32)) g
  refine h.trans ?_
  have h0 : broadcastInDim S64 ![] bcast_S_S64 (constant (F := Ideal) S_ .f32 0x00000000#32) (ix1 g) = 0 :=
    Cert.Consts.ofBits_zero
  have h1 : ∀ e : Fin 100000,
      broadcastInDim S100000 ![] bcast_S_S100000 (constant (F := Ideal) S_ .f32 0x3F800000#32) (ix1 e) = 1 :=
    fun _ => Cert.Consts.ofBits_one
  have hc : ∀ e : Fin 100000,
      broadcastInDim S100000x1 ![0] bcast_S100000_S100000x1_0 bat (ix2 e (0 : Fin 1)) = bat (ix1 e) :=
    fun e => col_apply _ bat e 0
  rw [h0, zero_add]
  simp only [h1, hc]

/-- The per-graph reciprocal count: the count, at least one, inverted, as a column. -/
def rcpV (bat : IVec S100000 32) : FVec Ideal S64x1 .f32 :=
  shapeCast S64x1
    (Host.divf (F := Ideal) (broadcastInDim S64 ![] bcast_S_S64 (constant (F := Ideal) S_ .f32 0x3F800000#32))
      (maximumf (F := Ideal) (cntV bat)
        (broadcastInDim S64 ![] bcast_S_S64 (constant (F := Ideal) S_ .f32 0x3F800000#32))))
    shapeCasts_S64_S64x1

theorem rcpV_apply (bat : IVec S100000 32) (g : Fin 64) :
    rcpV bat (ix2 g (0 : Fin 1))
      = Ideal.div 1 (max (∑ _n ∈ Finset.univ.filter (fun n : Fin 100000 => (bat (ix1 n)).toInt = (g.val : ℤ)), (1 : EReal)) 1) := by
  unfold rcpV
  rw [Cert.LibReshapeRows.reshape_column]
  show Host.divf (F := Ideal) _ _ (ix1 g) = _
  rw [hostDivf_apply, maximumf_apply, bcast_const_apply, cntV_apply, Cert.Consts.ofBits_one]

/-- After the stretch the reciprocal-count buffer holds that function of the labels. -/
theorem v54_eq (W : Valuation τ sig (Elt Ideal)) :
    (StableHlo.after (hostOps2 (F := Ideal)) W (Proc.devRef .tc main_v54) : S64x1.Idx → EReal)
      = rcpV (W (Proc.devRef .tc main_arg2)) := by
  after_results_simp
  rfl

/-- After the stretch the bias row is the bias laid out 1 × 128. -/
theorem v55_eq (W : Valuation τ sig (Elt Ideal)) :
    (StableHlo.after (hostOps2 (F := Ideal)) W (Proc.devRef .tc main_v55) : S1x128.Idx → EReal)
      = shapeCast S1x128 (W (Proc.devRef .tc main_arg7) : S128.Idx → EReal) shapeCasts_S128_S1x128 := by
  after_results_simp
  rfl

/-- After the stretch the label blocks are the labels laid out 25 × 1 × 4000. -/
theorem v56_eq (W : Valuation τ sig (Elt Ideal)) :
    (StableHlo.after (hostOps2 (F := Ideal)) W (Proc.devRef .tc main_v56) : S25x1x4000.Idx → BitVec 32)
      = shapeCast S25x1x4000 (W (Proc.devRef .tc main_arg2) : S100000.Idx → BitVec 32) shapeCasts_S100000_S25x1x4000 := by
  after_results_simp
  rfl

/-! ## The pooling region's small operands -/

variable (m : (ℓ : Loc nD τ sig) → Buf (Elt Ideal) ℓ) (c : Dev nD)

theorem rcp_entry (g : Fin 64) :
    rcp2 (V4 (F := Ideal) m) c (ix2 g (0 : Fin 1)) = Ideal.div 1 (max (Cert.Spec.cntK (inp m c) g) 1) := by
  show (StableHlo.after (hostOps2 (F := Ideal)) (W3 (F := Ideal) m c) (Proc.devRef .tc main_v54) : S64x1.Idx → EReal)
      (ix2 g (0 : Fin 1)) = _
  rw [v54_eq, rcpV_apply, W3_arg2]
  rfl

theorem bias_entry (j : Fin 128) :
    bias2 (V4 (F := Ideal) m) c (ix2 (0 : Fin 1) j) = (inp m c).b j := by
  show (StableHlo.after (hostOps2 (F := Ideal)) (W3 (F := Ideal) m c) (Proc.devRef .tc main_v55) : S1x128.Idx → EReal)
      (ix2 (0 : Fin 1) j) = _
  rw [v55_eq, Cert.LibReshapeRows.reshape_row, W3_arg7]
  rfl

theorem fac_entry (n : Fin 100000) :
    fac2 (V4 (F := Ideal) m) c (ix2 n (0 : Fin 1)) = Cert.Spec.dinvK (inp m c) n := by
  have e : StableHlo.after (hostOps2 (F := Ideal)) (W3 (F := Ideal) m c) (Proc.devRef .tc main_v28)
      = W3 (F := Ideal) m c (Proc.devRef .tc main_v28) :=
    StableHlo.after_of_writes_sub hostOps2 _ hostOps2_writes (by decide)
  show (StableHlo.after (hostOps2 (F := Ideal)) (W3 (F := Ideal) m c) (Proc.devRef .tc main_v28) : S100000x1.Idx → EReal)
      (ix2 n (0 : Fin 1)) = _
  rw [e]
  exact dinv_entry3 m c n

/-- The label word the region reads for node n is the node's label in the launch memory. -/
theorem lab_entry (n : Fin 100000) :
    lab2 (V4 (F := Ideal) m) c
        (ix3 (⟨n.val / 4000, by omega⟩ : Fin 25) (0 : Fin 1) (⟨n.val % 4000, Nat.mod_lt _ (by norm_num)⟩ : Fin 4000))
      = (m ((c.tc : Thread nD τ).loc main_arg2) : S100000.Idx → BitVec 32) (ix1 n) := by
  show (StableHlo.after (hostOps2 (F := Ideal)) (W3 (F := Ideal) m c) (Proc.devRef .tc main_v56) : S25x1x4000.Idx → BitVec 32)
      (ix3 (⟨n.val / 4000, by omega⟩ : Fin 25) (0 : Fin 1) (⟨n.val % 4000, Nat.mod_lt _ (by norm_num)⟩ : Fin 4000)) = _
  rw [v56_eq, blocks_apply, W3_arg2]

theorem oh_eq (g : Fin 64) (n : Fin 100000) :
    oh2 (V4 (F := Ideal) m) c g n = Cert.Spec.oh (inp m c) g n := by
  unfold oh2 Cert.Spec.oh
  rw [lab_entry]
  exact if_congr (word_eq_iff _ g.val g.isLt) rfl rfl

end Cert.KernelIdeal.Hand

end
-- ==== Proof.LibScatterAddRows.lean ====
import Idealize.ShloMosaic.PureOps.Ideal
import Idealize.ShloMosaic.PureOps.Contract
import Idealize.ShloMosaic.Lib.ValueIdx

/-! # A float scatter-add of rows, read at an index

The accumulating float scatter `Host.scatterAdd d x idx upd` at the ideal values is, at every operand element, that
element plus the sum of the update elements that land on it. Worked out here, at any extents, for ROWS added into a
rank-2 operand: operand `[N, C]`, scatter indices `[K, 1]` (the index vector on axis 1), updates `[K, C]`; update row `e`
is added, whole, to the operand row named by the scatter index `idx[e, 0]` read as a SIGNED integer, and is dropped when
that integer is not a row of the operand (jax's `.at[rows].add(updates)`, `jax.ops.segment_sum`). So operand entry
`(i, j)` receives exactly the entries `(e, j)` of the update rows `e` whose scatter index is `i`
(`hostScatterAdd_rows_apply`). Stated at the literal dimension-number record `rowAddDims` and for ANY record with these
fields (the field equations are `rfl` at a printed record). -/

open scoped BigOperators

namespace Idealize.ShloMosaic.ScatterAddRows

open Idealize.ShloMosaic Idealize.ShloMosaic.ValueIdx

/-- The dimension numbers of a row scatter: operand `[N, C]`, scatter indices `[K, 1]`, updates `[K, C]`; the update's
    axis 1 is its window axis and goes to the operand's axis 1, the operand's axis 0 is the inserted (scattered) axis. -/
abbrev rowAddDims (N K C : Nat)
    (wf : ScatterDims.WF ⟨2, ![N, C]⟩ ⟨2, ![K, 1]⟩ ⟨2, ![K, C]⟩ [1] [0] [0] 1) :
    ScatterDims ⟨2, ![N, C]⟩ ⟨2, ![K, 1]⟩ ⟨2, ![K, C]⟩ where
  updateWindowDims := [1]
  insertedWindowDims := [0]
  scatterDimsToOperandDims := [0]
  indexVectorDim := 1
  wf := wf

section
variable {N K C w : Nat} (wf : ScatterDims.WF ⟨2, ![N, C]⟩ ⟨2, ![K, 1]⟩ ⟨2, ![K, C]⟩ [1] [0] [0] 1)
  (idx : IVec ⟨2, ![K, 1]⟩ w) (e : Fin K) (b : Fin C)

/-- On the row axis the window of update `(e, b)` starts at the scatter index `idx[e, 0]`, read signed. -/
theorem start_row : (rowAddDims N K C wf).start (ix2 e b) idx (0 : Fin 2) = (idx (ix2 e (0 : Fin 1))).toInt := by
  unfold ScatterDims.start
  rw [dif_pos (show (0 : Fin 2) ∈ (rowAddDims N K C wf).scatterDimsToOperandDims from List.mem_singleton.mpr rfl)]
  have hsi : (rowAddDims N K C wf).siIdx (ix2 e b) ⟨List.idxOf (0 : Fin 2) (rowAddDims N K C wf).scatterDimsToOperandDims,
      List.idxOf_lt_length_iff.2 (List.mem_singleton.mpr rfl)⟩ = ix2 e (0 : Fin 1) := by
    funext a; refine Fin.ext ?_
    match a with
    | ⟨0, _⟩ => rfl
    | ⟨1, _⟩ => rfl
  rw [hsi]

/-- On the column axis the window starts at `0`: the scatter indices do not name that axis. -/
theorem start_col : (rowAddDims N K C wf).start (ix2 e b) idx (1 : Fin 2) = 0 := by
  unfold ScatterDims.start
  rw [dif_neg (show ¬ (1 : Fin 2) ∈ (rowAddDims N K C wf).scatterDimsToOperandDims from (by decide : ¬ (1 : Fin 2) ∈ [(0 : Fin 2)]))]

/-- The operand's axes that are not inserted: the column axis alone. -/
theorem sKept_eq : (rowAddDims N K C wf).sKept = [(1 : Fin 2)] := rfl

/-- The row axis is inserted: no window coordinate on it. -/
theorem window_row : (rowAddDims N K C wf).window (ix2 e b) (0 : Fin 2) = 0 := by
  unfold ScatterDims.window
  have h01 : (0 : Fin 2) ∉ [(1 : Fin 2)] := by decide
  rw [dif_neg (show ¬ (0 : Fin 2) ∈ (rowAddDims N K C wf).sKept from h01)]

/-- On the column axis the window coordinate is the update's own column. -/
theorem window_col : (rowAddDims N K C wf).window (ix2 e b) (1 : Fin 2) = b.val := by
  unfold ScatterDims.window
  have h11 : (1 : Fin 2) ∈ [(1 : Fin 2)] := by decide
  rw [dif_pos (show (1 : Fin 2) ∈ (rowAddDims N K C wf).sKept from h11)]
  rfl

/-- WHERE AN UPDATE LANDS: update `(e, b)` lands on operand entry `(i, j)` exactly when its scatter index is row `i`
    and its column is `j`. -/
theorem resultIdx?_eq_some_iff (i : Fin N) (j : Fin C) :
    (rowAddDims N K C wf).resultIdx? (ix2 e b) idx = some (ix2 i j)
      ↔ (idx (ix2 e (0 : Fin 1))).toInt = (i.val : Int) ∧ b = j := by
  have hi : i.val < N := i.isLt
  have hb : b.val < C := b.isLt
  unfold ScatterDims.resultIdx?
  split
  · rename_i h
    have h0 := h 0
    rw [start_row, window_row] at h0
    rw [Option.some.injEq]
    constructor
    · intro heq
      have e0 := congrArg (fun f : (⟨2, ![N, C]⟩ : Shape).Idx => (f (0 : Fin 2)).val) heq
      have e1 := congrArg (fun f : (⟨2, ![N, C]⟩ : Shape).Idx => (f (1 : Fin 2)).val) heq
      simp only [start_row, start_col, window_row, window_col] at e0 e1
      refine ⟨?_, Fin.ext ?_⟩
      · have : ((idx (ix2 e (0 : Fin 1))).toInt + ((0 : Nat) : Int)).toNat = i.val := e0
        omega
      · have : ((0 : Int) + (b.val : Int)).toNat = j.val := e1
        omega
    · rintro ⟨hrow, rfl⟩
      funext a; refine Fin.ext ?_
      match a with
      | ⟨0, _⟩ =>
        show ((rowAddDims N K C wf).start (ix2 e b) idx (0 : Fin 2) + (rowAddDims N K C wf).window (ix2 e b) (0 : Fin 2)).toNat = i.val
        rw [start_row, window_row]; omega
      | ⟨1, _⟩ =>
        show ((rowAddDims N K C wf).start (ix2 e b) idx (1 : Fin 2) + (rowAddDims N K C wf).window (ix2 e b) (1 : Fin 2)).toNat = b.val
        rw [start_col, window_col]; omega
  · rename_i h
    constructor
    · intro heq; exact absurd heq (by simp)
    · rintro ⟨hrow, rfl⟩
      exfalso; apply h; intro a
      match a with
      | ⟨0, _⟩ =>
        show 0 ≤ (rowAddDims N K C wf).start (ix2 e b) idx (0 : Fin 2) + (rowAddDims N K C wf).window (ix2 e b) (0 : Fin 2)
          ∧ (rowAddDims N K C wf).start (ix2 e b) idx (0 : Fin 2) + (rowAddDims N K C wf).window (ix2 e b) (0 : Fin 2) < (N : Int)
        rw [start_row, window_row]; omega
      | ⟨1, _⟩ =>
        show 0 ≤ (rowAddDims N K C wf).start (ix2 e b) idx (1 : Fin 2) + (rowAddDims N K C wf).window (ix2 e b) (1 : Fin 2)
          ∧ (rowAddDims N K C wf).start (ix2 e b) idx (1 : Fin 2) + (rowAddDims N K C wf).window (ix2 e b) (1 : Fin 2) < (C : Int)
        rw [start_col, window_col]; omega

end

/-- THE ROW SCATTER-ADD AT THE LITERAL RECORD, READ AT `(i, j)`: the operand's entry plus the sum, over the update rows
    `e` whose scatter index is `i`, of the update's entry `(e, j)`. -/
theorem hostScatterAdd_rowAddDims_apply {N K C w : Nat}
    (wf : ScatterDims.WF ⟨2, ![N, C]⟩ ⟨2, ![K, 1]⟩ ⟨2, ![K, C]⟩ [1] [0] [0] 1)
    (x : (⟨2, ![N, C]⟩ : Shape).Idx → EReal) (idx : IVec ⟨2, ![K, 1]⟩ w) (upd : (⟨2, ![K, C]⟩ : Shape).Idx → EReal)
    (i : Fin N) (j : Fin C) :
    Ideal.hostScatterAdd (rowAddDims N K C wf) x idx upd (ix2 i j)
      = x (ix2 i j) + ∑ e ∈ Finset.univ.filter (fun e : Fin K => (idx (ix2 e (0 : Fin 1))).toInt = (i.val : Int)), upd (ix2 e j) := by
  unfold Ideal.hostScatterAdd
  congr 1
  rw [Finset.sum_filter, sum_idx2, Finset.sum_filter]
  refine Finset.sum_congr rfl fun e _ => ?_
  by_cases ht : (idx (ix2 e (0 : Fin 1))).toInt = (i.val : Int)
  · rw [if_pos ht, Finset.sum_eq_single j]
    · rw [if_pos ((resultIdx?_eq_some_iff wf idx e j i j).mpr ⟨ht, rfl⟩)]
    · intro b _ hbj
      rw [if_neg (fun h => hbj ((resultIdx?_eq_some_iff wf idx e b i j).mp h).2)]
    · intro h; exact absurd (Finset.mem_univ j) h
  · rw [if_neg ht]
    refine Finset.sum_eq_zero fun b _ => ?_
    rw [if_neg (fun h => ht ((resultIdx?_eq_some_iff wf idx e b i j).mp h).1)]

/-- THE ROW SCATTER-ADD AT ANY RECORD WITH THESE FIELDS, READ AT `(i, j)`: a record is its fields, so it is the literal
    one. -/
theorem hostScatterAdd_rows_apply {N K C w : Nat} (d : ScatterDims ⟨2, ![N, C]⟩ ⟨2, ![K, 1]⟩ ⟨2, ![K, C]⟩)
    (hu : d.updateWindowDims = [1]) (hi : d.insertedWindowDims = [0]) (hs : d.scatterDimsToOperandDims = [0])
    (hv : d.indexVectorDim = 1)
    (x : (⟨2, ![N, C]⟩ : Shape).Idx → EReal) (idx : IVec ⟨2, ![K, 1]⟩ w) (upd : (⟨2, ![K, C]⟩ : Shape).Idx → EReal)
    (i : Fin N) (j : Fin C) :
    Ideal.hostScatterAdd d x idx upd (ix2 i j)
      = x (ix2 i j) + ∑ e ∈ Finset.univ.filter (fun e : Fin K => (idx (ix2 e (0 : Fin 1))).toInt = (i.val : Int)), upd (ix2 e j) := by
  obtain ⟨uw, iw, sd, iv, wf⟩ := d
  simp only at hu hi hs hv
  subst hu hi hs hv
  exact hostScatterAdd_rowAddDims_apply wf x idx upd i j

end Idealize.ShloMosaic.ScatterAddRows
-- ==== Proof.LibGatherRow.lean ====
import Idealize.ShloMosaic.PureOps.ShapeOps
import Idealize.ShloMosaic.Lib.ValueIdx

/-! # A gather that takes rows of a table, read at an index

`Host.gather d x idx j = x (d.operandIdx j idx)`: on each operand axis the operand index is the clamped start plus the
batching coordinate plus the offset coordinate. Worked out here, at any extents, for the rows of a rank-2 table: operand
`[N, C]`, start indices `[K, 1]` (the index vector on axis 1), result `[K, C]`; the row axis is gathered (collapsed, one
row per start index) and the column axis is the one offset axis, read whole. Result entry `(k, j)` is the table's entry
`(r, j)` with `r` the start index `idx[k, 0]` read as a SIGNED integer and CLAMPED into `[0, N − 1]`
(`gather_rowTake_apply`); for a start index already inside the table the clamp does nothing
(`gather_rowTake_apply_of_lt`). Both are stated for ANY dimension-number record with these fields, the field equations
taken as hypotheses (each is `rfl` at a literal record), and again at the literal record `rowTakeDims`. -/

namespace Idealize.ShloMosaic.GatherRow

open Idealize.ShloMosaic Idealize.ShloMosaic.ValueIdx

/-- A signed word that is non-negative and below `N`, clamped into `[0, N - 1]`, is its own value. -/
theorem clamp_of_lt {w : Nat} (v : BitVec w) {N : Nat} (h0 : 0 ≤ v.toInt) (hN : v.toInt < (N : Int)) :
    min v.toInt.toNat (N - 1) = v.toInt.toNat := by
  apply Nat.min_eq_left
  omega

section
variable {α : Type}

/-- The dimension numbers of a row take: operand `[N, C]`, start indices `[K, 1]`, result `[K, C]`; axis 0 of the operand
    is gathered (collapsed, slice size 1), axis 1 is the offset axis (slice size `C`). Their conditions `wf` are decided
    on a program's literal shapes. -/
abbrev rowTakeDims (N K C : Nat)
    (wf : GatherDims.WF ⟨2, ![N, C]⟩ ⟨2, ![K, 1]⟩ ⟨2, ![K, C]⟩ [1] [0] [] [0] [] 1 ![1, C]) :
    GatherDims ⟨2, ![N, C]⟩ ⟨2, ![K, 1]⟩ ⟨2, ![K, C]⟩ where
  offsetDims := [1]
  collapsedSliceDims := [0]
  operandBatchingDims := []
  startIndicesBatchingDims := []
  startIndexMap := [0]
  indexVectorDim := 1
  sliceSizes := ![1, C]
  wf := wf

/-- The operand index of a row take on the row axis: the start index `idx[k, 0]` read signed and clamped into
    `[0, N − 1]` (the axis is in the start index map, its slice size is `1`), with no batching and no offset coordinate
    (the axis is collapsed). -/
theorem operandIdx_row {N K C w : Nat}
    (wf : GatherDims.WF ⟨2, ![N, C]⟩ ⟨2, ![K, 1]⟩ ⟨2, ![K, C]⟩ [1] [0] [] [0] [] 1 ![1, C])
    (idx : IVec ⟨2, ![K, 1]⟩ w) (k : Fin K) (j : Fin C) :
    (rowTakeDims N K C wf).start (ix2 k j) idx (0 : Fin 2) + (rowTakeDims N K C wf).batchCoord (ix2 k j) (0 : Fin 2)
      + (rowTakeDims N K C wf).offCoord (ix2 k j) (0 : Fin 2) = min (idx (ix2 k (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowTakeDims N K C wf).startIndexMap from List.mem_singleton.mpr rfl)]
  have hsi : (rowTakeDims N K C wf).siIdx (ix2 k j) ⟨List.idxOf (0 : Fin 2) (rowTakeDims N K C wf).startIndexMap,
      List.idxOf_lt_length_iff.2 (List.mem_singleton.mpr rfl)⟩ = ix2 k (0 : Fin 1) := by
    funext e; refine Fin.ext ?_
    match e with
    | ⟨0, _⟩ => rfl
    | ⟨1, _⟩ => rfl
  rw [hsi]
  rfl

/-- The operand index of a row take on the column axis: the result's own column `j` (the axis is the one the offset axis
    reads), with start `0` (the start index map does not name the axis) and no batching coordinate. -/
theorem operandIdx_col {N K C w : Nat}
    (wf : GatherDims.WF ⟨2, ![N, C]⟩ ⟨2, ![K, 1]⟩ ⟨2, ![K, C]⟩ [1] [0] [] [0] [] 1 ![1, C])
    (idx : IVec ⟨2, ![K, 1]⟩ w) (k : Fin K) (j : Fin C) :
    (rowTakeDims N K C wf).start (ix2 k j) idx (1 : Fin 2) + (rowTakeDims N K C wf).batchCoord (ix2 k j) (1 : Fin 2)
      + (rowTakeDims N K C wf).offCoord (ix2 k j) (1 : Fin 2) = j.val := by
  have h10 : (1 : Fin 2) ∉ [(0 : Fin 2)] := by decide
  have hst : (rowTakeDims N K C wf).start (ix2 k j) idx (1 : Fin 2) = 0 := by
    unfold GatherDims.start
    rw [dif_neg (show ¬ (1 : Fin 2) ∈ (rowTakeDims N K C wf).startIndexMap from h10)]
  have hoff : (rowTakeDims N K C wf).offCoord (ix2 k j) (1 : Fin 2) = j.val := by
    unfold GatherDims.offCoord
    rw [dif_pos ((GatherDims.mem_sKept _ _).mpr ⟨h10, List.not_mem_nil⟩)]
    rfl
  rw [GatherDims.batchCoord_eq_zero _ _ _ List.not_mem_nil, hst, hoff, Nat.add_zero, Nat.zero_add]

/-- THE ROW TAKE AT THE LITERAL RECORD, READ AT `(k, j)`: the operand's entry `(r, j)`, `r` the start index `idx[k, 0]`
    read signed and clamped into `[0, N − 1]`: the operand index coordinate by coordinate. -/
theorem gather_rowTakeDims_apply {N K C w : Nat} (hN : 0 < N)
    (wf : GatherDims.WF ⟨2, ![N, C]⟩ ⟨2, ![K, 1]⟩ ⟨2, ![K, C]⟩ [1] [0] [] [0] [] 1 ![1, C])
    (x : (⟨2, ![N, C]⟩ : Shape).Idx → α) (idx : IVec ⟨2, ![K, 1]⟩ w) (k : Fin K) (j : Fin C) :
    Host.gather (rowTakeDims N K C wf) x idx (ix2 k j)
      = x (ix2 ⟨min (idx (ix2 k (0 : Fin 1))).toInt.toNat (N - 1), by omega⟩ j) := by
  unfold Host.gather
  congr 1
  funext a
  refine Fin.ext ?_
  match a with
  | ⟨0, _⟩ => exact operandIdx_row wf idx k j
  | ⟨1, _⟩ => exact operandIdx_col wf idx k j

/-- THE ROW TAKE AT ANY RECORD WITH THESE FIELDS, READ AT `(k, j)`: a record is its fields, so it is the literal one. -/
theorem gather_rowTake_apply {N K C w : Nat} (hN : 0 < N)
    (d : GatherDims ⟨2, ![N, C]⟩ ⟨2, ![K, 1]⟩ ⟨2, ![K, C]⟩)
    (ho : d.offsetDims = [1]) (hc : d.collapsedSliceDims = [0]) (hb : d.operandBatchingDims = [])
    (hsb : d.startIndicesBatchingDims = []) (hm : d.startIndexMap = [0]) (hv : d.indexVectorDim = 1)
    (hs : d.sliceSizes = ![1, C])
    (x : (⟨2, ![N, C]⟩ : Shape).Idx → α) (idx : IVec ⟨2, ![K, 1]⟩ w) (k : Fin K) (j : Fin C) :
    Host.gather d x idx (ix2 k j)
      = x (ix2 ⟨min (idx (ix2 k (0 : Fin 1))).toInt.toNat (N - 1), by omega⟩ j) := by
  obtain ⟨od, cd, ob, sb, sm, iv, ss, wf⟩ := d
  simp only at ho hc hb hsb hm hv hs
  subst ho hc hb hsb hm hv hs
  exact gather_rowTakeDims_apply hN wf x idx k j

/-- The same for a start index inside the table: the clamp does nothing, and the row read is the one the index names. -/
theorem gather_rowTake_apply_of_lt {N K C w : Nat}
    (d : GatherDims ⟨2, ![N, C]⟩ ⟨2, ![K, 1]⟩ ⟨2, ![K, C]⟩)
    (ho : d.offsetDims = [1]) (hc : d.collapsedSliceDims = [0]) (hb : d.operandBatchingDims = [])
    (hsb : d.startIndicesBatchingDims = []) (hm : d.startIndexMap = [0]) (hv : d.indexVectorDim = 1)
    (hs : d.sliceSizes = ![1, C])
    (x : (⟨2, ![N, C]⟩ : Shape).Idx → α) (idx : IVec ⟨2, ![K, 1]⟩ w) (k : Fin K) (j : Fin C)
    (h0 : 0 ≤ (idx (ix2 k (0 : Fin 1))).toInt) (hlt : (idx (ix2 k (0 : Fin 1))).toInt < (N : Int)) :
    Host.gather d x idx (ix2 k j) = x (ix2 ⟨(idx (ix2 k (0 : Fin 1))).toInt.toNat, by omega⟩ j) := by
  rw [gather_rowTake_apply (by omega) d ho hc hb hsb hm hv hs x idx k j]
  congr 2
  exact Fin.ext (clamp_of_lt _ h0 hlt)

end

end Idealize.ShloMosaic.GatherRow
-- ==== Proof.KI.ValueAgg.lean ====
import proofs.«407895_j63728724738088_3_alg».proof.Proof.Gen.KernelIdeal.Launch
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run
import proofs.«407895_j63728724738088_3_alg».proof.Proof.Spec
import proofs.«407895_j63728724738088_3_alg».proof.Proof.LibScatterAddRows
import proofs.«407895_j63728724738088_3_alg».proof.Proof.LibGatherRow

set_option maxRecDepth 16384

noncomputable section

namespace Cert.KernelIdeal.Hand.Agg

open Cert.KernelIdeal Cert.KernelIdeal.Gen
open Idealize.ShloMosaic Idealize.ShloMosaic.TcCoe
open Idealize.ShloMosaic.ValueIdx
open scoped BigOperators

/-! # The accumulation along the edges, read at an index

The second stretch of host operations forms the accumulated rows from the two copies of the pre-scaled rows and the
edge list: every edge's source and target, a negative one wrapped by the number of nodes; the narrow row of the source
(the wrapped index clamped into the node axis), widened; that row added onto the wide row of the target (an edge whose
wrapped target is no node dropped). Here each kind of operation in that chain is read at one index, over variables, and
then the chain itself from any entry contents. -/

/-- The wrap of a negative index by the number of nodes, read signed: no overflow, the index being negative where the
    number of nodes is added. -/
theorem wrap_toInt (v : BitVec 32) :
    (Scalar.select (IntOp.cmpi .slt v 0#32) (IntOp.addi v 100000#32) v).toInt
      = if v.toInt < 0 then v.toInt + 100000 else v.toInt := by
  have hlo : -2147483648 ≤ v.toInt := by have := @BitVec.le_toInt 32 v; simpa using this
  have hhi : v.toInt < 2147483648 := by have := @BitVec.toInt_lt 32 v; simpa using this
  unfold Scalar.select IntOp.cmpi IntOp.addi
  by_cases h : v.toInt < 0
  · have hs : v.slt 0#32 = true := by rw [BitVec.slt_iff_toInt_lt]; simpa using h
    simp only [hs, BitVec.ofBool_true, if_true, if_pos h]
    rw [BitVec.toInt_add]
    have : (100000#32 : BitVec 32).toInt = 100000 := by decide
    rw [this]
    exact Int.bmod_eq_of_le_mul_two (by omega) (by omega)
  · have hs : v.slt 0#32 = false := by
      rw [Bool.eq_false_iff]; intro hc; exact h (by simpa using BitVec.slt_iff_toInt_lt.mp hc)
    simp only [hs, BitVec.ofBool_false, if_neg h]
    rw [if_neg (by decide)]

/-- The wrapped index of edge `e`, read signed. -/
theorem wrapped_apply (v : IVec S1600000 32) (e : Fin 1600000) :
    ((select (cmpi .slt v (broadcastInDim S1600000 ![] bcast_S_S1600000 (constantI S_ 32 0#32)))
        (addi v (broadcastInDim S1600000 ![] bcast_S_S1600000 (constantI S_ 32 100000#32))) v : IVec S1600000 32) (ix1 e)).toInt
      = if (v (ix1 e)).toInt < 0 then (v (ix1 e)).toInt + 100000 else (v (ix1 e)).toInt :=
  wrap_toInt (v (ix1 e))

/-- A flat array over the edges laid out as a column reads, at row `e`, its element `e`. -/
theorem col_edges_apply {α : Type} (v : S1600000.Idx → α) (e : Fin 1600000) (u : Fin 1) :
    broadcastInDim S1600000x1 ![0] bcast_S1600000_S1600000x1_0 v (ix2 e u) = v (ix1 e) :=
  broadcastInDim_apply _ _ v _ (ix1 e) fun a => by
    match a with
    | ⟨0, _⟩ => rfl

/-- The rows of the narrow table taken at the column of sources `s` (an index read signed and clamped into the node
    axis), widened, and added onto the rows of the wide table at the column of targets `t` (an update whose index, read
    signed, is no node is dropped), read at `(n, j)`. -/
theorem agg_apply (x0 : S100000x128.Idx → EReal) (x1 : S100000x128.Idx → EReal)
    (s t : IVec S1600000x1 32) (n : Fin 100000) (j : Fin 128) :
    (Host.scatterAdd (F := Ideal) (φ := .f32) scatter_S100000x128_S1600000x1_S1600000x128_1_0_0_1 x0 t
        (extf .f32 (Host.gather gather_S100000x128_S1600000x1_S1600000x128_1_0_n_n_0_1_1128 (x1 : FVec Ideal S100000x128 .bf16) s) bitsLt_bf16_f32)
      : S100000x128.Idx → EReal) (ix2 n j)
      = x0 (ix2 n j) + ∑ e ∈ Finset.univ.filter (fun e : Fin 1600000 => (t (ix2 e (0 : Fin 1))).toInt = (n.val : ℤ)),
          x1 (ix2 (⟨min (s (ix2 e (0 : Fin 1))).toInt.toNat (100000 - 1), by omega⟩ : Fin 100000) j) := by
  show Ideal.hostScatterAdd _ x0 t _ (ix2 n j) = _
  rw [ScatterAddRows.hostScatterAdd_rows_apply _ rfl rfl rfl rfl]
  refine congrArg (fun z => x0 (ix2 n j) + z) (Finset.sum_congr rfl fun e _ => ?_)
  rw [extf_apply]
  exact GatherRow.gather_rowTake_apply (by norm_num) _ rfl rfl rfl rfl rfl rfl rfl _ _ e j

/-- The same with the two columns of indices the wrapped sources `v16` and the wrapped targets `v18`: the edges that
    land on node `n` are those whose wrapped target is `n`, and each brings the narrow row of its source as a gather
    reads it. -/
theorem agg_wrapped_apply (x0 : S100000x128.Idx → EReal) (x1 : S100000x128.Idx → EReal)
    (v16 v18 : IVec S1600000 32) (n : Fin 100000) (j : Fin 128) :
    (Host.scatterAdd (F := Ideal) (φ := .f32) scatter_S100000x128_S1600000x1_S1600000x128_1_0_0_1 x0
        (broadcastInDim S1600000x1 ![0] bcast_S1600000_S1600000x1_0
          (select (cmpi .slt v18 (broadcastInDim S1600000 ![] bcast_S_S1600000 (constantI S_ 32 0#32)))
            (addi v18 (broadcastInDim S1600000 ![] bcast_S_S1600000 (constantI S_ 32 100000#32))) v18))
        (extf .f32
          (Host.gather gather_S100000x128_S1600000x1_S1600000x128_1_0_n_n_0_1_1128 (x1 : FVec Ideal S100000x128 .bf16)
            (broadcastInDim S1600000x1 ![0] bcast_S1600000_S1600000x1_0
              (select (cmpi .slt v16 (broadcastInDim S1600000 ![] bcast_S_S1600000 (constantI S_ 32 0#32)))
                (addi v16 (broadcastInDim S1600000 ![] bcast_S_S1600000 (constantI S_ 32 100000#32))) v16)))
          bitsLt_bf16_f32)
      : S100000x128.Idx → EReal) (ix2 n j)
      = x0 (ix2 n j)
        + ∑ e ∈ Finset.univ.filter (fun e : Fin 1600000 =>
              (if (v18 (ix1 e)).toInt < 0 then (v18 (ix1 e)).toInt + 100000 else (v18 (ix1 e)).toInt) = (n.val : ℤ)),
            x1 (ix2 (Cert.Spec.gat (v16 (ix1 e)).toInt) j) := by
  rw [agg_apply]
  refine congrArg (fun z => x0 (ix2 n j) + z) (Finset.sum_congr (Finset.filter_congr fun e _ => ?_) fun e _ => ?_)
  · rw [col_edges_apply, wrapped_apply]
  · refine congrArg (fun k : Fin 100000 => x1 (ix2 k j)) (Fin.ext ?_)
    show min _ (100000 - 1) = min _ 99999
    rw [col_edges_apply, wrapped_apply]

/-- A row of the edge list, as a flat array: element `e` is the row's entry `e`. -/
theorem edge_row0_apply {α : Type} (x : S2x1600000.Idx → α) (e : Fin 1600000) :
    shapeCast S1600000 (extractStridedSlice S1x1600000 ![0, 0] x slices_S2x1600000_S1x1600000_0_0) shapeCasts_S1x1600000_S1600000 (ix1 e)
      = x (ix2 (0 : Fin 2) e) := by
  rw [shapeCast_1a_a_apply]
  exact slice2_axis0_apply 0 x _ (0 : Fin 1) e (0 : Fin 2) rfl

theorem edge_row1_apply {α : Type} (x : S2x1600000.Idx → α) (e : Fin 1600000) :
    shapeCast S1600000 (extractStridedSlice S1x1600000 ![1, 0] x slices_S2x1600000_S1x1600000_1_0) shapeCasts_S1x1600000_S1600000 (ix1 e)
      = x (ix2 (1 : Fin 2) e) := by
  rw [shapeCast_1a_a_apply]
  exact slice2_axis0_apply 1 x _ (0 : Fin 1) e (1 : Fin 2) rfl

/-! ## The two stretches from any entry contents -/

section After
variable (V : Valuation τ sig (Elt Ideal))

/-- The first stretch leaves the edges' sources … -/
theorem after1_v16 :
    (StableHlo.after hostOps1 V (Proc.devRef .tc main_v16) : S1600000.Idx → BitVec 32)
      = shapeCast S1600000 (extractStridedSlice S1x1600000 ![0, 0] (V (Proc.devRef .tc main_arg1) : S2x1600000.Idx → BitVec 32) slices_S2x1600000_S1x1600000_0_0) shapeCasts_S1x1600000_S1600000 := by
  after_results_simp; rfl

/-- … and targets as flat arrays. -/
theorem after1_v18 :
    (StableHlo.after hostOps1 V (Proc.devRef .tc main_v18) : S1600000.Idx → BitVec 32)
      = shapeCast S1600000 (extractStridedSlice S1x1600000 ![1, 0] (V (Proc.devRef .tc main_arg1) : S2x1600000.Idx → BitVec 32) slices_S2x1600000_S1x1600000_1_0) shapeCasts_S1x1600000_S1600000 := by
  after_results_simp; rfl

/-- The second stretch leaves the accumulated rows. -/
theorem after2_v45 :
    (StableHlo.after hostOps2 V (Proc.devRef .tc main_v45) : S100000x128.Idx → EReal)
      = Host.scatterAdd (F := Ideal) (φ := .f32) scatter_S100000x128_S1600000x1_S1600000x128_1_0_0_1
          (V (Proc.devRef .tc main_v30_0) : S100000x128.Idx → EReal)
          (broadcastInDim S1600000x1 ![0] bcast_S1600000_S1600000x1_0
            (select (cmpi .slt (V (Proc.devRef .tc main_v18) : IVec S1600000 32) (broadcastInDim S1600000 ![] bcast_S_S1600000 (constantI S_ 32 0#32)))
              (addi (V (Proc.devRef .tc main_v18) : IVec S1600000 32) (broadcastInDim S1600000 ![] bcast_S_S1600000 (constantI S_ 32 100000#32)))
              (V (Proc.devRef .tc main_v18) : IVec S1600000 32)))
          (extf .f32
            (Host.gather gather_S100000x128_S1600000x1_S1600000x128_1_0_n_n_0_1_1128
              (V (Proc.devRef .tc main_v30_1) : FVec Ideal S100000x128 .bf16)
              (broadcastInDim S1600000x1 ![0] bcast_S1600000_S1600000x1_0
                (select (cmpi .slt (V (Proc.devRef .tc main_v16) : IVec S1600000 32) (broadcastInDim S1600000 ![] bcast_S_S1600000 (constantI S_ 32 0#32)))
                  (addi (V (Proc.devRef .tc main_v16) : IVec S1600000 32) (broadcastInDim S1600000 ![] bcast_S_S1600000 (constantI S_ 32 100000#32)))
                  (V (Proc.devRef .tc main_v16) : IVec S1600000 32))))
            bitsLt_bf16_f32) := by
  after_results_simp

/-- The accumulated rows at `(n, j)`, from any entry contents: with the entry's two copies of the pre-scaled rows
    called `x0` (wide) and `x1` (narrow), and its flat arrays of sources and targets `v16` and `v18`. -/
theorem after2_v45_apply (x0 x1 : S100000x128.Idx → EReal) (v16 v18 : IVec S1600000 32)
    (h0 : (V (Proc.devRef .tc main_v30_0) : S100000x128.Idx → EReal) = x0)
    (h1 : (V (Proc.devRef .tc main_v30_1) : S100000x128.Idx → EReal) = x1)
    (h16 : (V (Proc.devRef .tc main_v16) : IVec S1600000 32) = v16)
    (h18 : (V (Proc.devRef .tc main_v18) : IVec S1600000 32) = v18)
    (n : Fin 100000) (j : Fin 128) :
    (StableHlo.after hostOps2 V (Proc.devRef .tc main_v45) : S100000x128.Idx → EReal) (ix2 n j)
      = x0 (ix2 n j)
        + ∑ e ∈ Finset.univ.filter (fun e : Fin 1600000 =>
              (if (v18 (ix1 e)).toInt < 0 then (v18 (ix1 e)).toInt + 100000 else (v18 (ix1 e)).toInt) = (n.val : ℤ)),
            x1 (ix2 (Cert.Spec.gat (v16 (ix1 e)).toInt) j) := by
  subst h0 h1 h16 h18
  rw [after2_v45 V]
  exact agg_wrapped_apply _ _ _ _ n j

end After

end Cert.KernelIdeal.Hand.Agg

end
-- ==== Proof.KI.Value.lean ====
import proofs.«407895_j63728724738088_3_alg».proof.Proof.Gen.KernelIdeal.Launch
import proofs.«407895_j63728724738088_3_alg».proof.Proof.Gen.KernelIdeal.Skeleton
import proofs.«407895_j63728724738088_3_alg».proof.Proof.Gen.KernelIdeal.Points
import proofs.«407895_j63728724738088_3_alg».proof.Proof.KI.Reg2
import Idealize.ShloMosaic.PureOps.Ideal.Laws
import Idealize.ShloMosaic.Lib.ValueIdx
import Idealize.ShloMosaic.Lib.ValueLayout
import Idealize.ShloMosaic.Lib.Pipeline.Value
import proofs.«407895_j63728724738088_3_alg».proof.Proof.KI.ValueA
import proofs.«407895_j63728724738088_3_alg».proof.Proof.KI.Val2
import proofs.«407895_j63728724738088_3_alg».proof.Proof.KI.ValuePool
import proofs.«407895_j63728724738088_3_alg».proof.Proof.KI.ValueAgg
import proofs.«407895_j63728724738088_3_alg».proof.Proof.LibScatterAddRows
import proofs.«407895_j63728724738088_3_alg».proof.Proof.LibGatherRow
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

/-! # The second stretch of host operations and the pooling region, at the ideal values

The second stretch gathers the narrow pre-scaled rows along the edges' sources (a negative source wrapped by the number
of nodes, the result clamped into the node axis), adds them onto the wide pre-scaled rows at the edges' targets (a
negative target wrapped likewise, an edge whose target is then no node dropped), counts the nodes of every graph and
takes the reciprocal of the count (at least one), and lays the bias and the labels out for the pooling region, which
leaves the pooled means. Stated against the specification's chain `Cert.Spec.aggK`, `xrK`, `cntK`, `gK`. -/

variable (m : (ℓ : Loc nD τ sig) → Buf (Elt Ideal) ℓ) (c : Dev nD)

/-- The statistics region does not write the edge list. -/
private theorem edges_W1 : W1 (F := Ideal) m c (Proc.devRef .tc main_arg1) = m ((c.tc : Thread nD τ).loc main_arg1) := by
  unfold W1; exact Pipeline.withArrays_of_ne spec0 c _ _ main_arg1 (by decide)

/-- The edges' sources as the second stretch finds them: row 0 of the edge list, read signed. -/
private theorem src_entry (e : Fin 1600000) :
    ((W3 (F := Ideal) m c (Proc.devRef .tc main_v16) : S1600000.Idx → BitVec 32) (ix1 e)).toInt = (inp m c).src e := by
  have h3 : W3 (F := Ideal) m c (Proc.devRef .tc main_v16) = W2 m c (Proc.devRef .tc main_v16) := by
    unfold W3; exact Pipeline.withArrays_of_ne spec1 c _ _ main_v16 (by decide)
  rw [h3]
  show ((StableHlo.after hostOps1 (W1 m c) (Proc.devRef .tc main_v16) : S1600000.Idx → BitVec 32) (ix1 e)).toInt = _
  rw [Agg.after1_v16, edges_W1, Agg.edge_row0_apply]
  rfl

/-- The edges' targets as the second stretch finds them: row 1 of the edge list, read signed. -/
private theorem dst_entry (e : Fin 1600000) :
    ((W3 (F := Ideal) m c (Proc.devRef .tc main_v18) : S1600000.Idx → BitVec 32) (ix1 e)).toInt = (inp m c).dst e := by
  have h3 : W3 (F := Ideal) m c (Proc.devRef .tc main_v18) = W2 m c (Proc.devRef .tc main_v18) := by
    unfold W3; exact Pipeline.withArrays_of_ne spec1 c _ _ main_v18 (by decide)
  rw [h3]
  show ((StableHlo.after hostOps1 (W1 m c) (Proc.devRef .tc main_v18) : S1600000.Idx → BitVec 32) (ix1 e)).toInt = _
  rw [Agg.after1_v18, edges_W1, Agg.edge_row1_apply]
  rfl

/-- The accumulated rows as the pooling region finds them: the specification's. -/
theorem agg_entry (n : Fin 100000) (j : Fin 128) :
    agg2 (V4 (F := Ideal) m) c (ix2 n j) = Cert.Spec.aggK (inp m c) n j := by
  show (StableHlo.after hostOps2 (W3 m c) (Proc.devRef .tc main_v45) : S100000x128.Idx → EReal) (ix2 n j) = _
  rw [Agg.after2_v45_apply (W3 m c) _ _ _ _ rfl rfl rfl rfl n j, hs_wide, Cert.Spec.aggK]
  refine congrArg (fun z => Cert.Spec.hsK (inp m c) n j + z)
    (Finset.sum_congr (Finset.filter_congr fun e _ => ?_) fun e _ => ?_)
  · rw [dst_entry]
  · rw [hs_narrow, src_entry]

/-- The rectified rows the pooling region forms: the specification's. -/
theorem xr_eq (n : Fin 100000) (j : Fin 128) :
    xr2 (V4 (F := Ideal) m) c n j = Cert.Spec.xrK (inp m c) n j := by
  unfold xr2 Cert.Spec.xrK
  rw [fac_entry, agg_entry, bias_entry]

/-- What @main returns, entry by entry. -/
theorem result_apply (g : Fin 64) (j : Fin 128) :
    W5 (F := Ideal) m c (Proc.devRef .tc main_v57) (ix2 g j) = Cert.Spec.gK (inp m c) g j := by
  have h5 : W5 (F := Ideal) m c (Proc.devRef .tc main_v57) = (dat2 (V4 m) c).arrAt 5 cfg2.N := by
    unfold W5; exact Pipeline.withArrays_arr spec2 launch2.win.arr_inj c _ _ 5
  rw [h5, final2 (V4 m) c g j, Cert.Spec.gK, rcp_entry]
  simp only [xr_eq, oh_eq]

end Cert.KernelIdeal.Hand

end
-- ==== Proof.RefOps.lean ====
/- The reference program's @main as one list of its 119 host operations, in order: each term copied from the printed program's
   line for that operation; at a call, the callee's operations in the call's place, over that call's buffer record and operands. -/
import proofs.«407895_j63728724738088_3_alg».proof.ReferenceIdeal
import proofs.«407895_j63728724738088_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 119 operations, in order. -/
abbrev ops : List (HloOp τ sig (Elt F)) :=
  [ StableHlo.nullary main_cst (constant S_ .f32 0x00000000#32),
    StableHlo.binary main_arg0 main_cst main_v0 ((fun x v => Host.reduceAdd x v reducesTo_S100000x256_S256_d0 h_S_) : (⟨S100000x256, .f32⟩ : BufTy).Contents (Elt F) → (⟨S_, .f32⟩ : BufTy).Contents (Elt F) → (⟨S256, .f32⟩ : BufTy).Contents (Elt F)),
    StableHlo.nullary main_cst_0 (constant S_ .f32 0x47C35000#32),
    StableHlo.unary main_cst_0 main_v1 (broadcastInDim S256 ![] bcast_S_S256 : (⟨S_, .f32⟩ : BufTy).Contents (Elt F) → (⟨S256, .f32⟩ : BufTy).Contents (Elt F)),
    StableHlo.binary main_v0 main_v1 main_v2 (Host.divf : (⟨S256, .f32⟩ : BufTy).Contents (Elt F) → (⟨S256, .f32⟩ : BufTy).Contents (Elt F) → (⟨S256, .f32⟩ : BufTy).Contents (Elt F)),
    StableHlo.nullary main_c (constantI S_ 32 0#32),
    StableHlo.TRef.nullary main_call0.cst (constant S_ .f32 0x00000000#32),
    StableHlo.TRef.binary (.of main_arg0 : StableHlo.TRef sig ⟨S100000x256, .f32⟩) main_call0.cst main_call0.v0 (fun x v => Host.reduceAdd x v reducesTo_S100000x256_S256_d0 h_S_),
    StableHlo.TRef.unary main_call0.v0 main_call0.v1 (broadcastInDim S1x256 ![1] bcast_S256_S1x256_1),
    StableHlo.TRef.nullary main_call0.cst_0 (constant S_ .f32 0x47C35000#32),
    StableHlo.TRef.unary main_call0.cst_0 main_call0.v2 (broadcastInDim S1x256 ![] bcast_S_S1x256),
    StableHlo.TRef.binary main_call0.v1 main_call0.v2 main_call0.v3 Host.divf,
    StableHlo.TRef.unary main_call0.v3 main_call0.v4 (broadcastInDim S100000x256 ![0, 1] bcast_S1x256_S100000x256_0_1),
    StableHlo.TRef.binary (.of main_arg0 : StableHlo.TRef sig ⟨S100000x256, .f32⟩) main_call0.v4 main_call0.v5 subf,
    StableHlo.TRef.binary main_call0.v5 main_call0.v5 main_call0.v6 mulf,
    StableHlo.TRef.unary (.of main_c : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x256_S256_d0 h_S_),
    StableHlo.TRef.unary main_call0.v8 main_call0.v10 (broadcastInDim S256 ![] bcast_S_S256),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S256 ![] bcast_S_S256),
    StableHlo.TRef.ternary main_call0.v12 main_call0.v11 main_call0.call0.v1 main_call0.call0.v2 (fun p a b => select (broadcastInDim S256 ![] bcast_S_S256 p) a b),
    StableHlo.unary main_v2 main_v4 (broadcastInDim S1x256 ![1] bcast_S256_S1x256_1 : (⟨S256, .f32⟩ : BufTy).Contents (Elt F) → (⟨S1x256, .f32⟩ : BufTy).Contents (Elt F)),
    StableHlo.unary main_v4 main_v5 (broadcastInDim S100000x256 ![0, 1] bcast_S1x256_S100000x256_0_1 : (⟨S1x256, .f32⟩ : BufTy).Contents (Elt F) → (⟨S100000x256, .f32⟩ : BufTy).Contents (Elt F)),
    StableHlo.binary main_arg0 main_v5 main_v6 (subf : (⟨S100000x256, .f32⟩ : BufTy).Contents (Elt F) → (⟨S100000x256, .f32⟩ : BufTy).Contents (Elt F) → (⟨S100000x256, .f32⟩ : BufTy).Contents (Elt F)),
    StableHlo.nullary main_cst_1 (constant S_ .f32 0x3727C5AC#32),
    StableHlo.unary main_cst_1 main_v7 (broadcastInDim S256 ![] bcast_S_S256 : (⟨S_, .f32⟩ : BufTy).Contents (Elt F) → (⟨S256, .f32⟩ : BufTy).Contents (Elt F)),
    StableHlo.binary main_v3 main_v7 main_v8 (addf : (⟨S256, .f32⟩ : BufTy).Contents (Elt F) → (⟨S256, .f32⟩ : BufTy).Contents (Elt F) → (⟨S256, .f32⟩ : BufTy).Contents (Elt F)),
    StableHlo.unary main_v8 main_v9 (Host.rsqrt : (⟨S256, .f32⟩ : BufTy).Contents (Elt F) → (⟨S256, .f32⟩ : BufTy).Contents (Elt F)),
    StableHlo.unary main_v9 main_v10 (broadcastInDim S1x256 ![1] bcast_S256_S1x256_1 : (⟨S256, .f32⟩ : BufTy).Contents (Elt F) → (⟨S1x256, .f32⟩ : BufTy).Contents (Elt F)),
    StableHlo.unary main_v10 main_v11 (broadcastInDim S100000x256 ![0, 1] bcast_S1x256_S100000x256_0_1 : (⟨S1x256, .f32⟩ : BufTy).Contents (Elt F) → (⟨S100000x256, .f32⟩ : BufTy).Contents (Elt F)),
    StableHlo.binary main_v6 main_v11 main_v12 (mulf : (⟨S100000x256, .f32⟩ : BufTy).Contents (Elt F) → (⟨S100000x256, .f32⟩ : BufTy).Contents (Elt F) → (⟨S100000x256, .f32⟩ : BufTy).Contents (Elt F)),
    StableHlo.unary main_arg4 main_v13 (broadcastInDim S1x256 ![1] bcast_S256_S1x256_1 : (⟨S256, .f32⟩ : BufTy).Contents (Elt F) → (⟨S1x256, .f32⟩ : BufTy).Contents (Elt F)),
    StableHlo.unary main_v13 main_v14 (broadcastInDim S100000x256 ![0, 1] bcast_S1x256_S100000x256_0_1 : (⟨S1x256, .f32⟩ : BufTy).Contents (Elt F) → (⟨S100000x256, .f32⟩ : BufTy).Contents (Elt F)),
    StableHlo.binary main_v12 main_v14 main_v15 (mulf : (⟨S100000x256, .f32⟩ : BufTy).Contents (Elt F) → (⟨S100000x256, .f32⟩ : BufTy).Contents (Elt F) → (⟨S100000x256, .f32⟩ : BufTy).Contents (Elt F)),
    StableHlo.unary main_arg5 main_v16 (broadcastInDim S1x256 ![1] bcast_S256_S1x256_1 : (⟨S256, .f32⟩ : BufTy).Contents (Elt F) → (⟨S1x256, .f32⟩ : BufTy).Contents (Elt F)),
    StableHlo.unary main_v16 main_v17 (broadcastInDim S100000x256 ![0, 1] bcast_S1x256_S100000x256_0_1 : (⟨S1x256, .f32⟩ : BufTy).Contents (Elt F) → (⟨S100000x256, .f32⟩ : BufTy).Contents (Elt F)),
    StableHlo.binary main_v15 main_v17 main_v18 (addf : (⟨S100000x256, .f32⟩ : BufTy).Contents (Elt F) → (⟨S100000x256, .f32⟩ : BufTy).Contents (Elt F) → (⟨S100000x256, .f32⟩ : BufTy).Contents (Elt F)),
    StableHlo.binary main_v18 main_arg6 main_v19 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    StableHlo.unary main_arg1 main_v20 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v20 main_v21 rfl shapeCasts_S1x1600000_S1600000,
    StableHlo.unary main_arg1 main_v22 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v22 main_v23 rfl shapeCasts_S1x1600000_S1600000,
    StableHlo.nullary main_v24 (iotaInDim S100000 32 0),
    StableHlo.binary main_v21 main_v24 main_v25 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.binary main_v23 main_v24 main_v26 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst_2 (constant S_ .f32 0x3F800000#32),
    StableHlo.unary main_cst_2 main_v27 (broadcastInDim S1700000 ![] bcast_S_S1700000 : (⟨S_, .f32⟩ : BufTy).Contents (Elt F) → (⟨S1700000, .f32⟩ : BufTy).Contents (Elt F)),
    StableHlo.nullary main_cst_3 (constant S_ .f32 0x00000000#32),
    StableHlo.unary main_cst_3 main_v28 (broadcastInDim S100000 ![] bcast_S_S100000 : (⟨S_, .f32⟩ : BufTy).Contents (Elt F) → (⟨S100000, .f32⟩ : BufTy).Contents (Elt F)),
    StableHlo.unary main_v26 main_v29 (broadcastInDim S1700000x1 ![0] bcast_S1700000_S1700000x1_0 : (⟨S1700000, .i32⟩ : BufTy).Contents (Elt F) → (⟨S1700000x1, .i32⟩ : BufTy).Contents (Elt F)),
    StableHlo.ternary main_v28 main_v29 main_v27 main_v30 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_4 (constant S_ .f32 0x3F800000#32),
    StableHlo.unary main_cst_4 main_v31 (broadcastInDim S100000 ![] bcast_S_S100000 : (⟨S_, .f32⟩ : BufTy).Contents (Elt F) → (⟨S100000, .f32⟩ : BufTy).Contents (Elt F)),
    StableHlo.binary main_v30 main_v31 main_v32 (maximumf : (⟨S100000, .f32⟩ : BufTy).Contents (Elt F) → (⟨S100000, .f32⟩ : BufTy).Contents (Elt F) → (⟨S100000, .f32⟩ : BufTy).Contents (Elt F)),
    StableHlo.unary main_v32 main_v33 (Host.rsqrt : (⟨S100000, .f32⟩ : BufTy).Contents (Elt F) → (⟨S100000, .f32⟩ : BufTy).Contents (Elt F)),
    StableHlo.nullary main_c_5 (constantI S_ 32 0#32),
    StableHlo.unary main_c_5 main_v34 (broadcastInDim S1700000 ![] bcast_S_S1700000 : (⟨S_, .i32⟩ : BufTy).Contents (Elt F) → (⟨S1700000, .i32⟩ : BufTy).Contents (Elt F)),
    StableHlo.binary main_v25 main_v34 main_v35 (cmpi .slt : (⟨S1700000, .i32⟩ : BufTy).Contents (Elt F) → (⟨S1700000, .i32⟩ : BufTy).Contents (Elt F) → (⟨S1700000, .i1⟩ : BufTy).Contents (Elt F)),
    StableHlo.nullary main_c_6 (constantI S_ 32 100000#32),
    StableHlo.unary main_c_6 main_v36 (broadcastInDim S1700000 ![] bcast_S_S1700000 : (⟨S_, .i32⟩ : BufTy).Contents (Elt F) → (⟨S1700000, .i32⟩ : BufTy).Contents (Elt F)),
    StableHlo.binary main_v25 main_v36 main_v37 (addi : (⟨S1700000, .i32⟩ : BufTy).Contents (Elt F) → (⟨S1700000, .i32⟩ : BufTy).Contents (Elt F) → (⟨S1700000, .i32⟩ : BufTy).Contents (Elt F)),
    StableHlo.ternary main_v35 main_v37 main_v25 main_v38 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v38 main_v39 (broadcastInDim S1700000x1 ![0] bcast_S1700000_S1700000x1_0 : (⟨S1700000, .i32⟩ : BufTy).Contents (Elt F) → (⟨S1700000x1, .i32⟩ : BufTy).Contents (Elt F)),
    StableHlo.binary main_v33 main_v39 main_v40 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_7 (constantI S_ 32 0#32),
    StableHlo.unary main_c_7 main_v41 (broadcastInDim S1700000 ![] bcast_S_S1700000 : (⟨S_, .i32⟩ : BufTy).Contents (Elt F) → (⟨S1700000, .i32⟩ : BufTy).Contents (Elt F)),
    StableHlo.binary main_v26 main_v41 main_v42 (cmpi .slt : (⟨S1700000, .i32⟩ : BufTy).Contents (Elt F) → (⟨S1700000, .i32⟩ : BufTy).Contents (Elt F) → (⟨S1700000, .i1⟩ : BufTy).Contents (Elt F)),
    StableHlo.nullary main_c_8 (constantI S_ 32 100000#32),
    StableHlo.unary main_c_8 main_v43 (broadcastInDim S1700000 ![] bcast_S_S1700000 : (⟨S_, .i32⟩ : BufTy).Contents (Elt F) → (⟨S1700000, .i32⟩ : BufTy).Contents (Elt F)),
    StableHlo.binary main_v26 main_v43 main_v44 (addi : (⟨S1700000, .i32⟩ : BufTy).Contents (Elt F) → (⟨S1700000, .i32⟩ : BufTy).Contents (Elt F) → (⟨S1700000, .i32⟩ : BufTy).Contents (Elt F)),
    StableHlo.ternary main_v42 main_v44 main_v26 main_v45 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v45 main_v46 (broadcastInDim S1700000x1 ![0] bcast_S1700000_S1700000x1_0 : (⟨S1700000, .i32⟩ : BufTy).Contents (Elt F) → (⟨S1700000x1, .i32⟩ : BufTy).Contents (Elt F)),
    StableHlo.binary main_v33 main_v46 main_v47 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v40 main_v47 main_v48 (mulf : (⟨S1700000, .f32⟩ : BufTy).Contents (Elt F) → (⟨S1700000, .f32⟩ : BufTy).Contents (Elt F) → (⟨S1700000, .f32⟩ : BufTy).Contents (Elt F)),
    StableHlo.nullary main_c_9 (constantI S_ 32 0#32),
    StableHlo.unary main_c_9 main_v49 (broadcastInDim S1700000 ![] bcast_S_S1700000 : (⟨S_, .i32⟩ : BufTy).Contents (Elt F) → (⟨S1700000, .i32⟩ : BufTy).Contents (Elt F)),
    StableHlo.binary main_v25 main_v49 main_v50 (cmpi .slt : (⟨S1700000, .i32⟩ : BufTy).Contents (Elt F) → (⟨S1700000, .i32⟩ : BufTy).Contents (Elt F) → (⟨S1700000, .i1⟩ : BufTy).Contents (Elt F)),
    StableHlo.nullary main_c_10 (constantI S_ 32 100000#32),
    StableHlo.unary main_c_10 main_v51 (broadcastInDim S1700000 ![] bcast_S_S1700000 : (⟨S_, .i32⟩ : BufTy).Contents (Elt F) → (⟨S1700000, .i32⟩ : BufTy).Contents (Elt F)),
    StableHlo.binary main_v25 main_v51 main_v52 (addi : (⟨S1700000, .i32⟩ : BufTy).Contents (Elt F) → (⟨S1700000, .i32⟩ : BufTy).Contents (Elt F) → (⟨S1700000, .i32⟩ : BufTy).Contents (Elt F)),
    StableHlo.ternary main_v50 main_v52 main_v25 main_v53 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v53 main_v54 (broadcastInDim S1700000x1 ![0] bcast_S1700000_S1700000x1_0 : (⟨S1700000, .i32⟩ : BufTy).Contents (Elt F) → (⟨S1700000x1, .i32⟩ : BufTy).Contents (Elt F)),
    StableHlo.binary main_v19 main_v54 main_v55 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v48 main_v56 (broadcastInDim S1700000x1 ![0] bcast_S1700000_S1700000x1_0 : (⟨S1700000, .f32⟩ : BufTy).Contents (Elt F) → (⟨S1700000x1, .f32⟩ : BufTy).Contents (Elt F)),
    StableHlo.unary main_v56 main_v57 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v55 main_v57 main_v58 (mulf : (⟨S1700000x128, .f32⟩ : BufTy).Contents (Elt F) → (⟨S1700000x128, .f32⟩ : BufTy).Contents (Elt F) → (⟨S1700000x128, .f32⟩ : BufTy).Contents (Elt F)),
    StableHlo.nullary main_cst_11 (constant S_ .f32 0x00000000#32),
    StableHlo.unary main_cst_11 main_v59 (broadcastInDim S100000x128 ![] bcast_S_S100000x128 : (⟨S_, .f32⟩ : BufTy).Contents (Elt F) → (⟨S100000x128, .f32⟩ : BufTy).Contents (Elt F)),
    StableHlo.unary main_v26 main_v60 (broadcastInDim S1700000x1 ![0] bcast_S1700000_S1700000x1_0 : (⟨S1700000, .i32⟩ : BufTy).Contents (Elt F) → (⟨S1700000x1, .i32⟩ : BufTy).Contents (Elt F)),
    StableHlo.ternary main_v59 main_v60 main_v58 main_v61 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_arg7 main_v62 (broadcastInDim S1x128 ![1] bcast_S128_S1x128_1 : (⟨S128, .f32⟩ : BufTy).Contents (Elt F) → (⟨S1x128, .f32⟩ : BufTy).Contents (Elt F)),
    StableHlo.unary main_v62 main_v63 (broadcastInDim S100000x128 ![0, 1] bcast_S1x128_S100000x128_0_1 : (⟨S1x128, .f32⟩ : BufTy).Contents (Elt F) → (⟨S100000x128, .f32⟩ : BufTy).Contents (Elt F)),
    StableHlo.binary main_v61 main_v63 main_v64 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v64 : StableHlo.TRef sig ⟨S100000x128, .f32⟩) main_call1.v0 main_call1.v1 maximumf,
    StableHlo.nullary main_cst_12 (constant S_ .f32 0x00000000#32),
    StableHlo.unary main_cst_12 main_v66 (broadcastInDim S64x128 ![] bcast_S_S64x128 : (⟨S_, .f32⟩ : BufTy).Contents (Elt F) → (⟨S64x128, .f32⟩ : BufTy).Contents (Elt F)),
    StableHlo.unary main_arg2 main_v67 (broadcastInDim S100000x1 ![0] bcast_S100000_S100000x1_0 : (⟨S100000, .i32⟩ : BufTy).Contents (Elt F) → (⟨S100000x1, .i32⟩ : BufTy).Contents (Elt F)),
    StableHlo.ternary main_v66 main_v67 main_v65 main_v68 ((fun x i u => Host.scatterAdd scatter_S64x128_S100000x1_S100000x128_1_0_0_1 x i u) : (⟨S64x128, .f32⟩ : BufTy).Contents (Elt F) → (⟨S100000x1, .i32⟩ : BufTy).Contents (Elt F) → (⟨S100000x128, .f32⟩ : BufTy).Contents (Elt F) → (⟨S64x128, .f32⟩ : BufTy).Contents (Elt F)),
    StableHlo.nullary main_cst_13 (constant S_ .f32 0x3F800000#32),
    StableHlo.unary main_cst_13 main_v69 (broadcastInDim S100000 ![] bcast_S_S100000 : (⟨S_, .f32⟩ : BufTy).Contents (Elt F) → (⟨S100000, .f32⟩ : BufTy).Contents (Elt F)),
    StableHlo.nullary main_cst_14 (constant S_ .f32 0x00000000#32),
    StableHlo.unary main_cst_14 main_v70 (broadcastInDim S64 ![] bcast_S_S64 : (⟨S_, .f32⟩ : BufTy).Contents (Elt F) → (⟨S64, .f32⟩ : BufTy).Contents (Elt F)),
    StableHlo.unary main_arg2 main_v71 (broadcastInDim S100000x1 ![0] bcast_S100000_S100000x1_0 : (⟨S100000, .i32⟩ : BufTy).Contents (Elt F) → (⟨S100000x1, .i32⟩ : BufTy).Contents (Elt F)),
    StableHlo.ternary main_v70 main_v71 main_v69 main_v72 ((fun x i u => Host.scatterAdd scatter_S64_S100000x1_S100000_n_0_0_1 x i u) : (⟨S64, .f32⟩ : BufTy).Contents (Elt F) → (⟨S100000x1, .i32⟩ : BufTy).Contents (Elt F) → (⟨S100000, .f32⟩ : BufTy).Contents (Elt F) → (⟨S64, .f32⟩ : BufTy).Contents (Elt F)),
    StableHlo.nullary main_cst_15 (constant S_ .f32 0x3F800000#32),
    StableHlo.unary main_cst_15 main_v73 (broadcastInDim S64 ![] bcast_S_S64 : (⟨S_, .f32⟩ : BufTy).Contents (Elt F) → (⟨S64, .f32⟩ : BufTy).Contents (Elt F)),
    StableHlo.binary main_v72 main_v73 main_v74 (maximumf : (⟨S64, .f32⟩ : BufTy).Contents (Elt F) → (⟨S64, .f32⟩ : BufTy).Contents (Elt F) → (⟨S64, .f32⟩ : BufTy).Contents (Elt F)),
    StableHlo.unary main_v74 main_v75 (broadcastInDim S64x1 ![0] bcast_S64_S64x1_0 : (⟨S64, .f32⟩ : BufTy).Contents (Elt F) → (⟨S64x1, .f32⟩ : BufTy).Contents (Elt F)),
    StableHlo.unary main_v75 main_v76 (broadcastInDim S64x128 ![0, 1] bcast_S64x1_S64x128_0_1 : (⟨S64x1, .f32⟩ : BufTy).Contents (Elt F) → (⟨S64x128, .f32⟩ : BufTy).Contents (Elt F)),
    StableHlo.binary main_v68 main_v76 main_v77 (Host.divf : (⟨S64x128, .f32⟩ : BufTy).Contents (Elt F) → (⟨S64x128, .f32⟩ : BufTy).Contents (Elt F) → (⟨S64x128, .f32⟩ : BufTy).Contents (Elt F)) ]

end Cert.ReferenceIdeal.RefRun

end
-- ==== Proof.RefRun.lean ====
/-
  The run of the reference program read back. The reference's @main is a straight line of host operations, three
  of them calls of module-local functions (the variance, which itself calls the select helper, and the rectifier);
  a call means its callee's body on the operands, so with each callee's operations written at its call site over
  that call's buffer record @main is the one list `ops` of 119 operations (`main_eq`). No buffer and no semaphore
  of the signature is scoped and every operation touches TensorCore references only, so every weakly fair execution
  from a memory with zero counters terminates with each buffer at the fold of the operations' results over the
  launch contents (`after ops`). The result buffer is stated at that fold; each of the eight argument buffers is
  written by no operation of the list and so ends at its launch contents.
-/
import proofs.«407895_j63728724738088_3_alg».proof.ReferenceIdeal
import proofs.«407895_j63728724738088_3_alg».proof.Proof.Gen.ReferenceIdeal
import proofs.«407895_j63728724738088_3_alg».proof.Proof.RefOps
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- @main is that straight line: the two windows and the callees' definitions unfolded, both sides are one chain
    of steps once sequencing is reassociated. -/
theorem main_eq (c : Dev nD) : main (F := F) c = StableHlo.seq ops := by
  simp only [main, main_part0, main_part1, fn_var.body, fn_where.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation of the list touches TensorCore references only. -/
theorem ops_sub : (ops : List (HloOp τ sig (Elt F))).Forall fun op => op.bufs ⊆ tcRefs τ sig := by
  simp only [ops, List.Forall, nullary_bufs_sub, unary_bufs_sub, binary_bufs_sub, ternary_bufs_sub, reshape_bufs_sub, and_self]

/-! No operation of the list writes an argument's buffer (each writes its own result buffer, a different
    reference): the fold leaves the argument at what it held. -/
private theorem arg0_kept (V : Valuation τ sig (Elt F)) :
    after ops V (Proc.devRef .tc main_arg0) = V (Proc.devRef .tc main_arg0) := by after_results_simp
private theorem arg1_kept (V : Valuation τ sig (Elt F)) :
    after ops V (Proc.devRef .tc main_arg1) = V (Proc.devRef .tc main_arg1) := by after_results_simp
private theorem arg2_kept (V : Valuation τ sig (Elt F)) :
    after ops V (Proc.devRef .tc main_arg2) = V (Proc.devRef .tc main_arg2) := by after_results_simp
private theorem arg3_kept (V : Valuation τ sig (Elt F)) :
    after ops V (Proc.devRef .tc main_arg3) = V (Proc.devRef .tc main_arg3) := by after_results_simp
private theorem arg4_kept (V : Valuation τ sig (Elt F)) :
    after ops V (Proc.devRef .tc main_arg4) = V (Proc.devRef .tc main_arg4) := by after_results_simp
private theorem arg5_kept (V : Valuation τ sig (Elt F)) :
    after ops V (Proc.devRef .tc main_arg5) = V (Proc.devRef .tc main_arg5) := by after_results_simp
private theorem arg6_kept (V : Valuation τ sig (Elt F)) :
    after ops V (Proc.devRef .tc main_arg6) = V (Proc.devRef .tc main_arg6) := by after_results_simp
private theorem arg7_kept (V : Valuation τ sig (Elt F)) :
    after ops V (Proc.devRef .tc main_arg7) = V (Proc.devRef .tc main_arg7) := by after_results_simp

/-- On every device, for any float values, from any memory with zero counters: every weakly fair execution of
    @main terminates with the result buffer at the operations' fold over the launch contents and the eight
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v77) = StableHlo.after ops (fun b => m ((c : Dev nD), b)) (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨h c main_v77,
      (h c main_arg0).trans (arg0_kept _), (h c main_arg1).trans (arg1_kept _), (h c main_arg2).trans (arg2_kept _),
      (h c main_arg3).trans (arg3_kept _), (h c main_arg4).trans (arg4_kept _), (h c main_arg5).trans (arg5_kept _),
      (h c main_arg6).trans (arg6_kept _), (h c main_arg7).trans (arg7_kept _)⟩)
    (run_seq scopedRefs_eq scopedSems_eq defs main (fun _ => ops) main_eq (fun _ => ops_sub) m ρ)

end Cert.ReferenceIdeal.RefRun

end
-- ==== Proof.RefValueA.lean ====
/-
  The first half of the reference program's value: batch normalisation of the node features over the nodes and the
  linear map. The operations up to the matrix product are composed into one function of the four arrays they read
  (the features, the scale, the shift, the weights); that function is read entry by entry, the column statistics
  first, and shown to be the formula of the specification; the program's buffer after the run holds that function of
  the launch contents.
-/
import proofs.«407895_j63728724738088_3_alg».proof.ReferenceIdeal
import proofs.«407895_j63728724738088_3_alg».proof.Proof.Spec
import proofs.«407895_j63728724738088_3_alg».proof.Proof.Consts
import proofs.«407895_j63728724738088_3_alg».proof.Proof.RefOps
import Idealize.ShloMosaic.Lib.KernelVsHost
import Idealize.ShloMosaic.Lib.StackMember
import Idealize.ShloMosaic.Lib.Pipeline.Value
import Idealize.ShloMosaic.Lib.StableHlo.Run

open scoped BigOperators

noncomputable section

namespace Cert.ReferenceIdeal.RefValue

open Idealize.ShloMosaic Idealize.ShloMosaic.ValueIdx Cert.ReferenceIdeal

/-! ## Layout operations and sums read at an index -/

/-- A vector as the one row of a one-row matrix: entry (u, f) is element f. -/
private theorem row_apply {α : Type} {n : Nat} (h1 : (⟨1, ![n]⟩ : Shape).BroadcastsInDim ⟨2, ![1, n]⟩ ![1])
    (v : (⟨1, ![n]⟩ : Shape).Idx → α) (u : Fin 1) (f : Fin n) :
    broadcastInDim ⟨2, ![1, n]⟩ ![1] h1 v (ix2 u f) = v (ix1 f) := by
  refine broadcastInDim_apply ![1] h1 v _ (ix1 f) fun a => ?_
  match a with
  | ⟨0, _⟩ =>
    show f.val = if n = 1 then 0 else f.val
    split
    · have := f.isLt; omega
    · rfl

/-- A vector laid along every row of a matrix, through its one-row form: entry (r, f) is element f. -/
private theorem rows_apply {α : Type} {m n : Nat} (h1 : (⟨1, ![n]⟩ : Shape).BroadcastsInDim ⟨2, ![1, n]⟩ ![1])
    (h2 : (⟨2, ![1, n]⟩ : Shape).BroadcastsInDim ⟨2, ![m, n]⟩ ![0, 1]) (v : (⟨1, ![n]⟩ : Shape).Idx → α) (r : Fin m) (f : Fin n) :
    broadcastInDim ⟨2, ![m, n]⟩ ![0, 1] h2 (broadcastInDim ⟨2, ![1, n]⟩ ![1] h1 v) (ix2 r f) = v (ix1 f) := by
  rw [broadcastInDim_oneRow_apply, row_apply]

/-- The sum down the rows of a 100000 × 256 array from the initial value zero: at column f, the sum of the column. -/
private theorem colSum_apply (h' : S100000x256.ReducesTo [0] S256) (hu : 0 < S_.numel) (x : FVec Ideal S100000x256 .f32)
    (f : Fin 256) :
    Host.reduceAdd (F := Ideal) x (constant (F := Ideal) S_ .f32 0x00000000#32) h' hu (ix1 f) = ∑ n : Fin 100000, x (ix2 n f) := by
  have h : S100000x256.Reduces [0] S256 := by decide
  show Ideal.hostReduceAdd h' x (Ideal.ofBits .f32 0x00000000#32) (ix1 f) = _
  rw [Ideal.hostReduceAdd_single h' h, Cert.Consts.ofBits_zero, zero_add]
  show (∑ n : Fin 100000, x (h.lift (ix1 f) n)) = ∑ n : Fin 100000, x (ix2 n f)
  refine Finset.sum_congr rfl fun n _ => congrArg x (funext fun c => Fin.ext ?_)
  match c with
  | ⟨0, _⟩ => rfl
  | ⟨1, _⟩ => rfl

variable [Cert.ReferenceIdeal.Facts]
open Facts₀

/-! ## The operations composed -/

/-- The column sums of an array. -/
def sumV (x : FVec Ideal S100000x256 .f32) : FVec Ideal S256 .f32 :=
  Host.reduceAdd (F := Ideal) x (constant (F := Ideal) S_ .f32 0x00000000#32) reducesTo_S100000x256_S256_d0 h_S_

/-- The column means: the column sums divided by the number of rows. -/
def meanV (x : FVec Ideal S100000x256 .f32) : FVec Ideal S256 .f32 :=
  Host.divf (F := Ideal) (sumV x) (broadcastInDim S256 ![] bcast_S_S256 (constant (F := Ideal) S_ .f32 0x47C35000#32))

/-- The column means again, as the variance computes them: a one-row matrix. -/
def meanRowV (x : FVec Ideal S100000x256 .f32) : FVec Ideal S1x256 .f32 :=
  Host.divf (F := Ideal) (broadcastInDim S1x256 ![1] bcast_S256_S1x256_1 (sumV x))
    (broadcastInDim S1x256 ![] bcast_S_S1x256 (constant (F := Ideal) S_ .f32 0x47C35000#32))

/-- The deviations from the column means. -/
def devV (x : FVec Ideal S100000x256 .f32) : FVec Ideal S100000x256 .f32 :=
  subf (F := Ideal) x (broadcastInDim S100000x256 ![0, 1] bcast_S1x256_S100000x256_0_1 (meanRowV x))

/-- The variance's divisor: the number of rows less the correction zero. -/
def cntV : FVec Ideal S_ .f32 :=
  subf (F := Ideal) (constant (F := Ideal) S_ .f32 0x47C35000#32) (sitofp (F := Ideal) .f32 (constantI S_ 32 0#32))

/-- The column variances: the mean squared deviation where the divisor is positive, the junk value elsewhere. -/
def varV (x : FVec Ideal S100000x256 .f32) : FVec Ideal S256 .f32 :=
  select (broadcastInDim S256 ![] bcast_S_S256 (cmpf (F := Ideal) .ogt cntV (constant (F := Ideal) S_ .f32 0x00000000#32)))
    (Host.divf (F := Ideal)
      (Host.reduceAdd (F := Ideal) (mulf (F := Ideal) (devV x) (devV x)) (constant (F := Ideal) S_ .f32 0x00000000#32)
        reducesTo_S100000x256_S256_d0 h_S_)
      (broadcastInDim S256 ![] bcast_S_S256 cntV))
    (broadcastInDim S256 ![] bcast_S_S256 (id (constant (F := Ideal) S_ .f32 0x7FC00000#32)))

/-- A vector laid along every row of a 100000 × 256 matrix. -/
def rowsV (v : FVec Ideal S256 .f32) : FVec Ideal S100000x256 .f32 :=
  broadcastInDim S100000x256 ![0, 1] bcast_S1x256_S100000x256_0_1 (broadcastInDim S1x256 ![1] bcast_S256_S1x256_1 v)

/-- The normalised features: deviation from the mean, times the reciprocal root of variance plus the stabiliser,
    times the scale, plus the shift. -/
def normV (x : FVec Ideal S100000x256 .f32) (gam bet : FVec Ideal S256 .f32) : FVec Ideal S100000x256 .f32 :=
  addf (F := Ideal)
    (mulf (F := Ideal)
      (mulf (F := Ideal) (subf (F := Ideal) x (rowsV (meanV x)))
        (rowsV (Host.rsqrt (F := Ideal)
          (addf (F := Ideal) (varV x) (broadcastInDim S256 ![] bcast_S_S256 (constant (F := Ideal) S_ .f32 0x3727C5AC#32))))))
      (rowsV gam))
    (rowsV bet)

/-- The linear map of the normalised features. -/
def hV (x : FVec Ideal S100000x256 .f32) (gam bet : FVec Ideal S256 .f32) (W : FVec Ideal S256x128 .f32) :
    FVec Ideal S100000x128 .f32 :=
  Host.dotGeneral (F := Ideal) dot_S100000x256_S256x128_S100000x128_1_0_0_1_n_n none (normV x gam bet) W

/-! ## The composed operations read at an index -/

theorem sumV_apply (x : FVec Ideal S100000x256 .f32) (f : Fin 256) : sumV x (ix1 f) = ∑ n : Fin 100000, x (ix2 n f) :=
  colSum_apply _ _ x f

theorem meanV_apply (x : FVec Ideal S100000x256 .f32) (f : Fin 256) :
    meanV x (ix1 f) = Ideal.div (∑ n : Fin 100000, x (ix2 n f)) 100000 := by
  show Ideal.div (sumV x (ix1 f)) (Ideal.ofBits .f32 0x47C35000#32) = _
  rw [sumV_apply, Cert.Consts.ofBits_1e5]

theorem meanRowV_apply (x : FVec Ideal S100000x256 .f32) (u : Fin 1) (f : Fin 256) :
    meanRowV x (ix2 u f) = Ideal.div (∑ n : Fin 100000, x (ix2 n f)) 100000 := by
  show Ideal.div (broadcastInDim S1x256 ![1] bcast_S256_S1x256_1 (sumV x) (ix2 u f)) (Ideal.ofBits .f32 0x47C35000#32) = _
  rw [Cert.Consts.ofBits_1e5]
  rw [row_apply, sumV_apply]

theorem devV_apply (x : FVec Ideal S100000x256 .f32) (n : Fin 100000) (f : Fin 256) :
    devV x (ix2 n f) = x (ix2 n f) - Ideal.div (∑ n : Fin 100000, x (ix2 n f)) 100000 := by
  show x (ix2 n f) - broadcastInDim S100000x256 ![0, 1] bcast_S1x256_S100000x256_0_1 (meanRowV x) (ix2 n f) = _
  rw [broadcastInDim_oneRow_apply, meanRowV_apply]

theorem cntV_apply (i : S_.Idx) : cntV i = 100000 := by
  show Ideal.ofBits .f32 0x47C35000#32 - (((0#32 : BitVec 32).toInt : ℝ) : EReal) = 100000
  rw [Cert.Consts.ofBits_1e5]
  simp

theorem varV_apply (x : FVec Ideal S100000x256 .f32) (f : Fin 256) :
    varV x (ix1 f)
      = Ideal.div (∑ n : Fin 100000, (x (ix2 n f) - Ideal.div (∑ n : Fin 100000, x (ix2 n f)) 100000)
          * (x (ix2 n f) - Ideal.div (∑ n : Fin 100000, x (ix2 n f)) 100000)) 100000 := by
  have hpos : Ideal.cmp .ogt (100000 : EReal) (Ideal.ofBits .f32 0x00000000#32) = 1#1 := by
    rw [Cert.Consts.ofBits_zero]
    have : (0 : EReal) < 100000 := by exact_mod_cast (by norm_num : (0 : ℝ) < 100000)
    simp [Ideal.cmp, this]
  show Scalar.select (Ideal.cmp .ogt (cntV _) (Ideal.ofBits .f32 0x00000000#32))
      (Ideal.div (Host.reduceAdd (F := Ideal) (mulf (F := Ideal) (devV x) (devV x)) (constant (F := Ideal) S_ .f32 0x00000000#32)
        reducesTo_S100000x256_S256_d0 h_S_ (ix1 f)) (cntV _)) (Ideal.ofBits .f32 0x7FC00000#32) = _
  rw [cntV_apply, hpos, select_one, colSum_apply]
  refine congrArg (Ideal.div · 100000) (Finset.sum_congr rfl fun n _ => ?_)
  show devV x (ix2 n f) * devV x (ix2 n f) = _
  rw [devV_apply]

theorem rowsV_apply (v : FVec Ideal S256 .f32) (n : Fin 100000) (f : Fin 256) : rowsV v (ix2 n f) = v (ix1 f) :=
  rows_apply _ _ v n f

theorem normV_apply (x : FVec Ideal S100000x256 .f32) (gam bet : FVec Ideal S256 .f32) (n : Fin 100000) (f : Fin 256) :
    normV x gam bet (ix2 n f)
      = (x (ix2 n f) - meanV x (ix1 f)) * Ideal.rsqrt (varV x (ix1 f) + Ideal.ofBits .f32 0x3727C5AC#32) * gam (ix1 f)
        + bet (ix1 f) := by
  show (x (ix2 n f) - rowsV (meanV x) (ix2 n f))
        * rowsV (Host.rsqrt (F := Ideal)
            (addf (F := Ideal) (varV x) (broadcastInDim S256 ![] bcast_S_S256 (constant (F := Ideal) S_ .f32 0x3727C5AC#32)))) (ix2 n f)
        * rowsV gam (ix2 n f) + rowsV bet (ix2 n f) = _
  rw [rowsV_apply, rowsV_apply, rowsV_apply, rowsV_apply]
  rfl

theorem hV_apply (x : FVec Ideal S100000x256 .f32) (gam bet : FVec Ideal S256 .f32) (W : FVec Ideal S256x128 .f32)
    (n : Fin 100000) (j : Fin 128) :
    hV x gam bet W (ix2 n j) = ∑ k : Fin 256, normV x gam bet (ix2 n k) * W (ix2 k j) :=
  StackMember.dotGeneral_plain_apply (m := 100000) (n := 128) (k := 256) none (normV x gam bet) W n j

/-- The composed operations are the specification's linear map of the normalised features. -/
theorem hV_eq_spec (x : FVec Ideal S100000x256 .f32) (a1 : IVec S2x1600000 32) (a2 : IVec S100000 32)
    (gam bet : FVec Ideal S256 .f32) (W : FVec Ideal S256x128 .f32) (b : FVec Ideal S128 .f32) (n : Fin 100000) (j : Fin 128) :
    hV x gam bet W (ix2 n j) = Cert.Spec.hR (Cert.Spec.Inp.ofArrays x a1 a2 gam bet W b) n j := by
  rw [hV_apply]
  unfold Cert.Spec.hR
  refine Finset.sum_congr rfl fun k _ => ?_
  rw [normV_apply, meanV_apply, varV_apply]
  rfl

/-! ## The program's buffer -/

open Idealize.ShloMosaic.StableHlo in
/-- After the run the linear map's buffer holds the composed operations of the launch contents of the four arrays. -/
theorem v19_eq (V₀ : Valuation τ sig (Elt Ideal)) :
    (StableHlo.after (RefRun.ops (F := Ideal)) V₀ (Proc.devRef .tc main_v19) : S100000x128.Idx → EReal)
      = hV (V₀ (Proc.devRef .tc main_arg0)) (V₀ (Proc.devRef .tc main_arg4)) (V₀ (Proc.devRef .tc main_arg5))
          (V₀ (Proc.devRef .tc main_arg6)) := by
  after_results_simp
  rfl

/-- The linear map's buffer after the run, entry by entry: the specification's linear map of the normalised features
    of the launch contents. -/
theorem hR_apply (V₀ : Valuation τ sig (Elt Ideal)) (n : Fin 100000) (j : Fin 128) :
    (StableHlo.after (RefRun.ops (F := Ideal)) V₀ (Proc.devRef .tc main_v19) : S100000x128.Idx → EReal) (ValueIdx.ix2 n j)
      = Cert.Spec.hR (Cert.Spec.Inp.ofArrays (V₀ (Proc.devRef .tc main_arg0)) (V₀ (Proc.devRef .tc main_arg1))
          (V₀ (Proc.devRef .tc main_arg2)) (V₀ (Proc.devRef .tc main_arg4)) (V₀ (Proc.devRef .tc main_arg5))
          (V₀ (Proc.devRef .tc main_arg6)) (V₀ (Proc.devRef .tc main_arg7))) n j := by
  rw [v19_eq]
  exact hV_eq_spec _ _ _ _ _ _ _ n j

end Cert.ReferenceIdeal.RefValue

end
-- ==== Proof.LibGather.lean ====
import Idealize.ShloMosaic.PureOps.ShapeOps
import Idealize.ShloMosaic.Lib.ValueIdx

/-! # A gather that takes entries of a flat array, read at an index

`Host.gather d x idx j = x (d.operandIdx j idx)`: the operand index has, on the gathered axis, the start index read as a SIGNED
integer and CLAMPED into the axis. Worked out here, at any extents, for entries of a flat array: operand `[N]`, start indices
`[K, 1]`, result `[K]` (`flatTakeDims`, `gather_flatTake_apply`), with the corollary for a start index already inside the array
(`gather_flatTake_apply_of_lt`): the clamp does nothing and the entry read is the one the index names. -/

namespace Idealize.ShloMosaic.GatherTake

open Idealize.ShloMosaic Idealize.ShloMosaic.ValueIdx

/-- A signed word that is non-negative and below `N`, clamped into `[0, N - 1]`, is its own value. -/
theorem clamp_of_lt {w : Nat} (v : BitVec w) {N : Nat} (h0 : 0 ≤ v.toInt) (hN : v.toInt < (N : Int)) :
    min v.toInt.toNat (N - 1) = v.toInt.toNat := by
  apply Nat.min_eq_left
  omega

section
variable {α : Type}

/-- Operand `[N]`, start indices `[K, 1]`, result `[K]`: the one axis is gathered (collapsed, one entry). -/
abbrev flatTakeDims (N K : Nat)
    (wf : GatherDims.WF ⟨1, ![N]⟩ ⟨2, ![K, 1]⟩ ⟨1, ![K]⟩ [] [0] [] [0] [] 1 ![1]) :
    GatherDims ⟨1, ![N]⟩ ⟨2, ![K, 1]⟩ ⟨1, ![K]⟩ where
  offsetDims := []
  collapsedSliceDims := [0]
  operandBatchingDims := []
  startIndicesBatchingDims := []
  startIndexMap := [0]
  indexVectorDim := 1
  sliceSizes := ![1]
  wf := wf

/-- THE GATHER READ AT `k`: the operand at the start index `idx[k, 0]`, read signed and clamped into `[0, N − 1]`. -/
theorem gather_flatTake_apply {N K w : Nat} (hN : 0 < N)
    (wf : GatherDims.WF ⟨1, ![N]⟩ ⟨2, ![K, 1]⟩ ⟨1, ![K]⟩ [] [0] [] [0] [] 1 ![1])
    (x : (⟨1, ![N]⟩ : Shape).Idx → α) (idx : IVec ⟨2, ![K, 1]⟩ w) (k : Fin K) :
    Host.gather (flatTakeDims N K wf) x idx (ix1 k)
      = x (ix1 ⟨min (idx (ix2 k (0 : Fin 1))).toInt.toNat (N - 1), by omega⟩) := by
  unfold Host.gather
  congr 1
  funext c
  obtain rfl : c = 0 := Subsingleton.elim _ _
  refine Fin.ext ?_
  show (flatTakeDims N K wf).start (ix1 k) idx 0 + (flatTakeDims N K wf).batchCoord (ix1 k) 0
    + (flatTakeDims N K wf).offCoord (ix1 k) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatTakeDims N K wf).startIndexMap from List.mem_singleton.mpr rfl)]
  have hsi : (flatTakeDims N K wf).siIdx (ix1 k) ⟨List.idxOf (0 : Fin 1) (flatTakeDims N K wf).startIndexMap,
      List.idxOf_lt_length_iff.2 (List.mem_singleton.mpr rfl)⟩ = ix2 k (0 : Fin 1) := by
    funext e; refine Fin.ext ?_
    match e with
    | ⟨0, _⟩ => rfl
    | ⟨1, _⟩ => rfl
  rw [hsi]
  rfl

/-- The same for a start index inside the array: the entry it names. -/
theorem gather_flatTake_apply_of_lt {N K w : Nat}
    (wf : GatherDims.WF ⟨1, ![N]⟩ ⟨2, ![K, 1]⟩ ⟨1, ![K]⟩ [] [0] [] [0] [] 1 ![1])
    (x : (⟨1, ![N]⟩ : Shape).Idx → α) (idx : IVec ⟨2, ![K, 1]⟩ w) (k : Fin K)
    (h0 : 0 ≤ (idx (ix2 k (0 : Fin 1))).toInt) (hlt : (idx (ix2 k (0 : Fin 1))).toInt < (N : Int)) :
    Host.gather (flatTakeDims N K wf) x idx (ix1 k)
      = x (ix1 ⟨(idx (ix2 k (0 : Fin 1))).toInt.toNat, by omega⟩) := by
  rw [gather_flatTake_apply (by omega) wf x idx k]
  congr 2
  exact Fin.ext (clamp_of_lt _ h0 hlt)

end

end Idealize.ShloMosaic.GatherTake
-- ==== Proof.RefValueLib.lean ====
/-
  Arrays read at an index, at the ideal values: the layout operations, the sums and the signed index arithmetic the
  reference program is made of, each read entry by entry. Nothing here mentions the program; the next module applies
  these to its operations in order.
-/
import proofs.«407895_j63728724738088_3_alg».proof.ReferenceIdeal
import proofs.«407895_j63728724738088_3_alg».proof.Proof.Spec
import proofs.«407895_j63728724738088_3_alg».proof.Proof.LibScatterAddVec
import proofs.«407895_j63728724738088_3_alg».proof.Proof.LibScatterAddRows
import proofs.«407895_j63728724738088_3_alg».proof.Proof.LibGather
import proofs.«407895_j63728724738088_3_alg».proof.Proof.LibGatherRow
import Idealize.ShloMosaic.Lib.IdealHost
import Idealize.ShloMosaic.Lib.KernelVsHost
import Idealize.ShloMosaic.Lib.StackMember
import Idealize.ShloMosaic.Lib.ValueLayout
import Idealize.ShloMosaic.Lib.Pipeline.Value

open scoped BigOperators

noncomputable section

namespace Cert.ReferenceIdeal.RefValue

open Idealize.ShloMosaic Idealize.ShloMosaic.ValueIdx

/-! ## Broadcasts read at an index -/

section Broadcasts
variable {α : Type}

/-- A vector laid along the one row of a one-row matrix: entry (u, f) is element f. -/
theorem bcRow_apply {n : Nat} (h : (⟨1, ![n]⟩ : Shape).BroadcastsInDim ⟨2, ![1, n]⟩ ![1])
    (x : (⟨1, ![n]⟩ : Shape).Idx → α) (u : Fin 1) (f : Fin n) :
    broadcastInDim ⟨2, ![1, n]⟩ ![1] h x (ix2 u f) = x (ix1 f) := by
  refine broadcastInDim_apply ![1] h x (ix2 u f) (ix1 f) ?_
  intro a
  match a with
  | ⟨0, _⟩ =>
    show f.val = if n = 1 then 0 else f.val
    split
    · have := f.isLt; omega
    · rfl

/-- A vector stood up as the one column of a one-column matrix: entry (e, u) is element e. -/
theorem bcCol_apply {k : Nat} (h : (⟨1, ![k]⟩ : Shape).BroadcastsInDim ⟨2, ![k, 1]⟩ ![0])
    (x : (⟨1, ![k]⟩ : Shape).Idx → α) (e : Fin k) (u : Fin 1) :
    broadcastInDim ⟨2, ![k, 1]⟩ ![0] h x (ix2 e u) = x (ix1 e) := by
  refine broadcastInDim_apply ![0] h x (ix2 e u) (ix1 e) ?_
  intro a
  match a with
  | ⟨0, _⟩ =>
    show e.val = if k = 1 then 0 else e.val
    split
    · have := e.isLt; omega
    · rfl

/-- A one-column matrix repeated along every column: entry (e, c) is the column's entry (e, 0). -/
theorem bcCols_apply {k c : Nat} (h : (⟨2, ![k, 1]⟩ : Shape).BroadcastsInDim ⟨2, ![k, c]⟩ ![0, 1])
    (x : (⟨2, ![k, 1]⟩ : Shape).Idx → α) (e : Fin k) (j : Fin c) :
    broadcastInDim ⟨2, ![k, c]⟩ ![0, 1] h x (ix2 e j) = x (ix2 e (0 : Fin 1)) := by
  refine broadcastInDim_apply ![0, 1] h x (ix2 e j) (ix2 e (0 : Fin 1)) ?_
  intro a
  match a with
  | ⟨0, _⟩ =>
    show e.val = if k = 1 then 0 else e.val
    split
    · have := e.isLt; omega
    · rfl
  | ⟨1, _⟩ =>
    show (0 : ℕ) = if (1 : ℕ) = 1 then 0 else j.val
    simp

/-- A vector laid along every row of a matrix, through its one-row form: entry (r, f) is element f. -/
theorem bcRows_apply {m n : Nat} (h1 : (⟨1, ![n]⟩ : Shape).BroadcastsInDim ⟨2, ![1, n]⟩ ![1])
    (h2 : (⟨2, ![1, n]⟩ : Shape).BroadcastsInDim ⟨2, ![m, n]⟩ ![0, 1])
    (x : (⟨1, ![n]⟩ : Shape).Idx → α) (r : Fin m) (f : Fin n) :
    broadcastInDim ⟨2, ![m, n]⟩ ![0, 1] h2 (broadcastInDim ⟨2, ![1, n]⟩ ![1] h1 x) (ix2 r f) = x (ix1 f) := by
  rw [broadcastInDim_oneRow_apply, bcRow_apply]

/-- A vector stood up as a column and repeated along every column: entry (e, j) is element e. -/
theorem bcColAll_apply {k c : Nat} (h1 : (⟨1, ![k]⟩ : Shape).BroadcastsInDim ⟨2, ![k, 1]⟩ ![0])
    (h2 : (⟨2, ![k, 1]⟩ : Shape).BroadcastsInDim ⟨2, ![k, c]⟩ ![0, 1])
    (x : (⟨1, ![k]⟩ : Shape).Idx → α) (e : Fin k) (j : Fin c) :
    broadcastInDim ⟨2, ![k, c]⟩ ![0, 1] h2 (broadcastInDim ⟨2, ![k, 1]⟩ ![0] h1 x) (ix2 e j) = x (ix1 e) := by
  rw [bcCols_apply, bcCol_apply]

end Broadcasts

/-! ## Sums read at an index -/

section Sums
open Cert.ReferenceIdeal

/-- The float sum down the rows of a 100000 × 256 array from a constant initial value: at column f, the constant plus
    the sum over the rows of the column's entries. -/
theorem colSum_apply (h' : S100000x256.ReducesTo [0] S256) (hu : 0 < S_.numel) (x : FVec Ideal S100000x256 .f32)
    (b : BitVec 32) (f : Fin 256) :
    Host.reduceAdd x (constant S_ .f32 b) h' hu (ix1 f) = Ideal.ofBits .f32 b + ∑ n : Fin 100000, x (ix2 n f) := by
  have h : S100000x256.Reduces [0] S256 := by decide
  show Ideal.hostReduceAdd h' x (Ideal.ofBits .f32 b) (ix1 f) = _
  rw [Ideal.hostReduceAdd_single h' h]
  refine congrArg (Ideal.ofBits .f32 b + ·) ?_
  show (∑ n : Fin 100000, x (h.lift (ix1 f) n)) = ∑ n : Fin 100000, x (ix2 n f)
  refine Finset.sum_congr rfl fun n _ => congrArg x (funext fun c => Fin.ext ?_)
  match c with
  | ⟨0, _⟩ => rfl
  | ⟨1, _⟩ => rfl

/-- The product of a 100000 × 256 by a 256 × 128 array, read at (n, j): the sum over the contracted coordinate. -/
theorem dot_apply (d : DotDims S100000x256 S256x128 S100000x128) (hd : d = DotDims.plain 100000 256 128)
    (l : FVec Ideal S100000x256 .f32) (r : FVec Ideal S256x128 .f32) (n : Fin 100000) (j : Fin 128) :
    Host.dotGeneral d none l r (ix2 n j) = ∑ k : Fin 256, l (ix2 n k) * r (ix2 k j) := by
  subst hd
  exact StackMember.dotGeneral_plain_apply none l r n j

/-- A sum over the 1700000 positions of a concatenation of 1600000 and 100000: the sum over the first piece's
    positions plus the sum over the second's. -/
theorem sum_split {M : Type*} [AddCommMonoid M] (f : Fin 1700000 → M) :
    ∑ u, f u = (∑ e : Fin 1600000, f ⟨e.val, by omega⟩) + ∑ k : Fin 100000, f ⟨1600000 + k.val, by omega⟩ :=
  Fin.sum_univ_add (a := 1600000) (b := 100000) f

/-- The same for a sum over the positions that satisfy a condition. -/
theorem sum_filter_split {M : Type*} [AddCommMonoid M] (P : Fin 1700000 → Prop) [DecidablePred P] (f : Fin 1700000 → M) :
    ∑ u ∈ Finset.univ.filter P, f u
      = (∑ e ∈ Finset.univ.filter (fun e : Fin 1600000 => P ⟨e.val, by omega⟩), f ⟨e.val, by omega⟩)
        + ∑ k ∈ Finset.univ.filter (fun k : Fin 100000 => P ⟨1600000 + k.val, by omega⟩), f ⟨1600000 + k.val, by omega⟩ := by
  rw [Finset.sum_filter, sum_split, Finset.sum_filter, Finset.sum_filter]

end Sums

/-! ## The edge arrays, their concatenation with the node numbers, and the signed index arithmetic -/

section Index
open Cert.ReferenceIdeal

/-- Row 0 of the 2 × 1600000 array as a flat array. -/
theorem row0_apply (hs : S2x1600000.Slices ![0, 0] S1x1600000) (hc : S1x1600000.ShapeCasts S1600000)
    (a : IVec S2x1600000 32) (e : Fin 1600000) :
    shapeCast S1600000 (extractStridedSlice S1x1600000 ![0, 0] a hs) hc (ix1 e) = a (ix2 (0 : Fin 2) e) := by
  rw [shapeCast_1a_a_apply]
  refine extractStridedSlice_apply _ _ _ _ _ fun ax => ?_
  match ax with
  | ⟨0, _⟩ => rfl
  | ⟨1, _⟩ => show e.val = 0 + e.val; omega

/-- Row 1 of the 2 × 1600000 array as a flat array. -/
theorem row1_apply (hs : S2x1600000.Slices ![1, 0] S1x1600000) (hc : S1x1600000.ShapeCasts S1600000)
    (a : IVec S2x1600000 32) (e : Fin 1600000) :
    shapeCast S1600000 (extractStridedSlice S1x1600000 ![1, 0] a hs) hc (ix1 e) = a (ix2 (1 : Fin 2) e) := by
  rw [shapeCast_1a_a_apply]
  refine extractStridedSlice_apply _ _ _ _ _ fun ax => ?_
  match ax with
  | ⟨0, _⟩ => rfl
  | ⟨1, _⟩ => show e.val = 0 + e.val; omega

/-- The concatenation of a 1600000-array and a 100000-array, below the split: the first piece. -/
theorem cat_lo {α : Type} (h : Shape.Concatenates [S1600000, S100000] S1700000 0) (a : S1600000.Idx → α) (b : S100000.Idx → α)
    (e : Fin 1600000) :
    concatenate S1700000 0 [⟨S1600000, a⟩, ⟨S100000, b⟩] h (ix1 (⟨e.val, by omega⟩ : Fin 1700000)) = a (ix1 e) := by
  refine concatenate_pair_apply_left 0 a b h _ rfl (ix1 e) fun c => ?_
  match c with
  | ⟨0, _⟩ => rfl

/-- The same at and past the split: the second piece, the first piece's extent less. -/
theorem cat_hi {α : Type} (h : Shape.Concatenates [S1600000, S100000] S1700000 0) (a : S1600000.Idx → α) (b : S100000.Idx → α)
    (k : Fin 100000) :
    concatenate S1700000 0 [⟨S1600000, a⟩, ⟨S100000, b⟩] h (ix1 (⟨1600000 + k.val, by omega⟩ : Fin 1700000)) = b (ix1 k) := by
  refine concatenate_pair_apply_right 0 a b h _ rfl rfl (ix1 k) (fun c hc => ?_) ?_
  · exact absurd (Subsingleton.elim _ _) hc
  · show k.val + 1600000 = 1600000 + k.val
    omega

/-- A node number as a 32-bit word reads, signed, as the number. -/
theorem toInt_ofNat_node (k : Nat) (hk : k < 100000) : (BitVec.ofNat 32 k).toInt = (k : Int) := by
  rw [BitVec.toInt_eq_toNat_cond, BitVec.toNat_ofNat]
  have : k % 2 ^ 32 = k := Nat.mod_eq_of_lt (by omega)
  rw [this]
  split <;> omega

/-- A signed index with the number of nodes added when it is negative. -/
def wrapZ (v : Int) : Int := if v < 0 then v + 100000 else v

/-- The compare-with-zero, add-100000, select chain on one word: its signed value is the wrapped signed value. -/
theorem wrapWord_toInt (x : BitVec 32) :
    (Scalar.select (IntOp.cmpi .slt x 0#32) (IntOp.addi x 100000#32) x).toInt = wrapZ x.toInt := by
  have hlo : -(2 : Int) ^ 31 ≤ x.toInt := by have := BitVec.le_toInt x; simpa using this
  have hhi : x.toInt < (2 : Int) ^ 31 := by have := BitVec.toInt_lt (x := x); simpa using this
  unfold Scalar.select IntOp.addi wrapZ
  have hcmp : IntOp.cmpi .slt x 0#32 = BitVec.ofBool (x.slt 0#32) := rfl
  rw [hcmp]
  by_cases h : x.toInt < 0
  · have hc : BitVec.ofBool (x.slt 0#32) = (1 : BitVec 1) := by
      simp [BitVec.slt, h]
    rw [if_pos hc, if_pos h, BitVec.toInt_add]
    have h1 : (100000#32 : BitVec 32).toInt = 100000 := by decide
    rw [h1]
    unfold Int.bmod
    simp only [Nat.cast_pow, Nat.cast_ofNat]
    split <;> omega
  · have hc : ¬ BitVec.ofBool (x.slt 0#32) = (1 : BitVec 1) := by
      simp [BitVec.slt, h]
    rw [if_neg hc, if_neg h]

end Index

/-! ## Gathers and scatter-adds through an index column -/

section Takes
variable {α : Type}

/-- Entries of a flat array taken at signed indices given as a column: the entry at the index clamped into the array. -/
theorem take_apply {N K : Nat} (hN : 0 < N) (d : GatherDims ⟨1, ![N]⟩ ⟨2, ![K, 1]⟩ ⟨1, ![K]⟩)
    (wf : GatherDims.WF ⟨1, ![N]⟩ ⟨2, ![K, 1]⟩ ⟨1, ![K]⟩ [] [0] [] [0] [] 1 ![1])
    (hd : d = GatherTake.flatTakeDims N K wf)
    (hb : (⟨1, ![K]⟩ : Shape).BroadcastsInDim ⟨2, ![K, 1]⟩ ![0]) (x : (⟨1, ![N]⟩ : Shape).Idx → α)
    (w : IVec ⟨1, ![K]⟩ 32) (u : Fin K) :
    Host.gather d x (broadcastInDim ⟨2, ![K, 1]⟩ ![0] hb w) (ix1 u)
      = x (ix1 ⟨min (w (ix1 u)).toInt.toNat (N - 1), by omega⟩) := by
  subst hd
  rw [GatherTake.gather_flatTake_apply hN wf x _ u]
  refine congrArg (fun i => x (ix1 i)) (Fin.ext ?_)
  show min (broadcastInDim ⟨2, ![K, 1]⟩ ![0] hb w (ix2 u (0 : Fin 1))).toInt.toNat (N - 1) = min (w (ix1 u)).toInt.toNat (N - 1)
  rw [bcCol_apply]

/-- Rows of a table taken at signed indices given as a column: the row at the index clamped into the table. -/
theorem takeRows_apply {N K C : Nat} (hN : 0 < N) (d : GatherDims ⟨2, ![N, C]⟩ ⟨2, ![K, 1]⟩ ⟨2, ![K, C]⟩)
    (ho : d.offsetDims = [1]) (hc : d.collapsedSliceDims = [0]) (hob : d.operandBatchingDims = [])
    (hsb : d.startIndicesBatchingDims = []) (hm : d.startIndexMap = [0]) (hv : d.indexVectorDim = 1)
    (hs : d.sliceSizes = ![1, C])
    (hb : (⟨1, ![K]⟩ : Shape).BroadcastsInDim ⟨2, ![K, 1]⟩ ![0]) (x : (⟨2, ![N, C]⟩ : Shape).Idx → α)
    (w : IVec ⟨1, ![K]⟩ 32) (u : Fin K) (j : Fin C) :
    Host.gather d x (broadcastInDim ⟨2, ![K, 1]⟩ ![0] hb w) (ix2 u j)
      = x (ix2 ⟨min (w (ix1 u)).toInt.toNat (N - 1), by omega⟩ j) := by
  rw [GatherRow.gather_rowTake_apply hN d ho hc hob hsb hm hv hs x _ u j]
  refine congrArg (fun i => x (ix2 i j)) (Fin.ext ?_)
  show min (broadcastInDim ⟨2, ![K, 1]⟩ ![0] hb w (ix2 u (0 : Fin 1))).toInt.toNat (N - 1) = min (w (ix1 u)).toInt.toNat (N - 1)
  rw [bcCol_apply]

/-- Scalars added into a flat array at signed indices given as a column: the operand's entry plus the updates whose
    index is the entry's position. -/
theorem scatterVec_apply {N K : Nat} (d : ScatterDims ⟨1, ![N]⟩ ⟨2, ![K, 1]⟩ ⟨1, ![K]⟩)
    (hu : d.updateWindowDims = []) (hi : d.insertedWindowDims = [0]) (hs : d.scatterDimsToOperandDims = [0])
    (hv : d.indexVectorDim = 1)
    (hb : (⟨1, ![K]⟩ : Shape).BroadcastsInDim ⟨2, ![K, 1]⟩ ![0]) (x : FVec Ideal ⟨1, ![N]⟩ .f32)
    (w : IVec ⟨1, ![K]⟩ 32) (upd : FVec Ideal ⟨1, ![K]⟩ .f32) (i : Fin N) :
    Host.scatterAdd d x (broadcastInDim ⟨2, ![K, 1]⟩ ![0] hb w) upd (ix1 i)
      = x (ix1 i) + ∑ e ∈ Finset.univ.filter (fun e : Fin K => (w (ix1 e)).toInt = (i.val : Int)), upd (ix1 e) := by
  show Ideal.hostScatterAdd d x _ upd (ix1 i) = _
  rw [ScatterAddVec.hostScatterAdd_vec_apply d hu hi hs hv]
  refine congrArg (x (ix1 i) + ·) (Finset.sum_congr (Finset.filter_congr fun e _ => ?_) fun _ _ => rfl)
  rw [bcCol_apply]

/-- Rows added into a table at signed indices given as a column: the operand's entry plus, over the update rows whose
    index is the entry's row, the update's entry in the same column. -/
theorem scatterRows_apply {N K C : Nat} (d : ScatterDims ⟨2, ![N, C]⟩ ⟨2, ![K, 1]⟩ ⟨2, ![K, C]⟩)
    (hu : d.updateWindowDims = [1]) (hi : d.insertedWindowDims = [0]) (hs : d.scatterDimsToOperandDims = [0])
    (hv : d.indexVectorDim = 1)
    (hb : (⟨1, ![K]⟩ : Shape).BroadcastsInDim ⟨2, ![K, 1]⟩ ![0]) (x : FVec Ideal ⟨2, ![N, C]⟩ .f32)
    (w : IVec ⟨1, ![K]⟩ 32) (upd : FVec Ideal ⟨2, ![K, C]⟩ .f32) (i : Fin N) (j : Fin C) :
    Host.scatterAdd d x (broadcastInDim ⟨2, ![K, 1]⟩ ![0] hb w) upd (ix2 i j)
      = x (ix2 i j) + ∑ e ∈ Finset.univ.filter (fun e : Fin K => (w (ix1 e)).toInt = (i.val : Int)), upd (ix2 e j) := by
  show Ideal.hostScatterAdd d x _ upd (ix2 i j) = _
  rw [ScatterAddRows.hostScatterAdd_rows_apply d hu hi hs hv]
  refine congrArg (x (ix2 i j) + ·) (Finset.sum_congr (Finset.filter_congr fun e _ => ?_) fun _ _ => rfl)
  rw [bcCol_apply]

end Takes

end Cert.ReferenceIdeal.RefValue

end
-- ==== Proof.RefValueB.lean ====
/-
  The reference program from its linear map on: the degree, its reciprocal square root, the edge weights, the
  messages and their sum per node, bias and rectifier, and the mean over each graph, each array as a function of the
  arrays before it and read entry by entry against the formulas of the specification.
-/
import proofs.«407895_j63728724738088_3_alg».proof.ReferenceIdeal
import proofs.«407895_j63728724738088_3_alg».proof.Proof.Gen.ReferenceIdeal
import proofs.«407895_j63728724738088_3_alg».proof.Proof.Spec
import proofs.«407895_j63728724738088_3_alg».proof.Proof.Consts
import proofs.«407895_j63728724738088_3_alg».proof.Proof.RefValueLib

open scoped BigOperators

noncomputable section

namespace Cert.ReferenceIdeal.RefValue

open Cert.ReferenceIdeal Cert.ReferenceIdeal.Gen Idealize.ShloMosaic Idealize.ShloMosaic.ValueIdx

/-! ## The arrays, each as a function of the ones before it -/

/-- A 1700000-array stood up as a column. -/
def col {α : Type} (v : S1700000.Idx → α) : S1700000x1.Idx → α :=
  broadcastInDim S1700000x1 ![0] bcast_S1700000_S1700000x1_0 v

/-- The edge sources, a flat array. -/
def srcA (a1 : IVec S2x1600000 32) : IVec S1600000 32 :=
  shapeCast S1600000 (extractStridedSlice S1x1600000 ![0, 0] a1 slices_S2x1600000_S1x1600000_0_0) shapeCasts_S1x1600000_S1600000

/-- The edge targets, a flat array. -/
def dstA (a1 : IVec S2x1600000 32) : IVec S1600000 32 :=
  shapeCast S1600000 (extractStridedSlice S1x1600000 ![1, 0] a1 slices_S2x1600000_S1x1600000_1_0) shapeCasts_S1x1600000_S1600000

/-- The node numbers. -/
def iotaA : IVec S100000 32 := iotaInDim S100000 32 0

/-- Sources followed by the node numbers: the edges with the self-loops. -/
def srcF (a1 : IVec S2x1600000 32) : IVec S1700000 32 :=
  concatenate S1700000 0 [⟨S1600000, srcA a1⟩, ⟨S100000, iotaA⟩] concatenates_S1600000_S100000_S1700000_d0

/-- Targets followed by the node numbers. -/
def dstF (a1 : IVec S2x1600000 32) : IVec S1700000 32 :=
  concatenate S1700000 0 [⟨S1600000, dstA a1⟩, ⟨S100000, iotaA⟩] concatenates_S1600000_S100000_S1700000_d0

/-- An index array with the number of nodes added to its negative entries. -/
def wrapA (v : IVec S1700000 32) : IVec S1700000 32 :=
  select (cmpi .slt v (broadcastInDim S1700000 ![] bcast_S_S1700000 (constantI S_ 32 0#32)))
    (addi v (broadcastInDim S1700000 ![] bcast_S_S1700000 (constantI S_ 32 100000#32))) v

/-- The degree: ones added at the targets. -/
def degA (a1 : IVec S2x1600000 32) : FVec Ideal S100000 .f32 :=
  Host.scatterAdd scatter_S100000_S1700000x1_S1700000_n_0_0_1
    (broadcastInDim S100000 ![] bcast_S_S100000 (constant S_ .f32 0x00000000#32)) (col (dstF a1))
    (broadcastInDim S1700000 ![] bcast_S_S1700000 (constant S_ .f32 0x3F800000#32))

/-- The reciprocal square root of the degree, the degree taken at least one. -/
def dinvA (a1 : IVec S2x1600000 32) : FVec Ideal S100000 .f32 :=
  Host.rsqrt (maximumf (degA a1) (broadcastInDim S100000 ![] bcast_S_S100000 (constant S_ .f32 0x3F800000#32)))

/-- The weight of each edge and self-loop. -/
def normA (a1 : IVec S2x1600000 32) : FVec Ideal S1700000 .f32 :=
  mulf (Host.gather gather_S100000_S1700000x1_S1700000_n_0_n_n_0_1_1 (dinvA a1) (col (wrapA (srcF a1))))
    (Host.gather gather_S100000_S1700000x1_S1700000_n_0_n_n_0_1_1 (dinvA a1) (col (wrapA (dstF a1))))

/-- The message of each edge and self-loop: the source's row times the weight. -/
def msgA (h : FVec Ideal S100000x128 .f32) (a1 : IVec S2x1600000 32) : FVec Ideal S1700000x128 .f32 :=
  mulf (Host.gather gather_S100000x128_S1700000x1_S1700000x128_1_0_n_n_0_1_1128 h (col (wrapA (srcF a1))))
    (broadcastInDim S1700000x128 ![0, 1] bcast_S1700000x1_S1700000x128_0_1 (col (normA a1)))

/-- The messages summed per target, plus the bias. -/
def aggA (h : FVec Ideal S100000x128 .f32) (a1 : IVec S2x1600000 32) (b : FVec Ideal S128 .f32) : FVec Ideal S100000x128 .f32 :=
  addf (Host.scatterAdd scatter_S100000x128_S1700000x1_S1700000x128_1_0_0_1
      (broadcastInDim S100000x128 ![] bcast_S_S100000x128 (constant S_ .f32 0x00000000#32)) (col (dstF a1)) (msgA h a1))
    (broadcastInDim S100000x128 ![0, 1] bcast_S1x128_S100000x128_0_1 (broadcastInDim S1x128 ![1] bcast_S128_S1x128_1 b))

/-- The rectified node rows. -/
def xrA (h : FVec Ideal S100000x128 .f32) (a1 : IVec S2x1600000 32) (b : FVec Ideal S128 .f32) : FVec Ideal S100000x128 .f32 :=
  maximumf (aggA h a1 b) (broadcastInDim S100000x128 ![] bcast_S_S100000x128 (constant S_ .f32 0x00000000#32))

/-- The graph numbers stood up as a column. -/
def batC (a2 : IVec S100000 32) : IVec S100000x1 32 :=
  broadcastInDim S100000x1 ![0] bcast_S100000_S100000x1_0 a2

/-- The node rows summed per graph. -/
def poolA (h : FVec Ideal S100000x128 .f32) (a1 : IVec S2x1600000 32) (a2 : IVec S100000 32) (b : FVec Ideal S128 .f32) :
    FVec Ideal S64x128 .f32 :=
  Host.scatterAdd scatter_S64x128_S100000x1_S100000x128_1_0_0_1
    (broadcastInDim S64x128 ![] bcast_S_S64x128 (constant S_ .f32 0x00000000#32)) (batC a2) (xrA h a1 b)

/-- The number of nodes of each graph. -/
def cntA (a2 : IVec S100000 32) : FVec Ideal S64 .f32 :=
  Host.scatterAdd scatter_S64_S100000x1_S100000_n_0_0_1
    (broadcastInDim S64 ![] bcast_S_S64 (constant S_ .f32 0x00000000#32)) (batC a2)
    (broadcastInDim S100000 ![] bcast_S_S100000 (constant S_ .f32 0x3F800000#32))

/-- The result: each graph's sum divided by its count, the count taken at least one. -/
def gA (h : FVec Ideal S100000x128 .f32) (a1 : IVec S2x1600000 32) (a2 : IVec S100000 32) (b : FVec Ideal S128 .f32) :
    FVec Ideal S64x128 .f32 :=
  Host.divf (poolA h a1 a2 b)
    (broadcastInDim S64x128 ![0, 1] bcast_S64x1_S64x128_0_1
      (broadcastInDim S64x1 ![0] bcast_S64_S64x1_0
        (maximumf (cntA a2) (broadcastInDim S64 ![] bcast_S_S64 (constant S_ .f32 0x3F800000#32)))))

/-! ## The arrays read at an index -/

section Read
variable (a0 : (⟨2, ![100000, 256]⟩ : Shape).Idx → EReal) (a1 : IVec S2x1600000 32) (a2 : IVec S100000 32)
  (a4 a5 : (⟨1, ![256]⟩ : Shape).Idx → EReal) (a6 : (⟨2, ![256, 128]⟩ : Shape).Idx → EReal)
  (a7 : (⟨1, ![128]⟩ : Shape).Idx → EReal)

local notation "I" => Cert.Spec.Inp.ofArrays a0 a1 a2 a4 a5 a6 a7

/-- The host's reciprocal square root at an index is the ideal one of the element. -/
theorem hostRsqrt_apply {s : Shape} (x : FVec Ideal s .f32) (i : s.Idx) : Host.rsqrt x i = Ideal.rsqrt (x i) := rfl

/-- The position of edge e among the edges with self-loops. -/
abbrev lo (e : Fin 1600000) : Fin 1700000 := ⟨e.val, by omega⟩
/-- The position of node k's self-loop. -/
abbrev hi (k : Fin 100000) : Fin 1700000 := ⟨1600000 + k.val, by omega⟩

theorem srcF_lo (e : Fin 1600000) : (srcF a1 (ix1 (lo e))).toInt = (I).src e := by
  unfold srcF srcA
  rw [cat_lo, row0_apply]
  rfl

theorem dstF_lo (e : Fin 1600000) : (dstF a1 (ix1 (lo e))).toInt = (I).dst e := by
  unfold dstF dstA
  rw [cat_lo, row1_apply]
  rfl

theorem srcF_hi (k : Fin 100000) : (srcF a1 (ix1 (hi k))).toInt = (k.val : Int) := by
  unfold srcF iotaA
  rw [cat_hi]
  exact toInt_ofNat_node k.val k.isLt

theorem dstF_hi (k : Fin 100000) : (dstF a1 (ix1 (hi k))).toInt = (k.val : Int) := by
  unfold dstF iotaA
  rw [cat_hi]
  exact toInt_ofNat_node k.val k.isLt

/-- The wrapped array's entry, read signed, is the entry's signed value wrapped. -/
theorem wrapA_toInt (v : IVec S1700000 32) (i : S1700000.Idx) : (wrapA v i).toInt = wrapZ (v i).toInt :=
  wrapWord_toInt (v i)

/-- The wrapped entry clamped into the node axis is the specification's reading of the entry. -/
theorem gat_eq (v : IVec S1700000 32) (u : Fin 1700000) :
    (⟨min (wrapA v (ix1 u)).toInt.toNat (100000 - 1), by omega⟩ : Fin 100000) = Cert.Spec.gat (v (ix1 u)).toInt := by
  apply Fin.ext
  show min (wrapA v (ix1 u)).toInt.toNat (100000 - 1) = min (wrapZ (v (ix1 u)).toInt).toNat 99999
  rw [wrapA_toInt]

/-- A node number wrapped and clamped is the node. -/
theorem gat_node (k : Fin 100000) : Cert.Spec.gat (k.val : Int) = k := by
  apply Fin.ext
  show min (if (k.val : Int) < 0 then (k.val : Int) + 100000 else (k.val : Int)).toNat 99999 = k.val
  have := k.isLt
  rw [if_neg (by omega)]
  omega

theorem degA_apply (n : Fin 100000) : degA a1 (ix1 n) = Cert.Spec.degR I n := by
  unfold degA col
  rw [scatterVec_apply scatter_S100000_S1700000x1_S1700000_n_0_0_1 rfl rfl rfl rfl, sum_filter_split,
    broadcastInDim_scalar_apply, constant_apply, Cert.Consts.ofBits_zero, zero_add]
  unfold Cert.Spec.degR
  refine congrArg₂ (· + ·) ?_ ?_
  · refine Finset.sum_congr (Finset.filter_congr fun e _ => ?_) fun e _ => ?_
    · show (dstF a1 (ix1 (lo e))).toInt = (n.val : Int) ↔ _
      rw [dstF_lo a0 a1 a2 a4 a5 a6 a7]
    · rw [broadcastInDim_scalar_apply, constant_apply, Cert.Consts.ofBits_one]
  · refine Finset.sum_congr (Finset.filter_congr fun k _ => ?_) fun k _ => ?_
    · show (dstF a1 (ix1 (hi k))).toInt = (n.val : Int) ↔ _
      rw [dstF_hi]
      constructor
      · intro h; exact Fin.ext (by exact_mod_cast h)
      · intro h; rw [h]
    · rw [broadcastInDim_scalar_apply, constant_apply, Cert.Consts.ofBits_one]

theorem dinvA_apply (n : Fin 100000) : dinvA a1 (ix1 n) = Cert.Spec.dinvR I n := by
  unfold dinvA Cert.Spec.dinvR
  rw [hostRsqrt_apply, maximumf_apply, degA_apply a0 a1 a2 a4 a5 a6 a7, broadcastInDim_scalar_apply, constant_apply,
    Cert.Consts.ofBits_one]

theorem normA_lo (e : Fin 1600000) :
    normA a1 (ix1 (lo e))
      = Cert.Spec.dinvR I (Cert.Spec.gat ((I).src e)) * Cert.Spec.dinvR I (Cert.Spec.gat ((I).dst e)) := by
  unfold normA col
  rw [mulf_apply, take_apply (by norm_num) gather_S100000_S1700000x1_S1700000_n_0_n_n_0_1_1 gather_S100000_S1700000x1_S1700000_n_0_n_n_0_1_1_wf rfl,
    take_apply (by norm_num) gather_S100000_S1700000x1_S1700000_n_0_n_n_0_1_1 gather_S100000_S1700000x1_S1700000_n_0_n_n_0_1_1_wf rfl, gat_eq, gat_eq,
    dinvA_apply a0 a1 a2 a4 a5 a6 a7, dinvA_apply a0 a1 a2 a4 a5 a6 a7, srcF_lo a0 a1 a2 a4 a5 a6 a7,
    dstF_lo a0 a1 a2 a4 a5 a6 a7]

theorem normA_hi (k : Fin 100000) :
    normA a1 (ix1 (hi k)) = Cert.Spec.dinvR I k * Cert.Spec.dinvR I k := by
  unfold normA col
  rw [mulf_apply, take_apply (by norm_num) gather_S100000_S1700000x1_S1700000_n_0_n_n_0_1_1 gather_S100000_S1700000x1_S1700000_n_0_n_n_0_1_1_wf rfl,
    take_apply (by norm_num) gather_S100000_S1700000x1_S1700000_n_0_n_n_0_1_1 gather_S100000_S1700000x1_S1700000_n_0_n_n_0_1_1_wf rfl, gat_eq, gat_eq,
    dinvA_apply a0 a1 a2 a4 a5 a6 a7, dinvA_apply a0 a1 a2 a4 a5 a6 a7, srcF_hi, dstF_hi, gat_node]

variable (h : FVec Ideal S100000x128 .f32)
  (hh : ∀ n j, h (ix2 n j) = Cert.Spec.hR (Cert.Spec.Inp.ofArrays a0 a1 a2 a4 a5 a6 a7) n j)

include hh in
theorem msgA_lo (e : Fin 1600000) (j : Fin 128) :
    msgA h a1 (ix2 (lo e) j)
      = Cert.Spec.hR I (Cert.Spec.gat ((I).src e)) j
        * (Cert.Spec.dinvR I (Cert.Spec.gat ((I).src e)) * Cert.Spec.dinvR I (Cert.Spec.gat ((I).dst e))) := by
  unfold msgA col
  rw [mulf_apply, takeRows_apply (by norm_num) gather_S100000x128_S1700000x1_S1700000x128_1_0_n_n_0_1_1128 rfl rfl rfl rfl rfl rfl rfl, bcColAll_apply, gat_eq, hh,
    srcF_lo a0 a1 a2 a4 a5 a6 a7, normA_lo a0 a1 a2 a4 a5 a6 a7]

include hh in
theorem msgA_hi (k : Fin 100000) (j : Fin 128) :
    msgA h a1 (ix2 (hi k) j) = Cert.Spec.hR I k j * (Cert.Spec.dinvR I k * Cert.Spec.dinvR I k) := by
  unfold msgA col
  rw [mulf_apply, takeRows_apply (by norm_num) gather_S100000x128_S1700000x1_S1700000x128_1_0_n_n_0_1_1128 rfl rfl rfl rfl rfl rfl rfl, bcColAll_apply, gat_eq, hh, srcF_hi, gat_node,
    normA_hi a0 a1 a2 a4 a5 a6 a7]

include hh in
theorem aggA_apply (n : Fin 100000) (j : Fin 128) : aggA h a1 a7 (ix2 n j) = Cert.Spec.aggR I n j := by
  unfold aggA col
  rw [addf_apply, scatterRows_apply scatter_S100000x128_S1700000x1_S1700000x128_1_0_0_1 rfl rfl rfl rfl,
    sum_filter_split, bcRows_apply, broadcastInDim_scalar_apply, constant_apply, Cert.Consts.ofBits_zero, zero_add]
  unfold Cert.Spec.aggR
  refine congrArg₂ (· + ·) (congrArg₂ (· + ·) ?_ ?_) rfl
  · refine Finset.sum_congr (Finset.filter_congr fun e _ => ?_) fun e _ => ?_
    · show (dstF a1 (ix1 (lo e))).toInt = (n.val : Int) ↔ _
      rw [dstF_lo a0 a1 a2 a4 a5 a6 a7]
    · exact msgA_lo a0 a1 a2 a4 a5 a6 a7 h hh e j
  · refine Finset.sum_congr (Finset.filter_congr fun k _ => ?_) fun k _ => ?_
    · show (dstF a1 (ix1 (hi k))).toInt = (n.val : Int) ↔ _
      rw [dstF_hi]
      constructor
      · intro h'; exact Fin.ext (by exact_mod_cast h')
      · intro h'; rw [h']
    · exact msgA_hi a0 a1 a2 a4 a5 a6 a7 h hh k j

include hh in
theorem xrA_apply (n : Fin 100000) (j : Fin 128) : xrA h a1 a7 (ix2 n j) = Cert.Spec.xrR I n j := by
  unfold xrA Cert.Spec.xrR
  rw [maximumf_apply, aggA_apply a0 a1 a2 a4 a5 a6 a7 h hh, broadcastInDim_scalar_apply, constant_apply, Cert.Consts.ofBits_zero]

theorem cntA_apply (g : Fin 64) : cntA a2 (ix1 g) = Cert.Spec.cntR I g := by
  unfold cntA batC
  rw [scatterVec_apply scatter_S64_S100000x1_S100000_n_0_0_1 rfl rfl rfl rfl, broadcastInDim_scalar_apply,
    constant_apply, Cert.Consts.ofBits_zero, zero_add]
  unfold Cert.Spec.cntR
  refine Finset.sum_congr (Finset.filter_congr fun n _ => Iff.rfl) fun n _ => ?_
  rw [broadcastInDim_scalar_apply, constant_apply, Cert.Consts.ofBits_one]

include hh in
theorem poolA_apply (g : Fin 64) (j : Fin 128) :
    poolA h a1 a2 a7 (ix2 g j)
      = ∑ n ∈ Finset.univ.filter (fun n : Fin 100000 => (I).bat n = (g.val : ℤ)), Cert.Spec.xrR I n j := by
  unfold poolA batC
  rw [scatterRows_apply scatter_S64x128_S100000x1_S100000x128_1_0_0_1 rfl rfl rfl rfl, broadcastInDim_scalar_apply,
    constant_apply, Cert.Consts.ofBits_zero, zero_add]
  refine Finset.sum_congr (Finset.filter_congr fun n _ => Iff.rfl) fun n _ => ?_
  exact xrA_apply a0 a1 a2 a4 a5 a6 a7 h hh n j

include hh in
/-- The result entry is the specification's pooled value. -/
theorem gA_apply (g : Fin 64) (j : Fin 128) : gA h a1 a2 a7 (ix2 g j) = Cert.Spec.gR I g j := by
  unfold gA
  rw [hostDivf_apply, bcColAll_apply, poolA_apply a0 a1 a2 a4 a5 a6 a7 h hh, maximumf_apply, cntA_apply a0 a1 a2 a4 a5 a6 a7, broadcastInDim_scalar_apply, constant_apply, Cert.Consts.ofBits_one]
  unfold Cert.Spec.gR
  with_reducible rfl

end Read

end Cert.ReferenceIdeal.RefValue

end
-- ==== Proof.RefValueC.lean ====
/-
  The reference program's run cut into five consecutive stretches of its operations: up to the linear map; the edge
  arrays, the degree and its reciprocal square root; the edge weights; the messages, their sums, bias and rectifier;
  the pooling. Each stretch is read on its own, from any contents: what it leaves in the buffers the later stretches
  read, and that it leaves the earlier buffers they read alone. Run one after the other they are the whole run, so
  the result buffer holds the chain of arrays from the linear map on, of the linear map's buffer after the run and
  of the launch contents of the edge array, the graph numbers and the bias.
-/
import proofs.«407895_j63728724738088_3_alg».proof.Proof.RefOps
import proofs.«407895_j63728724738088_3_alg».proof.Proof.RefValueB
import Idealize.ShloMosaic.Lib.StableHlo.Run

open scoped BigOperators

noncomputable section

namespace Cert.ReferenceIdeal.RefValue

/-! ## The five stretches -/

section Stretches

open Cert.ReferenceIdeal Cert.ReferenceIdeal.Gen Idealize.ShloMosaic Idealize.ShloMosaic.TcCoe Idealize.SL.Sem Idealize.ShloMosaic.StableHlo

variable {F : FTy → Type} [FloatOps F]

/-- Operations 1 … 45: the statistics, the normalisation and the linear map. -/
def opsP : List (HloOp τ sig (Elt F)) :=
  [ StableHlo.nullary main_cst (constant S_ .f32 0x00000000#32),
    StableHlo.binary main_arg0 main_cst main_v0 ((fun x v => Host.reduceAdd x v reducesTo_S100000x256_S256_d0 h_S_) : (⟨S100000x256, .f32⟩ : BufTy).Contents (Elt F) → (⟨S_, .f32⟩ : BufTy).Contents (Elt F) → (⟨S256, .f32⟩ : BufTy).Contents (Elt F)),
    StableHlo.nullary main_cst_0 (constant S_ .f32 0x47C35000#32),
    StableHlo.unary main_cst_0 main_v1 (broadcastInDim S256 ![] bcast_S_S256 : (⟨S_, .f32⟩ : BufTy).Contents (Elt F) → (⟨S256, .f32⟩ : BufTy).Contents (Elt F)),
    StableHlo.binary main_v0 main_v1 main_v2 (Host.divf : (⟨S256, .f32⟩ : BufTy).Contents (Elt F) → (⟨S256, .f32⟩ : BufTy).Contents (Elt F) → (⟨S256, .f32⟩ : BufTy).Contents (Elt F)),
    StableHlo.nullary main_c (constantI S_ 32 0#32),
    StableHlo.TRef.nullary main_call0.cst (constant S_ .f32 0x00000000#32),
    StableHlo.TRef.binary (.of main_arg0 : StableHlo.TRef sig ⟨S100000x256, .f32⟩) main_call0.cst main_call0.v0 (fun x v => Host.reduceAdd x v reducesTo_S100000x256_S256_d0 h_S_),
    StableHlo.TRef.unary main_call0.v0 main_call0.v1 (broadcastInDim S1x256 ![1] bcast_S256_S1x256_1),
    StableHlo.TRef.nullary main_call0.cst_0 (constant S_ .f32 0x47C35000#32),
    StableHlo.TRef.unary main_call0.cst_0 main_call0.v2 (broadcastInDim S1x256 ![] bcast_S_S1x256),
    StableHlo.TRef.binary main_call0.v1 main_call0.v2 main_call0.v3 Host.divf,
    StableHlo.TRef.unary main_call0.v3 main_call0.v4 (broadcastInDim S100000x256 ![0, 1] bcast_S1x256_S100000x256_0_1),
    StableHlo.TRef.binary (.of main_arg0 : StableHlo.TRef sig ⟨S100000x256, .f32⟩) main_call0.v4 main_call0.v5 subf,
    StableHlo.TRef.binary main_call0.v5 main_call0.v5 main_call0.v6 mulf,
    StableHlo.TRef.unary (.of main_c : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x256_S256_d0 h_S_),
    StableHlo.TRef.unary main_call0.v8 main_call0.v10 (broadcastInDim S256 ![] bcast_S_S256),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S256 ![] bcast_S_S256),
    StableHlo.TRef.ternary main_call0.v12 main_call0.v11 main_call0.call0.v1 main_call0.call0.v2 (fun p a b => select (broadcastInDim S256 ![] bcast_S_S256 p) a b),
    StableHlo.unary main_v2 main_v4 (broadcastInDim S1x256 ![1] bcast_S256_S1x256_1 : (⟨S256, .f32⟩ : BufTy).Contents (Elt F) → (⟨S1x256, .f32⟩ : BufTy).Contents (Elt F)),
    StableHlo.unary main_v4 main_v5 (broadcastInDim S100000x256 ![0, 1] bcast_S1x256_S100000x256_0_1 : (⟨S1x256, .f32⟩ : BufTy).Contents (Elt F) → (⟨S100000x256, .f32⟩ : BufTy).Contents (Elt F)),
    StableHlo.binary main_arg0 main_v5 main_v6 (subf : (⟨S100000x256, .f32⟩ : BufTy).Contents (Elt F) → (⟨S100000x256, .f32⟩ : BufTy).Contents (Elt F) → (⟨S100000x256, .f32⟩ : BufTy).Contents (Elt F)),
    StableHlo.nullary main_cst_1 (constant S_ .f32 0x3727C5AC#32),
    StableHlo.unary main_cst_1 main_v7 (broadcastInDim S256 ![] bcast_S_S256 : (⟨S_, .f32⟩ : BufTy).Contents (Elt F) → (⟨S256, .f32⟩ : BufTy).Contents (Elt F)),
    StableHlo.binary main_v3 main_v7 main_v8 (addf : (⟨S256, .f32⟩ : BufTy).Contents (Elt F) → (⟨S256, .f32⟩ : BufTy).Contents (Elt F) → (⟨S256, .f32⟩ : BufTy).Contents (Elt F)),
    StableHlo.unary main_v8 main_v9 (Host.rsqrt : (⟨S256, .f32⟩ : BufTy).Contents (Elt F) → (⟨S256, .f32⟩ : BufTy).Contents (Elt F)),
    StableHlo.unary main_v9 main_v10 (broadcastInDim S1x256 ![1] bcast_S256_S1x256_1 : (⟨S256, .f32⟩ : BufTy).Contents (Elt F) → (⟨S1x256, .f32⟩ : BufTy).Contents (Elt F)),
    StableHlo.unary main_v10 main_v11 (broadcastInDim S100000x256 ![0, 1] bcast_S1x256_S100000x256_0_1 : (⟨S1x256, .f32⟩ : BufTy).Contents (Elt F) → (⟨S100000x256, .f32⟩ : BufTy).Contents (Elt F)),
    StableHlo.binary main_v6 main_v11 main_v12 (mulf : (⟨S100000x256, .f32⟩ : BufTy).Contents (Elt F) → (⟨S100000x256, .f32⟩ : BufTy).Contents (Elt F) → (⟨S100000x256, .f32⟩ : BufTy).Contents (Elt F)),
    StableHlo.unary main_arg4 main_v13 (broadcastInDim S1x256 ![1] bcast_S256_S1x256_1 : (⟨S256, .f32⟩ : BufTy).Contents (Elt F) → (⟨S1x256, .f32⟩ : BufTy).Contents (Elt F)),
    StableHlo.unary main_v13 main_v14 (broadcastInDim S100000x256 ![0, 1] bcast_S1x256_S100000x256_0_1 : (⟨S1x256, .f32⟩ : BufTy).Contents (Elt F) → (⟨S100000x256, .f32⟩ : BufTy).Contents (Elt F)),
    StableHlo.binary main_v12 main_v14 main_v15 (mulf : (⟨S100000x256, .f32⟩ : BufTy).Contents (Elt F) → (⟨S100000x256, .f32⟩ : BufTy).Contents (Elt F) → (⟨S100000x256, .f32⟩ : BufTy).Contents (Elt F)),
    StableHlo.unary main_arg5 main_v16 (broadcastInDim S1x256 ![1] bcast_S256_S1x256_1 : (⟨S256, .f32⟩ : BufTy).Contents (Elt F) → (⟨S1x256, .f32⟩ : BufTy).Contents (Elt F)),
    StableHlo.unary main_v16 main_v17 (broadcastInDim S100000x256 ![0, 1] bcast_S1x256_S100000x256_0_1 : (⟨S1x256, .f32⟩ : BufTy).Contents (Elt F) → (⟨S100000x256, .f32⟩ : BufTy).Contents (Elt F)),
    StableHlo.binary main_v15 main_v17 main_v18 (addf : (⟨S100000x256, .f32⟩ : BufTy).Contents (Elt F) → (⟨S100000x256, .f32⟩ : BufTy).Contents (Elt F) → (⟨S100000x256, .f32⟩ : BufTy).Contents (Elt F)),
    StableHlo.binary main_v18 main_arg6 main_v19 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)) ]

/-- Operations 46 … 62: the edge arrays with the self-loops, the degree, its reciprocal square root. -/
def opsA : List (HloOp τ sig (Elt F)) :=
  [ StableHlo.unary main_arg1 main_v20 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v20 main_v21 rfl shapeCasts_S1x1600000_S1600000,
    StableHlo.unary main_arg1 main_v22 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v22 main_v23 rfl shapeCasts_S1x1600000_S1600000,
    StableHlo.nullary main_v24 (iotaInDim S100000 32 0),
    StableHlo.binary main_v21 main_v24 main_v25 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.binary main_v23 main_v24 main_v26 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst_2 (constant S_ .f32 0x3F800000#32),
    StableHlo.unary main_cst_2 main_v27 (broadcastInDim S1700000 ![] bcast_S_S1700000 : (⟨S_, .f32⟩ : BufTy).Contents (Elt F) → (⟨S1700000, .f32⟩ : BufTy).Contents (Elt F)),
    StableHlo.nullary main_cst_3 (constant S_ .f32 0x00000000#32),
    StableHlo.unary main_cst_3 main_v28 (broadcastInDim S100000 ![] bcast_S_S100000 : (⟨S_, .f32⟩ : BufTy).Contents (Elt F) → (⟨S100000, .f32⟩ : BufTy).Contents (Elt F)),
    StableHlo.unary main_v26 main_v29 (broadcastInDim S1700000x1 ![0] bcast_S1700000_S1700000x1_0 : (⟨S1700000, .i32⟩ : BufTy).Contents (Elt F) → (⟨S1700000x1, .i32⟩ : BufTy).Contents (Elt F)),
    StableHlo.ternary main_v28 main_v29 main_v27 main_v30 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_4 (constant S_ .f32 0x3F800000#32),
    StableHlo.unary main_cst_4 main_v31 (broadcastInDim S100000 ![] bcast_S_S100000 : (⟨S_, .f32⟩ : BufTy).Contents (Elt F) → (⟨S100000, .f32⟩ : BufTy).Contents (Elt F)),
    StableHlo.binary main_v30 main_v31 main_v32 (maximumf : (⟨S100000, .f32⟩ : BufTy).Contents (Elt F) → (⟨S100000, .f32⟩ : BufTy).Contents (Elt F) → (⟨S100000, .f32⟩ : BufTy).Contents (Elt F)),
    StableHlo.unary main_v32 main_v33 (Host.rsqrt : (⟨S100000, .f32⟩ : BufTy).Contents (Elt F) → (⟨S100000, .f32⟩ : BufTy).Contents (Elt F)) ]

/-- Operations 63 … 81: the two gathers of the reciprocal square root and their product. -/
def opsB : List (HloOp τ sig (Elt F)) :=
  [ StableHlo.nullary main_c_5 (constantI S_ 32 0#32),
    StableHlo.unary main_c_5 main_v34 (broadcastInDim S1700000 ![] bcast_S_S1700000 : (⟨S_, .i32⟩ : BufTy).Contents (Elt F) → (⟨S1700000, .i32⟩ : BufTy).Contents (Elt F)),
    StableHlo.binary main_v25 main_v34 main_v35 (cmpi .slt : (⟨S1700000, .i32⟩ : BufTy).Contents (Elt F) → (⟨S1700000, .i32⟩ : BufTy).Contents (Elt F) → (⟨S1700000, .i1⟩ : BufTy).Contents (Elt F)),
    StableHlo.nullary main_c_6 (constantI S_ 32 100000#32),
    StableHlo.unary main_c_6 main_v36 (broadcastInDim S1700000 ![] bcast_S_S1700000 : (⟨S_, .i32⟩ : BufTy).Contents (Elt F) → (⟨S1700000, .i32⟩ : BufTy).Contents (Elt F)),
    StableHlo.binary main_v25 main_v36 main_v37 (addi : (⟨S1700000, .i32⟩ : BufTy).Contents (Elt F) → (⟨S1700000, .i32⟩ : BufTy).Contents (Elt F) → (⟨S1700000, .i32⟩ : BufTy).Contents (Elt F)),
    StableHlo.ternary main_v35 main_v37 main_v25 main_v38 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v38 main_v39 (broadcastInDim S1700000x1 ![0] bcast_S1700000_S1700000x1_0 : (⟨S1700000, .i32⟩ : BufTy).Contents (Elt F) → (⟨S1700000x1, .i32⟩ : BufTy).Contents (Elt F)),
    StableHlo.binary main_v33 main_v39 main_v40 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_7 (constantI S_ 32 0#32),
    StableHlo.unary main_c_7 main_v41 (broadcastInDim S1700000 ![] bcast_S_S1700000 : (⟨S_, .i32⟩ : BufTy).Contents (Elt F) → (⟨S1700000, .i32⟩ : BufTy).Contents (Elt F)),
    StableHlo.binary main_v26 main_v41 main_v42 (cmpi .slt : (⟨S1700000, .i32⟩ : BufTy).Contents (Elt F) → (⟨S1700000, .i32⟩ : BufTy).Contents (Elt F) → (⟨S1700000, .i1⟩ : BufTy).Contents (Elt F)),
    StableHlo.nullary main_c_8 (constantI S_ 32 100000#32),
    StableHlo.unary main_c_8 main_v43 (broadcastInDim S1700000 ![] bcast_S_S1700000 : (⟨S_, .i32⟩ : BufTy).Contents (Elt F) → (⟨S1700000, .i32⟩ : BufTy).Contents (Elt F)),
    StableHlo.binary main_v26 main_v43 main_v44 (addi : (⟨S1700000, .i32⟩ : BufTy).Contents (Elt F) → (⟨S1700000, .i32⟩ : BufTy).Contents (Elt F) → (⟨S1700000, .i32⟩ : BufTy).Contents (Elt F)),
    StableHlo.ternary main_v42 main_v44 main_v26 main_v45 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v45 main_v46 (broadcastInDim S1700000x1 ![0] bcast_S1700000_S1700000x1_0 : (⟨S1700000, .i32⟩ : BufTy).Contents (Elt F) → (⟨S1700000x1, .i32⟩ : BufTy).Contents (Elt F)),
    StableHlo.binary main_v33 main_v46 main_v47 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v40 main_v47 main_v48 (mulf : (⟨S1700000, .f32⟩ : BufTy).Contents (Elt F) → (⟨S1700000, .f32⟩ : BufTy).Contents (Elt F) → (⟨S1700000, .f32⟩ : BufTy).Contents (Elt F)) ]

/-- Operations 82 … 103: the messages, their sum per target, the bias and the rectifier. -/
def opsC : List (HloOp τ sig (Elt F)) :=
  [ StableHlo.nullary main_c_9 (constantI S_ 32 0#32),
    StableHlo.unary main_c_9 main_v49 (broadcastInDim S1700000 ![] bcast_S_S1700000 : (⟨S_, .i32⟩ : BufTy).Contents (Elt F) → (⟨S1700000, .i32⟩ : BufTy).Contents (Elt F)),
    StableHlo.binary main_v25 main_v49 main_v50 (cmpi .slt : (⟨S1700000, .i32⟩ : BufTy).Contents (Elt F) → (⟨S1700000, .i32⟩ : BufTy).Contents (Elt F) → (⟨S1700000, .i1⟩ : BufTy).Contents (Elt F)),
    StableHlo.nullary main_c_10 (constantI S_ 32 100000#32),
    StableHlo.unary main_c_10 main_v51 (broadcastInDim S1700000 ![] bcast_S_S1700000 : (⟨S_, .i32⟩ : BufTy).Contents (Elt F) → (⟨S1700000, .i32⟩ : BufTy).Contents (Elt F)),
    StableHlo.binary main_v25 main_v51 main_v52 (addi : (⟨S1700000, .i32⟩ : BufTy).Contents (Elt F) → (⟨S1700000, .i32⟩ : BufTy).Contents (Elt F) → (⟨S1700000, .i32⟩ : BufTy).Contents (Elt F)),
    StableHlo.ternary main_v50 main_v52 main_v25 main_v53 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v53 main_v54 (broadcastInDim S1700000x1 ![0] bcast_S1700000_S1700000x1_0 : (⟨S1700000, .i32⟩ : BufTy).Contents (Elt F) → (⟨S1700000x1, .i32⟩ : BufTy).Contents (Elt F)),
    StableHlo.binary main_v19 main_v54 main_v55 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v48 main_v56 (broadcastInDim S1700000x1 ![0] bcast_S1700000_S1700000x1_0 : (⟨S1700000, .f32⟩ : BufTy).Contents (Elt F) → (⟨S1700000x1, .f32⟩ : BufTy).Contents (Elt F)),
    StableHlo.unary main_v56 main_v57 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v55 main_v57 main_v58 (mulf : (⟨S1700000x128, .f32⟩ : BufTy).Contents (Elt F) → (⟨S1700000x128, .f32⟩ : BufTy).Contents (Elt F) → (⟨S1700000x128, .f32⟩ : BufTy).Contents (Elt F)),
    StableHlo.nullary main_cst_11 (constant S_ .f32 0x00000000#32),
    StableHlo.unary main_cst_11 main_v59 (broadcastInDim S100000x128 ![] bcast_S_S100000x128 : (⟨S_, .f32⟩ : BufTy).Contents (Elt F) → (⟨S100000x128, .f32⟩ : BufTy).Contents (Elt F)),
    StableHlo.unary main_v26 main_v60 (broadcastInDim S1700000x1 ![0] bcast_S1700000_S1700000x1_0 : (⟨S1700000, .i32⟩ : BufTy).Contents (Elt F) → (⟨S1700000x1, .i32⟩ : BufTy).Contents (Elt F)),
    StableHlo.ternary main_v59 main_v60 main_v58 main_v61 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_arg7 main_v62 (broadcastInDim S1x128 ![1] bcast_S128_S1x128_1 : (⟨S128, .f32⟩ : BufTy).Contents (Elt F) → (⟨S1x128, .f32⟩ : BufTy).Contents (Elt F)),
    StableHlo.unary main_v62 main_v63 (broadcastInDim S100000x128 ![0, 1] bcast_S1x128_S100000x128_0_1 : (⟨S1x128, .f32⟩ : BufTy).Contents (Elt F) → (⟨S100000x128, .f32⟩ : BufTy).Contents (Elt F)),
    StableHlo.binary main_v61 main_v63 main_v64 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v64 : StableHlo.TRef sig ⟨S100000x128, .f32⟩) main_call1.v0 main_call1.v1 maximumf ]

/-- Operations 104 … 119: the sums and counts per graph and their quotient. -/
def opsD : List (HloOp τ sig (Elt F)) :=
  [ StableHlo.nullary main_cst_12 (constant S_ .f32 0x00000000#32),
    StableHlo.unary main_cst_12 main_v66 (broadcastInDim S64x128 ![] bcast_S_S64x128 : (⟨S_, .f32⟩ : BufTy).Contents (Elt F) → (⟨S64x128, .f32⟩ : BufTy).Contents (Elt F)),
    StableHlo.unary main_arg2 main_v67 (broadcastInDim S100000x1 ![0] bcast_S100000_S100000x1_0 : (⟨S100000, .i32⟩ : BufTy).Contents (Elt F) → (⟨S100000x1, .i32⟩ : BufTy).Contents (Elt F)),
    StableHlo.ternary main_v66 main_v67 main_v65 main_v68 ((fun x i u => Host.scatterAdd scatter_S64x128_S100000x1_S100000x128_1_0_0_1 x i u) : (⟨S64x128, .f32⟩ : BufTy).Contents (Elt F) → (⟨S100000x1, .i32⟩ : BufTy).Contents (Elt F) → (⟨S100000x128, .f32⟩ : BufTy).Contents (Elt F) → (⟨S64x128, .f32⟩ : BufTy).Contents (Elt F)),
    StableHlo.nullary main_cst_13 (constant S_ .f32 0x3F800000#32),
    StableHlo.unary main_cst_13 main_v69 (broadcastInDim S100000 ![] bcast_S_S100000 : (⟨S_, .f32⟩ : BufTy).Contents (Elt F) → (⟨S100000, .f32⟩ : BufTy).Contents (Elt F)),
    StableHlo.nullary main_cst_14 (constant S_ .f32 0x00000000#32),
    StableHlo.unary main_cst_14 main_v70 (broadcastInDim S64 ![] bcast_S_S64 : (⟨S_, .f32⟩ : BufTy).Contents (Elt F) → (⟨S64, .f32⟩ : BufTy).Contents (Elt F)),
    StableHlo.unary main_arg2 main_v71 (broadcastInDim S100000x1 ![0] bcast_S100000_S100000x1_0 : (⟨S100000, .i32⟩ : BufTy).Contents (Elt F) → (⟨S100000x1, .i32⟩ : BufTy).Contents (Elt F)),
    StableHlo.ternary main_v70 main_v71 main_v69 main_v72 ((fun x i u => Host.scatterAdd scatter_S64_S100000x1_S100000_n_0_0_1 x i u) : (⟨S64, .f32⟩ : BufTy).Contents (Elt F) → (⟨S100000x1, .i32⟩ : BufTy).Contents (Elt F) → (⟨S100000, .f32⟩ : BufTy).Contents (Elt F) → (⟨S64, .f32⟩ : BufTy).Contents (Elt F)),
    StableHlo.nullary main_cst_15 (constant S_ .f32 0x3F800000#32),
    StableHlo.unary main_cst_15 main_v73 (broadcastInDim S64 ![] bcast_S_S64 : (⟨S_, .f32⟩ : BufTy).Contents (Elt F) → (⟨S64, .f32⟩ : BufTy).Contents (Elt F)),
    StableHlo.binary main_v72 main_v73 main_v74 (maximumf : (⟨S64, .f32⟩ : BufTy).Contents (Elt F) → (⟨S64, .f32⟩ : BufTy).Contents (Elt F) → (⟨S64, .f32⟩ : BufTy).Contents (Elt F)),
    StableHlo.unary main_v74 main_v75 (broadcastInDim S64x1 ![0] bcast_S64_S64x1_0 : (⟨S64, .f32⟩ : BufTy).Contents (Elt F) → (⟨S64x1, .f32⟩ : BufTy).Contents (Elt F)),
    StableHlo.unary main_v75 main_v76 (broadcastInDim S64x128 ![0, 1] bcast_S64x1_S64x128_0_1 : (⟨S64x1, .f32⟩ : BufTy).Contents (Elt F) → (⟨S64x128, .f32⟩ : BufTy).Contents (Elt F)),
    StableHlo.binary main_v68 main_v76 main_v77 (Host.divf : (⟨S64x128, .f32⟩ : BufTy).Contents (Elt F) → (⟨S64x128, .f32⟩ : BufTy).Contents (Elt F) → (⟨S64x128, .f32⟩ : BufTy).Contents (Elt F)) ]

/-- The run is the five stretches one after the other. -/
theorem ops_split : (RefRun.ops (F := F)) = opsP ++ (opsA ++ (opsB ++ (opsC ++ opsD))) := rfl

end Stretches

/-! ## The later arrays as functions of the arrays they read -/

section Arrays

open Cert.ReferenceIdeal Cert.ReferenceIdeal.Gen Idealize.ShloMosaic Idealize.ShloMosaic.ValueIdx

/-- The edge weights from the reciprocal square root of the degree and the two index arrays. -/
def normG (dinv : FVec Ideal S100000 .f32) (s d : IVec S1700000 32) : FVec Ideal S1700000 .f32 :=
  mulf (Host.gather gather_S100000_S1700000x1_S1700000_n_0_n_n_0_1_1 dinv (col (wrapA s)))
    (Host.gather gather_S100000_S1700000x1_S1700000_n_0_n_n_0_1_1 dinv (col (wrapA d)))

/-- The rectified node rows from the linear map's rows, the two index arrays, the edge weights and the bias. -/
def xrG (h : FVec Ideal S100000x128 .f32) (s d : IVec S1700000 32) (nrm : FVec Ideal S1700000 .f32)
    (b : FVec Ideal S128 .f32) : FVec Ideal S100000x128 .f32 :=
  maximumf
    (addf (Host.scatterAdd scatter_S100000x128_S1700000x1_S1700000x128_1_0_0_1
        (broadcastInDim S100000x128 ![] bcast_S_S100000x128 (constant S_ .f32 0x00000000#32)) (col d)
        (mulf (Host.gather gather_S100000x128_S1700000x1_S1700000x128_1_0_n_n_0_1_1128 h (col (wrapA s)))
          (broadcastInDim S1700000x128 ![0, 1] bcast_S1700000x1_S1700000x128_0_1 (col nrm))))
      (broadcastInDim S100000x128 ![0, 1] bcast_S1x128_S100000x128_0_1 (broadcastInDim S1x128 ![1] bcast_S128_S1x128_1 b)))
    (broadcastInDim S100000x128 ![] bcast_S_S100000x128 (constant S_ .f32 0x00000000#32))

/-- The result from the rectified node rows and the graph numbers. -/
def gG (xr : FVec Ideal S100000x128 .f32) (a2 : IVec S100000 32) : FVec Ideal S64x128 .f32 :=
  Host.divf
    (Host.scatterAdd scatter_S64x128_S100000x1_S100000x128_1_0_0_1
      (broadcastInDim S64x128 ![] bcast_S_S64x128 (constant S_ .f32 0x00000000#32)) (batC a2) xr)
    (broadcastInDim S64x128 ![0, 1] bcast_S64x1_S64x128_0_1
      (broadcastInDim S64x1 ![0] bcast_S64_S64x1_0
        (maximumf (cntA a2) (broadcastInDim S64 ![] bcast_S_S64 (constant S_ .f32 0x3F800000#32)))))

theorem normA_eq (a1 : IVec S2x1600000 32) : normA a1 = normG (dinvA a1) (srcF a1) (dstF a1) := rfl

theorem xrA_eq (h : FVec Ideal S100000x128 .f32) (a1 : IVec S2x1600000 32) (b : FVec Ideal S128 .f32) :
    xrA h a1 b = xrG h (srcF a1) (dstF a1) (normA a1) b := rfl

theorem gA_eq (h : FVec Ideal S100000x128 .f32) (a1 : IVec S2x1600000 32) (a2 : IVec S100000 32) (b : FVec Ideal S128 .f32) :
    gA h a1 a2 b = gG (xrA h a1 b) a2 := rfl

end Arrays

/-! ## Each stretch read on its own -/

section Reads

open Cert.ReferenceIdeal Idealize.ShloMosaic Idealize.ShloMosaic.StableHlo

variable (V : Valuation τ sig (Elt Ideal))

/-- Two stretches run one after the other. -/
theorem after_append (l₁ l₂ : List (HloOp τ sig (Elt Ideal))) (W : Valuation τ sig (Elt Ideal)) :
    after (l₁ ++ l₂) W = after l₂ (after l₁ W) := by
  induction l₁ generalizing W with
  | nil => rfl
  | cons op l ih => simp only [List.cons_append, after_cons, ih]

/-- The rectifier's buffers hold arrays of the type their values have: reading or writing one through its typed reference
    changes nothing. -/
private theorem toBuf_v65 (p1 : main_v65.ty = (⟨S100000x128, .f32⟩ : BufTy)) (p2 : main_v65.space ≠ .host)
    (p3 : main_v65.isScoped = false) (v : (⟨S100000x128, .f32⟩ : BufTy).Contents (Elt Ideal)) :
    (TRef.of main_v65 p1 p2 p3).toBuf v = v := rfl
private theorem ofBuf_v64 (p1 : main_v64.ty = (⟨S100000x128, .f32⟩ : BufTy)) (p2 : main_v64.space ≠ .host)
    (p3 : main_v64.isScoped = false) (v : (⟨S100000x128, .f32⟩ : BufTy).Contents (Elt Ideal)) :
    (TRef.of main_v64 p1 p2 p3).ofBuf v = v := rfl
private theorem ofBuf_toBuf {T : BufTy} (x : TRef sig T) (v : T.Contents (Elt Ideal)) : x.ofBuf (x.toBuf v) = v := by
  unfold TRef.ofBuf TRef.toBuf
  simp only [cast_cast, cast_eq]

theorem P_arg1 : after (opsP (F := Ideal)) V (Proc.devRef .tc main_arg1) = V (Proc.devRef .tc main_arg1) := by
  unfold opsP; after_results_simp
theorem P_arg2 : after (opsP (F := Ideal)) V (Proc.devRef .tc main_arg2) = V (Proc.devRef .tc main_arg2) := by
  unfold opsP; after_results_simp
theorem P_arg7 : after (opsP (F := Ideal)) V (Proc.devRef .tc main_arg7) = V (Proc.devRef .tc main_arg7) := by
  unfold opsP; after_results_simp
theorem A_v25 : (after (opsA (F := Ideal)) V (Proc.devRef .tc main_v25) : S1700000.Idx → BitVec 32)
    = srcF (V (Proc.devRef .tc main_arg1)) := by
  unfold opsA; after_results_simp; rfl
theorem A_v26 : (after (opsA (F := Ideal)) V (Proc.devRef .tc main_v26) : S1700000.Idx → BitVec 32)
    = dstF (V (Proc.devRef .tc main_arg1)) := by
  unfold opsA; after_results_simp; rfl
theorem A_v33 : (after (opsA (F := Ideal)) V (Proc.devRef .tc main_v33) : S100000.Idx → EReal)
    = dinvA (V (Proc.devRef .tc main_arg1)) := by
  unfold opsA; after_results_simp; rfl
theorem A_v19 : after (opsA (F := Ideal)) V (Proc.devRef .tc main_v19) = V (Proc.devRef .tc main_v19) := by
  unfold opsA; after_results_simp
theorem A_arg2 : after (opsA (F := Ideal)) V (Proc.devRef .tc main_arg2) = V (Proc.devRef .tc main_arg2) := by
  unfold opsA; after_results_simp
theorem A_arg7 : after (opsA (F := Ideal)) V (Proc.devRef .tc main_arg7) = V (Proc.devRef .tc main_arg7) := by
  unfold opsA; after_results_simp
theorem B_v48 : (after (opsB (F := Ideal)) V (Proc.devRef .tc main_v48) : S1700000.Idx → EReal)
    = normG (V (Proc.devRef .tc main_v33)) (V (Proc.devRef .tc main_v25)) (V (Proc.devRef .tc main_v26)) := by
  unfold opsB; after_results_simp; rfl
theorem B_v19 : after (opsB (F := Ideal)) V (Proc.devRef .tc main_v19) = V (Proc.devRef .tc main_v19) := by
  unfold opsB; after_results_simp
theorem B_v25 : after (opsB (F := Ideal)) V (Proc.devRef .tc main_v25) = V (Proc.devRef .tc main_v25) := by
  unfold opsB; after_results_simp
theorem B_v26 : after (opsB (F := Ideal)) V (Proc.devRef .tc main_v26) = V (Proc.devRef .tc main_v26) := by
  unfold opsB; after_results_simp
theorem B_arg2 : after (opsB (F := Ideal)) V (Proc.devRef .tc main_arg2) = V (Proc.devRef .tc main_arg2) := by
  unfold opsB; after_results_simp
theorem B_arg7 : after (opsB (F := Ideal)) V (Proc.devRef .tc main_arg7) = V (Proc.devRef .tc main_arg7) := by
  unfold opsB; after_results_simp
theorem C_v65 : (after (opsC (F := Ideal)) V (Proc.devRef .tc main_v65) : S100000x128.Idx → EReal)
    = xrG (V (Proc.devRef .tc main_v19)) (V (Proc.devRef .tc main_v25)) (V (Proc.devRef .tc main_v26))
        (V (Proc.devRef .tc main_v48)) (V (Proc.devRef .tc main_arg7)) := by
  unfold opsC; after_results_simp
  rw [toBuf_v65, ofBuf_v64, ofBuf_toBuf, ofBuf_toBuf]
  rfl
theorem C_v19 : after (opsC (F := Ideal)) V (Proc.devRef .tc main_v19) = V (Proc.devRef .tc main_v19) := by
  unfold opsC; after_results_simp
theorem C_arg2 : after (opsC (F := Ideal)) V (Proc.devRef .tc main_arg2) = V (Proc.devRef .tc main_arg2) := by
  unfold opsC; after_results_simp
theorem D_v77 : (after (opsD (F := Ideal)) V (Proc.devRef .tc main_v77) : S64x128.Idx → EReal)
    = gG (V (Proc.devRef .tc main_v65)) (V (Proc.devRef .tc main_arg2)) := by
  unfold opsD; after_results_simp; rfl
theorem D_v19 : after (opsD (F := Ideal)) V (Proc.devRef .tc main_v19) = V (Proc.devRef .tc main_v19) := by
  unfold opsD; after_results_simp

end Reads

/-! ## The whole run -/

section Whole

open Cert.ReferenceIdeal Idealize.ShloMosaic Idealize.ShloMosaic.StableHlo

/-- After the run the result buffer holds the chain from the linear map on, of the linear map's buffer after the run and
    the launch contents of the edge array, the graph numbers and the bias. -/
theorem v77_eq (V₀ : Valuation τ sig (Elt Ideal)) :
    (after (RefRun.ops (F := Ideal)) V₀ (Proc.devRef .tc main_v77) : S64x128.Idx → EReal)
      = gA (after (RefRun.ops (F := Ideal)) V₀ (Proc.devRef .tc main_v19)) (V₀ (Proc.devRef .tc main_arg1))
          (V₀ (Proc.devRef .tc main_arg2)) (V₀ (Proc.devRef .tc main_arg7)) := by
  rw [ops_split, after_append, after_append, after_append, after_append]
  rw [D_v77, D_v19, C_v65, C_v19, C_arg2, B_v48, B_v19, B_v25, B_v26, B_arg2, B_arg7, A_v25, A_v26, A_v33, A_v19,
    A_arg2, A_arg7, P_arg1, P_arg2, P_arg7, ← normA_eq, ← xrA_eq, ← gA_eq]

end Whole

end Cert.ReferenceIdeal.RefValue

end
-- ==== Proof.RefValue.lean ====
/-
  What the reference program's result holds, entry by entry: the result buffer after the run is the chain of arrays
  from the linear map on, of what the run leaves in the linear map's buffer and of the launch contents of the edge
  array, the graph numbers and the bias; the linear map's buffer holds the specification's linear map; so the result,
  read at an entry, is the specification's pooled value.
-/
import proofs.«407895_j63728724738088_3_alg».proof.Proof.RefOps
import proofs.«407895_j63728724738088_3_alg».proof.Proof.RefValueA
import proofs.«407895_j63728724738088_3_alg».proof.Proof.RefValueB
import proofs.«407895_j63728724738088_3_alg».proof.Proof.RefValueC
import Idealize.ShloMosaic.Lib.StableHlo.Run

open scoped BigOperators

noncomputable section

namespace Cert.ReferenceIdeal.RefValue

open Cert.ReferenceIdeal Idealize.ShloMosaic Idealize.ShloMosaic.ValueIdx

/-- The result buffer after the run, entry by entry: the specification's pooled value of the launch contents. -/
theorem res_apply (V₀ : Valuation τ sig (Elt Ideal)) (g : Fin 64) (j : Fin 128) :
    (StableHlo.after (RefRun.ops (F := Ideal)) V₀ (Proc.devRef .tc main_v77) : S64x128.Idx → EReal) (ValueIdx.ix2 g j)
      = Cert.Spec.gR (Cert.Spec.Inp.ofArrays (V₀ (Proc.devRef .tc main_arg0)) (V₀ (Proc.devRef .tc main_arg1))
          (V₀ (Proc.devRef .tc main_arg2)) (V₀ (Proc.devRef .tc main_arg4)) (V₀ (Proc.devRef .tc main_arg5))
          (V₀ (Proc.devRef .tc main_arg6)) (V₀ (Proc.devRef .tc main_arg7))) g j := by
  rw [v77_eq]
  exact gA_apply _ _ _ _ _ _ _ _ (fun n j => hR_apply V₀ n j) g j

end Cert.ReferenceIdeal.RefValue

end
-- ==== Proof.LibRealSums.lean ====
import Idealize.ShloMosaic.PureOps.Ideal

/-! # Finite sums of extended reals that are real numbers

On the extended reals a product does not distribute over a sum, and a factor does not move across a sum, once an
infinity is among the terms; among real numbers both hold. `IsReal x` says the extended real `x` is a real number; it is
kept by sums, products, maxima, inverses and by the quotient `Ideal.div` by a non-zero divisor. Two laws follow:

* `div_eq_mul_div_one`: dividing by a non-zero `c` is multiplying by the reciprocal `1 / c` (no finiteness needed);
* `sum_div_mul_eq`: for real terms `a e k` and real weights `w k`, summing over a finite set `E` first, dividing by
  `c ≠ 0` and contracting with `w` is the same as contracting each `a e ·` with `w`, summing over `E`, and multiplying by the
  reciprocal `1 / c` — the average of linear images is the linear image of the average. -/

open scoped BigOperators

namespace Idealize.ShloMosaic.RealSums

open Idealize.ShloMosaic

/-- The extended real `x` is a real number. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

theorem IsReal.sum {ι : Type*} (s : Finset ι) (f : ι → EReal) (h : ∀ i ∈ s, IsReal (f i)) :
    IsReal (∑ i ∈ s, f i) :=
  Finset.sum_induction f IsReal (fun _ _ => IsReal.add) IsReal.zero h

/-- The inverse of ANY extended real is a real number: the infinities invert to zero. -/
theorem IsReal.inv (c : EReal) : IsReal c⁻¹ := by
  induction c using EReal.rec with
  | bot => exact ⟨0, EReal.inv_bot⟩
  | top => exact ⟨0, EReal.inv_top⟩
  | coe r => exact ⟨r⁻¹, (EReal.coe_inv r).symm⟩

theorem IsReal.div {x c : EReal} (hx : IsReal x) (hc : c ≠ 0) : IsReal (Ideal.div x c) := by
  rw [Ideal.div, if_neg hc]; exact hx.mul (IsReal.inv c)

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Dividing by a non-zero `c` is multiplying by its reciprocal. -/
theorem div_eq_mul_div_one (x : EReal) {c : EReal} (hc : c ≠ 0) : Ideal.div x c = x * Ideal.div 1 c := by
  rw [Ideal.div, if_neg hc, Ideal.div, if_neg hc, one_mul]

/-- THE AVERAGE OF LINEAR IMAGES: real terms summed over `E`, divided by `c ≠ 0`, contracted with real weights, against
    each term contracted first, then summed over `E`, then scaled by the reciprocal of `c`. -/
theorem sum_div_mul_eq {ι κ : Type*} [Fintype κ] (E : Finset ι) (a : ι → κ → EReal) (w : κ → EReal) (c : EReal)
    (ha : ∀ e k, IsReal (a e k)) (hw : ∀ k, IsReal (w k)) (hc : c ≠ 0) :
    ∑ k, Ideal.div (∑ e ∈ E, a e k) c * w k = (∑ e ∈ E, ∑ k, a e k * w k) * Ideal.div 1 c := by
  obtain ⟨r, hr⟩ := IsReal.inv c
  choose a' ha' using ha
  choose w' hw' using hw
  have hd : ∀ x, Ideal.div x c = x * (r : EReal) := fun x => by rw [Ideal.div, if_neg hc, hr]
  simp only [hd, ha', hw', one_mul, ← coe_sum, ← EReal.coe_mul]
  rw [EReal.coe_eq_coe_iff]
  simp only [Finset.sum_mul]
  rw [Finset.sum_comm]
  refine Finset.sum_congr rfl fun e _ => Finset.sum_congr rfl fun k _ => ?_
  ring

end Idealize.ShloMosaic.RealSums
-- ==== Proof.AlgBN.lean ====
import proofs.«407895_j63728724738088_3_alg».proof.Proof.Spec
import proofs.«407895_j63728724738088_3_alg».proof.Proof.LibRealSums
import Mathlib.Algebra.BigOperators.Ring.Finset
import Mathlib.Algebra.Order.BigOperators.Group.Finset
import Mathlib.Analysis.Real.Sqrt
import Mathlib.Data.EReal.Operations
import Mathlib.Tactic.Ring
import Mathlib.Tactic.Linarith
import Mathlib.Tactic.Positivity
import Mathlib.Tactic.NormNum

open scoped BigOperators

noncomputable section

namespace Cert.Spec

open Idealize.ShloMosaic Idealize.ShloMosaic.RealSums

/-- The word 0x3727C5AC has sign 0, exponent field 110 and fraction field 2606508, so it denotes
    (2^23 + 2606508) · 2^(110 − 127 − 23) = 10995116 · 2^(−40). -/
theorem eps_eq : eps = (((10995116 : ℝ) * (2 : ℝ) ^ (-40 : ℤ) : ℝ) : EReal) := by
  simp [eps, Ideal.ofBits, Ideal.ieee, -EReal.coe_mul]

/-- The stabiliser is a positive real number. -/
theorem eps_pos : ∃ r : ℝ, eps = (r : EReal) ∧ 0 < r :=
  ⟨_, eps_eq, by positivity⟩

/-- The reciprocal square root of a positive real is a positive real. -/
theorem rsqrt_pos_real {x : ℝ} (hx : 0 < x) : ∃ r : ℝ, Ideal.rsqrt (x : EReal) = (r : EReal) ∧ 0 < r :=
  ⟨(Real.sqrt x)⁻¹, by rw [Ideal.rsqrt_coe, if_neg (not_lt.mpr hx.le), if_neg hx.ne'],
    inv_pos.mpr (Real.sqrt_pos.mpr hx)⟩

/-- The number of nodes, as an extended real, is the real number 100000. -/
private theorem N_coe : (100000 : EReal) = ((100000 : ℝ) : EReal) := by norm_cast

/-- Among reals, with m the mean: the mean of the squares less m² is the mean of the squared deviations. -/
private theorem real_var (r : Fin 100000 → ℝ) (m : ℝ) (hS : ∑ n, r n = 100000 * m) :
    (∑ n, r n * r n) * (1 / 100000) - m * m = (∑ n, (r n - m) * (r n - m)) * (1 / 100000) := by
  have h1 : ∀ n, (r n - m) * (r n - m) = r n * r n - 2 * m * r n + m * m := fun n => by ring
  have h2 : (∑ n : Fin 100000, (r n - m) * (r n - m))
      = (∑ n, r n * r n) - 2 * m * (∑ n, r n) + 100000 * (m * m) := by
    simp only [h1]
    rw [Finset.sum_add_distrib, Finset.sum_sub_distrib, ← Finset.mul_sum, Finset.sum_const, Finset.card_univ,
      Fintype.card_fin, nsmul_eq_mul]
    norm_num
  rw [h2, hS]; ring

/-- Over real entries the one-pass variance is the two-pass one. -/
theorem varK_eq_varR (I : Inp) (h : I.Real) (f : Fin 256) : varK I f = varR I f := by
  choose r hr using h.x
  have h0 : (100000 : ℝ) ≠ 0 := by norm_num
  unfold varK varR muK muR sqK sumK
  simp only [hr, N_coe, Ideal.div_coe h0, ← coe_sum, ← EReal.coe_mul, ← EReal.coe_sub]
  rw [EReal.coe_eq_coe_iff]
  exact real_var (fun n => r n f) _ (by ring)

/-- Over real entries the mean is a real number and the two-pass variance a non-negative one. -/
private theorem bn_real (I : Inp) (h : I.Real) (f : Fin 256) :
    ∃ m v : ℝ, muR I f = (m : EReal) ∧ varR I f = (v : EReal) ∧ 0 ≤ v := by
  choose r hr using h.x
  have h0 : (100000 : ℝ) ≠ 0 := by norm_num
  refine ⟨(∑ n, r n f) * (1 / 100000),
    (∑ n, (r n f - (∑ n, r n f) * (1 / 100000)) * (r n f - (∑ n, r n f) * (1 / 100000))) * (1 / 100000),
    ?_, ?_, ?_⟩
  · unfold muR
    simp only [hr, N_coe, Ideal.div_coe h0, ← coe_sum, ← EReal.coe_mul]
  · unfold varR muR
    simp only [hr, N_coe, Ideal.div_coe h0, ← coe_sum, ← EReal.coe_mul, ← EReal.coe_sub]
  · exact mul_nonneg (Finset.sum_nonneg fun n _ => mul_self_nonneg _) (by norm_num)

/-- The reciprocal square root of variance plus stabiliser is a positive real number. -/
theorem rstd_real (I : Inp) (h : I.Real) (f : Fin 256) :
    ∃ ρ : ℝ, Ideal.rsqrt (varR I f + eps) = (ρ : EReal) ∧ 0 < ρ := by
  obtain ⟨m, v, -, hv, hv0⟩ := bn_real I h f
  obtain ⟨e, he, he0⟩ := eps_pos
  rw [hv, he, ← EReal.coe_add]
  exact rsqrt_pos_real (by linarith)

/-- Over real entries the folded scale and shift give the normalised entry. -/
theorem xn_eq (I : Inp) (h : I.Real) (n : Fin 100000) (f : Fin 256) :
    I.x n f * scaleK I f + shiftK I f = xnR I n f := by
  obtain ⟨m, v, hm, -, -⟩ := bn_real I h f
  obtain ⟨ρ, hρ, -⟩ := rstd_real I h f
  obtain ⟨a, ha⟩ := h.x n f
  obtain ⟨g, hg⟩ := h.gam f
  obtain ⟨b, hb⟩ := h.bet f
  have hmu : muK I f = muR I f := rfl
  unfold shiftK scaleK xnR
  rw [varK_eq_varR I h f, hmu, hm, hρ, ha, hg, hb]
  simp only [← EReal.coe_mul, ← EReal.coe_add, ← EReal.coe_sub]
  rw [EReal.coe_eq_coe_iff]; ring

/-- The normalised entry is a real number. -/
theorem xnR_real (I : Inp) (h : I.Real) (n : Fin 100000) (f : Fin 256) : IsReal (xnR I n f) := by
  obtain ⟨m, v, hm, -, -⟩ := bn_real I h f
  obtain ⟨ρ, hρ, -⟩ := rstd_real I h f
  obtain ⟨a, ha⟩ := h.x n f
  obtain ⟨g, hg⟩ := h.gam f
  obtain ⟨b, hb⟩ := h.bet f
  refine ⟨(a - m) * ρ * g + b, ?_⟩
  unfold xnR
  rw [hm, hρ, ha, hg, hb]
  simp only [EReal.coe_mul, EReal.coe_add, EReal.coe_sub]

end Cert.Spec

end
-- ==== Proof.AlgGraph.lean ====
import proofs.«407895_j63728724738088_3_alg».proof.Proof.Spec
import proofs.«407895_j63728724738088_3_alg».proof.Proof.LibRealSums
import proofs.«407895_j63728724738088_3_alg».proof.Proof.AlgBN

open scoped BigOperators

noncomputable section

namespace Cert.Spec

open Idealize.ShloMosaic Idealize.ShloMosaic.RealSums

/-- A finite count is a real number. -/
private theorem count_real {ι : Type*} (s : Finset ι) : IsReal (∑ _e ∈ s, (1 : EReal)) :=
  IsReal.sum s _ fun _ _ => ⟨1, EReal.coe_one.symm⟩

/-- Exactly one node equals `n`: a sum over the nodes equal to `n` is its term at `n`. -/
private theorem sum_filter_eq_self (n : Fin 100000) (f : Fin 100000 → EReal) :
    ∑ k ∈ Finset.univ.filter (fun k : Fin 100000 => k = n), f k = f n := by
  rw [Finset.filter_eq', if_pos (Finset.mem_univ n), Finset.sum_singleton]

/-- A node's own number, read as a gather index, names that node: it is not negative and lies inside the axis. -/
private theorem gat_natCast (n : Fin 100000) : gat ((n.val : ℕ) : ℤ) = n := by
  apply Fin.ext
  have hn := n.isLt
  show min (if ((n.val : ℕ) : ℤ) < 0 then ((n.val : ℕ) : ℤ) + 100000 else ((n.val : ℕ) : ℤ)).toNat 99999 = n.val
  rw [if_neg (by omega), Int.toNat_natCast]
  omega

variable (I : Inp)

/-- Counting the self-loop as one more edge or adding one to the count is the same degree. -/
private theorem degK_eq_degR (n : Fin 100000) : degK I n = degR I n := by
  unfold degK degR
  rw [sum_filter_eq_self]

private theorem degR_real (n : Fin 100000) : IsReal (degR I n) := by
  unfold degR
  exact (count_real _).add (count_real _)

/-- The degree, raised to at least one, is a real number `≥ 1`; its reciprocal square root is a positive real. -/
private theorem dinvR_pos (n : Fin 100000) : ∃ r : ℝ, dinvR I n = (r : EReal) ∧ 0 < r := by
  obtain ⟨a, ha⟩ := degR_real I n
  have hm : max (degR I n) 1 = ((max a 1 : ℝ) : EReal) := by
    rw [ha, ← EReal.coe_one]
    exact (EReal.coe_strictMono.monotone.map_max).symm
  unfold dinvR
  rw [hm]
  exact rsqrt_pos_real (lt_of_lt_of_le zero_lt_one (le_max_right a 1))

private theorem dinvR_real (n : Fin 100000) : IsReal (dinvR I n) :=
  let ⟨r, hr, _⟩ := dinvR_pos I n; ⟨r, hr⟩

private theorem dinvK_eq_dinvR (n : Fin 100000) : dinvK I n = dinvR I n := by
  unfold dinvK dinvR
  rw [degK_eq_degR]

private theorem hR_real (h : I.Real) (n : Fin 100000) (j : Fin 128) : IsReal (hR I n j) := by
  unfold hR
  exact IsReal.sum _ _ fun k _ => (xnR_real I h n k).mul (h.W k j)

/-- The pre-scaled row is the linear image of the normalised row times `d⁻¹ᐟ²`. -/
private theorem hsK_eq (h : I.Real) (n : Fin 100000) (j : Fin 128) : hsK I n j = hR I n j * dinvR I n := by
  unfold hsK hR
  rw [dinvK_eq_dinvR]
  exact congrArg (fun t => t * dinvR I n) (Finset.sum_congr rfl fun k _ => by rw [xn_eq I h])

/-- With no negative target the wrapped target is the target: the gathered rows are those of the edges into `n`. -/
private theorem aggK_eq (h : I.Real) (hdst : ∀ e, 0 ≤ I.dst e) (n : Fin 100000) (j : Fin 128) :
    aggK I n j = hR I n j * dinvR I n
      + ∑ e ∈ Finset.univ.filter (fun e : Fin 1600000 => I.dst e = (n.val : ℤ)),
          hR I (gat (I.src e)) j * dinvR I (gat (I.src e)) := by
  unfold aggK
  have hf : Finset.univ.filter (fun e : Fin 1600000 =>
        (if I.dst e < 0 then I.dst e + 100000 else I.dst e) = (n.val : ℤ))
      = Finset.univ.filter (fun e : Fin 1600000 => I.dst e = (n.val : ℤ)) :=
    Finset.filter_congr fun e _ => by rw [if_neg (not_lt.mpr (hdst e))]
  rw [hf, hsK_eq I h]
  exact congrArg (fun t => hR I n j * dinvR I n + t) (Finset.sum_congr rfl fun e _ => hsK_eq I h _ j)

/-- An edge into `n` has its target's factor `d⁻¹ᐟ²` at `n`; the self-loop sum has one term. -/
private theorem aggR_eq (n : Fin 100000) (j : Fin 128) :
    aggR I n j = ((∑ e ∈ Finset.univ.filter (fun e : Fin 1600000 => I.dst e = (n.val : ℤ)),
          hR I (gat (I.src e)) j * (dinvR I (gat (I.src e)) * dinvR I n))
        + hR I n j * (dinvR I n * dinvR I n)) + I.b j := by
  unfold aggR
  rw [sum_filter_eq_self]
  have hs : ∑ e ∈ Finset.univ.filter (fun e : Fin 1600000 => I.dst e = (n.val : ℤ)),
        hR I (gat (I.src e)) j * (dinvR I (gat (I.src e)) * dinvR I (gat (I.dst e)))
      = ∑ e ∈ Finset.univ.filter (fun e : Fin 1600000 => I.dst e = (n.val : ℤ)),
        hR I (gat (I.src e)) j * (dinvR I (gat (I.src e)) * dinvR I n) :=
    Finset.sum_congr rfl fun e he => by rw [(Finset.mem_filter.mp he).2, gat_natCast]
  rw [hs]

/-- The factor `d⁻¹ᐟ²` of the target, a real number, distributes over the finite sum of real messages. -/
private theorem agg_eq (h : I.Real) (hdst : ∀ e, 0 ≤ I.dst e) (n : Fin 100000) (j : Fin 128) :
    dinvK I n * aggK I n j + I.b j = aggR I n j := by
  rw [aggK_eq I h hdst, aggR_eq, dinvK_eq_dinvR]
  refine congrArg (fun t => t + I.b j) ?_
  have hd : ∀ m, IsReal (dinvR I m) := dinvR_real I
  have hh : ∀ m, IsReal (hR I m j) := fun m => hR_real I h m j
  choose d' hd' using hd
  choose H' hH' using hh
  simp only [hd', hH', ← EReal.coe_mul, ← coe_sum, ← EReal.coe_add]
  rw [EReal.coe_eq_coe_iff, mul_add, Finset.mul_sum]
  exact (add_comm _ _).trans
    (congrArg₂ (fun s t => s + t) (Finset.sum_congr rfl fun e _ => by ring) (by ring))

private theorem xrK_eq_xrR (h : I.Real) (hdst : ∀ e, 0 ≤ I.dst e) (n : Fin 100000) (j : Fin 128) :
    xrK I n j = xrR I n j := by
  unfold xrK xrR
  rw [agg_eq I h hdst]

private theorem xrR_real (h : I.Real) (n : Fin 100000) (j : Fin 128) : IsReal (xrR I n j) := by
  unfold xrR
  refine IsReal.max ?_ IsReal.zero
  rw [aggR_eq]
  refine ((IsReal.sum _ _ fun e _ => ?_).add ?_).add (h.b j)
  · exact (hR_real I h _ j).mul ((dinvR_real I _).mul (dinvR_real I _))
  · exact (hR_real I h _ j).mul ((dinvR_real I _).mul (dinvR_real I _))

/-- With real entries and no negative edge target, the two chains of formulas give one pooled result. -/
theorem gK_eq_gR (I : Inp) (h : I.Real) (hdst : ∀ e, 0 ≤ I.dst e) (g : Fin 64) (j : Fin 128) :
    gK I g j = gR I g j := by
  unfold gK gR
  have h01 : (0 : EReal) < 1 := by exact_mod_cast (zero_lt_one : (0 : ℝ) < 1)
  have hc : max (cntR I g) 1 ≠ 0 := ne_of_gt (lt_of_lt_of_le h01 (le_max_right _ _))
  rw [div_eq_mul_div_one _ hc]
  have h2 : ∑ n : Fin 100000, oh I g n * (xrK I n j - xrK I n j) = 0 := by
    refine Finset.sum_eq_zero fun n _ => ?_
    obtain ⟨r, hr⟩ := xrR_real I h n j
    rw [xrK_eq_xrR I h hdst, hr, ← EReal.coe_sub, sub_self, EReal.coe_zero, mul_zero]
  have h1 : ∑ n : Fin 100000, oh I g n * xrK I n j
      = ∑ n ∈ Finset.univ.filter (fun n : Fin 100000 => I.bat n = (g.val : ℤ)), xrR I n j := by
    rw [Finset.sum_filter]
    refine Finset.sum_congr rfl fun n _ => ?_
    unfold oh
    rw [xrK_eq_xrR I h hdst, ite_mul, one_mul, zero_mul]
  rw [h1, h2, add_zero]
  rfl

end Cert.Spec

end
-- ==== Proof.Pre.lean ====
import proofs.«407895_j63728724738088_3_alg».proof.Pre_finite_inputs
import proofs.«407895_j63728724738088_3_alg».proof.Proof.Gen.Pre_finite_inputs
import proofs.«407895_j63728724738088_3_alg».proof.Proof.Spec
import proofs.«407895_j63728724738088_3_alg».proof.Proof.Consts
import Idealize.ShloMosaic.Lib.ReduceAll
import Idealize.ShloMosaic.Lib.StableHlo.Predicate
import Idealize.ShloMosaic.Lib.Pipeline.Value

open scoped BigOperators

noncomputable section

namespace Cert.PreFacts

open Idealize.ShloMosaic Idealize.ShloMosaic.ValueIdx Cert.Pre_finite_inputs

/-- The scalar shape has one index. -/
instance : Subsingleton S_.Idx := ⟨fun a b => funext fun d => d.elim0⟩

/-- An extended real whose absolute value max x (-x) lies strictly below the positive infinity is a real number:
    the infinities are the two values whose absolute value is the positive infinity. -/
private theorem real_of_abs_lt (x : EReal)
    (h : FloatOps.cmpf (F := Ideal) (φ := .f32) .olt (FloatOps.hostAbsf (F := Ideal) (φ := .f32) x)
        (FloatOps.ofBits (F := Ideal) .f32 0x7F800000#32) = 1#1) :
    ∃ r : ℝ, x = (r : EReal) := by
  have h' : BitVec.ofBool (decide (max x (-x) < Ideal.ofBits .f32 0x7F800000#32)) = 1#1 := h
  rw [Cert.Consts.ofBits_inf, StableHlo.Predicate.ofBool_eq_one_iff, decide_eq_true_eq] at h'
  induction x using EReal.rec with
  | bot => exact absurd h' (by simp)
  | coe r => exact ⟨r, rfl⟩
  | top => exact absurd h' (by simp)

/-- A signed comparison "w ≥ 0" that holds says the word read as a signed integer is not negative. -/
private theorem toInt_nonneg_of_sge (w : BitVec 32) (h : IntOp.cmpi .sge w 0#32 = 1#1) : 0 ≤ w.toInt := by
  have h' : BitVec.ofBool ((0#32 : BitVec 32).sle w) = 1#1 := h
  rw [StableHlo.Predicate.ofBool_eq_one_iff] at h'
  have h0 : (0#32 : BitVec 32).toInt = 0 := by decide
  simpa [BitVec.sle, h0] using h'

/-- Row 1 of the 2 × 1600000 array, flattened, read at e is the array at (1, e): the slice shifts the row coordinate by
    its offset 1, and the reshape of a 1 × 1600000 array keeps the row-major position e. -/
private theorem row1_apply (a1 : IVec S2x1600000 32) (hs : S2x1600000.Slices ![1, 0] S1x1600000)
    (hc : S1x1600000.ShapeCasts S1600000) (e : Fin 1600000) :
    shapeCast S1600000 (extractStridedSlice S1x1600000 ![1, 0] a1 hs) hc (ix1 e) = a1 (ix2 (1 : Fin 2) e) := by
  refine (shapeCast_apply _ hc (ix1 e) (ix2 (0 : Fin 1) e) ?_).trans ?_
  · rw [Shape.rowMajor_val_two, Shape.rowMajor_val_one]
    show (0 : ℕ) * 1600000 + e.val = e.val
    omega
  · refine extractStridedSlice_apply _ a1 hs (ix2 (0 : Fin 1) e) (ix2 (1 : Fin 2) e) fun a => ?_
    match a with
    | ⟨0, _⟩ => rfl
    | ⟨1, _⟩ => exact (Nat.zero_add _).symm

/-- What the precondition says of the arguments: every float entry the programs read is a real number, and no edge
    target is negative. -/
theorem of_pre [Cert.Pre_finite_inputs.Facts] (a0 : FVec Ideal S100000x256 .f32) (a1 : IVec S2x1600000 32) (a2 : IVec S100000 32)
    (a3 : FVec Ideal S1600000 .f32) (a4 a5 : FVec Ideal S256 .f32) (a6 : FVec Ideal S256x128 .f32) (a7 : FVec Ideal S128 .f32)
    (h : Cert.Pre_finite_inputs.fn (F := Ideal) a0 a1 a2 a3 a4 a5 a6 a7 = fun _ => 1#1) :
    (Cert.Spec.Inp.ofArrays a0 a1 a2 a4 a5 a6 a7).Real ∧ ∀ e, 0 ≤ (Cert.Spec.Inp.ofArrays a0 a1 a2 a4 a5 a6 a7).dst e := by
  have h0 := congrFun h ix0
  dsimp only [Cert.Pre_finite_inputs.fn, fn_part1, fn_part2] at h0
  -- the seven conjuncts, outermost first
  obtain ⟨h28, h33⟩ := IntOp.andi_eq_one.1 h0
  obtain ⟨h23, h27⟩ := IntOp.andi_eq_one.1 h28
  obtain ⟨h18, h22⟩ := IntOp.andi_eq_one.1 h23
  obtain ⟨h13, h17⟩ := IntOp.andi_eq_one.1 h18
  obtain ⟨h8, h12⟩ := IntOp.andi_eq_one.1 h13
  obtain ⟨h3, _⟩ := IntOp.andi_eq_one.1 h8
  refine ⟨⟨fun n f => ?_, fun f => ?_, fun f => ?_, fun k j => ?_, fun j => ?_⟩, fun e => ?_⟩
  · exact real_of_abs_lt _ (Host.reduce_andi_all _ _ _ _ ix0 h3 (ix2 n f))
  · exact real_of_abs_lt _ (Host.reduce_andi_all _ _ _ _ ix0 h12 (ix1 f))
  · exact real_of_abs_lt _ (Host.reduce_andi_all _ _ _ _ ix0 h17 (ix1 f))
  · exact real_of_abs_lt _ (Host.reduce_andi_all _ _ _ _ ix0 h22 (ix2 k j))
  · exact real_of_abs_lt _ (Host.reduce_andi_all _ _ _ _ ix0 h27 (ix1 j))
  · have hc := Host.reduce_andi_all _ _ _ _ ix0 h33 (ix1 e)
    have hw := toInt_nonneg_of_sge _ hc
    rw [row1_apply] at hw
    exact hw

end Cert.PreFacts

end
-- ==== Proof.lean ====
/-
  The certificate's five claims, assembled.

  The kernel is three TensorCore calls — column sums and sums of squares of the node features; the normalised features
  times the weights, each row pre-scaled by its node's `d⁻¹ᐟ²`; and, after the host has added the rows gathered along the
  edges onto the pre-scaled rows, the rescaling by `d⁻¹ᐟ²`, bias, rectification and the mean over each graph's nodes —
  with host operations between them. The reference is the same encoder written as host operations only: two-pass variance,
  self-loops as extra edges, one normalising product per edge.

  * The three frames: the kernel programs' from the run of their three regions and two host stretches, read at the
    arguments (no stretch writes one, no region may change one); the reference's from its run with the result dropped.
  * `preserves`: the one rewrite of the ideal pass, a widening of a narrowing taken as the identity.
  * `algebraic`: both programs end with the pooled means as ONE function of the arguments: the kernel's result read off
    its run entry by entry is the specification's folded chain, the reference's its plain chain, and the two chains agree
    where every float entry is a real number and no edge target is negative — which is what the precondition says.
-/
import proofs.«407895_j63728724738088_3_alg».proof.Defs
import proofs.«407895_j63728724738088_3_alg».proof.Proof.Gen.Kernel
import proofs.«407895_j63728724738088_3_alg».proof.Proof.Gen.KernelIdeal
import proofs.«407895_j63728724738088_3_alg».proof.Proof.Gen.ReferenceIdeal
import proofs.«407895_j63728724738088_3_alg».proof.Proof.Gen.Pre_finite_inputs
import proofs.«407895_j63728724738088_3_alg».proof.Proof.K.Run
import proofs.«407895_j63728724738088_3_alg».proof.Proof.KI.Run
import proofs.«407895_j63728724738088_3_alg».proof.Proof.KI.Value
import proofs.«407895_j63728724738088_3_alg».proof.Proof.RefRun
import proofs.«407895_j63728724738088_3_alg».proof.Proof.RefValue
import proofs.«407895_j63728724738088_3_alg».proof.Proof.AlgGraph
import proofs.«407895_j63728724738088_3_alg».proof.Proof.Pre
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.RefRun.run (F := Ideal) m ρ)

/-- The ideal pass's one rewrite: at the ideal values narrowing then widening a vector is the identity. -/
theorem preserves : Cert.preserves_Kernel_KernelIdeal :=
  IdealRules.truncf_extf.statement _ .f32 .bf16

theorem algebraic : Cert.algebraic_KernelIdeal_ReferenceIdeal := by
  intro m ρ m' ρ' hpre hagree
  refine ⟨fun c => Cert.KernelIdeal.Hand.W5 (F := Ideal) m c (Proc.devRef .tc Cert.KernelIdeal.main_v57),
    fun c => Cert.KernelIdeal.Hand.W5 (F := Ideal) m c (Proc.devRef .tc Cert.KernelIdeal.main_v57), ?_, ?_⟩
  · exact (θ_run Cert.KernelIdeal.defs _ _).mono (fun _ h c => ⟨(h c).1, (h c).1, (h c).2⟩)
      (Cert.KernelIdeal.Hand.run_result (F := Ideal) m ρ)
  · refine (θ_run Cert.ReferenceIdeal.defs _ _).mono (fun _ h c => ?_)
      (Cert.ReferenceIdeal.RefRun.run (F := Ideal) m' ρ')
    obtain ⟨hreal, hdst⟩ := Cert.PreFacts.of_pre _ _ _ _ _ _ _ _ (hpre c)
    have hv : (StableHlo.after (Cert.ReferenceIdeal.RefRun.ops (F := Ideal)) (fun b => m' ((c : Dev Cert.ReferenceIdeal.nD), b))
          (Proc.devRef .tc Cert.ReferenceIdeal.main_v77) : Cert.ReferenceIdeal.S64x128.Idx → EReal)
        = Cert.KernelIdeal.Hand.W5 (F := Ideal) m c (Proc.devRef .tc Cert.KernelIdeal.main_v57) := by
      funext i
      obtain ⟨g, j, rfl⟩ : ∃ (g : Fin 64) (j : Fin 128), i = ix2 g j := ⟨i 0, i 1, eq_ix2 i⟩
      rw [Cert.ReferenceIdeal.RefValue.res_apply]
      refine Eq.trans ?_ (Cert.KernelIdeal.Hand.result_apply m c g j).symm
      have hI : Cert.Spec.Inp.ofArrays (m' ((c.tc : Thread _ _).loc Cert.ReferenceIdeal.main_arg0)) (m' ((c.tc : Thread _ _).loc Cert.ReferenceIdeal.main_arg1))
            (m' ((c.tc : Thread _ _).loc Cert.ReferenceIdeal.main_arg2)) (m' ((c.tc : Thread _ _).loc Cert.ReferenceIdeal.main_arg4))
            (m' ((c.tc : Thread _ _).loc Cert.ReferenceIdeal.main_arg5)) (m' ((c.tc : Thread _ _).loc Cert.ReferenceIdeal.main_arg6))
            (m' ((c.tc : Thread _ _).loc Cert.ReferenceIdeal.main_arg7)) = Cert.KernelIdeal.Hand.inp m c := by
        obtain ⟨h0, h1, h2, -, h4, h5, h6, h7⟩ := hagree c
        unfold Cert.KernelIdeal.Hand.inp
        rw [h0, h1, h2, h4, h5, h6, h7]
      exact (congrArg (fun I => Cert.Spec.gR I g j) hI).trans (Cert.Spec.gK_eq_gR _ hreal hdst g j).symm
    exact ⟨(h c).1.trans hv, (h c).1.trans hv, (h c).2⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
